-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33))

def preserves_Kernel_KernelIdeal : Prop :=
  IdealRules.truncf_extf.Statement Cert.KernelIdeal.S10000x128 .f32 .bf16
  ∧ IdealRules.truncf_extf.Statement Cert.KernelIdeal.S10000x128 .f32 .bf16
  ∧ IdealRules.truncf_extf.Statement Cert.KernelIdeal.S128x128 .f32 .bf16
  ∧ IdealRules.truncf_extf.Statement Cert.KernelIdeal.S10000x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000 : Shape := ⟨1, ![100000]⟩
abbrev S128x128 : Shape := ⟨2, ![128, 128]⟩
abbrev S128 : Shape := ⟨1, ![128]⟩
abbrev S256x128 : Shape := ⟨2, ![256, 128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_
  bcast_S_S100000 : S_.BroadcastsInDim S100000 (![] : Fin 0 → Fin S100000.rank)
  reducesTo_S100000_S_d0 : S100000.ReducesTo [0] S_

variable [Facts]

def fn_part9 {F : FTy → Type} [FloatOps F] (main_arg2 : IVec S100000 32) (main_arg33 : FVec F S2 .f32) (main_v153 : IVec S_ 1) : IVec S_ 1 :=
  let main_v154 : FVec F S2 .f32 := Host.absf main_arg33
  let main_cst_60 : FVec F S_ .f32 := constant S_ .f32 0x7F800000#32
  let main_v155 : FVec F S2 .f32 := broadcastInDim S2 ![] bcast_S_S2 main_cst_60
  let main_v156 : IVec S2 1 := cmpf .olt main_v154 main_v155
  let main_c_61 : IVec S_ 1 := constantI S_ 1 1#1
  let main_v157 : IVec S_ 1 := (fun x v => Host.reduce IntOp.andi x v reducesTo_S2_S_d0 h_S_) main_v156 main_c_61
  let main_v158 : IVec S_ 1 := andi main_v153 main_v157
  let main_c_62 : IVec S_ 32 := constantI S_ 32 0#32
  let main_v159 : IVec S100000 32 := broadcastInDim S100000 ![] bcast_S_S100000 main_c_62
  let main_v160 : IVec S100000 1 := cmpi .sge main_arg2 main_v159
  let main_c_63 : IVec S_ 1 := constantI S_ 1 1#1
  let main_v161 : IVec S_ 1 := (fun x v => Host.reduce IntOp.andi x v reducesTo_S100000_S_d0 h_S_) main_v160 main_c_63
  let main_v162 : IVec S_ 1 := andi main_v158 main_v161
  let main_c_64 : IVec S_ 32 := constantI S_ 32 128#32
  let main_v163 : IVec S100000 32 := broadcastInDim S100000 ![] bcast_S_S100000 main_c_64
  let main_v164 : IVec S100000 1 := cmpi .slt main_arg2 main_v163
  let main_c_65 : IVec S_ 1 := constantI S_ 1 1#1
  let main_v165 : IVec S_ 1 := (fun x v => Host.reduce IntOp.andi x v reducesTo_S100000_S_d0 h_S_) main_v164 main_c_65
  let main_v166 : IVec S_ 1 := andi main_v162 main_v165
  main_v166

def fn_part8 {F : FTy → Type} [FloatOps F] (main_arg2 : IVec S100000 32) (main_arg30 : FVec F S128x128 .f32) (main_arg31 : FVec F S128 .f32) (main_arg32 : FVec F S128x2 .f32) (main_arg33 : FVec F S2 .f32) (main_v133 : IVec S_ 1) (main_v136 : IVec S128 1) : IVec S_ 1 :=
  let main_c_53 : IVec S_ 1 := constantI S_ 1 1#1
  let main_v137 : IVec S_ 1 := (fun x v => Host.reduce IntOp.andi x v reducesTo_S128_S_d0 h_S_) main_v136 main_c_53
  let main_v138 : IVec S_ 1 := andi main_v133 main_v137
  let main_v139 : FVec F S128x128 .f32 := Host.absf main_arg30
  let main_cst_54 : FVec F S_ .f32 := constant S_ .f32 0x7F800000#32
  let main_v140 : FVec F S128x128 .f32 := broadcastInDim S128x128 ![] bcast_S_S128x128 main_cst_54
  let main_v141 : IVec S128x128 1 := cmpf .olt main_v139 main_v140
  let main_c_55 : IVec S_ 1 := constantI S_ 1 1#1
  let main_v142 : IVec S_ 1 := (fun x v => Host.reduce IntOp.andi x v reducesTo_S128x128_S_d0_1 h_S_) main_v141 main_c_55
  let main_v143 : IVec S_ 1 := andi main_v138 main_v142
  let main_v144 : FVec F S128 .f32 := Host.absf main_arg31
  let main_cst_56 : FVec F S_ .f32 := constant S_ .f32 0x7F800000#32
  let main_v145 : FVec F S128 .f32 := broadcastInDim S128 ![] bcast_S_S128 main_cst_56
  let main_v146 : IVec S128 1 := cmpf .olt main_v144 main_v145
  let main_c_57 : IVec S_ 1 := constantI S_ 1 1#1
  let main_v147 : IVec S_ 1 := (fun x v => Host.reduce IntOp.andi x v reducesTo_S128_S_d0 h_S_) main_v146 main_c_57
  let main_v148 : IVec S_ 1 := andi main_v143 main_v147
  let main_v149 : FVec F S128x2 .f32 := Host.absf main_arg32
  let main_cst_58 : FVec F S_ .f32 := constant S_ .f32 0x7F800000#32
  let main_v150 : FVec F S128x2 .f32 := broadcastInDim S128x2 ![] bcast_S_S128x2 main_cst_58
  let main_v151 : IVec S128x2 1 := cmpf .olt main_v149 main_v150
  let main_c_59 : IVec S_ 1 := constantI S_ 1 1#1
  let main_v152 : IVec S_ 1 := (fun x v => Host.reduce IntOp.andi x v reducesTo_S128x2_S_d0_1 h_S_) main_v151 main_c_59
  let main_v153 : IVec S_ 1 := andi main_v148 main_v152
  fn_part9 (F := F) main_arg2 main_arg33 main_v153

def fn_part7 {F : FTy → Type} [FloatOps F] (main_arg2 : IVec S100000 32) (main_arg27 : FVec F S128 .f32) (main_arg28 : FVec F S128x128 .f32) (main_arg29 : FVec F S128 .f32) (main_arg30 : FVec F S128x128 .f32) (main_arg31 : FVec F S128 .f32) (main_arg32 : FVec F S128x2 .f32) (main_arg33 : FVec F S2 .f32) (main_v118 : IVec S_ 1) (main_v119 : FVec F S128x128 .f32) : IVec S_ 1 :=
  let main_cst_46 : FVec F S_ .f32 := constant S_ .f32 0x7F800000#32
  let main_v120 : FVec F S128x128 .f32 := broadcastInDim S128x128 ![] bcast_S_S128x128 main_cst_46
  let main_v121 : IVec S128x128 1 := cmpf .olt main_v119 main_v120
  let main_c_47 : IVec S_ 1 := constantI S_ 1 1#1
  let main_v122 : IVec S_ 1 := (fun x v => Host.reduce IntOp.andi x v reducesTo_S128x128_S_d0_1 h_S_) main_v121 main_c_47
  let main_v123 : IVec S_ 1 := andi main_v118 main_v122
  let main_v124 : FVec F S128 .f32 := Host.absf main_arg27
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  let main_v129 : FVec F S128x128 .f32 := Host.absf main_arg28
  let main_cst_50 : FVec F S_ .f32 := constant S_ .f32 0x7F800000#32
  let main_v130 : FVec F S128x128 .f32 := broadcastInDim S128x128 ![] bcast_S_S128x128 main_cst_50
  let main_v131 : IVec S128x128 1 := cmpf .olt main_v129 main_v130
  let main_c_51 : IVec S_ 1 := constantI S_ 1 1#1
  let main_v132 : IVec S_ 1 := (fun x v => Host.reduce IntOp.andi x v reducesTo_S128x128_S_d0_1 h_S_) main_v131 main_c_51
  let main_v133 : IVec S_ 1 := andi main_v128 main_v132
  let main_v134 : FVec F S128 .f32 := Host.absf main_arg29
  let main_cst_52 : FVec F S_ .f32 := constant S_ .f32 0x7F800000#32
  let main_v135 : FVec F S128 .f32 := broadcastInDim S128 ![] bcast_S_S128 main_cst_52
  let main_v136 : IVec S128 1 := cmpf .olt main_v134 main_v135
  fn_part8 (F := F) main_arg2 main_arg30 main_arg31 main_arg32 main_arg33 main_v133 main_v136

def fn_part6 {F : FTy → Type} [FloatOps F] (main_arg2 : IVec S100000 32) (main_arg23 : FVec F S128 .f32) (main_arg24 : FVec F S128x128 .f32) (main_arg25 : FVec F S128 .f32) (main_arg26 : FVec F S128x128 .f32) (main_arg27 : FVec F S128 .f32) (main_arg28 : FVec F S128x128 .f32) (main_arg29 : FVec F S128 .f32) (main_arg30 : FVec F S128x128 .f32) (main_arg31 : FVec F S128 .f32) (main_arg32 : FVec F S128x2 .f32) (main_arg33 : FVec F S2 .f32) (main_v98 : IVec S_ 1) (main_v101 : IVec S128x128 1) (main_c_39 : IVec S_ 1) : IVec S_ 1 :=
  let main_v102 : IVec S_ 1 := (fun x v => Host.reduce IntOp.andi x v reducesTo_S128x128_S_d0_1 h_S_) main_v101 main_c_39
  let main_v103 : IVec S_ 1 := andi main_v98 main_v102
  let main_v104 : FVec F S128 .f32 := Host.absf main_arg23
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128x128 .f32 := Host.absf main_arg24
  let main_cst_42 : FVec F S_ .f32 := constant S_ .f32 0x7F800000#32
  let main_v110 : FVec F S128x128 .f32 := broadcastInDim S128x128 ![] bcast_S_S128x128 main_cst_42
  let main_v111 : IVec S128x128 1 := cmpf .olt main_v109 main_v110
  let main_c_43 : IVec S_ 1 := constantI S_ 1 1#1
  let main_v112 : IVec S_ 1 := (fun x v => Host.reduce IntOp.andi x v reducesTo_S128x128_S_d0_1 h_S_) main_v111 main_c_43
  let main_v113 : IVec S_ 1 := andi main_v108 main_v112
  let main_v114 : FVec F S128 .f32 := Host.absf main_arg25
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128x128 .f32 := Host.absf main_arg26
  fn_part7 (F := F) main_arg2 main_arg27 main_arg28 main_arg29 main_arg30 main_arg31 main_arg32 main_arg33 main_v118 main_v119

def fn_part5 {F : FTy → Type} [FloatOps F] (main_arg2 : IVec S100000 32) (main_arg20 : FVec F S128x128 .f32) (main_arg21 : FVec F S128 .f32) (main_arg22 : FVec F S128x128 .f32) (main_arg23 : FVec F S128 .f32) (main_arg24 : FVec F S128x128 .f32) (main_arg25 : FVec F S128 .f32) (main_arg26 : FVec F S128x128 .f32) (main_arg27 : FVec F S128 .f32) (main_arg28 : FVec F S128x128 .f32) (main_arg29 : FVec F S128 .f32) (main_arg30 : FVec F S128x128 .f32) (main_arg31 : FVec F S128 .f32) (main_arg32 : FVec F S128x2 .f32) (main_arg33 : FVec F S2 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x128 .f32 := Host.absf main_arg20
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x128 .f32 := Host.absf main_arg22
  let main_cst_38 : FVec F S_ .f32 := constant S_ .f32 0x7F800000#32
  let main_v100 : FVec F S128x128 .f32 := broadcastInDim S128x128 ![] bcast_S_S128x128 main_cst_38
  let main_v101 : IVec S128x128 1 := cmpf .olt main_v99 main_v100
  let main_c_39 : IVec S_ 1 := constantI S_ 1 1#1
  fn_part6 (F := F) main_arg2 main_arg23 main_arg24 main_arg25 main_arg26 main_arg27 main_arg28 main_arg29 main_arg30 main_arg31 main_arg32 main_arg33 main_v98 main_v101 main_c_39

def fn_part4 {F : FTy → Type} [FloatOps F] (main_arg2 : IVec S100000 32) (main_arg16 : FVec F S256x128 .f32) (main_arg17 : FVec F S128 .f32) (main_arg18 : FVec F S128x128 .f32) (main_arg19 : FVec F S128 .f32) (main_arg20 : FVec F S128x128 .f32) (main_arg21 : FVec F S128 .f32) (main_arg22 : FVec F S128x128 .f32) (main_arg23 : FVec F S128 .f32) (main_arg24 : FVec F S128x128 .f32) (main_arg25 : FVec F S128 .f32) (main_arg26 : FVec F S128x128 .f32) (main_arg27 : FVec F S128 .f32) (main_arg28 : FVec F S128x128 .f32) (main_arg29 : FVec F S128 .f32) (main_arg30 : FVec F S128x128 .f32) (main_arg31 : FVec F S128 .f32) (main_arg32 : FVec F S128x2 .f32) (main_arg33 : FVec F S2 .f32) (main_v63 : IVec S_ 1) (main_v67 : IVec S_ 1) : IVec S_ 1 :=
  let main_v68 : IVec S_ 1 := andi main_v63 main_v67
  let main_v69 : FVec F S256x128 .f32 := Host.absf main_arg16
  let main_cst_26 : FVec F S_ .f32 := constant S_ .f32 0x7F800000#32
  let main_v70 : FVec F S256x128 .f32 := broadcastInDim S256x128 ![] bcast_S_S256x128 main_cst_26
  let main_v71 : IVec S256x128 1 := cmpf .olt main_v69 main_v70
  let main_c_27 : IVec S_ 1 := constantI S_ 1 1#1
  let main_v72 : IVec S_ 1 := (fun x v => Host.reduce IntOp.andi x v reducesTo_S256x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg18
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg2 main_arg20 main_arg21 main_arg22 main_arg23 main_arg24 main_arg25 main_arg26 main_arg27 main_arg28 main_arg29 main_arg30 main_arg31 main_arg32 main_arg33 main_v83 main_v84 main_cst_32

def fn_part3 {F : FTy → Type} [FloatOps F] (main_arg2 : IVec S100000 32) (main_arg13 : FVec F S128 .f32) (main_arg14 : FVec F S128x128 .f32) (main_arg15 : FVec F S128 .f32) (main_arg16 : FVec F S256x128 .f32) (main_arg17 : FVec F S128 .f32) (main_arg18 : FVec F S128x128 .f32) (main_arg19 : FVec F S128 .f32) (main_arg20 : FVec F S128x128 .f32) (main_arg21 : FVec F S128 .f32) (main_arg22 : FVec F S128x128 .f32) (main_arg23 : FVec F S128 .f32) (main_arg24 : FVec F S128x128 .f32) (main_arg25 : FVec F S128 .f32) (main_arg26 : FVec F S128x128 .f32) (main_arg27 : FVec F S128 .f32) (main_arg28 : FVec F S128x128 .f32) (main_arg29 : FVec F S128 .f32) (main_arg30 : FVec F S128x128 .f32) (main_arg31 : FVec F S128 .f32) (main_arg32 : FVec F S128x2 .f32) (main_arg33 : FVec F S2 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg2 main_arg16 main_arg17 main_arg18 main_arg19 main_arg20 main_arg21 main_arg22 main_arg23 main_arg24 main_arg25 main_arg26 main_arg27 main_arg28 main_arg29 main_arg30 main_arg31 main_arg32 main_arg33 main_v63 main_v67

def fn_part2 {F : FTy → Type} [FloatOps F] (main_arg2 : IVec S100000 32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S256x128 .f32) (main_arg17 : FVec F S128 .f32) (main_arg18 : FVec F S128x128 .f32) (main_arg19 : FVec F S128 .f32) (main_arg20 : FVec F S128x128 .f32) (main_arg21 : FVec F S128 .f32) (main_arg22 : FVec F S128x128 .f32) (main_arg23 : FVec F S128 .f32) (main_arg24 : FVec F S128x128 .f32) (main_arg25 : FVec F S128 .f32) (main_arg26 : FVec F S128x128 .f32) (main_arg27 : FVec F S128 .f32) (main_arg28 : FVec F S128x128 .f32) (main_arg29 : FVec F S128 .f32) (main_arg30 : FVec F S128x128 .f32) (main_arg31 : FVec F S128 .f32) (main_arg32 : FVec F S128x2 .f32) (main_arg33 : FVec F S2 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg2 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_v48 main_v49 main_v50

def fn_part1 {F : FTy → Type} [FloatOps F] (main_arg2 : IVec S100000 32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S256x128 .f32) (main_arg17 : FVec F S128 .f32) (main_arg18 : FVec F S128x128 .f32) (main_arg19 : FVec F S128 .f32) (main_arg20 : FVec F S128x128 .f32) (main_arg21 : FVec F S128 .f32) (main_arg22 : FVec F S128x128 .f32) (main_arg23 : FVec F S128 .f32) (main_arg24 : FVec F S128x128 .f32) (main_arg25 : FVec F S128 .f32) (main_arg26 : FVec F S128x128 .f32) (main_arg27 : FVec F S128 .f32) (main_arg28 : FVec F S128x128 .f32) (main_arg29 : FVec F S128 .f32) (main_arg30 : FVec F S128x128 .f32) (main_arg31 : FVec F S128 .f32) (main_arg32 : FVec F S128x2 .f32) (main_arg33 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_v33

def fn {F : FTy → Type} [FloatOps F] (main_arg0 : FVec F S100000x128 .f32) (main_arg1 : FVec F S100000x128 .f32) (main_arg2 : IVec S100000 32) (main_arg3 : IVec S100000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S256x128 .f32) (main_arg17 : FVec F S128 .f32) (main_arg18 : FVec F S128x128 .f32) (main_arg19 : FVec F S128 .f32) (main_arg20 : FVec F S128x128 .f32) (main_arg21 : FVec F S128 .f32) (main_arg22 : FVec F S128x128 .f32) (main_arg23 : FVec F S128 .f32) (main_arg24 : FVec F S128x128 .f32) (main_arg25 : FVec F S128 .f32) (main_arg26 : FVec F S128x128 .f32) (main_arg27 : FVec F S128 .f32) (main_arg28 : FVec F S128x128 .f32) (main_arg29 : FVec F S128 .f32) (main_arg30 : FVec F S128x128 .f32) (main_arg31 : FVec F S128 .f32) (main_arg32 : FVec F S128x2 .f32) (main_arg33 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_v13 main_v16
-- ==== Kernel.lean ====
abbrev S100000x128 : Shape := ⟨2, ![100000, 128]⟩
abbrev S100000 : Shape := ⟨1, ![100000]⟩
abbrev S128x128 : Shape := ⟨2, ![128, 128]⟩
abbrev S128 : Shape := ⟨1, ![128]⟩
abbrev S256x128 : Shape := ⟨2, ![256, 128]⟩
abbrev S128x2 : Shape := ⟨2, ![128, 2]⟩
abbrev S2 : Shape := ⟨1, ![2]⟩
abbrev S10x1x10000 : Shape := ⟨3, ![10, 1, 10000]⟩
abbrev S_ : Shape := ⟨0, ![]⟩
abbrev S1 : Shape := ⟨1, ![1]⟩
abbrev S1x128 : Shape := ⟨2, ![1, 128]⟩
abbrev S1x2 : Shape := ⟨2, ![1, 2]⟩
abbrev S10000x128 : Shape := ⟨2, ![10000, 128]⟩
abbrev S1x1x10000 : Shape := ⟨3, ![1, 1, 10000]⟩
abbrev S1x10000 : Shape := ⟨2, ![1, 10000]⟩
abbrev S128x10000 : Shape := ⟨2, ![128, 10000]⟩

abbrev nBuf : Space → Nat
  | .hbm => 65
  | .vmem => 43
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S100000, .i32⟩
  | .hbm, ⟨3, _⟩ => ⟨S100000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S256x128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S128x128, .f32⟩
  | .hbm, ⟨21, _⟩ => ⟨S128, .f32⟩
  | .hbm, ⟨22, _⟩ => ⟨S128x128, .f32⟩
  | .hbm, ⟨23, _⟩ => ⟨S128, .f32⟩
  | .hbm, ⟨24, _⟩ => ⟨S128x128, .f32⟩
  | .hbm, ⟨25, _⟩ => ⟨S128, .f32⟩
  | .hbm, ⟨26, _⟩ => ⟨S128x128, .f32⟩
  | .hbm, ⟨27, _⟩ => ⟨S128, .f32⟩
  | .hbm, ⟨28, _⟩ => ⟨S128x128, .f32⟩
  | .hbm, ⟨29, _⟩ => ⟨S128, .f32⟩
  | .hbm, ⟨30, _⟩ => ⟨S128x128, .f32⟩
  | .hbm, ⟨31, _⟩ => ⟨S128, .f32⟩
  | .hbm, ⟨32, _⟩ => ⟨S128x2, .f32⟩
  | .hbm, ⟨33, _⟩ => ⟨S2, .f32⟩
  | .hbm, ⟨34, _⟩ => ⟨S10x1x10000, .i32⟩
  | .hbm, ⟨35, _⟩ => ⟨S10x1x10000, .i32⟩
  | .hbm, ⟨36, _⟩ => ⟨S128x128, .f32⟩
  | .hbm, ⟨37, _⟩ => ⟨S128x128, .f32⟩
  | .hbm, ⟨38, _⟩ => ⟨S_, .f32⟩
  | .hbm, ⟨39, _⟩ => ⟨S128x128, .f32⟩
  | .hbm, ⟨40, _⟩ => ⟨S_, .i32⟩
  | .hbm, ⟨41, _⟩ => ⟨S1, .i32⟩
  | .hbm, ⟨42, _⟩ => ⟨S128x128, .f32⟩
  | .hbm, ⟨43, _⟩ => ⟨S_, .f32⟩
  | .hbm, ⟨44, _⟩ => ⟨S1x128, .f32⟩
  | .hbm, ⟨45, _⟩ => ⟨S_, .i32⟩
  | .hbm, ⟨46, _⟩ => ⟨S1, .i32⟩
  | .hbm, ⟨47, _⟩ => ⟨S1x2, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S128x128, .f32⟩
  | .hbm, ⟨64, _⟩ => ⟨S128x2, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S1x1x10000, .i32⟩
  | .local _ .vmem, ⟨5, _⟩ => ⟨S1x1x10000, .i32⟩
  | .local _ .vmem, ⟨6, _⟩ => ⟨S1x1x10000, .i32⟩
  | .local _ .vmem, ⟨7, _⟩ => ⟨S1x1x10000, .i32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S128x128, .f32⟩
  | .local _ .vmem, ⟨22, _⟩ => ⟨S1x128, .f32⟩
  | .local _ .vmem, ⟨23, _⟩ => ⟨S128x128, .f32⟩
  | .local _ .vmem, ⟨24, _⟩ => ⟨S1x128, .f32⟩
  | .local _ .vmem, ⟨25, _⟩ => ⟨S128x128, .f32⟩
  | .local _ .vmem, ⟨26, _⟩ => ⟨S1x128, .f32⟩
  | .local _ .vmem, ⟨27, _⟩ => ⟨S128x128, .f32⟩
  | .local _ .vmem, ⟨28, _⟩ => ⟨S1x128, .f32⟩
  | .local _ .vmem, ⟨29, _⟩ => ⟨S128x128, .f32⟩
  | .local _ .vmem, ⟨30, _⟩ => ⟨S1x128, .f32⟩
  | .local _ .vmem, ⟨31, _⟩ => ⟨S128x128, .f32⟩
  | .local _ .vmem, ⟨32, _⟩ => ⟨S1x128, .f32⟩
  | .local _ .vmem, ⟨33, _⟩ => ⟨S128x128, .f32⟩
  | .local _ .vmem, ⟨34, _⟩ => ⟨S1x128, .f32⟩
  | .local _ .vmem, ⟨35, _⟩ => ⟨S128x128, .f32⟩
  | .local _ .vmem, ⟨36, _⟩ => ⟨S1x128, .f32⟩
  | .local _ .vmem, ⟨37, _⟩ => ⟨S128x128, .f32⟩
  | .local _ .vmem, ⟨38, _⟩ => ⟨S1x128, .f32⟩
  | .local _ .vmem, ⟨39, _⟩ => ⟨S128x128, .f32⟩
  | .local _ .vmem, ⟨40, _⟩ => ⟨S128x128, .f32⟩
  | .local _ .vmem, ⟨41, _⟩ => ⟨S128x128, .f32⟩
  | .local _ .vmem, ⟨42, _⟩ => ⟨S128x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_v0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_cst : Ref sig .tc := ⟨.hbm, 38, rfl⟩
abbrev main_v4 : Ref sig .tc := ⟨.hbm, 39, rfl⟩
abbrev main_c : Ref sig .tc := ⟨.hbm, 40, rfl⟩
abbrev main_v5 : Ref sig .tc := ⟨.hbm, 41, rfl⟩
abbrev main_v6 : Ref sig .tc := ⟨.hbm, 42, rfl⟩
abbrev main_cst_0 : Ref sig .tc := ⟨.hbm, 43, rfl⟩
abbrev main_v7 : Ref sig .tc := ⟨.hbm, 44, rfl⟩
abbrev main_c_1 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg21_0 : Ref sig .tc := ⟨.vmem, 25, rfl⟩
abbrev cc0_stg22_0 : Ref sig .tc := ⟨.vmem, 26, rfl⟩
abbrev cc0_stg23_0 : Ref sig .tc := ⟨.vmem, 27, rfl⟩
abbrev cc0_stg24_0 : Ref sig .tc := ⟨.vmem, 28, rfl⟩
abbrev cc0_stg25_0 : Ref sig .tc := ⟨.vmem, 29, rfl⟩
abbrev cc0_stg26_0 : Ref sig .tc := ⟨.vmem, 30, rfl⟩
abbrev cc0_stg27_0 : Ref sig .tc := ⟨.vmem, 31, rfl⟩
abbrev cc0_stg28_0 : Ref sig .tc := ⟨.vmem, 32, rfl⟩
abbrev cc0_stg29_0 : Ref sig .tc := ⟨.vmem, 33, rfl⟩
abbrev cc0_stg30_0 : Ref sig .tc := ⟨.vmem, 34, rfl⟩
abbrev cc0_stg31_0 : Ref sig .tc := ⟨.vmem, 35, rfl⟩
abbrev cc0_stg32_0 : Ref sig .tc := ⟨.vmem, 36, rfl⟩
abbrev cc0_stg33_0 : Ref sig .tc := ⟨.vmem, 37, rfl⟩
abbrev cc0_stg34_0 : Ref sig .tc := ⟨.vmem, 38, rfl⟩
abbrev cc0_stg35_0 : Ref sig .tc := ⟨.vmem, 39, rfl⟩
abbrev cc0_scratch0 : Ref sig .tc := ⟨.vmem, 40, rfl⟩
abbrev cc0_scratch1 : Ref sig .tc := ⟨.vmem, 41, rfl⟩
abbrev cc0_scratch2 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem21_0 : DmaSem sig := 25
abbrev cc0_sem22_0 : DmaSem sig := 26
abbrev cc0_sem23_0 : DmaSem sig := 27
abbrev cc0_sem24_0 : DmaSem sig := 28
abbrev cc0_sem25_0 : DmaSem sig := 29
abbrev cc0_sem26_0 : DmaSem sig := 30
abbrev cc0_sem27_0 : DmaSem sig := 31
abbrev cc0_sem28_0 : DmaSem sig := 32
abbrev cc0_sem29_0 : DmaSem sig := 33
abbrev cc0_sem30_0 : DmaSem sig := 34
abbrev cc0_sem31_0 : DmaSem sig := 35
abbrev cc0_sem32_0 : DmaSem sig := 36
abbrev cc0_sem33_0 : DmaSem sig := 37
abbrev cc0_sem34_0 : DmaSem sig := 38
abbrev cc0_sem35_0 : DmaSem sig := 39

abbrev nD : Nat := 1
abbrev τ : Topo := Topo.v7x

variable {F : FTy → Type} [FloatOps F]

abbrev grid0 : Pipeline.Grid := ⟨2, ![2, 10], ![false, false]⟩

def k0_cond5 (i : grid0.Coords) : BitVec 1 :=
  let arg0 : BitVec 32 := BitVec.ofNat 32 (i 0).val
  let c1_i32_8 : BitVec 32 := 1#32
  let v16 : BitVec 1 := Scalar.cmpi .eq arg0 c1_i32_8
  let arg1 : BitVec 32 := BitVec.ofNat 32 (i 1).val
  let c9_i32 : BitVec 32 := 9#32
  let v17 : BitVec 1 := Scalar.cmpi .eq arg1 c9_i32
  let v18 : BitVec 1 := Scalar.andi v16 v17
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_35 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x10000 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x10000 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S128x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S128x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S1x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S128x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 1 → Memref sig .tc .vmem S1x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false]

abbrev stage0_25 : Fin 1 → Memref sig .tc .vmem S128x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false, false]

abbrev stage0_26 : Fin 1 → Memref sig .tc .vmem S1x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false, false]

abbrev stage0_27 : Fin 1 → Memref sig .tc .vmem S128x128 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false, false]

abbrev stage0_28 : Fin 1 → Memref sig .tc .vmem S1x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false, false]

abbrev stage0_29 : Fin 1 → Memref sig .tc .vmem S128x128 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false, false]

abbrev stage0_30 : Fin 1 → Memref sig .tc .vmem S1x128 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false, false]

abbrev stage0_31 : Fin 1 → Memref sig .tc .vmem S128x128 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false, false]

abbrev stage0_32 : Fin 1 → Memref sig .tc .vmem S1x128 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false, false]

abbrev stage0_33 : Fin 1 → Memref sig .tc .vmem S128x128 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false, false]

abbrev stage0_34 : Fin 1 → Memref sig .tc .vmem S1x128 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![false, false]

abbrev stage0_35 : Fin 1 → Memref sig .tc .vmem S128x128 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))
abbrev reads0_35 : Fin grid0.rank → Bool := ![false, false]

class Facts₀ : Prop where
  shapeCasts_S100000_S10x1x10000 : S100000.ShapeCasts S10x1x10000
  slices_S256x128_S128x128_0_0 : S256x128.Slices ![0, 0] S128x128
  slices_S256x128_S128x128_128_0 : S256x128.Slices ![128, 0] S128x128
  bcast_S_S128x128 : S_.BroadcastsInDim S128x128 (![] : Fin 0 → Fin S128x128.rank)
  bcast_S_S1 : S_.BroadcastsInDim S1 (![] : Fin 0 → Fin S1.rank)
  bcast_S_S1x128 : S_.BroadcastsInDim S1x128 (![] : Fin 0 → Fin S1x128.rank)
  bcast_S2_S1x2_1 : S2.BroadcastsInDim S1x2 (![1] : Fin 1 → Fin S1x2.rank)
  shapeCasts_S128_S1x128 : S128.ShapeCasts S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S10000x128_S10000x128_0_0 : ∀ a, (![0, 0] : Fin 2 → Nat) a + S10000x128.size a ≤ S10000x128.size a
  h_S10000x128 : 0 < S10000x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S1x1x10000_S1x1x10000_0_0_0 : ∀ a, (![0, 0, 0] : Fin 3 → Nat) a + S1x1x10000.size a ≤ S1x1x10000.size a
  h_S1x1x10000 : 0 < S1x1x10000.numel
  shapeCasts_S1x1x10000_S1x1x10000 : S1x1x10000.ShapeCasts S1x1x10000
  shapeCasts_S1x1x10000_S1x10000 : S1x1x10000.ShapeCasts S1x10000
  iota_S128x10000_d0_w32 : S128x10000.Iotas .tc 32 [0]
  broadcasts_S1x10000_S128x10000 : S1x10000.Broadcasts S128x10000
  natLt_1_32 : 1 < 32
  bitsLt_bf16_f32 : FTy.bits .bf16 < FTy.bits .f32
  broadcasts_S1x128_S128x128 : S1x128.Broadcasts S128x128
  slices_S128x128_S128x2_0_0 : S128x128.Slices ![0, 0] S128x2
  scatter_S128x128_S1_S128x2_01_n_1_0_wf : ScatterDims.WF S128x128 S1 S128x2 [0, 1] [] [1] 0
  scatter_S1x128_S1_S1x2_01_n_1_0_wf : ScatterDims.WF S1x128 S1 S1x2 [0, 1] [] [1] 0
  dot_S10000x128_S128x128_S10000x128_1_0_0_1_n_n_wf : DotDims.WF S10000x128 S128x128 S10000x128 [1] [0] [0] [1] [] []
  dot_S128x10000_S10000x128_S128x128_1_0_0_1_n_n_wf : DotDims.WF S128x10000 S10000x128 S128x128 [1] [0] [0] [1] [] []
  dot_S128x128_S128x128_S128x128_1_0_0_1_n_n_wf : DotDims.WF S128x128 S128x128 S128x128 [1] [0] [0] [1] [] []
  dot_S128x10000_S128x128_S10000x128_0_0_1_1_n_n_wf : DotDims.WF S128x10000 S128x128 S10000x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x10000.size a ≤ S10x1x10000.size a
  hwx0_2 : ∀ i : grid0.Coords, EltTy.bits .i32 = 32 ∨ (Rect.block (s := S10x1x10000) S1x1x10000.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x10000.size a ≤ S10x1x10000.size a
  hwx0_3 : ∀ i : grid0.Coords, EltTy.bits .i32 = 32 ∨ (Rect.block (s := S10x1x10000) S1x1x10000.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .f32 = 32 ∨ (Rect.block (s := S128x128) S128x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x128.size a ≤ S128x128.size a
  hwx0_14 : ∀ i : grid0.Coords, EltTy.bits .f32 = 32 ∨ (Rect.block (s := S128x128) S128x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x128.size a ≤ S1x128.size a
  hwx0_15 : ∀ i : grid0.Coords, EltTy.bits .f32 = 32 ∨ (Rect.block (s := S1x128) S1x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S128x128.size a ≤ S128x128.size a
  hwx0_16 : ∀ i : grid0.Coords, EltTy.bits .f32 = 32 ∨ (Rect.block (s := S128x128) S128x128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128x128.size a ≤ S128x128.size a
  hwx0_17 : ∀ i : grid0.Coords, EltTy.bits .f32 = 32 ∨ (Rect.block (s := S128x128) S128x128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x128.size a ≤ S1x128.size a
  hwx0_18 : ∀ i : grid0.Coords, EltTy.bits .f32 = 32 ∨ (Rect.block (s := S1x128) S1x128.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S128x128.size a ≤ S128x128.size a
  hwx0_19 : ∀ i : grid0.Coords, EltTy.bits .f32 = 32 ∨ (Rect.block (s := S128x128) S128x128.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x128.size a ≤ S1x128.size a
  hwx0_20 : ∀ i : grid0.Coords, EltTy.bits .f32 = 32 ∨ (Rect.block (s := S1x128) S1x128.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S128x128.size a ≤ S128x128.size a
  hwx0_21 : ∀ i : grid0.Coords, EltTy.bits .f32 = 32 ∨ (Rect.block (s := S128x128) S128x128.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1x128.size a ≤ S1x128.size a
  hwx0_22 : ∀ i : grid0.Coords, EltTy.bits .f32 = 32 ∨ (Rect.block (s := S1x128) S1x128.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S128x128.size a ≤ S128x128.size a
  hwx0_23 : ∀ i : grid0.Coords, EltTy.bits .f32 = 32 ∨ (Rect.block (s := S128x128) S128x128.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S1x128.size a ≤ S1x128.size a
  hwx0_24 : ∀ i : grid0.Coords, EltTy.bits .f32 = 32 ∨ (Rect.block (s := S1x128) S1x128.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S128x128.size a ≤ S128x128.size a
  hwx0_25 : ∀ i : grid0.Coords, EltTy.bits .f32 = 32 ∨ (Rect.block (s := S128x128) S128x128.size (cc0_transform_25 i) (hinb0_25 i)).WholeWords (EltTy.packing .f32)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S1x128.size a ≤ S1x128.size a
  hwx0_26 : ∀ i : grid0.Coords, EltTy.bits .f32 = 32 ∨ (Rect.block (s := S1x128) S1x128.size (cc0_transform_26 i) (hinb0_26 i)).WholeWords (EltTy.packing .f32)
  hstage0_27 : ∀ j, (stage0_27 j).IsWhole
  nbuf0_27 : grid0.bufCount reads0_27 true = 1
  hreads0_27 : ∀ i i' : grid0.Coords, (∀ a, reads0_27 a = true → i a = i' a) → cc0_transform_27 i = cc0_transform_27 i'
  hinb0_27 : ∀ (i : grid0.Coords) a, (cc0_transform_27 i a + 1) * S128x128.size a ≤ S128x128.size a
  hwx0_27 : ∀ i : grid0.Coords, EltTy.bits .f32 = 32 ∨ (Rect.block (s := S128x128) S128x128.size (cc0_transform_27 i) (hinb0_27 i)).WholeWords (EltTy.packing .f32)
  hstage0_28 : ∀ j, (stage0_28 j).IsWhole
  nbuf0_28 : grid0.bufCount reads0_28 true = 1
  hreads0_28 : ∀ i i' : grid0.Coords, (∀ a, reads0_28 a = true → i a = i' a) → cc0_transform_28 i = cc0_transform_28 i'
  hinb0_28 : ∀ (i : grid0.Coords) a, (cc0_transform_28 i a + 1) * S1x128.size a ≤ S1x128.size a
  hwx0_28 : ∀ i : grid0.Coords, EltTy.bits .f32 = 32 ∨ (Rect.block (s := S1x128) S1x128.size (cc0_transform_28 i) (hinb0_28 i)).WholeWords (EltTy.packing .f32)
  hstage0_29 : ∀ j, (stage0_29 j).IsWhole
  nbuf0_29 : grid0.bufCount reads0_29 true = 1
  hreads0_29 : ∀ i i' : grid0.Coords, (∀ a, reads0_29 a = true → i a = i' a) → cc0_transform_29 i = cc0_transform_29 i'
  hinb0_29 : ∀ (i : grid0.Coords) a, (cc0_transform_29 i a + 1) * S128x128.size a ≤ S128x128.size a
  hwx0_29 : ∀ i : grid0.Coords, EltTy.bits .f32 = 32 ∨ (Rect.block (s := S128x128) S128x128.size (cc0_transform_29 i) (hinb0_29 i)).WholeWords (EltTy.packing .f32)
  hstage0_30 : ∀ j, (stage0_30 j).IsWhole
  nbuf0_30 : grid0.bufCount reads0_30 true = 1
  hreads0_30 : ∀ i i' : grid0.Coords, (∀ a, reads0_30 a = true → i a = i' a) → cc0_transform_30 i = cc0_transform_30 i'
  hinb0_30 : ∀ (i : grid0.Coords) a, (cc0_transform_30 i a + 1) * S1x128.size a ≤ S1x128.size a
  hwx0_30 : ∀ i : grid0.Coords, EltTy.bits .f32 = 32 ∨ (Rect.block (s := S1x128) S1x128.size (cc0_transform_30 i) (hinb0_30 i)).WholeWords (EltTy.packing .f32)
  hstage0_31 : ∀ j, (stage0_31 j).IsWhole
  nbuf0_31 : grid0.bufCount reads0_31 true = 1
  hreads0_31 : ∀ i i' : grid0.Coords, (∀ a, reads0_31 a = true → i a = i' a) → cc0_transform_31 i = cc0_transform_31 i'
  hinb0_31 : ∀ (i : grid0.Coords) a, (cc0_transform_31 i a + 1) * S128x128.size a ≤ S128x128.size a
  hwx0_31 : ∀ i : grid0.Coords, EltTy.bits .f32 = 32 ∨ (Rect.block (s := S128x128) S128x128.size (cc0_transform_31 i) (hinb0_31 i)).WholeWords (EltTy.packing .f32)
  hstage0_32 : ∀ j, (stage0_32 j).IsWhole
  nbuf0_32 : grid0.bufCount reads0_32 true = 1
  hreads0_32 : ∀ i i' : grid0.Coords, (∀ a, reads0_32 a = true → i a = i' a) → cc0_transform_32 i = cc0_transform_32 i'
  hinb0_32 : ∀ (i : grid0.Coords) a, (cc0_transform_32 i a + 1) * S1x128.size a ≤ S1x128.size a
  hwx0_32 : ∀ i : grid0.Coords, EltTy.bits .f32 = 32 ∨ (Rect.block (s := S1x128) S1x128.size (cc0_transform_32 i) (hinb0_32 i)).WholeWords (EltTy.packing .f32)
  hstage0_33 : ∀ j, (stage0_33 j).IsWhole
  nbuf0_33 : grid0.bufCount reads0_33 true = 1
  hreads0_33 : ∀ i i' : grid0.Coords, (∀ a, reads0_33 a = true → i a = i' a) → cc0_transform_33 i = cc0_transform_33 i'
  hinb0_33 : ∀ (i : grid0.Coords) a, (cc0_transform_33 i a + 1) * S128x128.size a ≤ S128x128.size a
  hwx0_33 : ∀ i : grid0.Coords, EltTy.bits .f32 = 32 ∨ (Rect.block (s := S128x128) S128x128.size (cc0_transform_33 i) (hinb0_33 i)).WholeWords (EltTy.packing .f32)
  hstage0_34 : ∀ j, (stage0_34 j).IsWhole
  nbuf0_34 : grid0.bufCount reads0_34 true = 1
  hreads0_34 : ∀ i i' : grid0.Coords, (∀ a, reads0_34 a = true → i a = i' a) → cc0_transform_34 i = cc0_transform_34 i'
  hinb0_34 : ∀ (i : grid0.Coords) a, (cc0_transform_34 i a + 1) * S1x128.size a ≤ S1x128.size a
  hwx0_34 : ∀ i : grid0.Coords, EltTy.bits .f32 = 32 ∨ (Rect.block (s := S1x128) S1x128.size (cc0_transform_34 i) (hinb0_34 i)).WholeWords (EltTy.packing .f32)
  hstage0_35 : ∀ j, (stage0_35 j).IsWhole
  nbuf0_35 : grid0.bufCount reads0_35 true = 1
  hreads0_35 : ∀ i i' : grid0.Coords, (∀ a, reads0_35 a = true → i a = i' a) → cc0_transform_35 i = cc0_transform_35 i'
  hinb0_35 : ∀ (i : grid0.Coords) a, (cc0_transform_35 i a + 1) * S128x128.size a ≤ S128x128.size a
  hwx0_35 : ∀ i : grid0.Coords, EltTy.bits .f32 = 32 ∨ (Rect.block (s := S128x128) S128x128.size (cc0_transform_35 i) (hinb0_35 i)).WholeWords (EltTy.packing .f32)

variable [Facts₀]

def scatter_S128x128_S1_S128x2_01_n_1_0 : ScatterDims S128x128 S1 S128x2 where
  updateWindowDims := [0, 1]
  insertedWindowDims := []
  scatterDimsToOperandDims := [1]
  indexVectorDim := 0
  wf := scatter_S128x128_S1_S128x2_01_n_1_0_wf
def scatter_S1x128_S1_S1x2_01_n_1_0 : ScatterDims S1x128 S1 S1x2 where
  updateWindowDims := [0, 1]
  insertedWindowDims := []
  scatterDimsToOperandDims := [1]
  indexVectorDim := 0
  wf := scatter_S1x128_S1_S1x2_01_n_1_0_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S128x10000_S10000x128_S128x128_1_0_0_1_n_n : DotDims S128x10000 S10000x128 S128x128 where
  lhsContracting := [1]
  rhsContracting := [0]
  lhsNonContracting := [0]
  rhsNonContracting := [1]
  lhsBatch := []
  rhsBatch := []
  wf := dot_S128x10000_S10000x128_S128x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x10000_S128x128_S10000x128_0_0_1_1_n_n : DotDims S128x10000 S128x128 S10000x128 where
  lhsContracting := [0]
  rhsContracting := [0]
  lhsNonContracting := [1]
  rhsNonContracting := [1]
  lhsBatch := []
  rhsBatch := []
  wf := dot_S128x10000_S128x128_S10000x128_0_0_1_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v14) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v15) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S128x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v16) S1x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v2) S128x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v3) S128x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v17) S1x128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg18) S128x128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v18) S1x128.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg20) S128x128.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v19) S1x128.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_arg22) S128x128.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v20) S1x128.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_arg24) S128x128.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v21) S1x128.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_arg26) S128x128.size cc0_transform_27 reads0_27 false true 1 stage0_27 sem0_27
    hrank0 hreads0_27 hinb0_27 nbuf0_27 (Memref.isWhole_whole _) hwx0_27 hstage0_27

abbrev win0_28 : Pipeline.Window sig grid0 :=
  Pipeline.Window.ofSpec (Memref.whole main_v22) S1x128.size cc0_transform_28 reads0_28 false true 1 stage0_28 sem0_28
    hrank0 hreads0_28 hinb0_28 nbuf0_28 (Memref.isWhole_whole _) hwx0_28 hstage0_28

abbrev win0_29 : Pipeline.Window sig grid0 :=
  Pipeline.Window.ofSpec (Memref.whole main_arg28) S128x128.size cc0_transform_29 reads0_29 false true 1 stage0_29 sem0_29
    hrank0 hreads0_29 hinb0_29 nbuf0_29 (Memref.isWhole_whole _) hwx0_29 hstage0_29

abbrev win0_30 : Pipeline.Window sig grid0 :=
  Pipeline.Window.ofSpec (Memref.whole main_v23) S1x128.size cc0_transform_30 reads0_30 false true 1 stage0_30 sem0_30
    hrank0 hreads0_30 hinb0_30 nbuf0_30 (Memref.isWhole_whole _) hwx0_30 hstage0_30

abbrev win0_31 : Pipeline.Window sig grid0 :=
  Pipeline.Window.ofSpec (Memref.whole main_arg30) S128x128.size cc0_transform_31 reads0_31 false true 1 stage0_31 sem0_31
    hrank0 hreads0_31 hinb0_31 nbuf0_31 (Memref.isWhole_whole _) hwx0_31 hstage0_31

abbrev win0_32 : Pipeline.Window sig grid0 :=
  Pipeline.Window.ofSpec (Memref.whole main_v24) S1x128.size cc0_transform_32 reads0_32 false true 1 stage0_32 sem0_32
    hrank0 hreads0_32 hinb0_32 nbuf0_32 (Memref.isWhole_whole _) hwx0_32 hstage0_32

abbrev win0_33 : Pipeline.Window sig grid0 :=
  Pipeline.Window.ofSpec (Memref.whole main_v6) S128x128.size cc0_transform_33 reads0_33 false true 1 stage0_33 sem0_33
    hrank0 hreads0_33 hinb0_33 nbuf0_33 (Memref.isWhole_whole _) hwx0_33 hstage0_33

abbrev win0_34 : Pipeline.Window sig grid0 :=
  Pipeline.Window.ofSpec (Memref.whole main_v10) S1x128.size cc0_transform_34 reads0_34 false true 1 stage0_34 sem0_34
    hrank0 hreads0_34 hinb0_34 nbuf0_34 (Memref.isWhole_whole _) hwx0_34 hstage0_34

abbrev win0_35 : Pipeline.Window sig grid0 :=
  Pipeline.Window.ofSpec (Memref.whole main_v25) S128x128.size cc0_transform_35 reads0_35 true true 1 stage0_35 sem0_35
    hrank0 hreads0_35 hinb0_35 nbuf0_35 (Memref.isWhole_whole _) hwx0_35 hstage0_35

abbrev win0 : Fin 36 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | 29 => win0_29 | 30 => win0_30 | 31 => win0_31 | 32 => win0_32 | 33 => win0_33 | 34 => win0_34 | 35 => win0_35 | ⟨_ + 36, h⟩ => absurd h (Nat.not_lt.2 (Nat.le_add_left _ _))
abbrev spec0 : Fin 36 → Pipeline.WinSpec sig grid0.rank := fun w => (win0 w).toWinSpec

abbrev idle0 : Fin 36 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun _ => false | 17 => fun _ => false | 18 => fun _ => false | 19 => fun _ => false | 20 => fun _ => false | 21 => fun _ => false | 22 => fun _ => false | 23 => fun _ => false | 24 => fun _ => false | 25 => fun _ => false | 26 => fun _ => false | 27 => fun _ => false | 28 => fun _ => false | 29 => fun _ => false | 30 => fun _ => false | 31 => fun _ => false | 32 => fun _ => false | 33 => fun _ => false | 34 => fun _ => false | 35 => fun i => !(k0_cond5 i == 1#1) | ⟨_ + 36, h⟩ => absurd h (Nat.not_lt.2 (Nat.le_add_left _ _))

class Facts : Prop extends Facts₀ where

variable [Facts]
-- ==== ReferenceIdeal.lean ====
abbrev S100000x128 : Shape := ⟨2, ![100000, 128]⟩
abbrev S100000 : Shape := ⟨1, ![100000]⟩
abbrev S128x128 : Shape := ⟨2, ![128, 128]⟩
abbrev S128 : Shape := ⟨1, ![128]⟩
abbrev S256x128 : Shape := ⟨2, ![256, 128]⟩
abbrev S128x2 : Shape := ⟨2, ![128, 2]⟩
abbrev S2 : Shape := ⟨1, ![2]⟩
abbrev S1x128 : Shape := ⟨2, ![1, 128]⟩
abbrev S_ : Shape := ⟨0, ![]⟩
abbrev S100000x1 : Shape := ⟨2, ![100000, 1]⟩
abbrev S100000x256 : Shape := ⟨2, ![100000, 256]⟩
abbrev S1x2 : Shape := ⟨2, ![1, 2]⟩

abbrev nBuf : Space → Nat
  | .hbm => 142
  | .vmem => 0
  | .smem => 0
  | _ => 0

abbrev hbmTy0_0 (i : Nat) : BufTy := match i % 128 with
  | 0 => ⟨S100000x128, .f32⟩
  | 1 => ⟨S100000x128, .f32⟩
  | 2 => ⟨S100000, .i32⟩
  | 3 => ⟨S100000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S256x128, .f32⟩
  | 17 => ⟨S128, .f32⟩
  | 18 => ⟨S128x128, .f32⟩
  | 19 => ⟨S128, .f32⟩
  | 20 => ⟨S128x128, .f32⟩
  | 21 => ⟨S128, .f32⟩
  | 22 => ⟨S128x128, .f32⟩
  | 23 => ⟨S128, .f32⟩
  | 24 => ⟨S128x128, .f32⟩
  | 25 => ⟨S128, .f32⟩
  | 26 => ⟨S128x128, .f32⟩
  | 27 => ⟨S128, .f32⟩
  | 28 => ⟨S128x128, .f32⟩
  | 29 => ⟨S128, .f32⟩
  | 30 => ⟨S128x128, .f32⟩
  | 31 => ⟨S128, .f32⟩
  | 32 => ⟨S128x2, .f32⟩
  | 33 => ⟨S2, .f32⟩
  | 34 => ⟨S100000x128, .f32⟩
  | 35 => ⟨S1x128, .f32⟩
  | 36 => ⟨S100000x128, .f32⟩
  | 37 => ⟨S100000x128, .f32⟩
  | 38 => ⟨S_, .f32⟩
  | 39 => ⟨S100000x128, .f32⟩
  | 40 => ⟨S100000x128, .f32⟩
  | 41 => ⟨S100000x128, .f32⟩
  | 42 => ⟨S1x128, .f32⟩
  | 43 => ⟨S100000x128, .f32⟩
  | 44 => ⟨S100000x128, .f32⟩
  | 45 => ⟨S_, .f32⟩
  | 46 => ⟨S100000x128, .f32⟩
  | 47 => ⟨S100000x128, .f32⟩
  | 48 => ⟨S100000x128, .f32⟩
  | 49 => ⟨S1x128, .f32⟩
  | 50 => ⟨S100000x128, .f32⟩
  | 51 => ⟨S100000x128, .f32⟩
  | 52 => ⟨S_, .f32⟩
  | 53 => ⟨S128x128, .f32⟩
  | 54 => ⟨S100000x1, .i32⟩
  | 55 => ⟨S128x128, .f32⟩
  | 56 => ⟨S128x128, .f32⟩
  | 57 => ⟨S1x128, .f32⟩
  | 58 => ⟨S128x128, .f32⟩
  | 59 => ⟨S128x128, .f32⟩
  | 60 => ⟨S_, .f32⟩
  | 61 => ⟨S128x128, .f32⟩
  | 62 => ⟨S128x128, .f32⟩
  | 63 => ⟨S128x128, .f32⟩
  | 64 => ⟨S1x128, .f32⟩
  | 65 => ⟨S128x128, .f32⟩
  | 66 => ⟨S128x128, .f32⟩
  | 67 => ⟨S_, .f32⟩
  | 68 => ⟨S128x128, .f32⟩
  | 69 => ⟨S128x128, .f32⟩
  | 70 => ⟨S128x128, .f32⟩
  | 71 => ⟨S1x128, .f32⟩
  | 72 => ⟨S128x128, .f32⟩
  | 73 => ⟨S128x128, .f32⟩
  | 74 => ⟨S_, .i32⟩
  | 75 => ⟨S100000, .i32⟩
  | 76 => ⟨S100000, .i1⟩
  | 77 => ⟨S_, .i32⟩
  | 78 => ⟨S100000, .i32⟩
  | 79 => ⟨S100000, .i32⟩
  | 80 => ⟨S100000, .i32⟩
  | 81 => ⟨S100000x1, .i32⟩
  | 82 => ⟨S100000x128, .f32⟩
  | 83 => ⟨S100000x256, .f32⟩
  | 84 => ⟨S100000x128, .f32⟩
  | 85 => ⟨S1x128, .f32⟩
  | 86 => ⟨S100000x128, .f32⟩
  | 87 => ⟨S100000x128, .f32⟩
  | 88 => ⟨S_, .f32⟩
  | 89 => ⟨S100000x128, .f32⟩
  | 90 => ⟨S100000x128, .f32⟩
  | 91 => ⟨S100000x128, .f32⟩
  | 92 => ⟨S1x128, .f32⟩
  | 93 => ⟨S100000x128, .f32⟩
  | 94 => ⟨S100000x128, .f32⟩
  | 95 => ⟨S_, .f32⟩
  | 96 => ⟨S100000x128, .f32⟩
  | 97 => ⟨S100000x128, .f32⟩
  | 98 => ⟨S100000x128, .f32⟩
  | 99 => ⟨S1x128, .f32⟩
  | 100 => ⟨S100000x128, .f32⟩
  | 101 => ⟨S100000x128, .f32⟩
  | 102 => ⟨S_, .f32⟩
  | 103 => ⟨S128x128, .f32⟩
  | 104 => ⟨S100000x1, .i32⟩
  | 105 => ⟨S128x128, .f32⟩
  | 106 => ⟨S128x128, .f32⟩
  | 107 => ⟨S1x128, .f32⟩
  | 108 => ⟨S128x128, .f32⟩
  | 109 => ⟨S128x128, .f32⟩
  | 110 => ⟨S_, .f32⟩
  | 111 => ⟨S128x128, .f32⟩
  | 112 => ⟨S128x128, .f32⟩
  | 113 => ⟨S128x128, .f32⟩
  | 114 => ⟨S1x128, .f32⟩
  | 115 => ⟨S128x128, .f32⟩
  | 116 => ⟨S128x128, .f32⟩
  | 117 => ⟨S_, .f32⟩
  | 118 => ⟨S128x128, .f32⟩
  | 119 => ⟨S128x128, .f32⟩
  | 120 => ⟨S128x128, .f32⟩
  | 121 => ⟨S1x128, .f32⟩
  | 122 => ⟨S128x128, .f32⟩
  | 123 => ⟨S128x128, .f32⟩
  | 124 => ⟨S128x128, .f32⟩
  | 125 => ⟨S1x128, .f32⟩
  | 126 => ⟨S128x128, .f32⟩
  | 127 => ⟨S128x128, .f32⟩
  | _ => ⟨S100000x128, .f32⟩

abbrev hbmTy0_1 (i : Nat) : BufTy := match i % 128 with
  | 0 => ⟨S_, .f32⟩
  | 1 => ⟨S128x128, .f32⟩
  | 2 => ⟨S128x128, .f32⟩
  | 3 => ⟨S128x128, .f32⟩
  | 4 => ⟨S1x128, .f32⟩
  | 5 => ⟨S128x128, .f32⟩
  | 6 => ⟨S128x128, .f32⟩
  | 7 => ⟨S_, .f32⟩
  | 8 => ⟨S128x128, .f32⟩
  | 9 => ⟨S128x128, .f32⟩
  | 10 => ⟨S128x2, .f32⟩
  | 11 => ⟨S1x2, .f32⟩
  | 12 => ⟨S128x2, .f32⟩
  | 13 => ⟨S128x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_v0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_call0_cst : Ref sig .tc := ⟨.hbm, 38, rfl⟩
abbrev main_call0_v0 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_call1_cst : Ref sig .tc := ⟨.hbm, 45, rfl⟩
abbrev main_call1_v0 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_cst : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_call2_cst : Ref sig .tc := ⟨.hbm, 60, rfl⟩
abbrev main_call2_v0 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_call3_cst : Ref sig .tc := ⟨.hbm, 67, rfl⟩
abbrev main_call3_v0 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_c : Ref sig .tc := ⟨.hbm, 74, rfl⟩
abbrev main_v31 : Ref sig .tc := ⟨.hbm, 75, rfl⟩
abbrev main_v32 : Ref sig .tc := ⟨.hbm, 76, rfl⟩
abbrev main_c_0 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_call4_cst : Ref sig .tc := ⟨.hbm, 88, rfl⟩
abbrev main_call4_v0 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_call5_cst : Ref sig .tc := ⟨.hbm, 95, rfl⟩
abbrev main_call5_v0 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_cst_1 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_call6_cst : Ref sig .tc := ⟨.hbm, 110, rfl⟩
abbrev main_call6_v0 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_call7_cst : Ref sig .tc := ⟨.hbm, 117, rfl⟩
abbrev main_call7_v0 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_call8_cst : Ref sig .tc := ⟨.hbm, 128, rfl⟩
abbrev main_call8_v0 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_call9_cst : Ref sig .tc := ⟨.hbm, 135, rfl⟩
abbrev main_call9_v0 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S128x128 : S_.BroadcastsInDim S128x128 (![] : Fin 0 → Fin S128x128.rank)
  bcast_S100000_S100000x1_0 : S100000.BroadcastsInDim S100000x1 (![0] : Fin 1 → Fin S100000x1.rank)
  bcast_S1x128_S128x128_0_1 : S1x128.BroadcastsInDim S128x128 (![0, 1] : Fin 2 → Fin S128x128.rank)
  bcast_S_S100000 : S_.BroadcastsInDim S100000 (![] : Fin 0 → Fin S100000.rank)
  concatenates_S100000x128_S100000x128_S100000x256_d1 : Shape.Concatenates [S100000x128, S100000x128] S100000x256 1
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  dot_S100000x128_S128x128_S100000x128_1_0_0_1_n_n_wf : DotDims.WF S100000x128 S128x128 S100000x128 [1] [0] [0] [1] [] []
  scatter_S128x128_S100000x1_S100000x128_1_0_0_1_wf : ScatterDims.WF S128x128 S100000x1 S100000x128 [1] [0] [0] 1
  dot_S128x128_S128x128_S128x128_1_0_0_1_n_n_wf : DotDims.WF S128x128 S128x128 S128x128 [1] [0] [0] [1] [] []
  gather_S128x128_S100000x1_S100000x128_1_0_n_n_0_1_1128_wf : GatherDims.WF S128x128 S100000x1 S100000x128 [1] [0] [] [0] [] 1 ![1, 128]
  dot_S100000x256_S256x128_S100000x128_1_0_0_1_n_n_wf : DotDims.WF S100000x256 S256x128 S100000x128 [1] [0] [0] [1] [] []
  dot_S128x128_S128x2_S128x2_1_0_0_1_n_n_wf : DotDims.WF S128x128 S128x2 S128x2 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def gather_S128x128_S100000x1_S100000x128_1_0_n_n_0_1_1128 : GatherDims S128x128 S100000x1 S100000x128 where
  offsetDims := [1]
  collapsedSliceDims := [0]
  operandBatchingDims := []
  startIndicesBatchingDims := []
  startIndexMap := [0]
  indexVectorDim := 1
  sliceSizes := ![1, 128]
  wf := gather_S128x128_S100000x1_S100000x128_1_0_n_n_0_1_1128_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S128x128_S128x2_S128x2_1_0_0_1_n_n : DotDims S128x128 S128x2 S128x2 where
  lhsContracting := [1]
  rhsContracting := [0]
  lhsNonContracting := [0]
  rhsNonContracting := [1]
  lhsBatch := []
  rhsBatch := []
  wf := dot_S128x128_S128x2_S128x2_1_0_0_1_n_n_wf

class Facts : Prop extends Facts₀ where

variable [Facts]
-- ==== Proof.K.State.lean ====
/-
  What the kernel's three scratch buffers and its output buffer hold after each grid point, as a recursion over
  the points, written over the body's printed arithmetic (the skeleton's payloads) and generic in the float instance.

  The grid is 2 × 10, point t = 10·p + i. Phase p = 0 (t = 0 … 9) streams the row blocks of the first node array
  through the first node network and adds each block's per-graph sums into the first accumulator (zeroed, with the
  second accumulator, at t = 0). At t = 10 the first graph network turns that accumulator into the graph embedding;
  phase p = 1 (t = 10 … 19) streams the row blocks of the second node array, each row joined with the embedding row its
  graph id selects, through the second node network into the second accumulator; at t = 19 the second graph network and
  the output network produce the output block.
-/
import proofs.«107935_g3393024163881_fold_wed_m_362_29_alg».proof.Proof.Gen.Kernel.Skeleton
import proofs.«107935_g3393024163881_fold_wed_m_362_29_alg».proof.Proof.Gen.Kernel.Frame

noncomputable section

namespace Cert.Kernel.Hand

open Idealize.ShloMosaic Idealize.ShloMosaic.TcCoe Idealize.SL.Sem
open Cert.Kernel Cert.Kernel.Gen

variable {F : FTy → Type} [FloatOps F]
variable (m : (ℓ : Loc nD τ sig) → Buf (Elt F) ℓ)

/-! ## The input blocks at a point, each at its literal type -/

/-- Window 0: the block of 10000 rows of the first node array. -/
abbrev bX1 (c : Dev nD) (t : Fin cfg0.N) : Vec F S10000x128 .f32 := iblk m c 0 t
/-- Window 1: the block of 10000 rows of the second node array. -/
abbrev bX2 (c : Dev nD) (t : Fin cfg0.N) : Vec F S10000x128 .f32 := iblk m c 1 t
/-- Window 2: the 10000 graph ids of the first id array that go with the block. -/
abbrev bId1 (c : Dev nD) (t : Fin cfg0.N) : Vec F S1x1x10000 .i32 := iblk m c 2 t
/-- Window 3: the 10000 graph ids of the second id array that go with the block. -/
abbrev bId2 (c : Dev nD) (t : Fin cfg0.N) : Vec F S1x1x10000 .i32 := iblk m c 3 t
/-- Window 4: a 128 × 128 weight matrix, whole at every point. -/
abbrev bE10 (c : Dev nD) (t : Fin cfg0.N) : Vec F S128x128 .f32 := iblk m c 4 t
/-- Window 6: a 128 × 128 weight matrix, whole at every point. -/
abbrev bE11 (c : Dev nD) (t : Fin cfg0.N) : Vec F S128x128 .f32 := iblk m c 6 t
/-- Window 8: a 128 × 128 weight matrix, whole at every point. -/
abbrev bE12 (c : Dev nD) (t : Fin cfg0.N) : Vec F S128x128 .f32 := iblk m c 8 t
/-- Window 10: a 128 × 128 weight matrix, whole at every point. -/
abbrev bR10 (c : Dev nD) (t : Fin cfg0.N) : Vec F S128x128 .f32 := iblk m c 10 t
/-- Window 12: a 128 × 128 weight matrix, whole at every point. -/
abbrev bR11 (c : Dev nD) (t : Fin cfg0.N) : Vec F S128x128 .f32 := iblk m c 12 t
/-- Window 14: a 128 × 128 weight matrix, whole at every point. -/
abbrev bR12 (c : Dev nD) (t : Fin cfg0.N) : Vec F S128x128 .f32 := iblk m c 14 t
/-- Window 16: a 128 × 128 weight matrix, whole at every point. -/
abbrev bW0a (c : Dev nD) (t : Fin cfg0.N) : Vec F S128x128 .f32 := iblk m c 16 t
/-- Window 17: a 128 × 128 weight matrix, whole at every point. -/
abbrev bW0b (c : Dev nD) (t : Fin cfg0.N) : Vec F S128x128 .f32 := iblk m c 17 t
/-- Window 19: a 128 × 128 weight matrix, whole at every point. -/
abbrev bE21 (c : Dev nD) (t : Fin cfg0.N) : Vec F S128x128 .f32 := iblk m c 19 t
/-- Window 21: a 128 × 128 weight matrix, whole at every point. -/
abbrev bE22 (c : Dev nD) (t : Fin cfg0.N) : Vec F S128x128 .f32 := iblk m c 21 t
/-- Window 23: a 128 × 128 weight matrix, whole at every point. -/
abbrev bR20 (c : Dev nD) (t : Fin cfg0.N) : Vec F S128x128 .f32 := iblk m c 23 t
/-- Window 25: a 128 × 128 weight matrix, whole at every point. -/
abbrev bR21 (c : Dev nD) (t : Fin cfg0.N) : Vec F S128x128 .f32 := iblk m c 25 t
/-- Window 27: a 128 × 128 weight matrix, whole at every point. -/
abbrev bR22 (c : Dev nD) (t : Fin cfg0.N) : Vec F S128x128 .f32 := iblk m c 27 t
/-- Window 29: a 128 × 128 weight matrix, whole at every point. -/
abbrev bM0 (c : Dev nD) (t : Fin cfg0.N) : Vec F S128x128 .f32 := iblk m c 29 t
/-- Window 31: a 128 × 128 weight matrix, whole at every point. -/
abbrev bM1 (c : Dev nD) (t : Fin cfg0.N) : Vec F S128x128 .f32 := iblk m c 31 t
/-- Window 33: a 128 × 128 weight matrix, whole at every point. -/
abbrev bM2p (c : Dev nD) (t : Fin cfg0.N) : Vec F S128x128 .f32 := iblk m c 33 t
/-- Window 5: a bias row, 1 × 128, whole at every point. -/
abbrev bE1b0 (c : Dev nD) (t : Fin cfg0.N) : Vec F S1x128 .f32 := iblk m c 5 t
/-- Window 7: a bias row, 1 × 128, whole at every point. -/
abbrev bE1b1 (c : Dev nD) (t : Fin cfg0.N) : Vec F S1x128 .f32 := iblk m c 7 t
/-- Window 9: a bias row, 1 × 128, whole at every point. -/
abbrev bE1b2 (c : Dev nD) (t : Fin cfg0.N) : Vec F S1x128 .f32 := iblk m c 9 t
/-- Window 11: a bias row, 1 × 128, whole at every point. -/
abbrev bR1b0 (c : Dev nD) (t : Fin cfg0.N) : Vec F S1x128 .f32 := iblk m c 11 t
/-- Window 13: a bias row, 1 × 128, whole at every point. -/
abbrev bR1b1 (c : Dev nD) (t : Fin cfg0.N) : Vec F S1x128 .f32 := iblk m c 13 t
/-- Window 15: a bias row, 1 × 128, whole at every point. -/
abbrev bR1b2 (c : Dev nD) (t : Fin cfg0.N) : Vec F S1x128 .f32 := iblk m c 15 t
/-- Window 18: a bias row, 1 × 128, whole at every point. -/
abbrev bE2b0 (c : Dev nD) (t : Fin cfg0.N) : Vec F S1x128 .f32 := iblk m c 18 t
/-- Window 20: a bias row, 1 × 128, whole at every point. -/
abbrev bE2b1 (c : Dev nD) (t : Fin cfg0.N) : Vec F S1x128 .f32 := iblk m c 20 t
/-- Window 22: a bias row, 1 × 128, whole at every point. -/
abbrev bE2b2 (c : Dev nD) (t : Fin cfg0.N) : Vec F S1x128 .f32 := iblk m c 22 t
/-- Window 24: a bias row, 1 × 128, whole at every point. -/
abbrev bR2b0 (c : Dev nD) (t : Fin cfg0.N) : Vec F S1x128 .f32 := iblk m c 24 t
/-- Window 26: a bias row, 1 × 128, whole at every point. -/
abbrev bR2b1 (c : Dev nD) (t : Fin cfg0.N) : Vec F S1x128 .f32 := iblk m c 26 t
/-- Window 28: a bias row, 1 × 128, whole at every point. -/
abbrev bR2b2 (c : Dev nD) (t : Fin cfg0.N) : Vec F S1x128 .f32 := iblk m c 28 t
/-- Window 30: a bias row, 1 × 128, whole at every point. -/
abbrev bMb0 (c : Dev nD) (t : Fin cfg0.N) : Vec F S1x128 .f32 := iblk m c 30 t
/-- Window 32: a bias row, 1 × 128, whole at every point. -/
abbrev bMb1 (c : Dev nD) (t : Fin cfg0.N) : Vec F S1x128 .f32 := iblk m c 32 t
/-- Window 34: a bias row, 1 × 128, whole at every point. -/
abbrev bMb2p (c : Dev nD) (t : Fin cfg0.N) : Vec F S1x128 .f32 := iblk m c 34 t

/-! ## One point's arithmetic, by phase -/

/-- The first node network on the point's block of the first node array: 10000 × 128. -/
def h1Blk (c : Dev nD) (t : Fin cfg0.N) : FVec F S10000x128 .f32 :=
  k0_pay7 (bX1 m c t) (bE10 m c t) (bE1b0 m c t) (bE11 m c t) (bE1b1 m c t) (bE12 m c t) (bE1b2 m c t)

/-- Phase 0: the first accumulator `a` plus the per-graph sums of the point's block (three one-hot products: the
    block's values, and twice a difference of a value with itself). -/
def agg1Step (c : Dev nD) (t : Fin cfg0.N) (a : Vec F S128x128 .f32) : FVec F S128x128 .f32 :=
  k0_pay3 (h1Blk m c t) (k0_pay8 (bId1 m c t)) a
    (k0_pay9 (bX1 m c t) (bE10 m c t) (bE1b0 m c t) (bE11 m c t) (bE1b1 m c t) (bE12 m c t) (bE1b2 m c t))
    (constant S128x128 .f32 0x00000000#32)

/-- The graph embedding: the first graph network on the finished first accumulator. -/
def u1sOf (c : Dev nD) (t : Fin cfg0.N) (a : Vec F S128x128 .f32) : FVec F S128x128 .f32 :=
  k0_pay4 a (bR10 m c t) (bR1b0 m c t) (bR11 m c t) (bR1b1 m c t) (bR12 m c t) (bR1b2 m c t)

/-- Phase 1, before the last bias: the second node network's last product on the point's block of the second node array,
    each row joined with the embedding row `u` its first graph id selects. -/
def h2Blk (c : Dev nD) (t : Fin cfg0.N) (u : Vec F S128x128 .f32) : FVec F S10000x128 .f32 :=
  k0_pay10 (bId1 m c t) u (bX2 m c t) (bW0a m c t) (bW0b m c t) (bE2b0 m c t) (bE21 m c t) (bE2b1 m c t) (bE22 m c t)

/-- Phase 1: the second accumulator `a` plus the per-graph sums (by the second graph ids) of the block. -/
def agg2Step (c : Dev nD) (t : Fin cfg0.N) (u a : Vec F S128x128 .f32) : FVec F S128x128 .f32 :=
  k0_pay5 (h2Blk m c t u) (bE2b2 m c t) (bId2 m c t) a

/-- The output block: the second graph network, then the output network (its last layer padded to 128 columns), on the
    finished second accumulator. -/
def outOf (c : Dev nD) (t : Fin cfg0.N) (a : Vec F S128x128 .f32) : FVec F S128x128 .f32 :=
  k0_pay6 (k0_pay11 a (bR20 m c t) (bR2b0 m c t) (bR21 m c t) (bR2b1 m c t) (bR22 m c t) (bR2b2 m c t))
    (bM0 m c t) (k0_pay12 (bMb0 m c t)) (bM1 m c t) (k0_pay13 (bMb1 m c t)) (k0_pay14 (bM2p m c t)) (bMb2p m c t)

/-! ## The buffers after each point -/

/-- The output buffer and the three scratch buffers (first accumulator, graph embedding, second accumulator). The
    embedding component means nothing before point 10 and the output component nothing before point 19: nothing reads
    them there. -/
structure St (F : FTy → Type) [FloatOps F] where
  out : Vec F S128x128 .f32
  agg1 : Vec F S128x128 .f32
  u1s : Vec F S128x128 .f32
  agg2 : Vec F S128x128 .f32

/-- A starting value for the components no point has written yet (never read). -/
def stInit : St F := ⟨k0_pay1, k0_pay1, k0_pay1, k0_pay1⟩

/-- One point: the five kinds of point of the 2 × 10 grid. -/
def stepSt (c : Dev nD) (t : Fin cfg0.N) (s : St F) : St F :=
  if t.val = 0 then { s with agg1 := agg1Step m c t k0_pay1, agg2 := k0_pay2 }
  else if t.val < 10 then { s with agg1 := agg1Step m c t s.agg1 }
  else if t.val = 10 then { s with u1s := u1sOf m c t s.agg1, agg2 := agg2Step m c t (u1sOf m c t s.agg1) s.agg2 }
  else if t.val < 19 then { s with agg2 := agg2Step m c t s.u1s s.agg2 }
  else { s with agg2 := agg2Step m c t s.u1s s.agg2, out := outOf m c t (agg2Step m c t s.u1s s.agg2) }

/-- The buffers after point `n`. -/
def stAt (c : Dev nD) : (n : ℕ) → n < cfg0.N → St F
  | 0, h => stepSt m c ⟨0, h⟩ stInit
  | n + 1, h => stepSt m c ⟨n + 1, h⟩ (stAt c n (Nat.lt_of_succ_lt h))

theorem stAt_zero (c : Dev nD) (h : 0 < cfg0.N) : stAt m c 0 h = stepSt m c ⟨0, h⟩ stInit := rfl

theorem stAt_succ (c : Dev nD) (n : ℕ) (h : n + 1 < cfg0.N) :
    stAt m c (n + 1) h = stepSt m c ⟨n + 1, h⟩ (stAt m c n (Nat.lt_of_succ_lt h)) := rfl

/-- After a point that is not the first: one step over what the point before left. -/
theorem stAt_pos (c : Dev nD) (t : Fin cfg0.N) (ht : t.val ≠ 0) :
    stAt m c t.val t.isLt = stepSt m c t (stAt m c (t.val - 1) (Nat.lt_of_le_of_lt (Nat.sub_le _ _) t.isLt)) := by
  obtain ⟨n, hn⟩ := t
  cases n with
  | zero => exact absurd rfl ht
  | succ n => rfl

end Cert.Kernel.Hand

end
-- ==== Proof.K.Grid.lean ====
/-
  The grid's five kinds of point, and what the kernel body is run on at a point.

  The body branches five times on the grid coordinates (p, i) of the point t = 10·p + i: on p = 0 ∧ i = 0 (the two
  accumulators are zeroed), on p = 0 (a block of the first node array is added into the first accumulator), on
  p = 1 ∧ i = 0 (the graph embedding is computed from the finished first accumulator), on p = 1 (a block of the second
  node array is added into the second accumulator) and on p = 1 ∧ i = 9 (the output block is computed). Here: the five
  conditions as propositions over the coordinates with their closed forms over the point's number; each window's
  staging memref at a point and the three scratch memrefs; and the separating conjunction of the 35 input windows'
  staging buffers, each owned whole at its block.
-/
import proofs.«107935_g3393024163881_fold_wed_m_362_29_alg».proof.Proof.K.State

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The body's five branch conditions -/

/-- p = 0 ∧ i = 0: the first point. -/
abbrev condZero (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- p = 0: the first phase. -/
abbrev condPh0 (i : grid0.Coords) : Prop :=
  (Scalar.cmpi .ne (Scalar.extui (Scalar.cmpi .eq (BitVec.ofNat 32 (i 0).val) 0#32)) 0#32) = 1#1
/-- p = 1 ∧ i = 0: the first point of the second phase. -/
abbrev condMid (i : grid0.Coords) : Prop :=
  (Scalar.cmpi .ne (Scalar.extui (Scalar.andi (Scalar.cmpi .eq (BitVec.ofNat 32 (i 0).val) 1#32) (Scalar.cmpi .eq (BitVec.ofNat 32 (i 1).val) 0#32))) 0#32) = 1#1
/-- p = 1: the second phase. -/
abbrev condPh1 (i : grid0.Coords) : Prop :=
  (Scalar.cmpi .ne (Scalar.extui (Scalar.cmpi .eq (BitVec.ofNat 32 (i 0).val) 1#32)) 0#32) = 1#1
/-- p = 1 ∧ i = 9: the last point. -/
abbrev condLast (i : grid0.Coords) : Prop := k0_cond5 i = 1#1

theorem hcondZero : ∀ t : Fin cfg0.N, condZero (grid0.coords t) ↔ t.val = 0 :=
  (by decide +kernel : ∀ t : Fin grid0.N, condZero (grid0.coords t) ↔ t.val = 0)
theorem hcondPh0 : ∀ t : Fin cfg0.N, condPh0 (grid0.coords t) ↔ t.val < 10 :=
  (by decide +kernel : ∀ t : Fin grid0.N, condPh0 (grid0.coords t) ↔ t.val < 10)
theorem hcondMid : ∀ t : Fin cfg0.N, condMid (grid0.coords t) ↔ t.val = 10 :=
  (by decide +kernel : ∀ t : Fin grid0.N, condMid (grid0.coords t) ↔ t.val = 10)
theorem hcondPh1 : ∀ t : Fin cfg0.N, condPh1 (grid0.coords t) ↔ 10 ≤ t.val :=
  (by decide +kernel : ∀ t : Fin grid0.N, condPh1 (grid0.coords t) ↔ 10 ≤ t.val)
theorem hcondLast : ∀ t : Fin cfg0.N, condLast (grid0.coords t) ↔ t.val = 19 :=
  (by decide +kernel : ∀ t : Fin grid0.N, condLast (grid0.coords t) ↔ t.val = 19)

/-! ## The memrefs the body is called with at a point -/

abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x10000 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x10000 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S128x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S128x128 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x128 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S128x128 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S128x128 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x128 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S128x128 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1x128 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S128x128 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S1x128 .f32 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S128x128 .f32 := win0_23.stage (cfg0.slots t 23)
abbrev hs0_23 (t : Fin cfg0.N) : (ms0_23 t).IsWhole := hstage0_23 ((cfg0.slots t 23).cast nbuf0_23)
abbrev ms0_24 (t : Fin cfg0.N) : Memref sig .tc .vmem S1x128 .f32 := win0_24.stage (cfg0.slots t 24)
abbrev hs0_24 (t : Fin cfg0.N) : (ms0_24 t).IsWhole := hstage0_24 ((cfg0.slots t 24).cast nbuf0_24)
abbrev ms0_25 (t : Fin cfg0.N) : Memref sig .tc .vmem S128x128 .f32 := win0_25.stage (cfg0.slots t 25)
abbrev hs0_25 (t : Fin cfg0.N) : (ms0_25 t).IsWhole := hstage0_25 ((cfg0.slots t 25).cast nbuf0_25)
abbrev ms0_26 (t : Fin cfg0.N) : Memref sig .tc .vmem S1x128 .f32 := win0_26.stage (cfg0.slots t 26)
abbrev hs0_26 (t : Fin cfg0.N) : (ms0_26 t).IsWhole := hstage0_26 ((cfg0.slots t 26).cast nbuf0_26)
abbrev ms0_27 (t : Fin cfg0.N) : Memref sig .tc .vmem S128x128 .f32 := win0_27.stage (cfg0.slots t 27)
abbrev hs0_27 (t : Fin cfg0.N) : (ms0_27 t).IsWhole := hstage0_27 ((cfg0.slots t 27).cast nbuf0_27)
abbrev ms0_28 (t : Fin cfg0.N) : Memref sig .tc .vmem S1x128 .f32 := win0_28.stage (cfg0.slots t 28)
abbrev hs0_28 (t : Fin cfg0.N) : (ms0_28 t).IsWhole := hstage0_28 ((cfg0.slots t 28).cast nbuf0_28)
abbrev ms0_29 (t : Fin cfg0.N) : Memref sig .tc .vmem S128x128 .f32 := win0_29.stage (cfg0.slots t 29)
abbrev hs0_29 (t : Fin cfg0.N) : (ms0_29 t).IsWhole := hstage0_29 ((cfg0.slots t 29).cast nbuf0_29)
abbrev ms0_30 (t : Fin cfg0.N) : Memref sig .tc .vmem S1x128 .f32 := win0_30.stage (cfg0.slots t 30)
abbrev hs0_30 (t : Fin cfg0.N) : (ms0_30 t).IsWhole := hstage0_30 ((cfg0.slots t 30).cast nbuf0_30)
abbrev ms0_31 (t : Fin cfg0.N) : Memref sig .tc .vmem S128x128 .f32 := win0_31.stage (cfg0.slots t 31)
abbrev hs0_31 (t : Fin cfg0.N) : (ms0_31 t).IsWhole := hstage0_31 ((cfg0.slots t 31).cast nbuf0_31)
abbrev ms0_32 (t : Fin cfg0.N) : Memref sig .tc .vmem S1x128 .f32 := win0_32.stage (cfg0.slots t 32)
abbrev hs0_32 (t : Fin cfg0.N) : (ms0_32 t).IsWhole := hstage0_32 ((cfg0.slots t 32).cast nbuf0_32)
abbrev ms0_33 (t : Fin cfg0.N) : Memref sig .tc .vmem S128x128 .f32 := win0_33.stage (cfg0.slots t 33)
abbrev hs0_33 (t : Fin cfg0.N) : (ms0_33 t).IsWhole := hstage0_33 ((cfg0.slots t 33).cast nbuf0_33)
abbrev ms0_34 (t : Fin cfg0.N) : Memref sig .tc .vmem S1x128 .f32 := win0_34.stage (cfg0.slots t 34)
abbrev hs0_34 (t : Fin cfg0.N) : (ms0_34 t).IsWhole := hstage0_34 ((cfg0.slots t 34).cast nbuf0_34)
abbrev ms0_35 (t : Fin cfg0.N) : Memref sig .tc .vmem S128x128 .f32 := win0_35.stage (cfg0.slots t 35)
abbrev hs0_35 (t : Fin cfg0.N) : (ms0_35 t).IsWhole := hstage0_35 ((cfg0.slots t 35).cast nbuf0_35)

/-- The three scratch buffers, whole: the first accumulator, the graph embedding, the second accumulator. -/
abbrev scM0 : Memref sig .tc .vmem S128x128 .f32 := Memref.whole cc0_scratch0
abbrev scM1 : Memref sig .tc .vmem S128x128 .f32 := Memref.whole cc0_scratch1
abbrev scM2 : Memref sig .tc .vmem S128x128 .f32 := Memref.whole cc0_scratch2

/-- The 35 input windows' staging buffers at point `t`, each owned whole at its block. -/
def insAt (c : Dev nD) (t : Fin cfg0.N) : sProp 𝕄 :=
  iprop(owns (c : Thread nD τ) (ms0_0 t) fullShare (bX1 m c t)
    ∗ owns (c : Thread nD τ) (ms0_1 t) fullShare (bX2 m c t)
    ∗ owns (c : Thread nD τ) (ms0_2 t) fullShare (bId1 m c t)
    ∗ owns (c : Thread nD τ) (ms0_3 t) fullShare (bId2 m c t)
    ∗ owns (c : Thread nD τ) (ms0_4 t) fullShare (bE10 m c t)
    ∗ owns (c : Thread nD τ) (ms0_5 t) fullShare (bE1b0 m c t)
    ∗ owns (c : Thread nD τ) (ms0_6 t) fullShare (bE11 m c t)
    ∗ owns (c : Thread nD τ) (ms0_7 t) fullShare (bE1b1 m c t)
    ∗ owns (c : Thread nD τ) (ms0_8 t) fullShare (bE12 m c t)
    ∗ owns (c : Thread nD τ) (ms0_9 t) fullShare (bE1b2 m c t)
    ∗ owns (c : Thread nD τ) (ms0_10 t) fullShare (bR10 m c t)
    ∗ owns (c : Thread nD τ) (ms0_11 t) fullShare (bR1b0 m c t)
    ∗ owns (c : Thread nD τ) (ms0_12 t) fullShare (bR11 m c t)
    ∗ owns (c : Thread nD τ) (ms0_13 t) fullShare (bR1b1 m c t)
    ∗ owns (c : Thread nD τ) (ms0_14 t) fullShare (bR12 m c t)
    ∗ owns (c : Thread nD τ) (ms0_15 t) fullShare (bR1b2 m c t)
    ∗ owns (c : Thread nD τ) (ms0_16 t) fullShare (bW0a m c t)
    ∗ owns (c : Thread nD τ) (ms0_17 t) fullShare (bW0b m c t)
    ∗ owns (c : Thread nD τ) (ms0_18 t) fullShare (bE2b0 m c t)
    ∗ owns (c : Thread nD τ) (ms0_19 t) fullShare (bE21 m c t)
    ∗ owns (c : Thread nD τ) (ms0_20 t) fullShare (bE2b1 m c t)
    ∗ owns (c : Thread nD τ) (ms0_21 t) fullShare (bE22 m c t)
    ∗ owns (c : Thread nD τ) (ms0_22 t) fullShare (bE2b2 m c t)
    ∗ owns (c : Thread nD τ) (ms0_23 t) fullShare (bR20 m c t)
    ∗ owns (c : Thread nD τ) (ms0_24 t) fullShare (bR2b0 m c t)
    ∗ owns (c : Thread nD τ) (ms0_25 t) fullShare (bR21 m c t)
    ∗ owns (c : Thread nD τ) (ms0_26 t) fullShare (bR2b1 m c t)
    ∗ owns (c : Thread nD τ) (ms0_27 t) fullShare (bR22 m c t)
    ∗ owns (c : Thread nD τ) (ms0_28 t) fullShare (bR2b2 m c t)
    ∗ owns (c : Thread nD τ) (ms0_29 t) fullShare (bM0 m c t)
    ∗ owns (c : Thread nD τ) (ms0_30 t) fullShare (bMb0 m c t)
    ∗ owns (c : Thread nD τ) (ms0_31 t) fullShare (bM1 m c t)
    ∗ owns (c : Thread nD τ) (ms0_32 t) fullShare (bMb1 m c t)
    ∗ owns (c : Thread nD τ) (ms0_33 t) fullShare (bM2p m c t)
    ∗ owns (c : Thread nD τ) (ms0_34 t) fullShare (bMb2p m c t))

end Cert.Kernel.Hand

end
-- ==== Proof.K.Whole.lean ====
/-
  Whole-buffer accesses. Every load and store of the kernel body is of a whole buffer: through the rectangle of the
  buffer's own sizes at zero offsets. Such a load reads what the buffer reads, and such a store, made last, is what the
  buffer then reads, whatever it held and whatever was stored into it before.
-/
import Idealize.ShloMosaic.Lib.Pipeline.FrameBody
import Idealize.ShloMosaic.Lib.Pipeline.Value

noncomputable section

namespace Cert.Kernel.Hand

open Idealize.ShloMosaic Idealize.SL.Sem

variable {Val : EltTy → Type} [∀ e, Nonempty (Val e)] {sig : RefSig} {κ : Kind} {sp : Space} {S : Shape} {e : EltTy}

/-- The zero offsets of a whole-buffer access of rank 2, as a function. -/
theorem hz2 : (![0, 0] : Fin 2 → ℕ) = fun _ => 0 := by funext a; fin_cases a <;> rfl
/-- The zero offsets of a whole-buffer access of rank 3, as a function. -/
theorem hz3 : (![0, 0, 0] : Fin 3 → ℕ) = fun _ => 0 := by funext a; fin_cases a <;> rfl

/-- A load of the whole shape reads what the buffer reads. -/
theorem readAt_whole (v : View sig κ sp S e) (f : v.ty.Contents Val) {X : S.Idx → Val e} (hf : v.read Val f = X)
    {off : Fin S.rank → ℕ} (h : off = fun _ => 0) (inb : ∀ a, off a + S.size a ≤ S.size a) :
    v.readAt Val (Rect.unit off S.size inb).toLoadRect f = X := by
  subst hf; exact View.ld_unit_zero h inb _

/-- A store of the whole shape, made last, is what the buffer then reads, whatever it held and whatever was stored before. -/
theorem read_writes_cons_whole (v : View sig κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩), View.canon_cons_unit_zero h]

end Cert.Kernel.Hand

end
-- ==== Proof.K.RunA.lean ====
/-
  The first point of the grid (p = 0, i = 0). The body takes its first two branches: it zeroes the first and the second
  accumulator, then runs the first node network on the point's block of the first node array and adds the block's
  per-graph sums into the (zeroed) first accumulator. Whatever the two accumulators held before is overwritten.

  Stated twice: over any whole memrefs, any coordinates at which the five branch conditions fall as they do at such a
  point, and any contents of the buffers; then at the point's own staging buffers and blocks. The body is opened by its
  skeleton and run symbolically; what a stored buffer then reads is its last store's payload, and each payload is read
  at what the loads before it read: a whole-buffer load reads the buffer's contents.
-/
import proofs.«107935_g3393024163881_fold_wed_m_362_29_alg».proof.Proof.K.Grid
import proofs.«107935_g3393024163881_fold_wed_m_362_29_alg».proof.Proof.K.Whole

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- The first point: the body zeroes both accumulators, then adds the block's per-graph sums into the first. -/
theorem bodyRun_A (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole)
    (hc1 : condZero i) (hc2 : condPh0 i) (hc3 : ¬condMid i) (hc4 : ¬condPh1 i) (hc5 : ¬condLast i)
    (x0 : Vec F S10000x128 .f32) (x1 : Vec F S10000x128 .f32) (x2 : Vec F S1x1x10000 .i32) (x3 : Vec F S1x1x10000 .i32) (x4 : Vec F S128x128 .f32) (x5 : Vec F S1x128 .f32) (x6 : Vec F S128x128 .f32) (x7 : Vec F S1x128 .f32) (x8 : Vec F S128x128 .f32) (x9 : Vec F S1x128 .f32) (x10 : Vec F S128x128 .f32) (x11 : Vec F S1x128 .f32) (x12 : Vec F S128x128 .f32) (x13 : Vec F S1x128 .f32) (x14 : Vec F S128x128 .f32) (x15 : Vec F S1x128 .f32) (x16 : Vec F S128x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S128x128 .f32) (x24 : Vec F S1x128 .f32) (x25 : Vec F S128x128 .f32) (x26 : Vec F S1x128 .f32) (x27 : Vec F S128x128 .f32) (x28 : Vec F S1x128 .f32) (x29 : Vec F S128x128 .f32) (x30 : Vec F S1x128 .f32) (x31 : Vec F S128x128 .f32) (x32 : Vec F S1x128 .f32) (x33 : Vec F S128x128 .f32) (x34 : Vec F S1x128 .f32) (xo s0 s1 s2 : Vec F S128x128 .f32) (E : Set ℕ) (K : PUnit → sProp 𝕄) :
    iprop(iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare x9
        ∗ owns (c : Thread nD τ) arg12 fullShare x10
        ∗ owns (c : Thread nD τ) arg13 fullShare x11
        ∗ owns (c : Thread nD τ) arg14 fullShare x12
        ∗ owns (c : Thread nD τ) arg15 fullShare x13
        ∗ owns (c : Thread nD τ) arg16 fullShare x14
        ∗ owns (c : Thread nD τ) arg17 fullShare x15
        ∗ owns (c : Thread nD τ) arg18 fullShare x16
        ∗ owns (c : Thread nD τ) arg19 fullShare x17
        ∗ owns (c : Thread nD τ) arg20 fullShare x18
        ∗ owns (c : Thread nD τ) arg21 fullShare x19
        ∗ owns (c : Thread nD τ) arg22 fullShare x20
        ∗ owns (c : Thread nD τ) arg23 fullShare x21
        ∗ owns (c : Thread nD τ) arg24 fullShare x22
        ∗ owns (c : Thread nD τ) arg25 fullShare x23
        ∗ owns (c : Thread nD τ) arg26 fullShare x24
        ∗ owns (c : Thread nD τ) arg27 fullShare x25
        ∗ owns (c : Thread nD τ) arg28 fullShare x26
        ∗ owns (c : Thread nD τ) arg29 fullShare x27
        ∗ owns (c : Thread nD τ) arg30 fullShare x28
        ∗ owns (c : Thread nD τ) arg31 fullShare x29
        ∗ owns (c : Thread nD τ) arg32 fullShare x30
        ∗ owns (c : Thread nD τ) arg33 fullShare x31
        ∗ owns (c : Thread nD τ) arg34 fullShare x32
        ∗ owns (c : Thread nD τ) arg35 fullShare x33
        ∗ owns (c : Thread nD τ) arg36 fullShare x34)
      ∗ owns (c : Thread nD τ) arg37 fullShare xo
      ∗ owns (c : Thread nD τ) arg38 fullShare s0
      ∗ owns (c : Thread nD τ) arg39 fullShare s1
      ∗ owns (c : Thread nD τ) arg40 fullShare s2
      ∗ (iprop(iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare x9
        ∗ owns (c : Thread nD τ) arg12 fullShare x10
        ∗ owns (c : Thread nD τ) arg13 fullShare x11
        ∗ owns (c : Thread nD τ) arg14 fullShare x12
        ∗ owns (c : Thread nD τ) arg15 fullShare x13
        ∗ owns (c : Thread nD τ) arg16 fullShare x14
        ∗ owns (c : Thread nD τ) arg17 fullShare x15
        ∗ owns (c : Thread nD τ) arg18 fullShare x16
        ∗ owns (c : Thread nD τ) arg19 fullShare x17
        ∗ owns (c : Thread nD τ) arg20 fullShare x18
        ∗ owns (c : Thread nD τ) arg21 fullShare x19
        ∗ owns (c : Thread nD τ) arg22 fullShare x20
        ∗ owns (c : Thread nD τ) arg23 fullShare x21
        ∗ owns (c : Thread nD τ) arg24 fullShare x22
        ∗ owns (c : Thread nD τ) arg25 fullShare x23
        ∗ owns (c : Thread nD τ) arg26 fullShare x24
        ∗ owns (c : Thread nD τ) arg27 fullShare x25
        ∗ owns (c : Thread nD τ) arg28 fullShare x26
        ∗ owns (c : Thread nD τ) arg29 fullShare x27
        ∗ owns (c : Thread nD τ) arg30 fullShare x28
        ∗ owns (c : Thread nD τ) arg31 fullShare x29
        ∗ owns (c : Thread nD τ) arg32 fullShare x30
        ∗ owns (c : Thread nD τ) arg33 fullShare x31
        ∗ owns (c : Thread nD τ) arg34 fullShare x32
        ∗ owns (c : Thread nD τ) arg35 fullShare x33
        ∗ owns (c : Thread nD τ) arg36 fullShare x34)
      ∗ owns (c : Thread nD τ) arg37 fullShare xo
      ∗ owns (c : Thread nD τ) arg38 fullShare (k0_pay3 (k0_pay7 x0 x4 x5 x6 x7 x8 x9) (k0_pay8 x2) k0_pay1 (k0_pay9 x0 x4 x5 x6 x7 x8 x9) (constant S128x128 .f32 0x00000000#32))
      ∗ owns (c : Thread nD τ) arg39 fullShare s1
      ∗ owns (c : Thread nD τ) arg40 fullShare k0_pay2) -∗ K ⟨⟩))
    ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40) K := by
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩⟩, ⟨%fo, %hfo, Ho⟩, ⟨%g0, %hg0, S0⟩, ⟨%g1, %hg1, S1⟩, ⟨%g2, %hg2, S2⟩, Hk⟩
  sl_unfold [cc0__body]
  sl_exec (disch := first | exact hc1 | exact hc2 | exact hc3 | exact hc4 | exact hc5)
  sl_step
  iapply Hk
  isplitl [H0 H1 H2 H3 H4 H5 H6 H7 H8 H9 H10 H11 H12 H13 H14 H15 H16 H17 H18 H19 H20 H21 H22 H23 H24 H25 H26 H27 H28 H29 H30 H31 H32 H33 H34]
  · isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    isplitl [H5]
    · iexists f5; isplitr; · ipureintro; exact hf5
      iexact H5
    isplitl [H6]
    · iexists f6; isplitr; · ipureintro; exact hf6
      iexact H6
    isplitl [H7]
    · iexists f7; isplitr; · ipureintro; exact hf7
      iexact H7
    isplitl [H8]
    · iexists f8; isplitr; · ipureintro; exact hf8
      iexact H8
    isplitl [H9]
    · iexists f9; isplitr; · ipureintro; exact hf9
      iexact H9
    isplitl [H10]
    · iexists f10; isplitr; · ipureintro; exact hf10
      iexact H10
    isplitl [H11]
    · iexists f11; isplitr; · ipureintro; exact hf11
      iexact H11
    isplitl [H12]
    · iexists f12; isplitr; · ipureintro; exact hf12
      iexact H12
    isplitl [H13]
    · iexists f13; isplitr; · ipureintro; exact hf13
      iexact H13
    isplitl [H14]
    · iexists f14; isplitr; · ipureintro; exact hf14
      iexact H14
    isplitl [H15]
    · iexists f15; isplitr; · ipureintro; exact hf15
      iexact H15
    isplitl [H16]
    · iexists f16; isplitr; · ipureintro; exact hf16
      iexact H16
    isplitl [H17]
    · iexists f17; isplitr; · ipureintro; exact hf17
      iexact H17
    isplitl [H18]
    · iexists f18; isplitr; · ipureintro; exact hf18
      iexact H18
    isplitl [H19]
    · iexists f19; isplitr; · ipureintro; exact hf19
      iexact H19
    isplitl [H20]
    · iexists f20; isplitr; · ipureintro; exact hf20
      iexact H20
    isplitl [H21]
    · iexists f21; isplitr; · ipureintro; exact hf21
      iexact H21
    isplitl [H22]
    · iexists f22; isplitr; · ipureintro; exact hf22
      iexact H22
    isplitl [H23]
    · iexists f23; isplitr; · ipureintro; exact hf23
      iexact H23
    isplitl [H24]
    · iexists f24; isplitr; · ipureintro; exact hf24
      iexact H24
    isplitl [H25]
    · iexists f25; isplitr; · ipureintro; exact hf25
      iexact H25
    isplitl [H26]
    · iexists f26; isplitr; · ipureintro; exact hf26
      iexact H26
    isplitl [H27]
    · iexists f27; isplitr; · ipureintro; exact hf27
      iexact H27
    isplitl [H28]
    · iexists f28; isplitr; · ipureintro; exact hf28
      iexact H28
    isplitl [H29]
    · iexists f29; isplitr; · ipureintro; exact hf29
      iexact H29
    isplitl [H30]
    · iexists f30; isplitr; · ipureintro; exact hf30
      iexact H30
    isplitl [H31]
    · iexists f31; isplitr; · ipureintro; exact hf31
      iexact H31
    isplitl [H32]
    · iexists f32; isplitr; · ipureintro; exact hf32
      iexact H32
    isplitl [H33]
    · iexists f33; isplitr; · ipureintro; exact hf33
      iexact H33
    iexists f34; isplitr; · ipureintro; exact hf34
    iexact H34
  isplitl [Ho]
  · iexists fo; isplitr; · ipureintro; exact hfo
    iexact Ho
  isplitl [S0]
  · iexists _; isplitr
    swap; · iexact S0
    ipureintro
    refine (read_writes_cons_whole _ _ hz2 _ _ _).trans ?_
    sl_unfold_run_names
    simp only [readAt_whole _ _ hf0 hz2, readAt_whole _ _ hf1 hz2, readAt_whole _ _ hf2 hz3, readAt_whole _ _ hf3 hz3, readAt_whole _ _ hf4 hz2, readAt_whole _ _ hf5 hz2, readAt_whole _ _ hf6 hz2, readAt_whole _ _ hf7 hz2, readAt_whole _ _ hf8 hz2, readAt_whole _ _ hf9 hz2, readAt_whole _ _ hf10 hz2, readAt_whole _ _ hf11 hz2, readAt_whole _ _ hf12 hz2, readAt_whole _ _ hf13 hz2, readAt_whole _ _ hf14 hz2, readAt_whole _ _ hf15 hz2, readAt_whole _ _ hf16 hz2, readAt_whole _ _ hf17 hz2, readAt_whole _ _ hf18 hz2, readAt_whole _ _ hf19 hz2, readAt_whole _ _ hf20 hz2, readAt_whole _ _ hf21 hz2, readAt_whole _ _ hf22 hz2, readAt_whole _ _ hf23 hz2, readAt_whole _ _ hf24 hz2, readAt_whole _ _ hf25 hz2, readAt_whole _ _ hf26 hz2, readAt_whole _ _ hf27 hz2, readAt_whole _ _ hf28 hz2, readAt_whole _ _ hf29 hz2, readAt_whole _ _ hf30 hz2, readAt_whole _ _ hf31 hz2, readAt_whole _ _ hf32 hz2, readAt_whole _ _ hf33 hz2, readAt_whole _ _ hf34 hz2, readAt_whole _ _ hfo hz2, readAt_whole _ _ hg0 hz2, readAt_whole _ _ hg1 hz2, readAt_whole _ _ hg2 hz2, View.readCov_unit_zero (S := S128x128) _ hz2]
  isplitl [S1]
  · iexists g1; isplitr; · ipureintro; exact hg1
    iexact S1
  iexists _; isplitr
  swap; · iexact S2
  ipureintro
  refine (read_writes_cons_whole _ _ hz2 _ _ _).trans ?_
  sl_unfold_run_names
  simp only [readAt_whole _ _ hf0 hz2, readAt_whole _ _ hf1 hz2, readAt_whole _ _ hf2 hz3, readAt_whole _ _ hf3 hz3, readAt_whole _ _ hf4 hz2, readAt_whole _ _ hf5 hz2, readAt_whole _ _ hf6 hz2, readAt_whole _ _ hf7 hz2, readAt_whole _ _ hf8 hz2, readAt_whole _ _ hf9 hz2, readAt_whole _ _ hf10 hz2, readAt_whole _ _ hf11 hz2, readAt_whole _ _ hf12 hz2, readAt_whole _ _ hf13 hz2, readAt_whole _ _ hf14 hz2, readAt_whole _ _ hf15 hz2, readAt_whole _ _ hf16 hz2, readAt_whole _ _ hf17 hz2, readAt_whole _ _ hf18 hz2, readAt_whole _ _ hf19 hz2, readAt_whole _ _ hf20 hz2, readAt_whole _ _ hf21 hz2, readAt_whole _ _ hf22 hz2, readAt_whole _ _ hf23 hz2, readAt_whole _ _ hf24 hz2, readAt_whole _ _ hf25 hz2, readAt_whole _ _ hf26 hz2, readAt_whole _ _ hf27 hz2, readAt_whole _ _ hf28 hz2, readAt_whole _ _ hf29 hz2, readAt_whole _ _ hf30 hz2, readAt_whole _ _ hf31 hz2, readAt_whole _ _ hf32 hz2, readAt_whole _ _ hf33 hz2, readAt_whole _ _ hf34 hz2, readAt_whole _ _ hfo hz2, readAt_whole _ _ hg0 hz2, readAt_whole _ _ hg1 hz2, readAt_whole _ _ hg2 hz2, View.readCov_unit_zero (S := S128x128) _ hz2]

/-- The same at the point's own staging buffers and blocks. -/
theorem run_A (c : Dev nD) (t : Fin cfg0.N) (h : t.val = 0) (xo s0 s1 s2 : Vec F S128x128 .f32) (E : Set ℕ) (K : PUnit → sProp 𝕄) :
    iprop(insAt m c t ∗ owns (c : Thread nD τ) (ms0_35 t) fullShare xo ∗ owns (c : Thread nD τ) scM0 fullShare s0 ∗ owns (c : Thread nD τ) scM1 fullShare s1 ∗ owns (c : Thread nD τ) scM2 fullShare s2
      ∗ (iprop(insAt m c t ∗ owns (c : Thread nD τ) (ms0_35 t) fullShare xo ∗ owns (c : Thread nD τ) scM0 fullShare (agg1Step m c t k0_pay1) ∗ owns (c : Thread nD τ) scM1 fullShare s1 ∗ owns (c : Thread nD τ) scM2 fullShare k0_pay2) -∗ K ⟨⟩))
    ⊢ wp frame (wpE (defs₀ (F := F)) Variants.none c none) E (bodyAt0 t) K := by
  have hN : t.val < 20 := lt_of_lt_of_eq t.isLt (show cfg0.N = 20 from N_0)
  exact bodyRun_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t)
    scM0 (Memref.isWhole_whole _) scM1 (Memref.isWhole_whole _) scM2 (Memref.isWhole_whole _)
    ((hcondZero t).mpr h)
    ((hcondPh0 t).mpr (by omega))
    (fun h' => by have := (hcondMid t).mp h'; omega)
    (fun h' => by have := (hcondPh1 t).mp h'; omega)
    (fun h' => by have := (hcondLast t).mp h'; omega)
    (bX1 m c t) (bX2 m c t) (bId1 m c t) (bId2 m c t) (bE10 m c t) (bE1b0 m c t) (bE11 m c t) (bE1b1 m c t) (bE12 m c t) (bE1b2 m c t) (bR10 m c t) (bR1b0 m c t) (bR11 m c t) (bR1b1 m c t) (bR12 m c t) (bR1b2 m c t) (bW0a m c t) (bW0b m c t) (bE2b0 m c t) (bE21 m c t) (bE2b1 m c t) (bE22 m c t) (bE2b2 m c t) (bR20 m c t) (bR2b0 m c t) (bR21 m c t) (bR2b1 m c t) (bR22 m c t) (bR2b2 m c t) (bM0 m c t) (bMb0 m c t) (bM1 m c t) (bMb1 m c t) (bM2p m c t) (bMb2p m c t) xo s0 s1 s2 E K

end Cert.Kernel.Hand

end
-- ==== Proof.K.RunB.lean ====
/-
  A point of the first phase after the first (p = 0, 0 < i). The body takes its second branch only: it runs the first
  node network on the point's block of the first node array and adds the block's per-graph sums into the first
  accumulator. Every other buffer is left as it was.

  Stated twice: over any whole memrefs, any coordinates at which the five branch conditions fall as they do at such a
  point, and any contents of the buffers; then at the point's own staging buffers and blocks. The body is opened by its
  skeleton and run symbolically; what a stored buffer then reads is its last store's payload, and each payload is read
  at what the loads before it read: a whole-buffer load reads the buffer's contents.
-/
import proofs.«107935_g3393024163881_fold_wed_m_362_29_alg».proof.Proof.K.Grid
import proofs.«107935_g3393024163881_fold_wed_m_362_29_alg».proof.Proof.K.Whole

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- A point of the first phase after the first: the body adds the block's per-graph sums into the first accumulator and
    touches nothing else. -/
theorem bodyRun_B (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole)
    (hc1 : ¬condZero i) (hc2 : condPh0 i) (hc3 : ¬condMid i) (hc4 : ¬condPh1 i) (hc5 : ¬condLast i)
    (x0 : Vec F S10000x128 .f32) (x1 : Vec F S10000x128 .f32) (x2 : Vec F S1x1x10000 .i32) (x3 : Vec F S1x1x10000 .i32) (x4 : Vec F S128x128 .f32) (x5 : Vec F S1x128 .f32) (x6 : Vec F S128x128 .f32) (x7 : Vec F S1x128 .f32) (x8 : Vec F S128x128 .f32) (x9 : Vec F S1x128 .f32) (x10 : Vec F S128x128 .f32) (x11 : Vec F S1x128 .f32) (x12 : Vec F S128x128 .f32) (x13 : Vec F S1x128 .f32) (x14 : Vec F S128x128 .f32) (x15 : Vec F S1x128 .f32) (x16 : Vec F S128x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S128x128 .f32) (x24 : Vec F S1x128 .f32) (x25 : Vec F S128x128 .f32) (x26 : Vec F S1x128 .f32) (x27 : Vec F S128x128 .f32) (x28 : Vec F S1x128 .f32) (x29 : Vec F S128x128 .f32) (x30 : Vec F S1x128 .f32) (x31 : Vec F S128x128 .f32) (x32 : Vec F S1x128 .f32) (x33 : Vec F S128x128 .f32) (x34 : Vec F S1x128 .f32) (xo s0 s1 s2 : Vec F S128x128 .f32) (E : Set ℕ) (K : PUnit → sProp 𝕄) :
    iprop(iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare x9
        ∗ owns (c : Thread nD τ) arg12 fullShare x10
        ∗ owns (c : Thread nD τ) arg13 fullShare x11
        ∗ owns (c : Thread nD τ) arg14 fullShare x12
        ∗ owns (c : Thread nD τ) arg15 fullShare x13
        ∗ owns (c : Thread nD τ) arg16 fullShare x14
        ∗ owns (c : Thread nD τ) arg17 fullShare x15
        ∗ owns (c : Thread nD τ) arg18 fullShare x16
        ∗ owns (c : Thread nD τ) arg19 fullShare x17
        ∗ owns (c : Thread nD τ) arg20 fullShare x18
        ∗ owns (c : Thread nD τ) arg21 fullShare x19
        ∗ owns (c : Thread nD τ) arg22 fullShare x20
        ∗ owns (c : Thread nD τ) arg23 fullShare x21
        ∗ owns (c : Thread nD τ) arg24 fullShare x22
        ∗ owns (c : Thread nD τ) arg25 fullShare x23
        ∗ owns (c : Thread nD τ) arg26 fullShare x24
        ∗ owns (c : Thread nD τ) arg27 fullShare x25
        ∗ owns (c : Thread nD τ) arg28 fullShare x26
        ∗ owns (c : Thread nD τ) arg29 fullShare x27
        ∗ owns (c : Thread nD τ) arg30 fullShare x28
        ∗ owns (c : Thread nD τ) arg31 fullShare x29
        ∗ owns (c : Thread nD τ) arg32 fullShare x30
        ∗ owns (c : Thread nD τ) arg33 fullShare x31
        ∗ owns (c : Thread nD τ) arg34 fullShare x32
        ∗ owns (c : Thread nD τ) arg35 fullShare x33
        ∗ owns (c : Thread nD τ) arg36 fullShare x34)
      ∗ owns (c : Thread nD τ) arg37 fullShare xo
      ∗ owns (c : Thread nD τ) arg38 fullShare s0
      ∗ owns (c : Thread nD τ) arg39 fullShare s1
      ∗ owns (c : Thread nD τ) arg40 fullShare s2
      ∗ (iprop(iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare x9
        ∗ owns (c : Thread nD τ) arg12 fullShare x10
        ∗ owns (c : Thread nD τ) arg13 fullShare x11
        ∗ owns (c : Thread nD τ) arg14 fullShare x12
        ∗ owns (c : Thread nD τ) arg15 fullShare x13
        ∗ owns (c : Thread nD τ) arg16 fullShare x14
        ∗ owns (c : Thread nD τ) arg17 fullShare x15
        ∗ owns (c : Thread nD τ) arg18 fullShare x16
        ∗ owns (c : Thread nD τ) arg19 fullShare x17
        ∗ owns (c : Thread nD τ) arg20 fullShare x18
        ∗ owns (c : Thread nD τ) arg21 fullShare x19
        ∗ owns (c : Thread nD τ) arg22 fullShare x20
        ∗ owns (c : Thread nD τ) arg23 fullShare x21
        ∗ owns (c : Thread nD τ) arg24 fullShare x22
        ∗ owns (c : Thread nD τ) arg25 fullShare x23
        ∗ owns (c : Thread nD τ) arg26 fullShare x24
        ∗ owns (c : Thread nD τ) arg27 fullShare x25
        ∗ owns (c : Thread nD τ) arg28 fullShare x26
        ∗ owns (c : Thread nD τ) arg29 fullShare x27
        ∗ owns (c : Thread nD τ) arg30 fullShare x28
        ∗ owns (c : Thread nD τ) arg31 fullShare x29
        ∗ owns (c : Thread nD τ) arg32 fullShare x30
        ∗ owns (c : Thread nD τ) arg33 fullShare x31
        ∗ owns (c : Thread nD τ) arg34 fullShare x32
        ∗ owns (c : Thread nD τ) arg35 fullShare x33
        ∗ owns (c : Thread nD τ) arg36 fullShare x34)
      ∗ owns (c : Thread nD τ) arg37 fullShare xo
      ∗ owns (c : Thread nD τ) arg38 fullShare (k0_pay3 (k0_pay7 x0 x4 x5 x6 x7 x8 x9) (k0_pay8 x2) s0 (k0_pay9 x0 x4 x5 x6 x7 x8 x9) (constant S128x128 .f32 0x00000000#32))
      ∗ owns (c : Thread nD τ) arg39 fullShare s1
      ∗ owns (c : Thread nD τ) arg40 fullShare s2) -∗ K ⟨⟩))
    ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40) K := by
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩⟩, ⟨%fo, %hfo, Ho⟩, ⟨%g0, %hg0, S0⟩, ⟨%g1, %hg1, S1⟩, ⟨%g2, %hg2, S2⟩, Hk⟩
  sl_unfold [cc0__body]
  sl_exec (disch := first | exact hc1 | exact hc2 | exact hc3 | exact hc4 | exact hc5)
  sl_step
  iapply Hk
  isplitl [H0 H1 H2 H3 H4 H5 H6 H7 H8 H9 H10 H11 H12 H13 H14 H15 H16 H17 H18 H19 H20 H21 H22 H23 H24 H25 H26 H27 H28 H29 H30 H31 H32 H33 H34]
  · isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    isplitl [H5]
    · iexists f5; isplitr; · ipureintro; exact hf5
      iexact H5
    isplitl [H6]
    · iexists f6; isplitr; · ipureintro; exact hf6
      iexact H6
    isplitl [H7]
    · iexists f7; isplitr; · ipureintro; exact hf7
      iexact H7
    isplitl [H8]
    · iexists f8; isplitr; · ipureintro; exact hf8
      iexact H8
    isplitl [H9]
    · iexists f9; isplitr; · ipureintro; exact hf9
      iexact H9
    isplitl [H10]
    · iexists f10; isplitr; · ipureintro; exact hf10
      iexact H10
    isplitl [H11]
    · iexists f11; isplitr; · ipureintro; exact hf11
      iexact H11
    isplitl [H12]
    · iexists f12; isplitr; · ipureintro; exact hf12
      iexact H12
    isplitl [H13]
    · iexists f13; isplitr; · ipureintro; exact hf13
      iexact H13
    isplitl [H14]
    · iexists f14; isplitr; · ipureintro; exact hf14
      iexact H14
    isplitl [H15]
    · iexists f15; isplitr; · ipureintro; exact hf15
      iexact H15
    isplitl [H16]
    · iexists f16; isplitr; · ipureintro; exact hf16
      iexact H16
    isplitl [H17]
    · iexists f17; isplitr; · ipureintro; exact hf17
      iexact H17
    isplitl [H18]
    · iexists f18; isplitr; · ipureintro; exact hf18
      iexact H18
    isplitl [H19]
    · iexists f19; isplitr; · ipureintro; exact hf19
      iexact H19
    isplitl [H20]
    · iexists f20; isplitr; · ipureintro; exact hf20
      iexact H20
    isplitl [H21]
    · iexists f21; isplitr; · ipureintro; exact hf21
      iexact H21
    isplitl [H22]
    · iexists f22; isplitr; · ipureintro; exact hf22
      iexact H22
    isplitl [H23]
    · iexists f23; isplitr; · ipureintro; exact hf23
      iexact H23
    isplitl [H24]
    · iexists f24; isplitr; · ipureintro; exact hf24
      iexact H24
    isplitl [H25]
    · iexists f25; isplitr; · ipureintro; exact hf25
      iexact H25
    isplitl [H26]
    · iexists f26; isplitr; · ipureintro; exact hf26
      iexact H26
    isplitl [H27]
    · iexists f27; isplitr; · ipureintro; exact hf27
      iexact H27
    isplitl [H28]
    · iexists f28; isplitr; · ipureintro; exact hf28
      iexact H28
    isplitl [H29]
    · iexists f29; isplitr; · ipureintro; exact hf29
      iexact H29
    isplitl [H30]
    · iexists f30; isplitr; · ipureintro; exact hf30
      iexact H30
    isplitl [H31]
    · iexists f31; isplitr; · ipureintro; exact hf31
      iexact H31
    isplitl [H32]
    · iexists f32; isplitr; · ipureintro; exact hf32
      iexact H32
    isplitl [H33]
    · iexists f33; isplitr; · ipureintro; exact hf33
      iexact H33
    iexists f34; isplitr; · ipureintro; exact hf34
    iexact H34
  isplitl [Ho]
  · iexists fo; isplitr; · ipureintro; exact hfo
    iexact Ho
  isplitl [S0]
  · iexists _; isplitr
    swap; · iexact S0
    ipureintro
    refine (read_writes_cons_whole _ _ hz2 _ _ _).trans ?_
    sl_unfold_run_names
    simp only [readAt_whole _ _ hf0 hz2, readAt_whole _ _ hf1 hz2, readAt_whole _ _ hf2 hz3, readAt_whole _ _ hf3 hz3, readAt_whole _ _ hf4 hz2, readAt_whole _ _ hf5 hz2, readAt_whole _ _ hf6 hz2, readAt_whole _ _ hf7 hz2, readAt_whole _ _ hf8 hz2, readAt_whole _ _ hf9 hz2, readAt_whole _ _ hf10 hz2, readAt_whole _ _ hf11 hz2, readAt_whole _ _ hf12 hz2, readAt_whole _ _ hf13 hz2, readAt_whole _ _ hf14 hz2, readAt_whole _ _ hf15 hz2, readAt_whole _ _ hf16 hz2, readAt_whole _ _ hf17 hz2, readAt_whole _ _ hf18 hz2, readAt_whole _ _ hf19 hz2, readAt_whole _ _ hf20 hz2, readAt_whole _ _ hf21 hz2, readAt_whole _ _ hf22 hz2, readAt_whole _ _ hf23 hz2, readAt_whole _ _ hf24 hz2, readAt_whole _ _ hf25 hz2, readAt_whole _ _ hf26 hz2, readAt_whole _ _ hf27 hz2, readAt_whole _ _ hf28 hz2, readAt_whole _ _ hf29 hz2, readAt_whole _ _ hf30 hz2, readAt_whole _ _ hf31 hz2, readAt_whole _ _ hf32 hz2, readAt_whole _ _ hf33 hz2, readAt_whole _ _ hf34 hz2, readAt_whole _ _ hfo hz2, readAt_whole _ _ hg0 hz2, readAt_whole _ _ hg1 hz2, readAt_whole _ _ hg2 hz2, View.readCov_unit_zero (S := S128x128) _ hz2]
  isplitl [S1]
  · iexists g1; isplitr; · ipureintro; exact hg1
    iexact S1
  iexists g2; isplitr; · ipureintro; exact hg2
  iexact S2

/-- The same at the point's own staging buffers and blocks. -/
theorem run_B (c : Dev nD) (t : Fin cfg0.N) (h : 0 < t.val ∧ t.val < 10) (xo s0 s1 s2 : Vec F S128x128 .f32) (E : Set ℕ) (K : PUnit → sProp 𝕄) :
    iprop(insAt m c t ∗ owns (c : Thread nD τ) (ms0_35 t) fullShare xo ∗ owns (c : Thread nD τ) scM0 fullShare s0 ∗ owns (c : Thread nD τ) scM1 fullShare s1 ∗ owns (c : Thread nD τ) scM2 fullShare s2
      ∗ (iprop(insAt m c t ∗ owns (c : Thread nD τ) (ms0_35 t) fullShare xo ∗ owns (c : Thread nD τ) scM0 fullShare (agg1Step m c t s0) ∗ owns (c : Thread nD τ) scM1 fullShare s1 ∗ owns (c : Thread nD τ) scM2 fullShare s2) -∗ K ⟨⟩))
    ⊢ wp frame (wpE (defs₀ (F := F)) Variants.none c none) E (bodyAt0 t) K := by
  have hN : t.val < 20 := lt_of_lt_of_eq t.isLt (show cfg0.N = 20 from N_0)
  exact bodyRun_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t)
    scM0 (Memref.isWhole_whole _) scM1 (Memref.isWhole_whole _) scM2 (Memref.isWhole_whole _)
    (fun h' => by have := (hcondZero t).mp h'; omega)
    ((hcondPh0 t).mpr h.2)
    (fun h' => by have := (hcondMid t).mp h'; omega)
    (fun h' => by have := (hcondPh1 t).mp h'; omega)
    (fun h' => by have := (hcondLast t).mp h'; omega)
    (bX1 m c t) (bX2 m c t) (bId1 m c t) (bId2 m c t) (bE10 m c t) (bE1b0 m c t) (bE11 m c t) (bE1b1 m c t) (bE12 m c t) (bE1b2 m c t) (bR10 m c t) (bR1b0 m c t) (bR11 m c t) (bR1b1 m c t) (bR12 m c t) (bR1b2 m c t) (bW0a m c t) (bW0b m c t) (bE2b0 m c t) (bE21 m c t) (bE2b1 m c t) (bE22 m c t) (bE2b2 m c t) (bR20 m c t) (bR2b0 m c t) (bR21 m c t) (bR2b1 m c t) (bR22 m c t) (bR2b2 m c t) (bM0 m c t) (bMb0 m c t) (bM1 m c t) (bMb1 m c t) (bM2p m c t) (bMb2p m c t) xo s0 s1 s2 E K

end Cert.Kernel.Hand

end
-- ==== Proof.K.RunC.lean ====
/-
  The first point of the second phase (p = 1, i = 0). The body takes its third and fourth branches: it computes the graph
  embedding from the finished first accumulator, then runs the second node network on the point's block of the second
  node array, each row joined with the embedding row its graph id selects, and adds the block's per-graph sums into the
  second accumulator.

  Stated twice: over any whole memrefs, any coordinates at which the five branch conditions fall as they do at such a
  point, and any contents of the buffers; then at the point's own staging buffers and blocks. The body is opened by its
  skeleton and run symbolically; what a stored buffer then reads is its last store's payload, and each payload is read
  at what the loads before it read: a whole-buffer load reads the buffer's contents.
-/
import proofs.«107935_g3393024163881_fold_wed_m_362_29_alg».proof.Proof.K.Grid
import proofs.«107935_g3393024163881_fold_wed_m_362_29_alg».proof.Proof.K.Whole

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- The first point of the second phase: the body computes the graph embedding from the finished first accumulator, then
    adds the block's per-graph sums, each row joined with its graph's embedding row, into the second accumulator. -/
theorem bodyRun_C (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole)
    (hc1 : ¬condZero i) (hc2 : ¬condPh0 i) (hc3 : condMid i) (hc4 : condPh1 i) (hc5 : ¬condLast i)
    (x0 : Vec F S10000x128 .f32) (x1 : Vec F S10000x128 .f32) (x2 : Vec F S1x1x10000 .i32) (x3 : Vec F S1x1x10000 .i32) (x4 : Vec F S128x128 .f32) (x5 : Vec F S1x128 .f32) (x6 : Vec F S128x128 .f32) (x7 : Vec F S1x128 .f32) (x8 : Vec F S128x128 .f32) (x9 : Vec F S1x128 .f32) (x10 : Vec F S128x128 .f32) (x11 : Vec F S1x128 .f32) (x12 : Vec F S128x128 .f32) (x13 : Vec F S1x128 .f32) (x14 : Vec F S128x128 .f32) (x15 : Vec F S1x128 .f32) (x16 : Vec F S128x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S128x128 .f32) (x24 : Vec F S1x128 .f32) (x25 : Vec F S128x128 .f32) (x26 : Vec F S1x128 .f32) (x27 : Vec F S128x128 .f32) (x28 : Vec F S1x128 .f32) (x29 : Vec F S128x128 .f32) (x30 : Vec F S1x128 .f32) (x31 : Vec F S128x128 .f32) (x32 : Vec F S1x128 .f32) (x33 : Vec F S128x128 .f32) (x34 : Vec F S1x128 .f32) (xo s0 s1 s2 : Vec F S128x128 .f32) (E : Set ℕ) (K : PUnit → sProp 𝕄) :
    iprop(iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare x9
        ∗ owns (c : Thread nD τ) arg12 fullShare x10
        ∗ owns (c : Thread nD τ) arg13 fullShare x11
        ∗ owns (c : Thread nD τ) arg14 fullShare x12
        ∗ owns (c : Thread nD τ) arg15 fullShare x13
        ∗ owns (c : Thread nD τ) arg16 fullShare x14
        ∗ owns (c : Thread nD τ) arg17 fullShare x15
        ∗ owns (c : Thread nD τ) arg18 fullShare x16
        ∗ owns (c : Thread nD τ) arg19 fullShare x17
        ∗ owns (c : Thread nD τ) arg20 fullShare x18
        ∗ owns (c : Thread nD τ) arg21 fullShare x19
        ∗ owns (c : Thread nD τ) arg22 fullShare x20
        ∗ owns (c : Thread nD τ) arg23 fullShare x21
        ∗ owns (c : Thread nD τ) arg24 fullShare x22
        ∗ owns (c : Thread nD τ) arg25 fullShare x23
        ∗ owns (c : Thread nD τ) arg26 fullShare x24
        ∗ owns (c : Thread nD τ) arg27 fullShare x25
        ∗ owns (c : Thread nD τ) arg28 fullShare x26
        ∗ owns (c : Thread nD τ) arg29 fullShare x27
        ∗ owns (c : Thread nD τ) arg30 fullShare x28
        ∗ owns (c : Thread nD τ) arg31 fullShare x29
        ∗ owns (c : Thread nD τ) arg32 fullShare x30
        ∗ owns (c : Thread nD τ) arg33 fullShare x31
        ∗ owns (c : Thread nD τ) arg34 fullShare x32
        ∗ owns (c : Thread nD τ) arg35 fullShare x33
        ∗ owns (c : Thread nD τ) arg36 fullShare x34)
      ∗ owns (c : Thread nD τ) arg37 fullShare xo
      ∗ owns (c : Thread nD τ) arg38 fullShare s0
      ∗ owns (c : Thread nD τ) arg39 fullShare s1
      ∗ owns (c : Thread nD τ) arg40 fullShare s2
      ∗ (iprop(iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare x9
        ∗ owns (c : Thread nD τ) arg12 fullShare x10
        ∗ owns (c : Thread nD τ) arg13 fullShare x11
        ∗ owns (c : Thread nD τ) arg14 fullShare x12
        ∗ owns (c : Thread nD τ) arg15 fullShare x13
        ∗ owns (c : Thread nD τ) arg16 fullShare x14
        ∗ owns (c : Thread nD τ) arg17 fullShare x15
        ∗ owns (c : Thread nD τ) arg18 fullShare x16
        ∗ owns (c : Thread nD τ) arg19 fullShare x17
        ∗ owns (c : Thread nD τ) arg20 fullShare x18
        ∗ owns (c : Thread nD τ) arg21 fullShare x19
        ∗ owns (c : Thread nD τ) arg22 fullShare x20
        ∗ owns (c : Thread nD τ) arg23 fullShare x21
        ∗ owns (c : Thread nD τ) arg24 fullShare x22
        ∗ owns (c : Thread nD τ) arg25 fullShare x23
        ∗ owns (c : Thread nD τ) arg26 fullShare x24
        ∗ owns (c : Thread nD τ) arg27 fullShare x25
        ∗ owns (c : Thread nD τ) arg28 fullShare x26
        ∗ owns (c : Thread nD τ) arg29 fullShare x27
        ∗ owns (c : Thread nD τ) arg30 fullShare x28
        ∗ owns (c : Thread nD τ) arg31 fullShare x29
        ∗ owns (c : Thread nD τ) arg32 fullShare x30
        ∗ owns (c : Thread nD τ) arg33 fullShare x31
        ∗ owns (c : Thread nD τ) arg34 fullShare x32
        ∗ owns (c : Thread nD τ) arg35 fullShare x33
        ∗ owns (c : Thread nD τ) arg36 fullShare x34)
      ∗ owns (c : Thread nD τ) arg37 fullShare xo
      ∗ owns (c : Thread nD τ) arg38 fullShare s0
      ∗ owns (c : Thread nD τ) arg39 fullShare (k0_pay4 s0 x10 x11 x12 x13 x14 x15)
      ∗ owns (c : Thread nD τ) arg40 fullShare (k0_pay5 (k0_pay10 x2 (k0_pay4 s0 x10 x11 x12 x13 x14 x15) x1 x16 x17 x18 x19 x20 x21) x22 x3 s2)) -∗ K ⟨⟩))
    ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40) K := by
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩⟩, ⟨%fo, %hfo, Ho⟩, ⟨%g0, %hg0, S0⟩, ⟨%g1, %hg1, S1⟩, ⟨%g2, %hg2, S2⟩, Hk⟩
  sl_unfold [cc0__body]
  sl_exec (disch := first | exact hc1 | exact hc2 | exact hc3 | exact hc4 | exact hc5)
  sl_step
  iapply Hk
  isplitl [H0 H1 H2 H3 H4 H5 H6 H7 H8 H9 H10 H11 H12 H13 H14 H15 H16 H17 H18 H19 H20 H21 H22 H23 H24 H25 H26 H27 H28 H29 H30 H31 H32 H33 H34]
  · isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    isplitl [H5]
    · iexists f5; isplitr; · ipureintro; exact hf5
      iexact H5
    isplitl [H6]
    · iexists f6; isplitr; · ipureintro; exact hf6
      iexact H6
    isplitl [H7]
    · iexists f7; isplitr; · ipureintro; exact hf7
      iexact H7
    isplitl [H8]
    · iexists f8; isplitr; · ipureintro; exact hf8
      iexact H8
    isplitl [H9]
    · iexists f9; isplitr; · ipureintro; exact hf9
      iexact H9
    isplitl [H10]
    · iexists f10; isplitr; · ipureintro; exact hf10
      iexact H10
    isplitl [H11]
    · iexists f11; isplitr; · ipureintro; exact hf11
      iexact H11
    isplitl [H12]
    · iexists f12; isplitr; · ipureintro; exact hf12
      iexact H12
    isplitl [H13]
    · iexists f13; isplitr; · ipureintro; exact hf13
      iexact H13
    isplitl [H14]
    · iexists f14; isplitr; · ipureintro; exact hf14
      iexact H14
    isplitl [H15]
    · iexists f15; isplitr; · ipureintro; exact hf15
      iexact H15
    isplitl [H16]
    · iexists f16; isplitr; · ipureintro; exact hf16
      iexact H16
    isplitl [H17]
    · iexists f17; isplitr; · ipureintro; exact hf17
      iexact H17
    isplitl [H18]
    · iexists f18; isplitr; · ipureintro; exact hf18
      iexact H18
    isplitl [H19]
    · iexists f19; isplitr; · ipureintro; exact hf19
      iexact H19
    isplitl [H20]
    · iexists f20; isplitr; · ipureintro; exact hf20
      iexact H20
    isplitl [H21]
    · iexists f21; isplitr; · ipureintro; exact hf21
      iexact H21
    isplitl [H22]
    · iexists f22; isplitr; · ipureintro; exact hf22
      iexact H22
    isplitl [H23]
    · iexists f23; isplitr; · ipureintro; exact hf23
      iexact H23
    isplitl [H24]
    · iexists f24; isplitr; · ipureintro; exact hf24
      iexact H24
    isplitl [H25]
    · iexists f25; isplitr; · ipureintro; exact hf25
      iexact H25
    isplitl [H26]
    · iexists f26; isplitr; · ipureintro; exact hf26
      iexact H26
    isplitl [H27]
    · iexists f27; isplitr; · ipureintro; exact hf27
      iexact H27
    isplitl [H28]
    · iexists f28; isplitr; · ipureintro; exact hf28
      iexact H28
    isplitl [H29]
    · iexists f29; isplitr; · ipureintro; exact hf29
      iexact H29
    isplitl [H30]
    · iexists f30; isplitr; · ipureintro; exact hf30
      iexact H30
    isplitl [H31]
    · iexists f31; isplitr; · ipureintro; exact hf31
      iexact H31
    isplitl [H32]
    · iexists f32; isplitr; · ipureintro; exact hf32
      iexact H32
    isplitl [H33]
    · iexists f33; isplitr; · ipureintro; exact hf33
      iexact H33
    iexists f34; isplitr; · ipureintro; exact hf34
    iexact H34
  isplitl [Ho]
  · iexists fo; isplitr; · ipureintro; exact hfo
    iexact Ho
  isplitl [S0]
  · iexists g0; isplitr; · ipureintro; exact hg0
    iexact S0
  isplitl [S1]
  · iexists _; isplitr
    swap; · iexact S1
    ipureintro
    refine (read_writes_cons_whole _ _ hz2 _ _ _).trans ?_
    sl_unfold_run_names
    simp only [readAt_whole _ _ hf0 hz2, readAt_whole _ _ hf1 hz2, readAt_whole _ _ hf2 hz3, readAt_whole _ _ hf3 hz3, readAt_whole _ _ hf4 hz2, readAt_whole _ _ hf5 hz2, readAt_whole _ _ hf6 hz2, readAt_whole _ _ hf7 hz2, readAt_whole _ _ hf8 hz2, readAt_whole _ _ hf9 hz2, readAt_whole _ _ hf10 hz2, readAt_whole _ _ hf11 hz2, readAt_whole _ _ hf12 hz2, readAt_whole _ _ hf13 hz2, readAt_whole _ _ hf14 hz2, readAt_whole _ _ hf15 hz2, readAt_whole _ _ hf16 hz2, readAt_whole _ _ hf17 hz2, readAt_whole _ _ hf18 hz2, readAt_whole _ _ hf19 hz2, readAt_whole _ _ hf20 hz2, readAt_whole _ _ hf21 hz2, readAt_whole _ _ hf22 hz2, readAt_whole _ _ hf23 hz2, readAt_whole _ _ hf24 hz2, readAt_whole _ _ hf25 hz2, readAt_whole _ _ hf26 hz2, readAt_whole _ _ hf27 hz2, readAt_whole _ _ hf28 hz2, readAt_whole _ _ hf29 hz2, readAt_whole _ _ hf30 hz2, readAt_whole _ _ hf31 hz2, readAt_whole _ _ hf32 hz2, readAt_whole _ _ hf33 hz2, readAt_whole _ _ hf34 hz2, readAt_whole _ _ hfo hz2, readAt_whole _ _ hg0 hz2, readAt_whole _ _ hg1 hz2, readAt_whole _ _ hg2 hz2, View.readCov_unit_zero (S := S128x128) _ hz2]
  iexists _; isplitr
  swap; · iexact S2
  ipureintro
  refine (read_writes_cons_whole _ _ hz2 _ _ _).trans ?_
  sl_unfold_run_names
  simp only [readAt_whole _ _ hf0 hz2, readAt_whole _ _ hf1 hz2, readAt_whole _ _ hf2 hz3, readAt_whole _ _ hf3 hz3, readAt_whole _ _ hf4 hz2, readAt_whole _ _ hf5 hz2, readAt_whole _ _ hf6 hz2, readAt_whole _ _ hf7 hz2, readAt_whole _ _ hf8 hz2, readAt_whole _ _ hf9 hz2, readAt_whole _ _ hf10 hz2, readAt_whole _ _ hf11 hz2, readAt_whole _ _ hf12 hz2, readAt_whole _ _ hf13 hz2, readAt_whole _ _ hf14 hz2, readAt_whole _ _ hf15 hz2, readAt_whole _ _ hf16 hz2, readAt_whole _ _ hf17 hz2, readAt_whole _ _ hf18 hz2, readAt_whole _ _ hf19 hz2, readAt_whole _ _ hf20 hz2, readAt_whole _ _ hf21 hz2, readAt_whole _ _ hf22 hz2, readAt_whole _ _ hf23 hz2, readAt_whole _ _ hf24 hz2, readAt_whole _ _ hf25 hz2, readAt_whole _ _ hf26 hz2, readAt_whole _ _ hf27 hz2, readAt_whole _ _ hf28 hz2, readAt_whole _ _ hf29 hz2, readAt_whole _ _ hf30 hz2, readAt_whole _ _ hf31 hz2, readAt_whole _ _ hf32 hz2, readAt_whole _ _ hf33 hz2, readAt_whole _ _ hf34 hz2, readAt_whole _ _ hfo hz2, readAt_whole _ _ hg0 hz2, readAt_whole _ _ hg1 hz2, readAt_whole _ _ hg2 hz2, View.readCov_unit_zero (S := S128x128) _ hz2]

/-- The same at the point's own staging buffers and blocks. -/
theorem run_C (c : Dev nD) (t : Fin cfg0.N) (h : t.val = 10) (xo s0 s1 s2 : Vec F S128x128 .f32) (E : Set ℕ) (K : PUnit → sProp 𝕄) :
    iprop(insAt m c t ∗ owns (c : Thread nD τ) (ms0_35 t) fullShare xo ∗ owns (c : Thread nD τ) scM0 fullShare s0 ∗ owns (c : Thread nD τ) scM1 fullShare s1 ∗ owns (c : Thread nD τ) scM2 fullShare s2
      ∗ (iprop(insAt m c t ∗ owns (c : Thread nD τ) (ms0_35 t) fullShare xo ∗ owns (c : Thread nD τ) scM0 fullShare s0 ∗ owns (c : Thread nD τ) scM1 fullShare (u1sOf m c t s0) ∗ owns (c : Thread nD τ) scM2 fullShare (agg2Step m c t (u1sOf m c t s0) s2)) -∗ K ⟨⟩))
    ⊢ wp frame (wpE (defs₀ (F := F)) Variants.none c none) E (bodyAt0 t) K := by
  have hN : t.val < 20 := lt_of_lt_of_eq t.isLt (show cfg0.N = 20 from N_0)
  exact bodyRun_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t)
    scM0 (Memref.isWhole_whole _) scM1 (Memref.isWhole_whole _) scM2 (Memref.isWhole_whole _)
    (fun h' => by have := (hcondZero t).mp h'; omega)
    (fun h' => by have := (hcondPh0 t).mp h'; omega)
    ((hcondMid t).mpr h)
    ((hcondPh1 t).mpr (by omega))
    (fun h' => by have := (hcondLast t).mp h'; omega)
    (bX1 m c t) (bX2 m c t) (bId1 m c t) (bId2 m c t) (bE10 m c t) (bE1b0 m c t) (bE11 m c t) (bE1b1 m c t) (bE12 m c t) (bE1b2 m c t) (bR10 m c t) (bR1b0 m c t) (bR11 m c t) (bR1b1 m c t) (bR12 m c t) (bR1b2 m c t) (bW0a m c t) (bW0b m c t) (bE2b0 m c t) (bE21 m c t) (bE2b1 m c t) (bE22 m c t) (bE2b2 m c t) (bR20 m c t) (bR2b0 m c t) (bR21 m c t) (bR2b1 m c t) (bR22 m c t) (bR2b2 m c t) (bM0 m c t) (bMb0 m c t) (bM1 m c t) (bMb1 m c t) (bM2p m c t) (bMb2p m c t) xo s0 s1 s2 E K

end Cert.Kernel.Hand

end
-- ==== Proof.K.RunD.lean ====
/-
  A point of the second phase between its first and its last (p = 1, 0 < i < 9). The body takes its fourth branch only:
  it runs the second node network on the point's block, each row joined with its graph's embedding row, and adds the
  block's per-graph sums into the second accumulator. Every other buffer is left as it was.

  Stated twice: over any whole memrefs, any coordinates at which the five branch conditions fall as they do at such a
  point, and any contents of the buffers; then at the point's own staging buffers and blocks. The body is opened by its
  skeleton and run symbolically; what a stored buffer then reads is its last store's payload, and each payload is read
  at what the loads before it read: a whole-buffer load reads the buffer's contents.
-/
import proofs.«107935_g3393024163881_fold_wed_m_362_29_alg».proof.Proof.K.Grid
import proofs.«107935_g3393024163881_fold_wed_m_362_29_alg».proof.Proof.K.Whole

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- A point of the second phase between its first and its last: the body adds the block's per-graph sums into the second
    accumulator and touches nothing else. -/
theorem bodyRun_D (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole)
    (hc1 : ¬condZero i) (hc2 : ¬condPh0 i) (hc3 : ¬condMid i) (hc4 : condPh1 i) (hc5 : ¬condLast i)
    (x0 : Vec F S10000x128 .f32) (x1 : Vec F S10000x128 .f32) (x2 : Vec F S1x1x10000 .i32) (x3 : Vec F S1x1x10000 .i32) (x4 : Vec F S128x128 .f32) (x5 : Vec F S1x128 .f32) (x6 : Vec F S128x128 .f32) (x7 : Vec F S1x128 .f32) (x8 : Vec F S128x128 .f32) (x9 : Vec F S1x128 .f32) (x10 : Vec F S128x128 .f32) (x11 : Vec F S1x128 .f32) (x12 : Vec F S128x128 .f32) (x13 : Vec F S1x128 .f32) (x14 : Vec F S128x128 .f32) (x15 : Vec F S1x128 .f32) (x16 : Vec F S128x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S128x128 .f32) (x24 : Vec F S1x128 .f32) (x25 : Vec F S128x128 .f32) (x26 : Vec F S1x128 .f32) (x27 : Vec F S128x128 .f32) (x28 : Vec F S1x128 .f32) (x29 : Vec F S128x128 .f32) (x30 : Vec F S1x128 .f32) (x31 : Vec F S128x128 .f32) (x32 : Vec F S1x128 .f32) (x33 : Vec F S128x128 .f32) (x34 : Vec F S1x128 .f32) (xo s0 s1 s2 : Vec F S128x128 .f32) (E : Set ℕ) (K : PUnit → sProp 𝕄) :
    iprop(iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare x9
        ∗ owns (c : Thread nD τ) arg12 fullShare x10
        ∗ owns (c : Thread nD τ) arg13 fullShare x11
        ∗ owns (c : Thread nD τ) arg14 fullShare x12
        ∗ owns (c : Thread nD τ) arg15 fullShare x13
        ∗ owns (c : Thread nD τ) arg16 fullShare x14
        ∗ owns (c : Thread nD τ) arg17 fullShare x15
        ∗ owns (c : Thread nD τ) arg18 fullShare x16
        ∗ owns (c : Thread nD τ) arg19 fullShare x17
        ∗ owns (c : Thread nD τ) arg20 fullShare x18
        ∗ owns (c : Thread nD τ) arg21 fullShare x19
        ∗ owns (c : Thread nD τ) arg22 fullShare x20
        ∗ owns (c : Thread nD τ) arg23 fullShare x21
        ∗ owns (c : Thread nD τ) arg24 fullShare x22
        ∗ owns (c : Thread nD τ) arg25 fullShare x23
        ∗ owns (c : Thread nD τ) arg26 fullShare x24
        ∗ owns (c : Thread nD τ) arg27 fullShare x25
        ∗ owns (c : Thread nD τ) arg28 fullShare x26
        ∗ owns (c : Thread nD τ) arg29 fullShare x27
        ∗ owns (c : Thread nD τ) arg30 fullShare x28
        ∗ owns (c : Thread nD τ) arg31 fullShare x29
        ∗ owns (c : Thread nD τ) arg32 fullShare x30
        ∗ owns (c : Thread nD τ) arg33 fullShare x31
        ∗ owns (c : Thread nD τ) arg34 fullShare x32
        ∗ owns (c : Thread nD τ) arg35 fullShare x33
        ∗ owns (c : Thread nD τ) arg36 fullShare x34)
      ∗ owns (c : Thread nD τ) arg37 fullShare xo
      ∗ owns (c : Thread nD τ) arg38 fullShare s0
      ∗ owns (c : Thread nD τ) arg39 fullShare s1
      ∗ owns (c : Thread nD τ) arg40 fullShare s2
      ∗ (iprop(iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare x9
        ∗ owns (c : Thread nD τ) arg12 fullShare x10
        ∗ owns (c : Thread nD τ) arg13 fullShare x11
        ∗ owns (c : Thread nD τ) arg14 fullShare x12
        ∗ owns (c : Thread nD τ) arg15 fullShare x13
        ∗ owns (c : Thread nD τ) arg16 fullShare x14
        ∗ owns (c : Thread nD τ) arg17 fullShare x15
        ∗ owns (c : Thread nD τ) arg18 fullShare x16
        ∗ owns (c : Thread nD τ) arg19 fullShare x17
        ∗ owns (c : Thread nD τ) arg20 fullShare x18
        ∗ owns (c : Thread nD τ) arg21 fullShare x19
        ∗ owns (c : Thread nD τ) arg22 fullShare x20
        ∗ owns (c : Thread nD τ) arg23 fullShare x21
        ∗ owns (c : Thread nD τ) arg24 fullShare x22
        ∗ owns (c : Thread nD τ) arg25 fullShare x23
        ∗ owns (c : Thread nD τ) arg26 fullShare x24
        ∗ owns (c : Thread nD τ) arg27 fullShare x25
        ∗ owns (c : Thread nD τ) arg28 fullShare x26
        ∗ owns (c : Thread nD τ) arg29 fullShare x27
        ∗ owns (c : Thread nD τ) arg30 fullShare x28
        ∗ owns (c : Thread nD τ) arg31 fullShare x29
        ∗ owns (c : Thread nD τ) arg32 fullShare x30
        ∗ owns (c : Thread nD τ) arg33 fullShare x31
        ∗ owns (c : Thread nD τ) arg34 fullShare x32
        ∗ owns (c : Thread nD τ) arg35 fullShare x33
        ∗ owns (c : Thread nD τ) arg36 fullShare x34)
      ∗ owns (c : Thread nD τ) arg37 fullShare xo
      ∗ owns (c : Thread nD τ) arg38 fullShare s0
      ∗ owns (c : Thread nD τ) arg39 fullShare s1
      ∗ owns (c : Thread nD τ) arg40 fullShare (k0_pay5 (k0_pay10 x2 s1 x1 x16 x17 x18 x19 x20 x21) x22 x3 s2)) -∗ K ⟨⟩))
    ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40) K := by
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩⟩, ⟨%fo, %hfo, Ho⟩, ⟨%g0, %hg0, S0⟩, ⟨%g1, %hg1, S1⟩, ⟨%g2, %hg2, S2⟩, Hk⟩
  sl_unfold [cc0__body]
  sl_exec (disch := first | exact hc1 | exact hc2 | exact hc3 | exact hc4 | exact hc5)
  sl_step
  iapply Hk
  isplitl [H0 H1 H2 H3 H4 H5 H6 H7 H8 H9 H10 H11 H12 H13 H14 H15 H16 H17 H18 H19 H20 H21 H22 H23 H24 H25 H26 H27 H28 H29 H30 H31 H32 H33 H34]
  · isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    isplitl [H5]
    · iexists f5; isplitr; · ipureintro; exact hf5
      iexact H5
    isplitl [H6]
    · iexists f6; isplitr; · ipureintro; exact hf6
      iexact H6
    isplitl [H7]
    · iexists f7; isplitr; · ipureintro; exact hf7
      iexact H7
    isplitl [H8]
    · iexists f8; isplitr; · ipureintro; exact hf8
      iexact H8
    isplitl [H9]
    · iexists f9; isplitr; · ipureintro; exact hf9
      iexact H9
    isplitl [H10]
    · iexists f10; isplitr; · ipureintro; exact hf10
      iexact H10
    isplitl [H11]
    · iexists f11; isplitr; · ipureintro; exact hf11
      iexact H11
    isplitl [H12]
    · iexists f12; isplitr; · ipureintro; exact hf12
      iexact H12
    isplitl [H13]
    · iexists f13; isplitr; · ipureintro; exact hf13
      iexact H13
    isplitl [H14]
    · iexists f14; isplitr; · ipureintro; exact hf14
      iexact H14
    isplitl [H15]
    · iexists f15; isplitr; · ipureintro; exact hf15
      iexact H15
    isplitl [H16]
    · iexists f16; isplitr; · ipureintro; exact hf16
      iexact H16
    isplitl [H17]
    · iexists f17; isplitr; · ipureintro; exact hf17
      iexact H17
    isplitl [H18]
    · iexists f18; isplitr; · ipureintro; exact hf18
      iexact H18
    isplitl [H19]
    · iexists f19; isplitr; · ipureintro; exact hf19
      iexact H19
    isplitl [H20]
    · iexists f20; isplitr; · ipureintro; exact hf20
      iexact H20
    isplitl [H21]
    · iexists f21; isplitr; · ipureintro; exact hf21
      iexact H21
    isplitl [H22]
    · iexists f22; isplitr; · ipureintro; exact hf22
      iexact H22
    isplitl [H23]
    · iexists f23; isplitr; · ipureintro; exact hf23
      iexact H23
    isplitl [H24]
    · iexists f24; isplitr; · ipureintro; exact hf24
      iexact H24
    isplitl [H25]
    · iexists f25; isplitr; · ipureintro; exact hf25
      iexact H25
    isplitl [H26]
    · iexists f26; isplitr; · ipureintro; exact hf26
      iexact H26
    isplitl [H27]
    · iexists f27; isplitr; · ipureintro; exact hf27
      iexact H27
    isplitl [H28]
    · iexists f28; isplitr; · ipureintro; exact hf28
      iexact H28
    isplitl [H29]
    · iexists f29; isplitr; · ipureintro; exact hf29
      iexact H29
    isplitl [H30]
    · iexists f30; isplitr; · ipureintro; exact hf30
      iexact H30
    isplitl [H31]
    · iexists f31; isplitr; · ipureintro; exact hf31
      iexact H31
    isplitl [H32]
    · iexists f32; isplitr; · ipureintro; exact hf32
      iexact H32
    isplitl [H33]
    · iexists f33; isplitr; · ipureintro; exact hf33
      iexact H33
    iexists f34; isplitr; · ipureintro; exact hf34
    iexact H34
  isplitl [Ho]
  · iexists fo; isplitr; · ipureintro; exact hfo
    iexact Ho
  isplitl [S0]
  · iexists g0; isplitr; · ipureintro; exact hg0
    iexact S0
  isplitl [S1]
  · iexists g1; isplitr; · ipureintro; exact hg1
    iexact S1
  iexists _; isplitr
  swap; · iexact S2
  ipureintro
  refine (read_writes_cons_whole _ _ hz2 _ _ _).trans ?_
  sl_unfold_run_names
  simp only [readAt_whole _ _ hf0 hz2, readAt_whole _ _ hf1 hz2, readAt_whole _ _ hf2 hz3, readAt_whole _ _ hf3 hz3, readAt_whole _ _ hf4 hz2, readAt_whole _ _ hf5 hz2, readAt_whole _ _ hf6 hz2, readAt_whole _ _ hf7 hz2, readAt_whole _ _ hf8 hz2, readAt_whole _ _ hf9 hz2, readAt_whole _ _ hf10 hz2, readAt_whole _ _ hf11 hz2, readAt_whole _ _ hf12 hz2, readAt_whole _ _ hf13 hz2, readAt_whole _ _ hf14 hz2, readAt_whole _ _ hf15 hz2, readAt_whole _ _ hf16 hz2, readAt_whole _ _ hf17 hz2, readAt_whole _ _ hf18 hz2, readAt_whole _ _ hf19 hz2, readAt_whole _ _ hf20 hz2, readAt_whole _ _ hf21 hz2, readAt_whole _ _ hf22 hz2, readAt_whole _ _ hf23 hz2, readAt_whole _ _ hf24 hz2, readAt_whole _ _ hf25 hz2, readAt_whole _ _ hf26 hz2, readAt_whole _ _ hf27 hz2, readAt_whole _ _ hf28 hz2, readAt_whole _ _ hf29 hz2, readAt_whole _ _ hf30 hz2, readAt_whole _ _ hf31 hz2, readAt_whole _ _ hf32 hz2, readAt_whole _ _ hf33 hz2, readAt_whole _ _ hf34 hz2, readAt_whole _ _ hfo hz2, readAt_whole _ _ hg0 hz2, readAt_whole _ _ hg1 hz2, readAt_whole _ _ hg2 hz2, View.readCov_unit_zero (S := S128x128) _ hz2]

/-- The same at the point's own staging buffers and blocks. -/
theorem run_D (c : Dev nD) (t : Fin cfg0.N) (h : 10 < t.val ∧ t.val < 19) (xo s0 s1 s2 : Vec F S128x128 .f32) (E : Set ℕ) (K : PUnit → sProp 𝕄) :
    iprop(insAt m c t ∗ owns (c : Thread nD τ) (ms0_35 t) fullShare xo ∗ owns (c : Thread nD τ) scM0 fullShare s0 ∗ owns (c : Thread nD τ) scM1 fullShare s1 ∗ owns (c : Thread nD τ) scM2 fullShare s2
      ∗ (iprop(insAt m c t ∗ owns (c : Thread nD τ) (ms0_35 t) fullShare xo ∗ owns (c : Thread nD τ) scM0 fullShare s0 ∗ owns (c : Thread nD τ) scM1 fullShare s1 ∗ owns (c : Thread nD τ) scM2 fullShare (agg2Step m c t s1 s2)) -∗ K ⟨⟩))
    ⊢ wp frame (wpE (defs₀ (F := F)) Variants.none c none) E (bodyAt0 t) K := by
  have hN : t.val < 20 := lt_of_lt_of_eq t.isLt (show cfg0.N = 20 from N_0)
  exact bodyRun_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t)
    scM0 (Memref.isWhole_whole _) scM1 (Memref.isWhole_whole _) scM2 (Memref.isWhole_whole _)
    (fun h' => by have := (hcondZero t).mp h'; omega)
    (fun h' => by have := (hcondPh0 t).mp h'; omega)
    (fun h' => by have := (hcondMid t).mp h'; omega)
    ((hcondPh1 t).mpr (by omega))
    (fun h' => by have := (hcondLast t).mp h'; omega)
    (bX1 m c t) (bX2 m c t) (bId1 m c t) (bId2 m c t) (bE10 m c t) (bE1b0 m c t) (bE11 m c t) (bE1b1 m c t) (bE12 m c t) (bE1b2 m c t) (bR10 m c t) (bR1b0 m c t) (bR11 m c t) (bR1b1 m c t) (bR12 m c t) (bR1b2 m c t) (bW0a m c t) (bW0b m c t) (bE2b0 m c t) (bE21 m c t) (bE2b1 m c t) (bE22 m c t) (bE2b2 m c t) (bR20 m c t) (bR2b0 m c t) (bR21 m c t) (bR2b1 m c t) (bR22 m c t) (bR2b2 m c t) (bM0 m c t) (bMb0 m c t) (bM1 m c t) (bMb1 m c t) (bM2p m c t) (bMb2p m c t) xo s0 s1 s2 E K

end Cert.Kernel.Hand

end
-- ==== Proof.K.RunE.lean ====
/-
  The last point of the grid (p = 1, i = 9). The body takes its fourth and fifth branches: it adds the block's per-graph
  sums into the second accumulator, then runs the second graph network and the output network on the finished
  accumulator and stores the output block.

  Stated twice: over any whole memrefs, any coordinates at which the five branch conditions fall as they do at such a
  point, and any contents of the buffers; then at the point's own staging buffers and blocks. The body is opened by its
  skeleton and run symbolically; what a stored buffer then reads is its last store's payload, and each payload is read
  at what the loads before it read: a whole-buffer load reads the buffer's contents.
-/
import proofs.«107935_g3393024163881_fold_wed_m_362_29_alg».proof.Proof.K.Grid
import proofs.«107935_g3393024163881_fold_wed_m_362_29_alg».proof.Proof.K.Whole

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- The last point: the body adds the block's per-graph sums into the second accumulator, then computes the output block
    from the finished accumulator. -/
theorem bodyRun_E (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole)
    (hc1 : ¬condZero i) (hc2 : ¬condPh0 i) (hc3 : ¬condMid i) (hc4 : condPh1 i) (hc5 : condLast i)
    (x0 : Vec F S10000x128 .f32) (x1 : Vec F S10000x128 .f32) (x2 : Vec F S1x1x10000 .i32) (x3 : Vec F S1x1x10000 .i32) (x4 : Vec F S128x128 .f32) (x5 : Vec F S1x128 .f32) (x6 : Vec F S128x128 .f32) (x7 : Vec F S1x128 .f32) (x8 : Vec F S128x128 .f32) (x9 : Vec F S1x128 .f32) (x10 : Vec F S128x128 .f32) (x11 : Vec F S1x128 .f32) (x12 : Vec F S128x128 .f32) (x13 : Vec F S1x128 .f32) (x14 : Vec F S128x128 .f32) (x15 : Vec F S1x128 .f32) (x16 : Vec F S128x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S128x128 .f32) (x24 : Vec F S1x128 .f32) (x25 : Vec F S128x128 .f32) (x26 : Vec F S1x128 .f32) (x27 : Vec F S128x128 .f32) (x28 : Vec F S1x128 .f32) (x29 : Vec F S128x128 .f32) (x30 : Vec F S1x128 .f32) (x31 : Vec F S128x128 .f32) (x32 : Vec F S1x128 .f32) (x33 : Vec F S128x128 .f32) (x34 : Vec F S1x128 .f32) (xo s0 s1 s2 : Vec F S128x128 .f32) (E : Set ℕ) (K : PUnit → sProp 𝕄) :
    iprop(iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare x9
        ∗ owns (c : Thread nD τ) arg12 fullShare x10
        ∗ owns (c : Thread nD τ) arg13 fullShare x11
        ∗ owns (c : Thread nD τ) arg14 fullShare x12
        ∗ owns (c : Thread nD τ) arg15 fullShare x13
        ∗ owns (c : Thread nD τ) arg16 fullShare x14
        ∗ owns (c : Thread nD τ) arg17 fullShare x15
        ∗ owns (c : Thread nD τ) arg18 fullShare x16
        ∗ owns (c : Thread nD τ) arg19 fullShare x17
        ∗ owns (c : Thread nD τ) arg20 fullShare x18
        ∗ owns (c : Thread nD τ) arg21 fullShare x19
        ∗ owns (c : Thread nD τ) arg22 fullShare x20
        ∗ owns (c : Thread nD τ) arg23 fullShare x21
        ∗ owns (c : Thread nD τ) arg24 fullShare x22
        ∗ owns (c : Thread nD τ) arg25 fullShare x23
        ∗ owns (c : Thread nD τ) arg26 fullShare x24
        ∗ owns (c : Thread nD τ) arg27 fullShare x25
        ∗ owns (c : Thread nD τ) arg28 fullShare x26
        ∗ owns (c : Thread nD τ) arg29 fullShare x27
        ∗ owns (c : Thread nD τ) arg30 fullShare x28
        ∗ owns (c : Thread nD τ) arg31 fullShare x29
        ∗ owns (c : Thread nD τ) arg32 fullShare x30
        ∗ owns (c : Thread nD τ) arg33 fullShare x31
        ∗ owns (c : Thread nD τ) arg34 fullShare x32
        ∗ owns (c : Thread nD τ) arg35 fullShare x33
        ∗ owns (c : Thread nD τ) arg36 fullShare x34)
      ∗ owns (c : Thread nD τ) arg37 fullShare xo
      ∗ owns (c : Thread nD τ) arg38 fullShare s0
      ∗ owns (c : Thread nD τ) arg39 fullShare s1
      ∗ owns (c : Thread nD τ) arg40 fullShare s2
      ∗ (iprop(iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare x9
        ∗ owns (c : Thread nD τ) arg12 fullShare x10
        ∗ owns (c : Thread nD τ) arg13 fullShare x11
        ∗ owns (c : Thread nD τ) arg14 fullShare x12
        ∗ owns (c : Thread nD τ) arg15 fullShare x13
        ∗ owns (c : Thread nD τ) arg16 fullShare x14
        ∗ owns (c : Thread nD τ) arg17 fullShare x15
        ∗ owns (c : Thread nD τ) arg18 fullShare x16
        ∗ owns (c : Thread nD τ) arg19 fullShare x17
        ∗ owns (c : Thread nD τ) arg20 fullShare x18
        ∗ owns (c : Thread nD τ) arg21 fullShare x19
        ∗ owns (c : Thread nD τ) arg22 fullShare x20
        ∗ owns (c : Thread nD τ) arg23 fullShare x21
        ∗ owns (c : Thread nD τ) arg24 fullShare x22
        ∗ owns (c : Thread nD τ) arg25 fullShare x23
        ∗ owns (c : Thread nD τ) arg26 fullShare x24
        ∗ owns (c : Thread nD τ) arg27 fullShare x25
        ∗ owns (c : Thread nD τ) arg28 fullShare x26
        ∗ owns (c : Thread nD τ) arg29 fullShare x27
        ∗ owns (c : Thread nD τ) arg30 fullShare x28
        ∗ owns (c : Thread nD τ) arg31 fullShare x29
        ∗ owns (c : Thread nD τ) arg32 fullShare x30
        ∗ owns (c : Thread nD τ) arg33 fullShare x31
        ∗ owns (c : Thread nD τ) arg34 fullShare x32
        ∗ owns (c : Thread nD τ) arg35 fullShare x33
        ∗ owns (c : Thread nD τ) arg36 fullShare x34)
      ∗ owns (c : Thread nD τ) arg37 fullShare (k0_pay6 (k0_pay11 (k0_pay5 (k0_pay10 x2 s1 x1 x16 x17 x18 x19 x20 x21) x22 x3 s2) x23 x24 x25 x26 x27 x28) x29 (k0_pay12 x30) x31 (k0_pay13 x32) (k0_pay14 x33) x34)
      ∗ owns (c : Thread nD τ) arg38 fullShare s0
      ∗ owns (c : Thread nD τ) arg39 fullShare s1
      ∗ owns (c : Thread nD τ) arg40 fullShare (k0_pay5 (k0_pay10 x2 s1 x1 x16 x17 x18 x19 x20 x21) x22 x3 s2)) -∗ K ⟨⟩))
    ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40) K := by
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩⟩, ⟨%fo, %hfo, Ho⟩, ⟨%g0, %hg0, S0⟩, ⟨%g1, %hg1, S1⟩, ⟨%g2, %hg2, S2⟩, Hk⟩
  sl_unfold [cc0__body]
  sl_exec (disch := first | exact hc1 | exact hc2 | exact hc3 | exact hc4 | exact hc5)
  sl_step
  iapply Hk
  isplitl [H0 H1 H2 H3 H4 H5 H6 H7 H8 H9 H10 H11 H12 H13 H14 H15 H16 H17 H18 H19 H20 H21 H22 H23 H24 H25 H26 H27 H28 H29 H30 H31 H32 H33 H34]
  · isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    isplitl [H5]
    · iexists f5; isplitr; · ipureintro; exact hf5
      iexact H5
    isplitl [H6]
    · iexists f6; isplitr; · ipureintro; exact hf6
      iexact H6
    isplitl [H7]
    · iexists f7; isplitr; · ipureintro; exact hf7
      iexact H7
    isplitl [H8]
    · iexists f8; isplitr; · ipureintro; exact hf8
      iexact H8
    isplitl [H9]
    · iexists f9; isplitr; · ipureintro; exact hf9
      iexact H9
    isplitl [H10]
    · iexists f10; isplitr; · ipureintro; exact hf10
      iexact H10
    isplitl [H11]
    · iexists f11; isplitr; · ipureintro; exact hf11
      iexact H11
    isplitl [H12]
    · iexists f12; isplitr; · ipureintro; exact hf12
      iexact H12
    isplitl [H13]
    · iexists f13; isplitr; · ipureintro; exact hf13
      iexact H13
    isplitl [H14]
    · iexists f14; isplitr; · ipureintro; exact hf14
      iexact H14
    isplitl [H15]
    · iexists f15; isplitr; · ipureintro; exact hf15
      iexact H15
    isplitl [H16]
    · iexists f16; isplitr; · ipureintro; exact hf16
      iexact H16
    isplitl [H17]
    · iexists f17; isplitr; · ipureintro; exact hf17
      iexact H17
    isplitl [H18]
    · iexists f18; isplitr; · ipureintro; exact hf18
      iexact H18
    isplitl [H19]
    · iexists f19; isplitr; · ipureintro; exact hf19
      iexact H19
    isplitl [H20]
    · iexists f20; isplitr; · ipureintro; exact hf20
      iexact H20
    isplitl [H21]
    · iexists f21; isplitr; · ipureintro; exact hf21
      iexact H21
    isplitl [H22]
    · iexists f22; isplitr; · ipureintro; exact hf22
      iexact H22
    isplitl [H23]
    · iexists f23; isplitr; · ipureintro; exact hf23
      iexact H23
    isplitl [H24]
    · iexists f24; isplitr; · ipureintro; exact hf24
      iexact H24
    isplitl [H25]
    · iexists f25; isplitr; · ipureintro; exact hf25
      iexact H25
    isplitl [H26]
    · iexists f26; isplitr; · ipureintro; exact hf26
      iexact H26
    isplitl [H27]
    · iexists f27; isplitr; · ipureintro; exact hf27
      iexact H27
    isplitl [H28]
    · iexists f28; isplitr; · ipureintro; exact hf28
      iexact H28
    isplitl [H29]
    · iexists f29; isplitr; · ipureintro; exact hf29
      iexact H29
    isplitl [H30]
    · iexists f30; isplitr; · ipureintro; exact hf30
      iexact H30
    isplitl [H31]
    · iexists f31; isplitr; · ipureintro; exact hf31
      iexact H31
    isplitl [H32]
    · iexists f32; isplitr; · ipureintro; exact hf32
      iexact H32
    isplitl [H33]
    · iexists f33; isplitr; · ipureintro; exact hf33
      iexact H33
    iexists f34; isplitr; · ipureintro; exact hf34
    iexact H34
  isplitl [Ho]
  · iexists _; isplitr
    swap; · iexact Ho
    ipureintro
    refine (read_writes_cons_whole _ _ hz2 _ _ _).trans ?_
    sl_unfold_run_names
    simp only [readAt_whole _ _ hf0 hz2, readAt_whole _ _ hf1 hz2, readAt_whole _ _ hf2 hz3, readAt_whole _ _ hf3 hz3, readAt_whole _ _ hf4 hz2, readAt_whole _ _ hf5 hz2, readAt_whole _ _ hf6 hz2, readAt_whole _ _ hf7 hz2, readAt_whole _ _ hf8 hz2, readAt_whole _ _ hf9 hz2, readAt_whole _ _ hf10 hz2, readAt_whole _ _ hf11 hz2, readAt_whole _ _ hf12 hz2, readAt_whole _ _ hf13 hz2, readAt_whole _ _ hf14 hz2, readAt_whole _ _ hf15 hz2, readAt_whole _ _ hf16 hz2, readAt_whole _ _ hf17 hz2, readAt_whole _ _ hf18 hz2, readAt_whole _ _ hf19 hz2, readAt_whole _ _ hf20 hz2, readAt_whole _ _ hf21 hz2, readAt_whole _ _ hf22 hz2, readAt_whole _ _ hf23 hz2, readAt_whole _ _ hf24 hz2, readAt_whole _ _ hf25 hz2, readAt_whole _ _ hf26 hz2, readAt_whole _ _ hf27 hz2, readAt_whole _ _ hf28 hz2, readAt_whole _ _ hf29 hz2, readAt_whole _ _ hf30 hz2, readAt_whole _ _ hf31 hz2, readAt_whole _ _ hf32 hz2, readAt_whole _ _ hf33 hz2, readAt_whole _ _ hf34 hz2, readAt_whole _ _ hfo hz2, readAt_whole _ _ hg0 hz2, readAt_whole _ _ hg1 hz2, readAt_whole _ _ hg2 hz2, View.readCov_unit_zero (S := S128x128) _ hz2]
  isplitl [S0]
  · iexists g0; isplitr; · ipureintro; exact hg0
    iexact S0
  isplitl [S1]
  · iexists g1; isplitr; · ipureintro; exact hg1
    iexact S1
  iexists _; isplitr
  swap; · iexact S2
  ipureintro
  refine (read_writes_cons_whole _ _ hz2 _ _ _).trans ?_
  sl_unfold_run_names
  simp only [readAt_whole _ _ hf0 hz2, readAt_whole _ _ hf1 hz2, readAt_whole _ _ hf2 hz3, readAt_whole _ _ hf3 hz3, readAt_whole _ _ hf4 hz2, readAt_whole _ _ hf5 hz2, readAt_whole _ _ hf6 hz2, readAt_whole _ _ hf7 hz2, readAt_whole _ _ hf8 hz2, readAt_whole _ _ hf9 hz2, readAt_whole _ _ hf10 hz2, readAt_whole _ _ hf11 hz2, readAt_whole _ _ hf12 hz2, readAt_whole _ _ hf13 hz2, readAt_whole _ _ hf14 hz2, readAt_whole _ _ hf15 hz2, readAt_whole _ _ hf16 hz2, readAt_whole _ _ hf17 hz2, readAt_whole _ _ hf18 hz2, readAt_whole _ _ hf19 hz2, readAt_whole _ _ hf20 hz2, readAt_whole _ _ hf21 hz2, readAt_whole _ _ hf22 hz2, readAt_whole _ _ hf23 hz2, readAt_whole _ _ hf24 hz2, readAt_whole _ _ hf25 hz2, readAt_whole _ _ hf26 hz2, readAt_whole _ _ hf27 hz2, readAt_whole _ _ hf28 hz2, readAt_whole _ _ hf29 hz2, readAt_whole _ _ hf30 hz2, readAt_whole _ _ hf31 hz2, readAt_whole _ _ hf32 hz2, readAt_whole _ _ hf33 hz2, readAt_whole _ _ hf34 hz2, readAt_whole _ _ hfo hz2, readAt_whole _ _ hg0 hz2, readAt_whole _ _ hg1 hz2, readAt_whole _ _ hg2 hz2, View.readCov_unit_zero (S := S128x128) _ hz2]

/-- The same at the point's own staging buffers and blocks. -/
theorem run_E (c : Dev nD) (t : Fin cfg0.N) (h : t.val = 19) (xo s0 s1 s2 : Vec F S128x128 .f32) (E : Set ℕ) (K : PUnit → sProp 𝕄) :
    iprop(insAt m c t ∗ owns (c : Thread nD τ) (ms0_35 t) fullShare xo ∗ owns (c : Thread nD τ) scM0 fullShare s0 ∗ owns (c : Thread nD τ) scM1 fullShare s1 ∗ owns (c : Thread nD τ) scM2 fullShare s2
      ∗ (iprop(insAt m c t ∗ owns (c : Thread nD τ) (ms0_35 t) fullShare (outOf m c t (agg2Step m c t s1 s2)) ∗ owns (c : Thread nD τ) scM0 fullShare s0 ∗ owns (c : Thread nD τ) scM1 fullShare s1 ∗ owns (c : Thread nD τ) scM2 fullShare (agg2Step m c t s1 s2)) -∗ K ⟨⟩))
    ⊢ wp frame (wpE (defs₀ (F := F)) Variants.none c none) E (bodyAt0 t) K := by
  have hN : t.val < 20 := lt_of_lt_of_eq t.isLt (show cfg0.N = 20 from N_0)
  exact bodyRun_E c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t)
    scM0 (Memref.isWhole_whole _) scM1 (Memref.isWhole_whole _) scM2 (Memref.isWhole_whole _)
    (fun h' => by have := (hcondZero t).mp h'; omega)
    (fun h' => by have := (hcondPh0 t).mp h'; omega)
    (fun h' => by have := (hcondMid t).mp h'; omega)
    ((hcondPh1 t).mpr (by omega))
    ((hcondLast t).mpr h)
    (bX1 m c t) (bX2 m c t) (bId1 m c t) (bId2 m c t) (bE10 m c t) (bE1b0 m c t) (bE11 m c t) (bE1b1 m c t) (bE12 m c t) (bE1b2 m c t) (bR10 m c t) (bR1b0 m c t) (bR11 m c t) (bR1b1 m c t) (bR12 m c t) (bR1b2 m c t) (bW0a m c t) (bW0b m c t) (bE2b0 m c t) (bE21 m c t) (bE2b1 m c t) (bE22 m c t) (bE2b2 m c t) (bR20 m c t) (bR2b0 m c t) (bR21 m c t) (bR2b1 m c t) (bR22 m c t) (bR2b2 m c t) (bM0 m c t) (bMb0 m c t) (bM1 m c t) (bMb1 m c t) (bM2p m c t) (bMb2p m c t) xo s0 s1 s2 E K

end Cert.Kernel.Hand

end
-- ==== Proof.K.Frame.lean ====
/-
  The kernel's frame: the region invariant, the pipeline's proof data, the body obligation at each of the grid's five
  kinds of point, and the launch.

  The grid is 2 × 10, point t = 10·p + i, and the kernel carries three 128 × 128 scratch buffers between points: the
  first accumulator (per-graph sums of the first node network's rows), the graph embedding, and the second accumulator
  (per-graph sums of the second node network's rows). The invariant before a position names what each holds: both
  accumulators from the first point on, as the state recursion gives them, and the embedding from point 10 on — before
  that no point has stored it, so it is held at anything. The 35 input windows are never idle and the body leaves each
  at its block; the one output window is idle, and not written back, at every point but the last, where the body stores
  the output block whole. At each point the body's run (one lemma per kind of point) is applied to the 35 input buffers,
  the output buffer and the three scratch buffers, and returns the invariant at the next position. The launch theorem
  then gives the run of the whole program, and from it the frame: every argument array ends as launched.
-/
import proofs.«107935_g3393024163881_fold_wed_m_362_29_alg».proof.Proof.K.RunA
import proofs.«107935_g3393024163881_fold_wed_m_362_29_alg».proof.Proof.K.RunB
import proofs.«107935_g3393024163881_fold_wed_m_362_29_alg».proof.Proof.K.RunC
import proofs.«107935_g3393024163881_fold_wed_m_362_29_alg».proof.Proof.K.RunD
import proofs.«107935_g3393024163881_fold_wed_m_362_29_alg».proof.Proof.K.RunE

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region invariant -/

/-- What the region is handed before its first point: each of the three scratch buffers whole at some contents, and
    the generator register at some state. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)
          ∗ (∃ d, owns (c : Thread nD τ) scM2 fullShare d)) ∗ (∃ r, prngReg c r)) := by
  unfold Pipeline.ΦA; rw [scopedRest0_eq]; simp only [scM0, scM1, scM2, owns_whole]; try rfl

/-- The invariant before position n. Before the first point every scratch buffer holds anything. After point k the
    first accumulator holds the per-graph sums of the first k + 1 blocks of phase 0 (all ten from point 9 on), the
    second accumulator holds zero through phase 0 and then the running per-graph sums of phase 1, and the embedding
    buffer holds anything while k < 10 (no point has stored it yet) and the graph embedding from point 10 on. -/
def PhiS (c : Dev nD) : (n : ℕ) → n ≤ cfg0.N → sProp 𝕄
  | 0, _ => Pipeline.ΦA spec0 c
  | k + 1, hk => iprop(owns (c : Thread nD τ) scM0 fullShare (stAt m c k hk).agg1
      ∗ (if k < 10 then iprop(∃ d, owns (c : Thread nD τ) scM1 fullShare d) else owns (c : Thread nD τ) scM1 fullShare (stAt m c k hk).u1s)
      ∗ owns (c : Thread nD τ) scM2 fullShare (stAt m c k hk).agg2 ∗ (∃ r, prngReg c r))

theorem PhiS_zero (c : Dev nD) (n : ℕ) (h : n ≤ cfg0.N) (hz : n = 0) : PhiS m c n h = Pipeline.ΦA spec0 c := by
  subst hz; rfl

/-- After point k (before position k + 1). -/
theorem PhiS_succ (c : Dev nD) (k : ℕ) (hk : k < cfg0.N) :
    PhiS m c (k + 1) hk = iprop(owns (c : Thread nD τ) scM0 fullShare (stAt m c k hk).agg1
      ∗ (if k < 10 then iprop(∃ d, owns (c : Thread nD τ) scM1 fullShare d) else owns (c : Thread nD τ) scM1 fullShare (stAt m c k hk).u1s)
      ∗ owns (c : Thread nD τ) scM2 fullShare (stAt m c k hk).agg2 ∗ (∃ r, prngReg c r)) := rfl

/-- Before a position that is not the first: what the point before left. -/
theorem PhiS_pos (c : Dev nD) (n : ℕ) (h : n ≤ cfg0.N) (hz : n ≠ 0) :
    PhiS m c n h = iprop(owns (c : Thread nD τ) scM0 fullShare (stAt m c (n - 1) (by omega)).agg1
      ∗ (if n - 1 < 10 then iprop(∃ d, owns (c : Thread nD τ) scM1 fullShare d) else owns (c : Thread nD τ) scM1 fullShare (stAt m c (n - 1) (by omega)).u1s)
      ∗ owns (c : Thread nD τ) scM2 fullShare (stAt m c (n - 1) (by omega)).agg2 ∗ (∃ r, prngReg c r)) := by
  cases n with
  | zero => exact absurd rfl hz
  | succ n => rfl

/-! ## The pipeline's proof data -/

/-- The proof data of the one pipeline on core c: the arrays as the region finds them; after the body at point t each
    input window's buffer still at its block and the output window's buffer at the state's output component; the
    invariant PhiS; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, _⟩ => iblk m c 34 t
    | ⟨35, _⟩ => (stAt m c t.val t.isLt).out
    | ⟨_ + 36, h⟩ => absurd h (Nat.not_lt.2 (Nat.le_add_left _ _))
  Φ t := PhiS m c t.val (Nat.le_of_lt_succ t.isLt)
  q _ := fullShare
  owed _ := 0

/-- The proof data's arrays are the region-entry contents (the definition projected; the valuation is never unfolded). -/
theorem A_eq (c : Dev nD) (w : Fin cfg0.W) : (dats m 0 c).A w = V m c (Pipeline.arrRef spec0 w) := by
  dsimp only [dats]

/-- The invariant at a point's start, restated at the point's number. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window: every input window its block, the output window the state's output. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]
theorem after0_30 (c : Dev nD) (t : Fin cfg0.N) : (dats m 0 c).after 30 t = iblk m c 30 t := by dsimp only [dats]
theorem after0_31 (c : Dev nD) (t : Fin cfg0.N) : (dats m 0 c).after 31 t = iblk m c 31 t := by dsimp only [dats]
theorem after0_32 (c : Dev nD) (t : Fin cfg0.N) : (dats m 0 c).after 32 t = iblk m c 32 t := by dsimp only [dats]
theorem after0_33 (c : Dev nD) (t : Fin cfg0.N) : (dats m 0 c).after 33 t = iblk m c 33 t := by dsimp only [dats]
theorem after0_34 (c : Dev nD) (t : Fin cfg0.N) : (dats m 0 c).after 34 t = iblk m c 34 t := by dsimp only [dats]
theorem after0_35 (c : Dev nD) (t : Fin cfg0.N) : (dats m 0 c).after 35 t = (stAt m c t.val t.isLt).out := by dsimp only [dats]

/-- Each input window's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d
theorem before0_28 (c : Dev nD) (t : Fin cfg0.N) (d) : (dats m 0 c).before 28 t d = iblk m c 28 t :=
  before0_28_of m (dats m 0 c) (A_eq m c 28) (after0_28 m c) t d
theorem before0_29 (c : Dev nD) (t : Fin cfg0.N) (d) : (dats m 0 c).before 29 t d = iblk m c 29 t :=
  before0_29_of m (dats m 0 c) (A_eq m c 29) (after0_29 m c) t d
theorem before0_30 (c : Dev nD) (t : Fin cfg0.N) (d) : (dats m 0 c).before 30 t d = iblk m c 30 t :=
  before0_30_of m (dats m 0 c) (A_eq m c 30) (after0_30 m c) t d
theorem before0_31 (c : Dev nD) (t : Fin cfg0.N) (d) : (dats m 0 c).before 31 t d = iblk m c 31 t :=
  before0_31_of m (dats m 0 c) (A_eq m c 31) (after0_31 m c) t d
theorem before0_32 (c : Dev nD) (t : Fin cfg0.N) (d) : (dats m 0 c).before 32 t d = iblk m c 32 t :=
  before0_32_of m (dats m 0 c) (A_eq m c 32) (after0_32 m c) t d
theorem before0_33 (c : Dev nD) (t : Fin cfg0.N) (d) : (dats m 0 c).before 33 t d = iblk m c 33 t :=
  before0_33_of m (dats m 0 c) (A_eq m c 33) (after0_33 m c) t d
theorem before0_34 (c : Dev nD) (t : Fin cfg0.N) (d) : (dats m 0 c).before 34 t d = iblk m c 34 t :=
  before0_34_of m (dats m 0 c) (A_eq m c 34) (after0_34 m c) t d

/-! ## Which windows are live at a point -/

/-- No input window is ever idle. -/
theorem liveIn0 : ∀ w : Fin cfg0.W, w.val ≠ 35 → ∀ t : Fin cfg0.N, cfg0.idle w (grid0.coords t) = false :=
  (by decide +kernel : ∀ w : Fin 36, w.val ≠ 35 → ∀ t : Fin grid0.N, cfg0.idle w (grid0.coords t) = false)
/-- The output window is idle at every point but the last: the body stores the output block under p = 1 ∧ i = 9 only. -/
theorem idleOut0 : ∀ t : Fin cfg0.N, t.val ≠ 19 → cfg0.idle 35 (grid0.coords t) = true :=
  (by decide +kernel : ∀ t : Fin grid0.N, t.val ≠ 19 → cfg0.idle 35 (grid0.coords t) = true)
/-- At the last point it is live. -/
theorem liveOut0 : ∀ t : Fin cfg0.N, t.val = 19 → cfg0.idle 35 (grid0.coords t) = false :=
  (by decide +kernel : ∀ t : Fin grid0.N, t.val = 19 → cfg0.idle 35 (grid0.coords t) = false)
/-- And it is written back at the last point only. -/
theorem noFlushOut0 : ∀ t : Fin cfg0.N, t.val ≠ 19 → (cfg0.win 35).flush t = false :=
  (by decide +kernel : ∀ t : Fin grid0.N, t.val ≠ 19 → win0_35.flush t = false)

/-- What the body owes of an input window's buffer: the buffer at what the proof data says it leaves. -/
theorem leavesIn0 (c : Dev nD) (w : Fin cfg0.W) (hw : w.val ≠ 35) (t : Fin cfg0.N) :
    (dats m 0 c).leavesExact w t = owns (c : Thread nD τ) ((cfg0.win w).stage (cfg0.slots t w)) fullShare ((dats m 0 c).after w t) := by
  unfold Dat.leavesExact; rw [liveIn0 w hw t]

/-- Before the last point the output window's buffer goes back as it came. -/
theorem leavesOut0_idle (c : Dev nD) (t : Fin cfg0.N) (h : t.val ≠ 19) :
    (dats m 0 c).leavesExact 35 t = iprop(∃ d, owns (c : Thread nD τ) (ms0_35 t) fullShare ((dats m 0 c).before 35 t d)) :=
  Dat.leavesExact_idle (dats m 0 c) 35 t (idleOut0 t h) (noFlushOut0 t h)

/-- At the last point it goes back at the output block. -/
theorem leavesOut0_last (c : Dev nD) (t : Fin cfg0.N) (h : t.val = 19) :
    (dats m 0 c).leavesExact 35 t = owns (c : Thread nD τ) (ms0_35 t) fullShare (stAt m c t.val t.isLt).out := by
  unfold Dat.leavesExact; rw [liveOut0 t h, after0_35]

/-! ## One step of the state, by the kind of point -/

theorem stepSt_first (c : Dev nD) (t : Fin cfg0.N) (s : St F) (h : t.val = 0) :
    stepSt m c t s = { s with agg1 := agg1Step m c t k0_pay1, agg2 := k0_pay2 } := by
  unfold stepSt; rw [if_pos h]

theorem stepSt_ph0 (c : Dev nD) (t : Fin cfg0.N) (s : St F) (h : 0 < t.val ∧ t.val < 10) :
    stepSt m c t s = { s with agg1 := agg1Step m c t s.agg1 } := by
  unfold stepSt; rw [if_neg (show ¬ t.val = 0 by omega), if_pos h.2]

theorem stepSt_mid (c : Dev nD) (t : Fin cfg0.N) (s : St F) (h : t.val = 10) :
    stepSt m c t s = { s with u1s := u1sOf m c t s.agg1, agg2 := agg2Step m c t (u1sOf m c t s.agg1) s.agg2 } := by
  unfold stepSt; rw [if_neg (show ¬ t.val = 0 by omega), if_neg (show ¬ t.val < 10 by omega), if_pos h]

theorem stepSt_ph1 (c : Dev nD) (t : Fin cfg0.N) (s : St F) (h : 10 < t.val ∧ t.val < 19) :
    stepSt m c t s = { s with agg2 := agg2Step m c t s.u1s s.agg2 } := by
  unfold stepSt
  rw [if_neg (show ¬ t.val = 0 by omega), if_neg (show ¬ t.val < 10 by omega), if_neg (show ¬ t.val = 10 by omega), if_pos h.2]

theorem stepSt_last (c : Dev nD) (t : Fin cfg0.N) (s : St F) (h : t.val = 19) :
    stepSt m c t s = { s with agg2 := agg2Step m c t s.u1s s.agg2, out := outOf m c t (agg2Step m c t s.u1s s.agg2) } := by
  unfold stepSt
  rw [if_neg (show ¬ t.val = 0 by omega), if_neg (show ¬ t.val < 10 by omega), if_neg (show ¬ t.val = 10 by omega),
    if_neg (show ¬ t.val < 19 by omega)]

/-- The state after the first point. -/
theorem stAt_first (c : Dev nD) (t : Fin cfg0.N) (h : t.val = 0) :
    stAt m c t.val t.isLt = { (stInit : St F) with agg1 := agg1Step m c t k0_pay1, agg2 := k0_pay2 } := by
  obtain ⟨n, hn⟩ := t
  dsimp only at h
  subst h
  rw [stAt_zero, stepSt_first m c _ _ rfl]

/-! ## The body obligation, window by window -/

/-- What the body is called with at point t: the invariant, what the core owes, and each window's current staging
    buffer at what it then holds. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d))
    ∗ (∃ d, owns (c : Thread nD τ) (ms0_33 t) fullShare ((dats m 0 c).before 33 t d))
    ∗ (∃ d, owns (c : Thread nD τ) (ms0_34 t) fullShare ((dats m 0 c).before 34 t d))
    ∗ (∃ d, owns (c : Thread nD τ) (ms0_35 t) fullShare ((dats m 0 c).before 35 t d)))

/-- And what it returns: the invariant at the next position, what the core then owes, and each window's buffer at
    what the body leaves. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t ∗ (dats m 0 c).leavesExact 8 t
    ∗ (dats m 0 c).leavesExact 9 t ∗ (dats m 0 c).leavesExact 10 t ∗ (dats m 0 c).leavesExact 11 t
    ∗ (dats m 0 c).leavesExact 12 t ∗ (dats m 0 c).leavesExact 13 t ∗ (dats m 0 c).leavesExact 14 t
    ∗ (dats m 0 c).leavesExact 15 t ∗ (dats m 0 c).leavesExact 16 t ∗ (dats m 0 c).leavesExact 17 t
    ∗ (dats m 0 c).leavesExact 18 t ∗ (dats m 0 c).leavesExact 19 t ∗ (dats m 0 c).leavesExact 20 t
    ∗ (dats m 0 c).leavesExact 21 t ∗ (dats m 0 c).leavesExact 22 t ∗ (dats m 0 c).leavesExact 23 t
    ∗ (dats m 0 c).leavesExact 24 t ∗ (dats m 0 c).leavesExact 25 t ∗ (dats m 0 c).leavesExact 26 t
    ∗ (dats m 0 c).leavesExact 27 t ∗ (dats m 0 c).leavesExact 28 t ∗ (dats m 0 c).leavesExact 29 t
    ∗ (dats m 0 c).leavesExact 30 t ∗ (dats m 0 c).leavesExact 31 t ∗ (dats m 0 c).leavesExact 32 t
    ∗ (dats m 0 c).leavesExact 33 t ∗ (dats m 0 c).leavesExact 34 t ∗ (dats m 0 c).leavesExact 35 t)

/-- The 35 input windows' buffers, as the body obligation hands them over, are the inputs the run takes: each holds
    its block. R is whatever follows them in the conjunction. -/
theorem ins_of_before (c : Dev nD) (t : Fin cfg0.N) (R : sProp 𝕄) :
    iprop((∃ d, owns (c : Thread nD τ) (ms0_0 t) fullShare ((dats m 0 c).before 0 t d))
      ∗ (∃ d, owns (c : Thread nD τ) (ms0_1 t) fullShare ((dats m 0 c).before 1 t d))
      ∗ (∃ d, owns (c : Thread nD τ) (ms0_2 t) fullShare ((dats m 0 c).before 2 t d))
      ∗ (∃ d, owns (c : Thread nD τ) (ms0_3 t) fullShare ((dats m 0 c).before 3 t d))
      ∗ (∃ d, owns (c : Thread nD τ) (ms0_4 t) fullShare ((dats m 0 c).before 4 t d))
      ∗ (∃ d, owns (c : Thread nD τ) (ms0_5 t) fullShare ((dats m 0 c).before 5 t d))
      ∗ (∃ d, owns (c : Thread nD τ) (ms0_6 t) fullShare ((dats m 0 c).before 6 t d))
      ∗ (∃ d, owns (c : Thread nD τ) (ms0_7 t) fullShare ((dats m 0 c).before 7 t d))
      ∗ (∃ d, owns (c : Thread nD τ) (ms0_8 t) fullShare ((dats m 0 c).before 8 t d))
      ∗ (∃ d, owns (c : Thread nD τ) (ms0_9 t) fullShare ((dats m 0 c).before 9 t d))
      ∗ (∃ d, owns (c : Thread nD τ) (ms0_10 t) fullShare ((dats m 0 c).before 10 t d))
      ∗ (∃ d, owns (c : Thread nD τ) (ms0_11 t) fullShare ((dats m 0 c).before 11 t d))
      ∗ (∃ d, owns (c : Thread nD τ) (ms0_12 t) fullShare ((dats m 0 c).before 12 t d))
      ∗ (∃ d, owns (c : Thread nD τ) (ms0_13 t) fullShare ((dats m 0 c).before 13 t d))
      ∗ (∃ d, owns (c : Thread nD τ) (ms0_14 t) fullShare ((dats m 0 c).before 14 t d))
      ∗ (∃ d, owns (c : Thread nD τ) (ms0_15 t) fullShare ((dats m 0 c).before 15 t d))
      ∗ (∃ d, owns (c : Thread nD τ) (ms0_16 t) fullShare ((dats m 0 c).before 16 t d))
      ∗ (∃ d, owns (c : Thread nD τ) (ms0_17 t) fullShare ((dats m 0 c).before 17 t d))
      ∗ (∃ d, owns (c : Thread nD τ) (ms0_18 t) fullShare ((dats m 0 c).before 18 t d))
      ∗ (∃ d, owns (c : Thread nD τ) (ms0_19 t) fullShare ((dats m 0 c).before 19 t d))
      ∗ (∃ d, owns (c : Thread nD τ) (ms0_20 t) fullShare ((dats m 0 c).before 20 t d))
      ∗ (∃ d, owns (c : Thread nD τ) (ms0_21 t) fullShare ((dats m 0 c).before 21 t d))
      ∗ (∃ d, owns (c : Thread nD τ) (ms0_22 t) fullShare ((dats m 0 c).before 22 t d))
      ∗ (∃ d, owns (c : Thread nD τ) (ms0_23 t) fullShare ((dats m 0 c).before 23 t d))
      ∗ (∃ d, owns (c : Thread nD τ) (ms0_24 t) fullShare ((dats m 0 c).before 24 t d))
      ∗ (∃ d, owns (c : Thread nD τ) (ms0_25 t) fullShare ((dats m 0 c).before 25 t d))
      ∗ (∃ d, owns (c : Thread nD τ) (ms0_26 t) fullShare ((dats m 0 c).before 26 t d))
      ∗ (∃ d, owns (c : Thread nD τ) (ms0_27 t) fullShare ((dats m 0 c).before 27 t d))
      ∗ (∃ d, owns (c : Thread nD τ) (ms0_28 t) fullShare ((dats m 0 c).before 28 t d))
      ∗ (∃ d, owns (c : Thread nD τ) (ms0_29 t) fullShare ((dats m 0 c).before 29 t d))
      ∗ (∃ d, owns (c : Thread nD τ) (ms0_30 t) fullShare ((dats m 0 c).before 30 t d))
      ∗ (∃ d, owns (c : Thread nD τ) (ms0_31 t) fullShare ((dats m 0 c).before 31 t d))
      ∗ (∃ d, owns (c : Thread nD τ) (ms0_32 t) fullShare ((dats m 0 c).before 32 t d))
      ∗ (∃ d, owns (c : Thread nD τ) (ms0_33 t) fullShare ((dats m 0 c).before 33 t d))
      ∗ (∃ d, owns (c : Thread nD τ) (ms0_34 t) fullShare ((dats m 0 c).before 34 t d))
      ∗ R)
    ⊢ iprop(insAt m c t ∗ R) := by
  simp only [before0_0, before0_1, before0_2, before0_3, before0_4, before0_5, before0_6, before0_7, before0_8, before0_9,
    before0_10, before0_11, before0_12, before0_13, before0_14, before0_15, before0_16, before0_17, before0_18, before0_19,
    before0_20, before0_21, before0_22, before0_23, before0_24, before0_25, before0_26, before0_27, before0_28, before0_29,
    before0_30, before0_31, before0_32, before0_33, before0_34]
  unfold insAt
  iintro ⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩,
    ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩,
    ⟨%d30, H30⟩, ⟨%d31, H31⟩, ⟨%d32, H32⟩, ⟨%d33, H33⟩, ⟨%d34, H34⟩, HR⟩
  isplitr [HR]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    iexact H34
  iexact HR

/-- The inputs the run gives back are what the body obligation wants of the 35 input windows: no input window is
    idle, and each is left at its block. R is whatever follows them in the conjunction. -/
theorem leaves_of_ins (c : Dev nD) (t : Fin cfg0.N) (R : sProp 𝕄) :
    iprop(insAt m c t ∗ R)
    ⊢ iprop((dats m 0 c).leavesExact 0 t ∗ (dats m 0 c).leavesExact 1 t ∗ (dats m 0 c).leavesExact 2 t
      ∗ (dats m 0 c).leavesExact 3 t ∗ (dats m 0 c).leavesExact 4 t ∗ (dats m 0 c).leavesExact 5 t
      ∗ (dats m 0 c).leavesExact 6 t ∗ (dats m 0 c).leavesExact 7 t ∗ (dats m 0 c).leavesExact 8 t
      ∗ (dats m 0 c).leavesExact 9 t ∗ (dats m 0 c).leavesExact 10 t ∗ (dats m 0 c).leavesExact 11 t
      ∗ (dats m 0 c).leavesExact 12 t ∗ (dats m 0 c).leavesExact 13 t ∗ (dats m 0 c).leavesExact 14 t
      ∗ (dats m 0 c).leavesExact 15 t ∗ (dats m 0 c).leavesExact 16 t ∗ (dats m 0 c).leavesExact 17 t
      ∗ (dats m 0 c).leavesExact 18 t ∗ (dats m 0 c).leavesExact 19 t ∗ (dats m 0 c).leavesExact 20 t
      ∗ (dats m 0 c).leavesExact 21 t ∗ (dats m 0 c).leavesExact 22 t ∗ (dats m 0 c).leavesExact 23 t
      ∗ (dats m 0 c).leavesExact 24 t ∗ (dats m 0 c).leavesExact 25 t ∗ (dats m 0 c).leavesExact 26 t
      ∗ (dats m 0 c).leavesExact 27 t ∗ (dats m 0 c).leavesExact 28 t ∗ (dats m 0 c).leavesExact 29 t
      ∗ (dats m 0 c).leavesExact 30 t ∗ (dats m 0 c).leavesExact 31 t ∗ (dats m 0 c).leavesExact 32 t
      ∗ (dats m 0 c).leavesExact 33 t ∗ (dats m 0 c).leavesExact 34 t ∗ R) := by
  rw [leavesIn0 m c 0 (by decide) t, after0_0, leavesIn0 m c 1 (by decide) t, after0_1, leavesIn0 m c 2 (by decide) t, after0_2,
    leavesIn0 m c 3 (by decide) t, after0_3, leavesIn0 m c 4 (by decide) t, after0_4, leavesIn0 m c 5 (by decide) t, after0_5,
    leavesIn0 m c 6 (by decide) t, after0_6, leavesIn0 m c 7 (by decide) t, after0_7, leavesIn0 m c 8 (by decide) t, after0_8,
    leavesIn0 m c 9 (by decide) t, after0_9, leavesIn0 m c 10 (by decide) t, after0_10, leavesIn0 m c 11 (by decide) t, after0_11,
    leavesIn0 m c 12 (by decide) t, after0_12, leavesIn0 m c 13 (by decide) t, after0_13, leavesIn0 m c 14 (by decide) t, after0_14,
    leavesIn0 m c 15 (by decide) t, after0_15, leavesIn0 m c 16 (by decide) t, after0_16, leavesIn0 m c 17 (by decide) t, after0_17,
    leavesIn0 m c 18 (by decide) t, after0_18, leavesIn0 m c 19 (by decide) t, after0_19, leavesIn0 m c 20 (by decide) t, after0_20,
    leavesIn0 m c 21 (by decide) t, after0_21, leavesIn0 m c 22 (by decide) t, after0_22, leavesIn0 m c 23 (by decide) t, after0_23,
    leavesIn0 m c 24 (by decide) t, after0_24, leavesIn0 m c 25 (by decide) t, after0_25, leavesIn0 m c 26 (by decide) t, after0_26,
    leavesIn0 m c 27 (by decide) t, after0_27, leavesIn0 m c 28 (by decide) t, after0_28, leavesIn0 m c 29 (by decide) t, after0_29,
    leavesIn0 m c 30 (by decide) t, after0_30, leavesIn0 m c 31 (by decide) t, after0_31, leavesIn0 m c 32 (by decide) t, after0_32,
    leavesIn0 m c 33 (by decide) t, after0_33, leavesIn0 m c 34 (by decide) t, after0_34]
  unfold insAt
  iintro ⟨⟨H0, H1, H2, H3, H4, H5, H6, H7, H8, H9, H10, H11, H12, H13, H14, H15, H16, H17, H18, H19,
    H20, H21, H22, H23, H24, H25, H26, H27, H28, H29, H30, H31, H32, H33, H34⟩, HR⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  iexact HR

/-! ## The body at each kind of point -/

/-- The first point (p = 0, i = 0). The scratch buffers come at anything; the body zeroes both accumulators and adds the
    first block's per-graph sums into the first. The embedding buffer is not touched and the output window is idle. -/
theorem sound_A (c : Dev nD) (t : Fin cfg0.N) (h : t.val = 0) :
    bodyPre m c t ⊢ wp frame (wpE (defs₀ (F := F)) Variants.none c none) Set.univ (bodyAt0 t) (fun _ => bodyPost m c t) := by
  unfold bodyPre bodyPost
  rw [show (dats m 0 c).owesAt () t.succ = (dats m 0 c).owesAt () t.castSucc from rfl]
  rw [show (dats m 0 c).Φ t.succ = PhiS m c (t.val + 1) t.isLt from rfl, PhiS_succ]
  rw [PhiS_castSucc m c t, PhiS_zero m c _ _ h, PhiA0_eq]
  rw [leavesOut0_idle m c t (show t.val ≠ 19 by omega)]
  rw [if_pos (show t.val < 10 by omega), stAt_first m c t h]
  dsimp only
  iintro ⟨⟨⟨⟨%a0, HS0⟩, ⟨%a1, HS1⟩, ⟨%a2, HS2⟩⟩, Hg⟩, Ho, Hw⟩
  ihave ⟨Hin, ⟨%d35, H35⟩⟩ := (ins_of_before m c t _) $$ Hw
  iapply (run_A m c t h ((dats m 0 c).before 35 t d35) a0 a1 a2 Set.univ _)
  isplitl [Hin]; · iexact Hin
  isplitl [H35]; · iexact H35
  isplitl [HS0]; · iexact HS0
  isplitl [HS1]; · iexact HS1
  isplitl [HS2]; · iexact HS2
  iintro ⟨Hin, H35, HS0, HS1, HS2⟩
  isplitl [HS0 HS1 HS2 Hg]
  · isplitl [HS0]; · iexact HS0
    isplitl [HS1]; · iexists _; iexact HS1
    isplitl [HS2]; · iexact HS2
    iexact Hg
  isplitl [Ho]; · iexact Ho
  iapply (leaves_of_ins m c t _)
  isplitl [Hin]; · iexact Hin
  iexists _; iexact H35

/-- A later point of phase 0 (p = 0, i > 0): the block's per-graph sums are added into the first accumulator, which
    comes at what the point before left; nothing else changes. -/
theorem sound_B (c : Dev nD) (t : Fin cfg0.N) (h : 0 < t.val ∧ t.val < 10) :
    bodyPre m c t ⊢ wp frame (wpE (defs₀ (F := F)) Variants.none c none) Set.univ (bodyAt0 t) (fun _ => bodyPost m c t) := by
  unfold bodyPre bodyPost
  rw [show (dats m 0 c).owesAt () t.succ = (dats m 0 c).owesAt () t.castSucc from rfl]
  rw [show (dats m 0 c).Φ t.succ = PhiS m c (t.val + 1) t.isLt from rfl, PhiS_succ]
  rw [PhiS_castSucc m c t, PhiS_pos m c _ _ (show t.val ≠ 0 by omega)]
  rw [leavesOut0_idle m c t (show t.val ≠ 19 by omega)]
  rw [if_pos (show t.val < 10 by omega), if_pos (show t.val - 1 < 10 by omega)]
  rw [stAt_pos m c t (show t.val ≠ 0 by omega), stepSt_ph0 m c t _ h]
  dsimp only
  iintro ⟨⟨HS0, ⟨%a1, HS1⟩, HS2, Hg⟩, Ho, Hw⟩
  ihave ⟨Hin, ⟨%d35, H35⟩⟩ := (ins_of_before m c t _) $$ Hw
  iapply (run_B m c t h ((dats m 0 c).before 35 t d35) _ a1 _ Set.univ _)
  isplitl [Hin]; · iexact Hin
  isplitl [H35]; · iexact H35
  isplitl [HS0]; · iexact HS0
  isplitl [HS1]; · iexact HS1
  isplitl [HS2]; · iexact HS2
  iintro ⟨Hin, H35, HS0, HS1, HS2⟩
  isplitl [HS0 HS1 HS2 Hg]
  · isplitl [HS0]; · iexact HS0
    isplitl [HS1]; · iexists _; iexact HS1
    isplitl [HS2]; · iexact HS2
    iexact Hg
  isplitl [Ho]; · iexact Ho
  iapply (leaves_of_ins m c t _)
  isplitl [Hin]; · iexact Hin
  iexists _; iexact H35

/-- The first point of phase 1 (p = 1, i = 0): the graph embedding is computed from the finished first accumulator and
    stored, for the first time, into the embedding buffer (which comes at anything); then the block's per-graph sums,
    each row joined with its embedding row, are added into the second accumulator. -/
theorem sound_C (c : Dev nD) (t : Fin cfg0.N) (h : t.val = 10) :
    bodyPre m c t ⊢ wp frame (wpE (defs₀ (F := F)) Variants.none c none) Set.univ (bodyAt0 t) (fun _ => bodyPost m c t) := by
  unfold bodyPre bodyPost
  rw [show (dats m 0 c).owesAt () t.succ = (dats m 0 c).owesAt () t.castSucc from rfl]
  rw [show (dats m 0 c).Φ t.succ = PhiS m c (t.val + 1) t.isLt from rfl, PhiS_succ]
  rw [PhiS_castSucc m c t, PhiS_pos m c _ _ (show t.val ≠ 0 by omega)]
  rw [leavesOut0_idle m c t (show t.val ≠ 19 by omega)]
  rw [if_neg (show ¬ t.val < 10 by omega), if_pos (show t.val - 1 < 10 by omega)]
  rw [stAt_pos m c t (show t.val ≠ 0 by omega), stepSt_mid m c t _ h]
  dsimp only
  iintro ⟨⟨HS0, ⟨%a1, HS1⟩, HS2, Hg⟩, Ho, Hw⟩
  ihave ⟨Hin, ⟨%d35, H35⟩⟩ := (ins_of_before m c t _) $$ Hw
  iapply (run_C m c t h ((dats m 0 c).before 35 t d35) _ a1 _ Set.univ _)
  isplitl [Hin]; · iexact Hin
  isplitl [H35]; · iexact H35
  isplitl [HS0]; · iexact HS0
  isplitl [HS1]; · iexact HS1
  isplitl [HS2]; · iexact HS2
  iintro ⟨Hin, H35, HS0, HS1, HS2⟩
  isplitl [HS0 HS1 HS2 Hg]
  · isplitl [HS0]; · iexact HS0
    isplitl [HS1]; · iexact HS1
    isplitl [HS2]; · iexact HS2
    iexact Hg
  isplitl [Ho]; · iexact Ho
  iapply (leaves_of_ins m c t _)
  isplitl [Hin]; · iexact Hin
  iexists _; iexact H35

/-- A later point of phase 1 before the last (p = 1, 0 < i < 9): the embedding buffer comes at the graph embedding and
    is only read; the block's per-graph sums are added into the second accumulator. -/
theorem sound_D (c : Dev nD) (t : Fin cfg0.N) (h : 10 < t.val ∧ t.val < 19) :
    bodyPre m c t ⊢ wp frame (wpE (defs₀ (F := F)) Variants.none c none) Set.univ (bodyAt0 t) (fun _ => bodyPost m c t) := by
  unfold bodyPre bodyPost
  rw [show (dats m 0 c).owesAt () t.succ = (dats m 0 c).owesAt () t.castSucc from rfl]
  rw [show (dats m 0 c).Φ t.succ = PhiS m c (t.val + 1) t.isLt from rfl, PhiS_succ]
  rw [PhiS_castSucc m c t, PhiS_pos m c _ _ (show t.val ≠ 0 by omega)]
  rw [leavesOut0_idle m c t (show t.val ≠ 19 by omega)]
  rw [if_neg (show ¬ t.val < 10 by omega), if_neg (show ¬ t.val - 1 < 10 by omega)]
  rw [stAt_pos m c t (show t.val ≠ 0 by omega), stepSt_ph1 m c t _ h]
  dsimp only
  iintro ⟨⟨HS0, HS1, HS2, Hg⟩, Ho, Hw⟩
  ihave ⟨Hin, ⟨%d35, H35⟩⟩ := (ins_of_before m c t _) $$ Hw
  iapply (run_D m c t h ((dats m 0 c).before 35 t d35) _ _ _ Set.univ _)
  isplitl [Hin]; · iexact Hin
  isplitl [H35]; · iexact H35
  isplitl [HS0]; · iexact HS0
  isplitl [HS1]; · iexact HS1
  isplitl [HS2]; · iexact HS2
  iintro ⟨Hin, H35, HS0, HS1, HS2⟩
  isplitl [HS0 HS1 HS2 Hg]
  · isplitl [HS0]; · iexact HS0
    isplitl [HS1]; · iexact HS1
    isplitl [HS2]; · iexact HS2
    iexact Hg
  isplitl [Ho]; · iexact Ho
  iapply (leaves_of_ins m c t _)
  isplitl [Hin]; · iexact Hin
  iexists _; iexact H35

/-- The last point (p = 1, i = 9): the last block goes into the second accumulator, and the second graph network and
    the output network turn the finished accumulator into the output block, stored whole into the output window's buffer,
    which is live here and written back. -/
theorem sound_E (c : Dev nD) (t : Fin cfg0.N) (h : t.val = 19) :
    bodyPre m c t ⊢ wp frame (wpE (defs₀ (F := F)) Variants.none c none) Set.univ (bodyAt0 t) (fun _ => bodyPost m c t) := by
  unfold bodyPre bodyPost
  rw [show (dats m 0 c).owesAt () t.succ = (dats m 0 c).owesAt () t.castSucc from rfl]
  rw [show (dats m 0 c).Φ t.succ = PhiS m c (t.val + 1) t.isLt from rfl, PhiS_succ]
  rw [PhiS_castSucc m c t, PhiS_pos m c _ _ (show t.val ≠ 0 by omega)]
  rw [leavesOut0_last m c t h]
  rw [if_neg (show ¬ t.val < 10 by omega), if_neg (show ¬ t.val - 1 < 10 by omega)]
  rw [stAt_pos m c t (show t.val ≠ 0 by omega), stepSt_last m c t _ h]
  dsimp only
  iintro ⟨⟨HS0, HS1, HS2, Hg⟩, Ho, Hw⟩
  ihave ⟨Hin, ⟨%d35, H35⟩⟩ := (ins_of_before m c t _) $$ Hw
  iapply (run_E m c t h ((dats m 0 c).before 35 t d35) _ _ _ Set.univ _)
  isplitl [Hin]; · iexact Hin
  isplitl [H35]; · iexact H35
  isplitl [HS0]; · iexact HS0
  isplitl [HS1]; · iexact HS1
  isplitl [HS2]; · iexact HS2
  iintro ⟨Hin, H35, HS0, HS1, HS2⟩
  isplitl [HS0 HS1 HS2 Hg]
  · isplitl [HS0]; · iexact HS0
    isplitl [HS1]; · iexact HS1
    isplitl [HS2]; · iexact HS2
    iexact Hg
  isplitl [Ho]; · iexact Ho
  iapply (leaves_of_ins m c t _)
  isplitl [Hin]; · iexact Hin
  iexact H35

/-- The body at any point: the 20 points of the 2 × 10 grid are of the five kinds above. -/
theorem sound_body (c : Dev nD) (t : Fin cfg0.N) :
    bodyPre m c t ⊢ wp frame (wpE (defs₀ (F := F)) Variants.none c none) Set.univ (bodyAt0 t) (fun _ => bodyPost m c t) := by
  have hN : t.val < 20 := lt_of_lt_of_eq t.isLt (show cfg0.N = 20 from N_0)
  by_cases h0 : t.val = 0
  · exact sound_A m c t h0
  by_cases h1 : t.val < 10
  · exact sound_B m c t ⟨Nat.pos_of_ne_zero h0, h1⟩
  by_cases h2 : t.val = 10
  · exact sound_C m c t h2
  by_cases h3 : t.val < 19
  · exact sound_D m c t ⟨by omega, h3⟩
  · exact sound_E m c t (by omega)

-- the obligation's two 36-fold conjunctions are matched window by window against the statement above
set_option maxHeartbeats 3200000 in
/-- The library's body obligation, at every point. -/
theorem body_obligation (c : Dev nD) : BodyObligation (dats (F := F) m 0 c) (defs₀ (F := F)) Variants.none () Set.univ := fun t => by
  rw [bigSep_W0, bigSep_W0]
  exact sound_body m c t

/-! ## Entering and leaving the region -/

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- The embedding buffer at anything, whichever way the invariant holds it. -/
theorem emb_forget (c : Dev nD) (k : ℕ) (x : Vec F S128x128 .f32) :
    ((if k < 10 then iprop(∃ d, owns (c : Thread nD τ) scM1 fullShare d) else owns (c : Thread nD τ) scM1 fullShare x) : sProp 𝕄)
      ⊢ iprop(∃ d, owns (c : Thread nD τ) scM1 fullShare d) := by
  split
  · exact Idealize.SL.BI.Entails.refl _
  · iintro H; iexists _; iexact H

/-- After any point the invariant gives the entry form back: the scratch buffers' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, HS1, HS2, Hg⟩
  isplitr [Hg]
  · isplitl [HS0]; · iexists _; iexact HS0
    isplitl [HS1]; · iapply (emb_forget c _ _); iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 20 := N_0; omega)

/-! ## The run and the frame -/

-- the launch theorem's implicit arguments are found by unifying its conclusion with this one, which takes unfolding plain
-- definitions in a metavariable's type
set_option backward.isDefEq.respectTransparency.types false in
/-- At the compiled mesh, for any values, from any memory with zero counters: every weakly fair execution of the program
    on the TensorCores terminates, and every final state has every array of the pipeline at what the library computes
    from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the run leaves every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)) :=
  frame_of m ρ (dats m) (A_eq m) (run_main m ρ)

end Cert.Kernel.Hand

end
-- ==== Proof.KI.State.lean ====
/-
  What the kernel's three scratch buffers and its output buffer hold after each grid point, as a recursion over
  the points, written over the body's printed arithmetic (the skeleton's payloads) and generic in the float instance.

  The grid is 2 × 10, point t = 10·p + i. Phase p = 0 (t = 0 … 9) streams the row blocks of the first node array
  through the first node network and adds each block's per-graph sums into the first accumulator (zeroed, with the
  second accumulator, at t = 0). At t = 10 the first graph network turns that accumulator into the graph embedding;
  phase p = 1 (t = 10 … 19) streams the row blocks of the second node array, each row joined with the embedding row its
  graph id selects, through the second node network into the second accumulator; at t = 19 the second graph network and
  the output network produce the output block.
-/
import proofs.«107935_g3393024163881_fold_wed_m_362_29_alg».proof.Proof.Gen.KernelIdeal.Skeleton
import proofs.«107935_g3393024163881_fold_wed_m_362_29_alg».proof.Proof.Gen.KernelIdeal.Frame

noncomputable section

namespace Cert.KernelIdeal.Hand

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-! ## The input blocks at a point, each at its literal type -/

/-- Window 0: the block of 10000 rows of the first node array. -/
abbrev bX1 (c : Dev nD) (t : Fin cfg0.N) : Vec F S10000x128 .f32 := iblk m c 0 t
/-- Window 1: the block of 10000 rows of the second node array. -/
abbrev bX2 (c : Dev nD) (t : Fin cfg0.N) : Vec F S10000x128 .f32 := iblk m c 1 t
/-- Window 2: the 10000 graph ids of the first id array that go with the block. -/
abbrev bId1 (c : Dev nD) (t : Fin cfg0.N) : Vec F S1x1x10000 .i32 := iblk m c 2 t
/-- Window 3: the 10000 graph ids of the second id array that go with the block. -/
abbrev bId2 (c : Dev nD) (t : Fin cfg0.N) : Vec F S1x1x10000 .i32 := iblk m c 3 t
/-- Window 4: a 128 × 128 weight matrix, whole at every point. -/
abbrev bE10 (c : Dev nD) (t : Fin cfg0.N) : Vec F S128x128 .f32 := iblk m c 4 t
/-- Window 6: a 128 × 128 weight matrix, whole at every point. -/
abbrev bE11 (c : Dev nD) (t : Fin cfg0.N) : Vec F S128x128 .f32 := iblk m c 6 t
/-- Window 8: a 128 × 128 weight matrix, whole at every point. -/
abbrev bE12 (c : Dev nD) (t : Fin cfg0.N) : Vec F S128x128 .f32 := iblk m c 8 t
/-- Window 10: a 128 × 128 weight matrix, whole at every point. -/
abbrev bR10 (c : Dev nD) (t : Fin cfg0.N) : Vec F S128x128 .f32 := iblk m c 10 t
/-- Window 12: a 128 × 128 weight matrix, whole at every point. -/
abbrev bR11 (c : Dev nD) (t : Fin cfg0.N) : Vec F S128x128 .f32 := iblk m c 12 t
/-- Window 14: a 128 × 128 weight matrix, whole at every point. -/
abbrev bR12 (c : Dev nD) (t : Fin cfg0.N) : Vec F S128x128 .f32 := iblk m c 14 t
/-- Window 16: a 128 × 128 weight matrix, whole at every point. -/
abbrev bW0a (c : Dev nD) (t : Fin cfg0.N) : Vec F S128x128 .f32 := iblk m c 16 t
/-- Window 17: a 128 × 128 weight matrix, whole at every point. -/
abbrev bW0b (c : Dev nD) (t : Fin cfg0.N) : Vec F S128x128 .f32 := iblk m c 17 t
/-- Window 19: a 128 × 128 weight matrix, whole at every point. -/
abbrev bE21 (c : Dev nD) (t : Fin cfg0.N) : Vec F S128x128 .f32 := iblk m c 19 t
/-- Window 21: a 128 × 128 weight matrix, whole at every point. -/
abbrev bE22 (c : Dev nD) (t : Fin cfg0.N) : Vec F S128x128 .f32 := iblk m c 21 t
/-- Window 23: a 128 × 128 weight matrix, whole at every point. -/
abbrev bR20 (c : Dev nD) (t : Fin cfg0.N) : Vec F S128x128 .f32 := iblk m c 23 t
/-- Window 25: a 128 × 128 weight matrix, whole at every point. -/
abbrev bR21 (c : Dev nD) (t : Fin cfg0.N) : Vec F S128x128 .f32 := iblk m c 25 t
/-- Window 27: a 128 × 128 weight matrix, whole at every point. -/
abbrev bR22 (c : Dev nD) (t : Fin cfg0.N) : Vec F S128x128 .f32 := iblk m c 27 t
/-- Window 29: a 128 × 128 weight matrix, whole at every point. -/
abbrev bM0 (c : Dev nD) (t : Fin cfg0.N) : Vec F S128x128 .f32 := iblk m c 29 t
/-- Window 31: a 128 × 128 weight matrix, whole at every point. -/
abbrev bM1 (c : Dev nD) (t : Fin cfg0.N) : Vec F S128x128 .f32 := iblk m c 31 t
/-- Window 33: a 128 × 128 weight matrix, whole at every point. -/
abbrev bM2p (c : Dev nD) (t : Fin cfg0.N) : Vec F S128x128 .f32 := iblk m c 33 t
/-- Window 5: a bias row, 1 × 128, whole at every point. -/
abbrev bE1b0 (c : Dev nD) (t : Fin cfg0.N) : Vec F S1x128 .f32 := iblk m c 5 t
/-- Window 7: a bias row, 1 × 128, whole at every point. -/
abbrev bE1b1 (c : Dev nD) (t : Fin cfg0.N) : Vec F S1x128 .f32 := iblk m c 7 t
/-- Window 9: a bias row, 1 × 128, whole at every point. -/
abbrev bE1b2 (c : Dev nD) (t : Fin cfg0.N) : Vec F S1x128 .f32 := iblk m c 9 t
/-- Window 11: a bias row, 1 × 128, whole at every point. -/
abbrev bR1b0 (c : Dev nD) (t : Fin cfg0.N) : Vec F S1x128 .f32 := iblk m c 11 t
/-- Window 13: a bias row, 1 × 128, whole at every point. -/
abbrev bR1b1 (c : Dev nD) (t : Fin cfg0.N) : Vec F S1x128 .f32 := iblk m c 13 t
/-- Window 15: a bias row, 1 × 128, whole at every point. -/
abbrev bR1b2 (c : Dev nD) (t : Fin cfg0.N) : Vec F S1x128 .f32 := iblk m c 15 t
/-- Window 18: a bias row, 1 × 128, whole at every point. -/
abbrev bE2b0 (c : Dev nD) (t : Fin cfg0.N) : Vec F S1x128 .f32 := iblk m c 18 t
/-- Window 20: a bias row, 1 × 128, whole at every point. -/
abbrev bE2b1 (c : Dev nD) (t : Fin cfg0.N) : Vec F S1x128 .f32 := iblk m c 20 t
/-- Window 22: a bias row, 1 × 128, whole at every point. -/
abbrev bE2b2 (c : Dev nD) (t : Fin cfg0.N) : Vec F S1x128 .f32 := iblk m c 22 t
/-- Window 24: a bias row, 1 × 128, whole at every point. -/
abbrev bR2b0 (c : Dev nD) (t : Fin cfg0.N) : Vec F S1x128 .f32 := iblk m c 24 t
/-- Window 26: a bias row, 1 × 128, whole at every point. -/
abbrev bR2b1 (c : Dev nD) (t : Fin cfg0.N) : Vec F S1x128 .f32 := iblk m c 26 t
/-- Window 28: a bias row, 1 × 128, whole at every point. -/
abbrev bR2b2 (c : Dev nD) (t : Fin cfg0.N) : Vec F S1x128 .f32 := iblk m c 28 t
/-- Window 30: a bias row, 1 × 128, whole at every point. -/
abbrev bMb0 (c : Dev nD) (t : Fin cfg0.N) : Vec F S1x128 .f32 := iblk m c 30 t
/-- Window 32: a bias row, 1 × 128, whole at every point. -/
abbrev bMb1 (c : Dev nD) (t : Fin cfg0.N) : Vec F S1x128 .f32 := iblk m c 32 t
/-- Window 34: a bias row, 1 × 128, whole at every point. -/
abbrev bMb2p (c : Dev nD) (t : Fin cfg0.N) : Vec F S1x128 .f32 := iblk m c 34 t

/-! ## One point's arithmetic, by phase -/

/-- The first node network on the point's block of the first node array: 10000 × 128. -/
def h1Blk (c : Dev nD) (t : Fin cfg0.N) : FVec F S10000x128 .f32 :=
  k0_pay7 (bX1 m c t) (bE10 m c t) (bE1b0 m c t) (bE11 m c t) (bE1b1 m c t) (bE12 m c t) (bE1b2 m c t)

/-- Phase 0: the first accumulator `a` plus the per-graph sums of the point's block (three one-hot products: the
    block's values, and twice a difference of a value with itself). -/
def agg1Step (c : Dev nD) (t : Fin cfg0.N) (a : Vec F S128x128 .f32) : FVec F S128x128 .f32 :=
  k0_pay3 (h1Blk m c t) (k0_pay8 (bId1 m c t)) a
    (k0_pay9 (bX1 m c t) (bE10 m c t) (bE1b0 m c t) (bE11 m c t) (bE1b1 m c t) (bE12 m c t) (bE1b2 m c t))
    (constant S128x128 .f32 0x00000000#32)

/-- The graph embedding: the first graph network on the finished first accumulator. -/
def u1sOf (c : Dev nD) (t : Fin cfg0.N) (a : Vec F S128x128 .f32) : FVec F S128x128 .f32 :=
  k0_pay4 a (bR10 m c t) (bR1b0 m c t) (bR11 m c t) (bR1b1 m c t) (bR12 m c t) (bR1b2 m c t)

/-- Phase 1, before the last bias: the second node network's last product on the point's block of the second node array,
    each row joined with the embedding row `u` its first graph id selects. -/
def h2Blk (c : Dev nD) (t : Fin cfg0.N) (u : Vec F S128x128 .f32) : FVec F S10000x128 .f32 :=
  k0_pay10 (bId1 m c t) u (bX2 m c t) (bW0a m c t) (bW0b m c t) (bE2b0 m c t) (bE21 m c t) (bE2b1 m c t) (bE22 m c t)

/-- Phase 1: the second accumulator `a` plus the per-graph sums (by the second graph ids) of the block. -/
def agg2Step (c : Dev nD) (t : Fin cfg0.N) (u a : Vec F S128x128 .f32) : FVec F S128x128 .f32 :=
  k0_pay5 (h2Blk m c t u) (bE2b2 m c t) (bId2 m c t) a

/-- The output block: the second graph network, then the output network (its last layer padded to 128 columns), on the
    finished second accumulator. -/
def outOf (c : Dev nD) (t : Fin cfg0.N) (a : Vec F S128x128 .f32) : FVec F S128x128 .f32 :=
  k0_pay6 (k0_pay11 a (bR20 m c t) (bR2b0 m c t) (bR21 m c t) (bR2b1 m c t) (bR22 m c t) (bR2b2 m c t))
    (bM0 m c t) (k0_pay12 (bMb0 m c t)) (bM1 m c t) (k0_pay13 (bMb1 m c t)) (k0_pay14 (bM2p m c t)) (bMb2p m c t)

/-! ## The buffers after each point -/

/-- The output buffer and the three scratch buffers (first accumulator, graph embedding, second accumulator). The
    embedding component means nothing before point 10 and the output component nothing before point 19: nothing reads
    them there. -/
structure St (F : FTy → Type) [FloatOps F] where
  out : Vec F S128x128 .f32
  agg1 : Vec F S128x128 .f32
  u1s : Vec F S128x128 .f32
  agg2 : Vec F S128x128 .f32

/-- A starting value for the components no point has written yet (never read). -/
def stInit : St F := ⟨k0_pay1, k0_pay1, k0_pay1, k0_pay1⟩

/-- One point: the five kinds of point of the 2 × 10 grid. -/
def stepSt (c : Dev nD) (t : Fin cfg0.N) (s : St F) : St F :=
  if t.val = 0 then { s with agg1 := agg1Step m c t k0_pay1, agg2 := k0_pay2 }
  else if t.val < 10 then { s with agg1 := agg1Step m c t s.agg1 }
  else if t.val = 10 then { s with u1s := u1sOf m c t s.agg1, agg2 := agg2Step m c t (u1sOf m c t s.agg1) s.agg2 }
  else if t.val < 19 then { s with agg2 := agg2Step m c t s.u1s s.agg2 }
  else { s with agg2 := agg2Step m c t s.u1s s.agg2, out := outOf m c t (agg2Step m c t s.u1s s.agg2) }

/-- The buffers after point `n`. -/
def stAt (c : Dev nD) : (n : ℕ) → n < cfg0.N → St F
  | 0, h => stepSt m c ⟨0, h⟩ stInit
  | n + 1, h => stepSt m c ⟨n + 1, h⟩ (stAt c n (Nat.lt_of_succ_lt h))

theorem stAt_zero (c : Dev nD) (h : 0 < cfg0.N) : stAt m c 0 h = stepSt m c ⟨0, h⟩ stInit := rfl

theorem stAt_succ (c : Dev nD) (n : ℕ) (h : n + 1 < cfg0.N) :
    stAt m c (n + 1) h = stepSt m c ⟨n + 1, h⟩ (stAt m c n (Nat.lt_of_succ_lt h)) := rfl

/-- After a point that is not the first: one step over what the point before left. -/
theorem stAt_pos (c : Dev nD) (t : Fin cfg0.N) (ht : t.val ≠ 0) :
    stAt m c t.val t.isLt = stepSt m c t (stAt m c (t.val - 1) (Nat.lt_of_le_of_lt (Nat.sub_le _ _) t.isLt)) := by
  obtain ⟨n, hn⟩ := t
  cases n with
  | zero => exact absurd rfl ht
  | succ n => rfl

end Cert.KernelIdeal.Hand

end
-- ==== Proof.KI.Grid.lean ====
/-
  The grid's five kinds of point, and what the kernel body is run on at a point.

  The body branches five times on the grid coordinates (p, i) of the point t = 10·p + i: on p = 0 ∧ i = 0 (the two
  accumulators are zeroed), on p = 0 (a block of the first node array is added into the first accumulator), on
  p = 1 ∧ i = 0 (the graph embedding is computed from the finished first accumulator), on p = 1 (a block of the second
  node array is added into the second accumulator) and on p = 1 ∧ i = 9 (the output block is computed). Here: the five
  conditions as propositions over the coordinates with their closed forms over the point's number; each window's
  staging memref at a point and the three scratch memrefs; and the separating conjunction of the 35 input windows'
  staging buffers, each owned whole at its block.
-/
import proofs.«107935_g3393024163881_fold_wed_m_362_29_alg».proof.Proof.KI.State

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The body's five branch conditions -/

/-- p = 0 ∧ i = 0: the first point. -/
abbrev condZero (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- p = 0: the first phase. -/
abbrev condPh0 (i : grid0.Coords) : Prop :=
  (Scalar.cmpi .ne (Scalar.extui (Scalar.cmpi .eq (BitVec.ofNat 32 (i 0).val) 0#32)) 0#32) = 1#1
/-- p = 1 ∧ i = 0: the first point of the second phase. -/
abbrev condMid (i : grid0.Coords) : Prop :=
  (Scalar.cmpi .ne (Scalar.extui (Scalar.andi (Scalar.cmpi .eq (BitVec.ofNat 32 (i 0).val) 1#32) (Scalar.cmpi .eq (BitVec.ofNat 32 (i 1).val) 0#32))) 0#32) = 1#1
/-- p = 1: the second phase. -/
abbrev condPh1 (i : grid0.Coords) : Prop :=
  (Scalar.cmpi .ne (Scalar.extui (Scalar.cmpi .eq (BitVec.ofNat 32 (i 0).val) 1#32)) 0#32) = 1#1
/-- p = 1 ∧ i = 9: the last point. -/
abbrev condLast (i : grid0.Coords) : Prop := k0_cond5 i = 1#1

theorem hcondZero : ∀ t : Fin cfg0.N, condZero (grid0.coords t) ↔ t.val = 0 :=
  (by decide +kernel : ∀ t : Fin grid0.N, condZero (grid0.coords t) ↔ t.val = 0)
theorem hcondPh0 : ∀ t : Fin cfg0.N, condPh0 (grid0.coords t) ↔ t.val < 10 :=
  (by decide +kernel : ∀ t : Fin grid0.N, condPh0 (grid0.coords t) ↔ t.val < 10)
theorem hcondMid : ∀ t : Fin cfg0.N, condMid (grid0.coords t) ↔ t.val = 10 :=
  (by decide +kernel : ∀ t : Fin grid0.N, condMid (grid0.coords t) ↔ t.val = 10)
theorem hcondPh1 : ∀ t : Fin cfg0.N, condPh1 (grid0.coords t) ↔ 10 ≤ t.val :=
  (by decide +kernel : ∀ t : Fin grid0.N, condPh1 (grid0.coords t) ↔ 10 ≤ t.val)
theorem hcondLast : ∀ t : Fin cfg0.N, condLast (grid0.coords t) ↔ t.val = 19 :=
  (by decide +kernel : ∀ t : Fin grid0.N, condLast (grid0.coords t) ↔ t.val = 19)

/-! ## The memrefs the body is called with at a point -/

abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x10000 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x10000 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S128x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S128x128 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x128 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S128x128 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S128x128 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x128 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S128x128 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1x128 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S128x128 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S1x128 .f32 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S128x128 .f32 := win0_23.stage (cfg0.slots t 23)
abbrev hs0_23 (t : Fin cfg0.N) : (ms0_23 t).IsWhole := hstage0_23 ((cfg0.slots t 23).cast nbuf0_23)
abbrev ms0_24 (t : Fin cfg0.N) : Memref sig .tc .vmem S1x128 .f32 := win0_24.stage (cfg0.slots t 24)
abbrev hs0_24 (t : Fin cfg0.N) : (ms0_24 t).IsWhole := hstage0_24 ((cfg0.slots t 24).cast nbuf0_24)
abbrev ms0_25 (t : Fin cfg0.N) : Memref sig .tc .vmem S128x128 .f32 := win0_25.stage (cfg0.slots t 25)
abbrev hs0_25 (t : Fin cfg0.N) : (ms0_25 t).IsWhole := hstage0_25 ((cfg0.slots t 25).cast nbuf0_25)
abbrev ms0_26 (t : Fin cfg0.N) : Memref sig .tc .vmem S1x128 .f32 := win0_26.stage (cfg0.slots t 26)
abbrev hs0_26 (t : Fin cfg0.N) : (ms0_26 t).IsWhole := hstage0_26 ((cfg0.slots t 26).cast nbuf0_26)
abbrev ms0_27 (t : Fin cfg0.N) : Memref sig .tc .vmem S128x128 .f32 := win0_27.stage (cfg0.slots t 27)
abbrev hs0_27 (t : Fin cfg0.N) : (ms0_27 t).IsWhole := hstage0_27 ((cfg0.slots t 27).cast nbuf0_27)
abbrev ms0_28 (t : Fin cfg0.N) : Memref sig .tc .vmem S1x128 .f32 := win0_28.stage (cfg0.slots t 28)
abbrev hs0_28 (t : Fin cfg0.N) : (ms0_28 t).IsWhole := hstage0_28 ((cfg0.slots t 28).cast nbuf0_28)
abbrev ms0_29 (t : Fin cfg0.N) : Memref sig .tc .vmem S128x128 .f32 := win0_29.stage (cfg0.slots t 29)
abbrev hs0_29 (t : Fin cfg0.N) : (ms0_29 t).IsWhole := hstage0_29 ((cfg0.slots t 29).cast nbuf0_29)
abbrev ms0_30 (t : Fin cfg0.N) : Memref sig .tc .vmem S1x128 .f32 := win0_30.stage (cfg0.slots t 30)
abbrev hs0_30 (t : Fin cfg0.N) : (ms0_30 t).IsWhole := hstage0_30 ((cfg0.slots t 30).cast nbuf0_30)
abbrev ms0_31 (t : Fin cfg0.N) : Memref sig .tc .vmem S128x128 .f32 := win0_31.stage (cfg0.slots t 31)
abbrev hs0_31 (t : Fin cfg0.N) : (ms0_31 t).IsWhole := hstage0_31 ((cfg0.slots t 31).cast nbuf0_31)
abbrev ms0_32 (t : Fin cfg0.N) : Memref sig .tc .vmem S1x128 .f32 := win0_32.stage (cfg0.slots t 32)
abbrev hs0_32 (t : Fin cfg0.N) : (ms0_32 t).IsWhole := hstage0_32 ((cfg0.slots t 32).cast nbuf0_32)
abbrev ms0_33 (t : Fin cfg0.N) : Memref sig .tc .vmem S128x128 .f32 := win0_33.stage (cfg0.slots t 33)
abbrev hs0_33 (t : Fin cfg0.N) : (ms0_33 t).IsWhole := hstage0_33 ((cfg0.slots t 33).cast nbuf0_33)
abbrev ms0_34 (t : Fin cfg0.N) : Memref sig .tc .vmem S1x128 .f32 := win0_34.stage (cfg0.slots t 34)
abbrev hs0_34 (t : Fin cfg0.N) : (ms0_34 t).IsWhole := hstage0_34 ((cfg0.slots t 34).cast nbuf0_34)
abbrev ms0_35 (t : Fin cfg0.N) : Memref sig .tc .vmem S128x128 .f32 := win0_35.stage (cfg0.slots t 35)
abbrev hs0_35 (t : Fin cfg0.N) : (ms0_35 t).IsWhole := hstage0_35 ((cfg0.slots t 35).cast nbuf0_35)

/-- The three scratch buffers, whole: the first accumulator, the graph embedding, the second accumulator. -/
abbrev scM0 : Memref sig .tc .vmem S128x128 .f32 := Memref.whole cc0_scratch0
abbrev scM1 : Memref sig .tc .vmem S128x128 .f32 := Memref.whole cc0_scratch1
abbrev scM2 : Memref sig .tc .vmem S128x128 .f32 := Memref.whole cc0_scratch2

/-- The 35 input windows' staging buffers at point `t`, each owned whole at its block. -/
def insAt (c : Dev nD) (t : Fin cfg0.N) : sProp 𝕄 :=
  iprop(owns (c : Thread nD τ) (ms0_0 t) fullShare (bX1 m c t)
    ∗ owns (c : Thread nD τ) (ms0_1 t) fullShare (bX2 m c t)
    ∗ owns (c : Thread nD τ) (ms0_2 t) fullShare (bId1 m c t)
    ∗ owns (c : Thread nD τ) (ms0_3 t) fullShare (bId2 m c t)
    ∗ owns (c : Thread nD τ) (ms0_4 t) fullShare (bE10 m c t)
    ∗ owns (c : Thread nD τ) (ms0_5 t) fullShare (bE1b0 m c t)
    ∗ owns (c : Thread nD τ) (ms0_6 t) fullShare (bE11 m c t)
    ∗ owns (c : Thread nD τ) (ms0_7 t) fullShare (bE1b1 m c t)
    ∗ owns (c : Thread nD τ) (ms0_8 t) fullShare (bE12 m c t)
    ∗ owns (c : Thread nD τ) (ms0_9 t) fullShare (bE1b2 m c t)
    ∗ owns (c : Thread nD τ) (ms0_10 t) fullShare (bR10 m c t)
    ∗ owns (c : Thread nD τ) (ms0_11 t) fullShare (bR1b0 m c t)
    ∗ owns (c : Thread nD τ) (ms0_12 t) fullShare (bR11 m c t)
    ∗ owns (c : Thread nD τ) (ms0_13 t) fullShare (bR1b1 m c t)
    ∗ owns (c : Thread nD τ) (ms0_14 t) fullShare (bR12 m c t)
    ∗ owns (c : Thread nD τ) (ms0_15 t) fullShare (bR1b2 m c t)
    ∗ owns (c : Thread nD τ) (ms0_16 t) fullShare (bW0a m c t)
    ∗ owns (c : Thread nD τ) (ms0_17 t) fullShare (bW0b m c t)
    ∗ owns (c : Thread nD τ) (ms0_18 t) fullShare (bE2b0 m c t)
    ∗ owns (c : Thread nD τ) (ms0_19 t) fullShare (bE21 m c t)
    ∗ owns (c : Thread nD τ) (ms0_20 t) fullShare (bE2b1 m c t)
    ∗ owns (c : Thread nD τ) (ms0_21 t) fullShare (bE22 m c t)
    ∗ owns (c : Thread nD τ) (ms0_22 t) fullShare (bE2b2 m c t)
    ∗ owns (c : Thread nD τ) (ms0_23 t) fullShare (bR20 m c t)
    ∗ owns (c : Thread nD τ) (ms0_24 t) fullShare (bR2b0 m c t)
    ∗ owns (c : Thread nD τ) (ms0_25 t) fullShare (bR21 m c t)
    ∗ owns (c : Thread nD τ) (ms0_26 t) fullShare (bR2b1 m c t)
    ∗ owns (c : Thread nD τ) (ms0_27 t) fullShare (bR22 m c t)
    ∗ owns (c : Thread nD τ) (ms0_28 t) fullShare (bR2b2 m c t)
    ∗ owns (c : Thread nD τ) (ms0_29 t) fullShare (bM0 m c t)
    ∗ owns (c : Thread nD τ) (ms0_30 t) fullShare (bMb0 m c t)
    ∗ owns (c : Thread nD τ) (ms0_31 t) fullShare (bM1 m c t)
    ∗ owns (c : Thread nD τ) (ms0_32 t) fullShare (bMb1 m c t)
    ∗ owns (c : Thread nD τ) (ms0_33 t) fullShare (bM2p m c t)
    ∗ owns (c : Thread nD τ) (ms0_34 t) fullShare (bMb2p m c t))

end Cert.KernelIdeal.Hand

end
-- ==== Proof.KI.Whole.lean ====
/-
  Whole-buffer accesses. Every load and store of the kernel body is of a whole buffer: through the rectangle of the
  buffer's own sizes at zero offsets. Such a load reads what the buffer reads, and such a store, made last, is what the
  buffer then reads, whatever it held and whatever was stored into it before.
-/
import Idealize.ShloMosaic.Lib.Pipeline.FrameBody
import Idealize.ShloMosaic.Lib.Pipeline.Value

noncomputable section

namespace Cert.KernelIdeal.Hand

open Idealize.ShloMosaic Idealize.SL.Sem

variable {Val : EltTy → Type} [∀ e, Nonempty (Val e)] {sig : RefSig} {κ : Kind} {sp : Space} {S : Shape} {e : EltTy}

/-- The zero offsets of a whole-buffer access of rank 2, as a function. -/
theorem hz2 : (![0, 0] : Fin 2 → ℕ) = fun _ => 0 := by funext a; fin_cases a <;> rfl
/-- The zero offsets of a whole-buffer access of rank 3, as a function. -/
theorem hz3 : (![0, 0, 0] : Fin 3 → ℕ) = fun _ => 0 := by funext a; fin_cases a <;> rfl

/-- A load of the whole shape reads what the buffer reads. -/
theorem readAt_whole (v : View sig κ sp S e) (f : v.ty.Contents Val) {X : S.Idx → Val e} (hf : v.read Val f = X)
    {off : Fin S.rank → ℕ} (h : off = fun _ => 0) (inb : ∀ a, off a + S.size a ≤ S.size a) :
    v.readAt Val (Rect.unit off S.size inb).toLoadRect f = X := by
  subst hf; exact View.ld_unit_zero h inb _

/-- A store of the whole shape, made last, is what the buffer then reads, whatever it held and whatever was stored before. -/
theorem read_writes_cons_whole (v : View sig κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩), View.canon_cons_unit_zero h]

end Cert.KernelIdeal.Hand

end
-- ==== Proof.KI.RunA.lean ====
/-
  The first point of the grid (p = 0, i = 0). The body takes its first two branches: it zeroes the first and the second
  accumulator, then runs the first node network on the point's block of the first node array and adds the block's
  per-graph sums into the (zeroed) first accumulator. Whatever the two accumulators held before is overwritten.

  Stated twice: over any whole memrefs, any coordinates at which the five branch conditions fall as they do at such a
  point, and any contents of the buffers; then at the point's own staging buffers and blocks. The body is opened by its
  skeleton and run symbolically; what a stored buffer then reads is its last store's payload, and each payload is read
  at what the loads before it read: a whole-buffer load reads the buffer's contents.
-/
import proofs.«107935_g3393024163881_fold_wed_m_362_29_alg».proof.Proof.KI.Grid
import proofs.«107935_g3393024163881_fold_wed_m_362_29_alg».proof.Proof.KI.Whole

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- The first point: the body zeroes both accumulators, then adds the block's per-graph sums into the first. -/
theorem bodyRun_A (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole)
    (hc1 : condZero i) (hc2 : condPh0 i) (hc3 : ¬condMid i) (hc4 : ¬condPh1 i) (hc5 : ¬condLast i)
    (x0 : Vec F S10000x128 .f32) (x1 : Vec F S10000x128 .f32) (x2 : Vec F S1x1x10000 .i32) (x3 : Vec F S1x1x10000 .i32) (x4 : Vec F S128x128 .f32) (x5 : Vec F S1x128 .f32) (x6 : Vec F S128x128 .f32) (x7 : Vec F S1x128 .f32) (x8 : Vec F S128x128 .f32) (x9 : Vec F S1x128 .f32) (x10 : Vec F S128x128 .f32) (x11 : Vec F S1x128 .f32) (x12 : Vec F S128x128 .f32) (x13 : Vec F S1x128 .f32) (x14 : Vec F S128x128 .f32) (x15 : Vec F S1x128 .f32) (x16 : Vec F S128x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S128x128 .f32) (x24 : Vec F S1x128 .f32) (x25 : Vec F S128x128 .f32) (x26 : Vec F S1x128 .f32) (x27 : Vec F S128x128 .f32) (x28 : Vec F S1x128 .f32) (x29 : Vec F S128x128 .f32) (x30 : Vec F S1x128 .f32) (x31 : Vec F S128x128 .f32) (x32 : Vec F S1x128 .f32) (x33 : Vec F S128x128 .f32) (x34 : Vec F S1x128 .f32) (xo s0 s1 s2 : Vec F S128x128 .f32) (E : Set ℕ) (K : PUnit → sProp 𝕄) :
    iprop(iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare x9
        ∗ owns (c : Thread nD τ) arg12 fullShare x10
        ∗ owns (c : Thread nD τ) arg13 fullShare x11
        ∗ owns (c : Thread nD τ) arg14 fullShare x12
        ∗ owns (c : Thread nD τ) arg15 fullShare x13
        ∗ owns (c : Thread nD τ) arg16 fullShare x14
        ∗ owns (c : Thread nD τ) arg17 fullShare x15
        ∗ owns (c : Thread nD τ) arg18 fullShare x16
        ∗ owns (c : Thread nD τ) arg19 fullShare x17
        ∗ owns (c : Thread nD τ) arg20 fullShare x18
        ∗ owns (c : Thread nD τ) arg21 fullShare x19
        ∗ owns (c : Thread nD τ) arg22 fullShare x20
        ∗ owns (c : Thread nD τ) arg23 fullShare x21
        ∗ owns (c : Thread nD τ) arg24 fullShare x22
        ∗ owns (c : Thread nD τ) arg25 fullShare x23
        ∗ owns (c : Thread nD τ) arg26 fullShare x24
        ∗ owns (c : Thread nD τ) arg27 fullShare x25
        ∗ owns (c : Thread nD τ) arg28 fullShare x26
        ∗ owns (c : Thread nD τ) arg29 fullShare x27
        ∗ owns (c : Thread nD τ) arg30 fullShare x28
        ∗ owns (c : Thread nD τ) arg31 fullShare x29
        ∗ owns (c : Thread nD τ) arg32 fullShare x30
        ∗ owns (c : Thread nD τ) arg33 fullShare x31
        ∗ owns (c : Thread nD τ) arg34 fullShare x32
        ∗ owns (c : Thread nD τ) arg35 fullShare x33
        ∗ owns (c : Thread nD τ) arg36 fullShare x34)
      ∗ owns (c : Thread nD τ) arg37 fullShare xo
      ∗ owns (c : Thread nD τ) arg38 fullShare s0
      ∗ owns (c : Thread nD τ) arg39 fullShare s1
      ∗ owns (c : Thread nD τ) arg40 fullShare s2
      ∗ (iprop(iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare x9
        ∗ owns (c : Thread nD τ) arg12 fullShare x10
        ∗ owns (c : Thread nD τ) arg13 fullShare x11
        ∗ owns (c : Thread nD τ) arg14 fullShare x12
        ∗ owns (c : Thread nD τ) arg15 fullShare x13
        ∗ owns (c : Thread nD τ) arg16 fullShare x14
        ∗ owns (c : Thread nD τ) arg17 fullShare x15
        ∗ owns (c : Thread nD τ) arg18 fullShare x16
        ∗ owns (c : Thread nD τ) arg19 fullShare x17
        ∗ owns (c : Thread nD τ) arg20 fullShare x18
        ∗ owns (c : Thread nD τ) arg21 fullShare x19
        ∗ owns (c : Thread nD τ) arg22 fullShare x20
        ∗ owns (c : Thread nD τ) arg23 fullShare x21
        ∗ owns (c : Thread nD τ) arg24 fullShare x22
        ∗ owns (c : Thread nD τ) arg25 fullShare x23
        ∗ owns (c : Thread nD τ) arg26 fullShare x24
        ∗ owns (c : Thread nD τ) arg27 fullShare x25
        ∗ owns (c : Thread nD τ) arg28 fullShare x26
        ∗ owns (c : Thread nD τ) arg29 fullShare x27
        ∗ owns (c : Thread nD τ) arg30 fullShare x28
        ∗ owns (c : Thread nD τ) arg31 fullShare x29
        ∗ owns (c : Thread nD τ) arg32 fullShare x30
        ∗ owns (c : Thread nD τ) arg33 fullShare x31
        ∗ owns (c : Thread nD τ) arg34 fullShare x32
        ∗ owns (c : Thread nD τ) arg35 fullShare x33
        ∗ owns (c : Thread nD τ) arg36 fullShare x34)
      ∗ owns (c : Thread nD τ) arg37 fullShare xo
      ∗ owns (c : Thread nD τ) arg38 fullShare (k0_pay3 (k0_pay7 x0 x4 x5 x6 x7 x8 x9) (k0_pay8 x2) k0_pay1 (k0_pay9 x0 x4 x5 x6 x7 x8 x9) (constant S128x128 .f32 0x00000000#32))
      ∗ owns (c : Thread nD τ) arg39 fullShare s1
      ∗ owns (c : Thread nD τ) arg40 fullShare k0_pay2) -∗ K ⟨⟩))
    ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40) K := by
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩⟩, ⟨%fo, %hfo, Ho⟩, ⟨%g0, %hg0, S0⟩, ⟨%g1, %hg1, S1⟩, ⟨%g2, %hg2, S2⟩, Hk⟩
  sl_unfold [cc0__body]
  sl_exec (disch := first | exact hc1 | exact hc2 | exact hc3 | exact hc4 | exact hc5)
  sl_step
  iapply Hk
  isplitl [H0 H1 H2 H3 H4 H5 H6 H7 H8 H9 H10 H11 H12 H13 H14 H15 H16 H17 H18 H19 H20 H21 H22 H23 H24 H25 H26 H27 H28 H29 H30 H31 H32 H33 H34]
  · isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    isplitl [H5]
    · iexists f5; isplitr; · ipureintro; exact hf5
      iexact H5
    isplitl [H6]
    · iexists f6; isplitr; · ipureintro; exact hf6
      iexact H6
    isplitl [H7]
    · iexists f7; isplitr; · ipureintro; exact hf7
      iexact H7
    isplitl [H8]
    · iexists f8; isplitr; · ipureintro; exact hf8
      iexact H8
    isplitl [H9]
    · iexists f9; isplitr; · ipureintro; exact hf9
      iexact H9
    isplitl [H10]
    · iexists f10; isplitr; · ipureintro; exact hf10
      iexact H10
    isplitl [H11]
    · iexists f11; isplitr; · ipureintro; exact hf11
      iexact H11
    isplitl [H12]
    · iexists f12; isplitr; · ipureintro; exact hf12
      iexact H12
    isplitl [H13]
    · iexists f13; isplitr; · ipureintro; exact hf13
      iexact H13
    isplitl [H14]
    · iexists f14; isplitr; · ipureintro; exact hf14
      iexact H14
    isplitl [H15]
    · iexists f15; isplitr; · ipureintro; exact hf15
      iexact H15
    isplitl [H16]
    · iexists f16; isplitr; · ipureintro; exact hf16
      iexact H16
    isplitl [H17]
    · iexists f17; isplitr; · ipureintro; exact hf17
      iexact H17
    isplitl [H18]
    · iexists f18; isplitr; · ipureintro; exact hf18
      iexact H18
    isplitl [H19]
    · iexists f19; isplitr; · ipureintro; exact hf19
      iexact H19
    isplitl [H20]
    · iexists f20; isplitr; · ipureintro; exact hf20
      iexact H20
    isplitl [H21]
    · iexists f21; isplitr; · ipureintro; exact hf21
      iexact H21
    isplitl [H22]
    · iexists f22; isplitr; · ipureintro; exact hf22
      iexact H22
    isplitl [H23]
    · iexists f23; isplitr; · ipureintro; exact hf23
      iexact H23
    isplitl [H24]
    · iexists f24; isplitr; · ipureintro; exact hf24
      iexact H24
    isplitl [H25]
    · iexists f25; isplitr; · ipureintro; exact hf25
      iexact H25
    isplitl [H26]
    · iexists f26; isplitr; · ipureintro; exact hf26
      iexact H26
    isplitl [H27]
    · iexists f27; isplitr; · ipureintro; exact hf27
      iexact H27
    isplitl [H28]
    · iexists f28; isplitr; · ipureintro; exact hf28
      iexact H28
    isplitl [H29]
    · iexists f29; isplitr; · ipureintro; exact hf29
      iexact H29
    isplitl [H30]
    · iexists f30; isplitr; · ipureintro; exact hf30
      iexact H30
    isplitl [H31]
    · iexists f31; isplitr; · ipureintro; exact hf31
      iexact H31
    isplitl [H32]
    · iexists f32; isplitr; · ipureintro; exact hf32
      iexact H32
    isplitl [H33]
    · iexists f33; isplitr; · ipureintro; exact hf33
      iexact H33
    iexists f34; isplitr; · ipureintro; exact hf34
    iexact H34
  isplitl [Ho]
  · iexists fo; isplitr; · ipureintro; exact hfo
    iexact Ho
  isplitl [S0]
  · iexists _; isplitr
    swap; · iexact S0
    ipureintro
    refine (read_writes_cons_whole _ _ hz2 _ _ _).trans ?_
    sl_unfold_run_names
    simp only [readAt_whole _ _ hf0 hz2, readAt_whole _ _ hf1 hz2, readAt_whole _ _ hf2 hz3, readAt_whole _ _ hf3 hz3, readAt_whole _ _ hf4 hz2, readAt_whole _ _ hf5 hz2, readAt_whole _ _ hf6 hz2, readAt_whole _ _ hf7 hz2, readAt_whole _ _ hf8 hz2, readAt_whole _ _ hf9 hz2, readAt_whole _ _ hf10 hz2, readAt_whole _ _ hf11 hz2, readAt_whole _ _ hf12 hz2, readAt_whole _ _ hf13 hz2, readAt_whole _ _ hf14 hz2, readAt_whole _ _ hf15 hz2, readAt_whole _ _ hf16 hz2, readAt_whole _ _ hf17 hz2, readAt_whole _ _ hf18 hz2, readAt_whole _ _ hf19 hz2, readAt_whole _ _ hf20 hz2, readAt_whole _ _ hf21 hz2, readAt_whole _ _ hf22 hz2, readAt_whole _ _ hf23 hz2, readAt_whole _ _ hf24 hz2, readAt_whole _ _ hf25 hz2, readAt_whole _ _ hf26 hz2, readAt_whole _ _ hf27 hz2, readAt_whole _ _ hf28 hz2, readAt_whole _ _ hf29 hz2, readAt_whole _ _ hf30 hz2, readAt_whole _ _ hf31 hz2, readAt_whole _ _ hf32 hz2, readAt_whole _ _ hf33 hz2, readAt_whole _ _ hf34 hz2, readAt_whole _ _ hfo hz2, readAt_whole _ _ hg0 hz2, readAt_whole _ _ hg1 hz2, readAt_whole _ _ hg2 hz2, View.readCov_unit_zero (S := S128x128) _ hz2]
  isplitl [S1]
  · iexists g1; isplitr; · ipureintro; exact hg1
    iexact S1
  iexists _; isplitr
  swap; · iexact S2
  ipureintro
  refine (read_writes_cons_whole _ _ hz2 _ _ _).trans ?_
  sl_unfold_run_names
  simp only [readAt_whole _ _ hf0 hz2, readAt_whole _ _ hf1 hz2, readAt_whole _ _ hf2 hz3, readAt_whole _ _ hf3 hz3, readAt_whole _ _ hf4 hz2, readAt_whole _ _ hf5 hz2, readAt_whole _ _ hf6 hz2, readAt_whole _ _ hf7 hz2, readAt_whole _ _ hf8 hz2, readAt_whole _ _ hf9 hz2, readAt_whole _ _ hf10 hz2, readAt_whole _ _ hf11 hz2, readAt_whole _ _ hf12 hz2, readAt_whole _ _ hf13 hz2, readAt_whole _ _ hf14 hz2, readAt_whole _ _ hf15 hz2, readAt_whole _ _ hf16 hz2, readAt_whole _ _ hf17 hz2, readAt_whole _ _ hf18 hz2, readAt_whole _ _ hf19 hz2, readAt_whole _ _ hf20 hz2, readAt_whole _ _ hf21 hz2, readAt_whole _ _ hf22 hz2, readAt_whole _ _ hf23 hz2, readAt_whole _ _ hf24 hz2, readAt_whole _ _ hf25 hz2, readAt_whole _ _ hf26 hz2, readAt_whole _ _ hf27 hz2, readAt_whole _ _ hf28 hz2, readAt_whole _ _ hf29 hz2, readAt_whole _ _ hf30 hz2, readAt_whole _ _ hf31 hz2, readAt_whole _ _ hf32 hz2, readAt_whole _ _ hf33 hz2, readAt_whole _ _ hf34 hz2, readAt_whole _ _ hfo hz2, readAt_whole _ _ hg0 hz2, readAt_whole _ _ hg1 hz2, readAt_whole _ _ hg2 hz2, View.readCov_unit_zero (S := S128x128) _ hz2]

/-- The same at the point's own staging buffers and blocks. -/
theorem run_A (c : Dev nD) (t : Fin cfg0.N) (h : t.val = 0) (xo s0 s1 s2 : Vec F S128x128 .f32) (E : Set ℕ) (K : PUnit → sProp 𝕄) :
    iprop(insAt m c t ∗ owns (c : Thread nD τ) (ms0_35 t) fullShare xo ∗ owns (c : Thread nD τ) scM0 fullShare s0 ∗ owns (c : Thread nD τ) scM1 fullShare s1 ∗ owns (c : Thread nD τ) scM2 fullShare s2
      ∗ (iprop(insAt m c t ∗ owns (c : Thread nD τ) (ms0_35 t) fullShare xo ∗ owns (c : Thread nD τ) scM0 fullShare (agg1Step m c t k0_pay1) ∗ owns (c : Thread nD τ) scM1 fullShare s1 ∗ owns (c : Thread nD τ) scM2 fullShare k0_pay2) -∗ K ⟨⟩))
    ⊢ wp frame (wpE (defs₀ (F := F)) Variants.none c none) E (bodyAt0 t) K := by
  have hN : t.val < 20 := lt_of_lt_of_eq t.isLt (show cfg0.N = 20 from N_0)
  exact bodyRun_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t)
    scM0 (Memref.isWhole_whole _) scM1 (Memref.isWhole_whole _) scM2 (Memref.isWhole_whole _)
    ((hcondZero t).mpr h)
    ((hcondPh0 t).mpr (by omega))
    (fun h' => by have := (hcondMid t).mp h'; omega)
    (fun h' => by have := (hcondPh1 t).mp h'; omega)
    (fun h' => by have := (hcondLast t).mp h'; omega)
    (bX1 m c t) (bX2 m c t) (bId1 m c t) (bId2 m c t) (bE10 m c t) (bE1b0 m c t) (bE11 m c t) (bE1b1 m c t) (bE12 m c t) (bE1b2 m c t) (bR10 m c t) (bR1b0 m c t) (bR11 m c t) (bR1b1 m c t) (bR12 m c t) (bR1b2 m c t) (bW0a m c t) (bW0b m c t) (bE2b0 m c t) (bE21 m c t) (bE2b1 m c t) (bE22 m c t) (bE2b2 m c t) (bR20 m c t) (bR2b0 m c t) (bR21 m c t) (bR2b1 m c t) (bR22 m c t) (bR2b2 m c t) (bM0 m c t) (bMb0 m c t) (bM1 m c t) (bMb1 m c t) (bM2p m c t) (bMb2p m c t) xo s0 s1 s2 E K

end Cert.KernelIdeal.Hand

end
-- ==== Proof.KI.RunB.lean ====
/-
  A point of the first phase after the first (p = 0, 0 < i). The body takes its second branch only: it runs the first
  node network on the point's block of the first node array and adds the block's per-graph sums into the first
  accumulator. Every other buffer is left as it was.

  Stated twice: over any whole memrefs, any coordinates at which the five branch conditions fall as they do at such a
  point, and any contents of the buffers; then at the point's own staging buffers and blocks. The body is opened by its
  skeleton and run symbolically; what a stored buffer then reads is its last store's payload, and each payload is read
  at what the loads before it read: a whole-buffer load reads the buffer's contents.
-/
import proofs.«107935_g3393024163881_fold_wed_m_362_29_alg».proof.Proof.KI.Grid
import proofs.«107935_g3393024163881_fold_wed_m_362_29_alg».proof.Proof.KI.Whole

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- A point of the first phase after the first: the body adds the block's per-graph sums into the first accumulator and
    touches nothing else. -/
theorem bodyRun_B (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole)
    (hc1 : ¬condZero i) (hc2 : condPh0 i) (hc3 : ¬condMid i) (hc4 : ¬condPh1 i) (hc5 : ¬condLast i)
    (x0 : Vec F S10000x128 .f32) (x1 : Vec F S10000x128 .f32) (x2 : Vec F S1x1x10000 .i32) (x3 : Vec F S1x1x10000 .i32) (x4 : Vec F S128x128 .f32) (x5 : Vec F S1x128 .f32) (x6 : Vec F S128x128 .f32) (x7 : Vec F S1x128 .f32) (x8 : Vec F S128x128 .f32) (x9 : Vec F S1x128 .f32) (x10 : Vec F S128x128 .f32) (x11 : Vec F S1x128 .f32) (x12 : Vec F S128x128 .f32) (x13 : Vec F S1x128 .f32) (x14 : Vec F S128x128 .f32) (x15 : Vec F S1x128 .f32) (x16 : Vec F S128x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S128x128 .f32) (x24 : Vec F S1x128 .f32) (x25 : Vec F S128x128 .f32) (x26 : Vec F S1x128 .f32) (x27 : Vec F S128x128 .f32) (x28 : Vec F S1x128 .f32) (x29 : Vec F S128x128 .f32) (x30 : Vec F S1x128 .f32) (x31 : Vec F S128x128 .f32) (x32 : Vec F S1x128 .f32) (x33 : Vec F S128x128 .f32) (x34 : Vec F S1x128 .f32) (xo s0 s1 s2 : Vec F S128x128 .f32) (E : Set ℕ) (K : PUnit → sProp 𝕄) :
    iprop(iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare x9
        ∗ owns (c : Thread nD τ) arg12 fullShare x10
        ∗ owns (c : Thread nD τ) arg13 fullShare x11
        ∗ owns (c : Thread nD τ) arg14 fullShare x12
        ∗ owns (c : Thread nD τ) arg15 fullShare x13
        ∗ owns (c : Thread nD τ) arg16 fullShare x14
        ∗ owns (c : Thread nD τ) arg17 fullShare x15
        ∗ owns (c : Thread nD τ) arg18 fullShare x16
        ∗ owns (c : Thread nD τ) arg19 fullShare x17
        ∗ owns (c : Thread nD τ) arg20 fullShare x18
        ∗ owns (c : Thread nD τ) arg21 fullShare x19
        ∗ owns (c : Thread nD τ) arg22 fullShare x20
        ∗ owns (c : Thread nD τ) arg23 fullShare x21
        ∗ owns (c : Thread nD τ) arg24 fullShare x22
        ∗ owns (c : Thread nD τ) arg25 fullShare x23
        ∗ owns (c : Thread nD τ) arg26 fullShare x24
        ∗ owns (c : Thread nD τ) arg27 fullShare x25
        ∗ owns (c : Thread nD τ) arg28 fullShare x26
        ∗ owns (c : Thread nD τ) arg29 fullShare x27
        ∗ owns (c : Thread nD τ) arg30 fullShare x28
        ∗ owns (c : Thread nD τ) arg31 fullShare x29
        ∗ owns (c : Thread nD τ) arg32 fullShare x30
        ∗ owns (c : Thread nD τ) arg33 fullShare x31
        ∗ owns (c : Thread nD τ) arg34 fullShare x32
        ∗ owns (c : Thread nD τ) arg35 fullShare x33
        ∗ owns (c : Thread nD τ) arg36 fullShare x34)
      ∗ owns (c : Thread nD τ) arg37 fullShare xo
      ∗ owns (c : Thread nD τ) arg38 fullShare s0
      ∗ owns (c : Thread nD τ) arg39 fullShare s1
      ∗ owns (c : Thread nD τ) arg40 fullShare s2
      ∗ (iprop(iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare x9
        ∗ owns (c : Thread nD τ) arg12 fullShare x10
        ∗ owns (c : Thread nD τ) arg13 fullShare x11
        ∗ owns (c : Thread nD τ) arg14 fullShare x12
        ∗ owns (c : Thread nD τ) arg15 fullShare x13
        ∗ owns (c : Thread nD τ) arg16 fullShare x14
        ∗ owns (c : Thread nD τ) arg17 fullShare x15
        ∗ owns (c : Thread nD τ) arg18 fullShare x16
        ∗ owns (c : Thread nD τ) arg19 fullShare x17
        ∗ owns (c : Thread nD τ) arg20 fullShare x18
        ∗ owns (c : Thread nD τ) arg21 fullShare x19
        ∗ owns (c : Thread nD τ) arg22 fullShare x20
        ∗ owns (c : Thread nD τ) arg23 fullShare x21
        ∗ owns (c : Thread nD τ) arg24 fullShare x22
        ∗ owns (c : Thread nD τ) arg25 fullShare x23
        ∗ owns (c : Thread nD τ) arg26 fullShare x24
        ∗ owns (c : Thread nD τ) arg27 fullShare x25
        ∗ owns (c : Thread nD τ) arg28 fullShare x26
        ∗ owns (c : Thread nD τ) arg29 fullShare x27
        ∗ owns (c : Thread nD τ) arg30 fullShare x28
        ∗ owns (c : Thread nD τ) arg31 fullShare x29
        ∗ owns (c : Thread nD τ) arg32 fullShare x30
        ∗ owns (c : Thread nD τ) arg33 fullShare x31
        ∗ owns (c : Thread nD τ) arg34 fullShare x32
        ∗ owns (c : Thread nD τ) arg35 fullShare x33
        ∗ owns (c : Thread nD τ) arg36 fullShare x34)
      ∗ owns (c : Thread nD τ) arg37 fullShare xo
      ∗ owns (c : Thread nD τ) arg38 fullShare (k0_pay3 (k0_pay7 x0 x4 x5 x6 x7 x8 x9) (k0_pay8 x2) s0 (k0_pay9 x0 x4 x5 x6 x7 x8 x9) (constant S128x128 .f32 0x00000000#32))
      ∗ owns (c : Thread nD τ) arg39 fullShare s1
      ∗ owns (c : Thread nD τ) arg40 fullShare s2) -∗ K ⟨⟩))
    ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40) K := by
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩⟩, ⟨%fo, %hfo, Ho⟩, ⟨%g0, %hg0, S0⟩, ⟨%g1, %hg1, S1⟩, ⟨%g2, %hg2, S2⟩, Hk⟩
  sl_unfold [cc0__body]
  sl_exec (disch := first | exact hc1 | exact hc2 | exact hc3 | exact hc4 | exact hc5)
  sl_step
  iapply Hk
  isplitl [H0 H1 H2 H3 H4 H5 H6 H7 H8 H9 H10 H11 H12 H13 H14 H15 H16 H17 H18 H19 H20 H21 H22 H23 H24 H25 H26 H27 H28 H29 H30 H31 H32 H33 H34]
  · isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    isplitl [H5]
    · iexists f5; isplitr; · ipureintro; exact hf5
      iexact H5
    isplitl [H6]
    · iexists f6; isplitr; · ipureintro; exact hf6
      iexact H6
    isplitl [H7]
    · iexists f7; isplitr; · ipureintro; exact hf7
      iexact H7
    isplitl [H8]
    · iexists f8; isplitr; · ipureintro; exact hf8
      iexact H8
    isplitl [H9]
    · iexists f9; isplitr; · ipureintro; exact hf9
      iexact H9
    isplitl [H10]
    · iexists f10; isplitr; · ipureintro; exact hf10
      iexact H10
    isplitl [H11]
    · iexists f11; isplitr; · ipureintro; exact hf11
      iexact H11
    isplitl [H12]
    · iexists f12; isplitr; · ipureintro; exact hf12
      iexact H12
    isplitl [H13]
    · iexists f13; isplitr; · ipureintro; exact hf13
      iexact H13
    isplitl [H14]
    · iexists f14; isplitr; · ipureintro; exact hf14
      iexact H14
    isplitl [H15]
    · iexists f15; isplitr; · ipureintro; exact hf15
      iexact H15
    isplitl [H16]
    · iexists f16; isplitr; · ipureintro; exact hf16
      iexact H16
    isplitl [H17]
    · iexists f17; isplitr; · ipureintro; exact hf17
      iexact H17
    isplitl [H18]
    · iexists f18; isplitr; · ipureintro; exact hf18
      iexact H18
    isplitl [H19]
    · iexists f19; isplitr; · ipureintro; exact hf19
      iexact H19
    isplitl [H20]
    · iexists f20; isplitr; · ipureintro; exact hf20
      iexact H20
    isplitl [H21]
    · iexists f21; isplitr; · ipureintro; exact hf21
      iexact H21
    isplitl [H22]
    · iexists f22; isplitr; · ipureintro; exact hf22
      iexact H22
    isplitl [H23]
    · iexists f23; isplitr; · ipureintro; exact hf23
      iexact H23
    isplitl [H24]
    · iexists f24; isplitr; · ipureintro; exact hf24
      iexact H24
    isplitl [H25]
    · iexists f25; isplitr; · ipureintro; exact hf25
      iexact H25
    isplitl [H26]
    · iexists f26; isplitr; · ipureintro; exact hf26
      iexact H26
    isplitl [H27]
    · iexists f27; isplitr; · ipureintro; exact hf27
      iexact H27
    isplitl [H28]
    · iexists f28; isplitr; · ipureintro; exact hf28
      iexact H28
    isplitl [H29]
    · iexists f29; isplitr; · ipureintro; exact hf29
      iexact H29
    isplitl [H30]
    · iexists f30; isplitr; · ipureintro; exact hf30
      iexact H30
    isplitl [H31]
    · iexists f31; isplitr; · ipureintro; exact hf31
      iexact H31
    isplitl [H32]
    · iexists f32; isplitr; · ipureintro; exact hf32
      iexact H32
    isplitl [H33]
    · iexists f33; isplitr; · ipureintro; exact hf33
      iexact H33
    iexists f34; isplitr; · ipureintro; exact hf34
    iexact H34
  isplitl [Ho]
  · iexists fo; isplitr; · ipureintro; exact hfo
    iexact Ho
  isplitl [S0]
  · iexists _; isplitr
    swap; · iexact S0
    ipureintro
    refine (read_writes_cons_whole _ _ hz2 _ _ _).trans ?_
    sl_unfold_run_names
    simp only [readAt_whole _ _ hf0 hz2, readAt_whole _ _ hf1 hz2, readAt_whole _ _ hf2 hz3, readAt_whole _ _ hf3 hz3, readAt_whole _ _ hf4 hz2, readAt_whole _ _ hf5 hz2, readAt_whole _ _ hf6 hz2, readAt_whole _ _ hf7 hz2, readAt_whole _ _ hf8 hz2, readAt_whole _ _ hf9 hz2, readAt_whole _ _ hf10 hz2, readAt_whole _ _ hf11 hz2, readAt_whole _ _ hf12 hz2, readAt_whole _ _ hf13 hz2, readAt_whole _ _ hf14 hz2, readAt_whole _ _ hf15 hz2, readAt_whole _ _ hf16 hz2, readAt_whole _ _ hf17 hz2, readAt_whole _ _ hf18 hz2, readAt_whole _ _ hf19 hz2, readAt_whole _ _ hf20 hz2, readAt_whole _ _ hf21 hz2, readAt_whole _ _ hf22 hz2, readAt_whole _ _ hf23 hz2, readAt_whole _ _ hf24 hz2, readAt_whole _ _ hf25 hz2, readAt_whole _ _ hf26 hz2, readAt_whole _ _ hf27 hz2, readAt_whole _ _ hf28 hz2, readAt_whole _ _ hf29 hz2, readAt_whole _ _ hf30 hz2, readAt_whole _ _ hf31 hz2, readAt_whole _ _ hf32 hz2, readAt_whole _ _ hf33 hz2, readAt_whole _ _ hf34 hz2, readAt_whole _ _ hfo hz2, readAt_whole _ _ hg0 hz2, readAt_whole _ _ hg1 hz2, readAt_whole _ _ hg2 hz2, View.readCov_unit_zero (S := S128x128) _ hz2]
  isplitl [S1]
  · iexists g1; isplitr; · ipureintro; exact hg1
    iexact S1
  iexists g2; isplitr; · ipureintro; exact hg2
  iexact S2

/-- The same at the point's own staging buffers and blocks. -/
theorem run_B (c : Dev nD) (t : Fin cfg0.N) (h : 0 < t.val ∧ t.val < 10) (xo s0 s1 s2 : Vec F S128x128 .f32) (E : Set ℕ) (K : PUnit → sProp 𝕄) :
    iprop(insAt m c t ∗ owns (c : Thread nD τ) (ms0_35 t) fullShare xo ∗ owns (c : Thread nD τ) scM0 fullShare s0 ∗ owns (c : Thread nD τ) scM1 fullShare s1 ∗ owns (c : Thread nD τ) scM2 fullShare s2
      ∗ (iprop(insAt m c t ∗ owns (c : Thread nD τ) (ms0_35 t) fullShare xo ∗ owns (c : Thread nD τ) scM0 fullShare (agg1Step m c t s0) ∗ owns (c : Thread nD τ) scM1 fullShare s1 ∗ owns (c : Thread nD τ) scM2 fullShare s2) -∗ K ⟨⟩))
    ⊢ wp frame (wpE (defs₀ (F := F)) Variants.none c none) E (bodyAt0 t) K := by
  have hN : t.val < 20 := lt_of_lt_of_eq t.isLt (show cfg0.N = 20 from N_0)
  exact bodyRun_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t)
    scM0 (Memref.isWhole_whole _) scM1 (Memref.isWhole_whole _) scM2 (Memref.isWhole_whole _)
    (fun h' => by have := (hcondZero t).mp h'; omega)
    ((hcondPh0 t).mpr h.2)
    (fun h' => by have := (hcondMid t).mp h'; omega)
    (fun h' => by have := (hcondPh1 t).mp h'; omega)
    (fun h' => by have := (hcondLast t).mp h'; omega)
    (bX1 m c t) (bX2 m c t) (bId1 m c t) (bId2 m c t) (bE10 m c t) (bE1b0 m c t) (bE11 m c t) (bE1b1 m c t) (bE12 m c t) (bE1b2 m c t) (bR10 m c t) (bR1b0 m c t) (bR11 m c t) (bR1b1 m c t) (bR12 m c t) (bR1b2 m c t) (bW0a m c t) (bW0b m c t) (bE2b0 m c t) (bE21 m c t) (bE2b1 m c t) (bE22 m c t) (bE2b2 m c t) (bR20 m c t) (bR2b0 m c t) (bR21 m c t) (bR2b1 m c t) (bR22 m c t) (bR2b2 m c t) (bM0 m c t) (bMb0 m c t) (bM1 m c t) (bMb1 m c t) (bM2p m c t) (bMb2p m c t) xo s0 s1 s2 E K

end Cert.KernelIdeal.Hand

end
-- ==== Proof.KI.RunC.lean ====
/-
  The first point of the second phase (p = 1, i = 0). The body takes its third and fourth branches: it computes the graph
  embedding from the finished first accumulator, then runs the second node network on the point's block of the second
  node array, each row joined with the embedding row its graph id selects, and adds the block's per-graph sums into the
  second accumulator.

  Stated twice: over any whole memrefs, any coordinates at which the five branch conditions fall as they do at such a
  point, and any contents of the buffers; then at the point's own staging buffers and blocks. The body is opened by its
  skeleton and run symbolically; what a stored buffer then reads is its last store's payload, and each payload is read
  at what the loads before it read: a whole-buffer load reads the buffer's contents.
-/
import proofs.«107935_g3393024163881_fold_wed_m_362_29_alg».proof.Proof.KI.Grid
import proofs.«107935_g3393024163881_fold_wed_m_362_29_alg».proof.Proof.KI.Whole

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- The first point of the second phase: the body computes the graph embedding from the finished first accumulator, then
    adds the block's per-graph sums, each row joined with its graph's embedding row, into the second accumulator. -/
theorem bodyRun_C (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole)
    (hc1 : ¬condZero i) (hc2 : ¬condPh0 i) (hc3 : condMid i) (hc4 : condPh1 i) (hc5 : ¬condLast i)
    (x0 : Vec F S10000x128 .f32) (x1 : Vec F S10000x128 .f32) (x2 : Vec F S1x1x10000 .i32) (x3 : Vec F S1x1x10000 .i32) (x4 : Vec F S128x128 .f32) (x5 : Vec F S1x128 .f32) (x6 : Vec F S128x128 .f32) (x7 : Vec F S1x128 .f32) (x8 : Vec F S128x128 .f32) (x9 : Vec F S1x128 .f32) (x10 : Vec F S128x128 .f32) (x11 : Vec F S1x128 .f32) (x12 : Vec F S128x128 .f32) (x13 : Vec F S1x128 .f32) (x14 : Vec F S128x128 .f32) (x15 : Vec F S1x128 .f32) (x16 : Vec F S128x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S128x128 .f32) (x24 : Vec F S1x128 .f32) (x25 : Vec F S128x128 .f32) (x26 : Vec F S1x128 .f32) (x27 : Vec F S128x128 .f32) (x28 : Vec F S1x128 .f32) (x29 : Vec F S128x128 .f32) (x30 : Vec F S1x128 .f32) (x31 : Vec F S128x128 .f32) (x32 : Vec F S1x128 .f32) (x33 : Vec F S128x128 .f32) (x34 : Vec F S1x128 .f32) (xo s0 s1 s2 : Vec F S128x128 .f32) (E : Set ℕ) (K : PUnit → sProp 𝕄) :
    iprop(iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare x9
        ∗ owns (c : Thread nD τ) arg12 fullShare x10
        ∗ owns (c : Thread nD τ) arg13 fullShare x11
        ∗ owns (c : Thread nD τ) arg14 fullShare x12
        ∗ owns (c : Thread nD τ) arg15 fullShare x13
        ∗ owns (c : Thread nD τ) arg16 fullShare x14
        ∗ owns (c : Thread nD τ) arg17 fullShare x15
        ∗ owns (c : Thread nD τ) arg18 fullShare x16
        ∗ owns (c : Thread nD τ) arg19 fullShare x17
        ∗ owns (c : Thread nD τ) arg20 fullShare x18
        ∗ owns (c : Thread nD τ) arg21 fullShare x19
        ∗ owns (c : Thread nD τ) arg22 fullShare x20
        ∗ owns (c : Thread nD τ) arg23 fullShare x21
        ∗ owns (c : Thread nD τ) arg24 fullShare x22
        ∗ owns (c : Thread nD τ) arg25 fullShare x23
        ∗ owns (c : Thread nD τ) arg26 fullShare x24
        ∗ owns (c : Thread nD τ) arg27 fullShare x25
        ∗ owns (c : Thread nD τ) arg28 fullShare x26
        ∗ owns (c : Thread nD τ) arg29 fullShare x27
        ∗ owns (c : Thread nD τ) arg30 fullShare x28
        ∗ owns (c : Thread nD τ) arg31 fullShare x29
        ∗ owns (c : Thread nD τ) arg32 fullShare x30
        ∗ owns (c : Thread nD τ) arg33 fullShare x31
        ∗ owns (c : Thread nD τ) arg34 fullShare x32
        ∗ owns (c : Thread nD τ) arg35 fullShare x33
        ∗ owns (c : Thread nD τ) arg36 fullShare x34)
      ∗ owns (c : Thread nD τ) arg37 fullShare xo
      ∗ owns (c : Thread nD τ) arg38 fullShare s0
      ∗ owns (c : Thread nD τ) arg39 fullShare s1
      ∗ owns (c : Thread nD τ) arg40 fullShare s2
      ∗ (iprop(iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare x9
        ∗ owns (c : Thread nD τ) arg12 fullShare x10
        ∗ owns (c : Thread nD τ) arg13 fullShare x11
        ∗ owns (c : Thread nD τ) arg14 fullShare x12
        ∗ owns (c : Thread nD τ) arg15 fullShare x13
        ∗ owns (c : Thread nD τ) arg16 fullShare x14
        ∗ owns (c : Thread nD τ) arg17 fullShare x15
        ∗ owns (c : Thread nD τ) arg18 fullShare x16
        ∗ owns (c : Thread nD τ) arg19 fullShare x17
        ∗ owns (c : Thread nD τ) arg20 fullShare x18
        ∗ owns (c : Thread nD τ) arg21 fullShare x19
        ∗ owns (c : Thread nD τ) arg22 fullShare x20
        ∗ owns (c : Thread nD τ) arg23 fullShare x21
        ∗ owns (c : Thread nD τ) arg24 fullShare x22
        ∗ owns (c : Thread nD τ) arg25 fullShare x23
        ∗ owns (c : Thread nD τ) arg26 fullShare x24
        ∗ owns (c : Thread nD τ) arg27 fullShare x25
        ∗ owns (c : Thread nD τ) arg28 fullShare x26
        ∗ owns (c : Thread nD τ) arg29 fullShare x27
        ∗ owns (c : Thread nD τ) arg30 fullShare x28
        ∗ owns (c : Thread nD τ) arg31 fullShare x29
        ∗ owns (c : Thread nD τ) arg32 fullShare x30
        ∗ owns (c : Thread nD τ) arg33 fullShare x31
        ∗ owns (c : Thread nD τ) arg34 fullShare x32
        ∗ owns (c : Thread nD τ) arg35 fullShare x33
        ∗ owns (c : Thread nD τ) arg36 fullShare x34)
      ∗ owns (c : Thread nD τ) arg37 fullShare xo
      ∗ owns (c : Thread nD τ) arg38 fullShare s0
      ∗ owns (c : Thread nD τ) arg39 fullShare (k0_pay4 s0 x10 x11 x12 x13 x14 x15)
      ∗ owns (c : Thread nD τ) arg40 fullShare (k0_pay5 (k0_pay10 x2 (k0_pay4 s0 x10 x11 x12 x13 x14 x15) x1 x16 x17 x18 x19 x20 x21) x22 x3 s2)) -∗ K ⟨⟩))
    ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40) K := by
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩⟩, ⟨%fo, %hfo, Ho⟩, ⟨%g0, %hg0, S0⟩, ⟨%g1, %hg1, S1⟩, ⟨%g2, %hg2, S2⟩, Hk⟩
  sl_unfold [cc0__body]
  sl_exec (disch := first | exact hc1 | exact hc2 | exact hc3 | exact hc4 | exact hc5)
  sl_step
  iapply Hk
  isplitl [H0 H1 H2 H3 H4 H5 H6 H7 H8 H9 H10 H11 H12 H13 H14 H15 H16 H17 H18 H19 H20 H21 H22 H23 H24 H25 H26 H27 H28 H29 H30 H31 H32 H33 H34]
  · isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    isplitl [H5]
    · iexists f5; isplitr; · ipureintro; exact hf5
      iexact H5
    isplitl [H6]
    · iexists f6; isplitr; · ipureintro; exact hf6
      iexact H6
    isplitl [H7]
    · iexists f7; isplitr; · ipureintro; exact hf7
      iexact H7
    isplitl [H8]
    · iexists f8; isplitr; · ipureintro; exact hf8
      iexact H8
    isplitl [H9]
    · iexists f9; isplitr; · ipureintro; exact hf9
      iexact H9
    isplitl [H10]
    · iexists f10; isplitr; · ipureintro; exact hf10
      iexact H10
    isplitl [H11]
    · iexists f11; isplitr; · ipureintro; exact hf11
      iexact H11
    isplitl [H12]
    · iexists f12; isplitr; · ipureintro; exact hf12
      iexact H12
    isplitl [H13]
    · iexists f13; isplitr; · ipureintro; exact hf13
      iexact H13
    isplitl [H14]
    · iexists f14; isplitr; · ipureintro; exact hf14
      iexact H14
    isplitl [H15]
    · iexists f15; isplitr; · ipureintro; exact hf15
      iexact H15
    isplitl [H16]
    · iexists f16; isplitr; · ipureintro; exact hf16
      iexact H16
    isplitl [H17]
    · iexists f17; isplitr; · ipureintro; exact hf17
      iexact H17
    isplitl [H18]
    · iexists f18; isplitr; · ipureintro; exact hf18
      iexact H18
    isplitl [H19]
    · iexists f19; isplitr; · ipureintro; exact hf19
      iexact H19
    isplitl [H20]
    · iexists f20; isplitr; · ipureintro; exact hf20
      iexact H20
    isplitl [H21]
    · iexists f21; isplitr; · ipureintro; exact hf21
      iexact H21
    isplitl [H22]
    · iexists f22; isplitr; · ipureintro; exact hf22
      iexact H22
    isplitl [H23]
    · iexists f23; isplitr; · ipureintro; exact hf23
      iexact H23
    isplitl [H24]
    · iexists f24; isplitr; · ipureintro; exact hf24
      iexact H24
    isplitl [H25]
    · iexists f25; isplitr; · ipureintro; exact hf25
      iexact H25
    isplitl [H26]
    · iexists f26; isplitr; · ipureintro; exact hf26
      iexact H26
    isplitl [H27]
    · iexists f27; isplitr; · ipureintro; exact hf27
      iexact H27
    isplitl [H28]
    · iexists f28; isplitr; · ipureintro; exact hf28
      iexact H28
    isplitl [H29]
    · iexists f29; isplitr; · ipureintro; exact hf29
      iexact H29
    isplitl [H30]
    · iexists f30; isplitr; · ipureintro; exact hf30
      iexact H30
    isplitl [H31]
    · iexists f31; isplitr; · ipureintro; exact hf31
      iexact H31
    isplitl [H32]
    · iexists f32; isplitr; · ipureintro; exact hf32
      iexact H32
    isplitl [H33]
    · iexists f33; isplitr; · ipureintro; exact hf33
      iexact H33
    iexists f34; isplitr; · ipureintro; exact hf34
    iexact H34
  isplitl [Ho]
  · iexists fo; isplitr; · ipureintro; exact hfo
    iexact Ho
  isplitl [S0]
  · iexists g0; isplitr; · ipureintro; exact hg0
    iexact S0
  isplitl [S1]
  · iexists _; isplitr
    swap; · iexact S1
    ipureintro
    refine (read_writes_cons_whole _ _ hz2 _ _ _).trans ?_
    sl_unfold_run_names
    simp only [readAt_whole _ _ hf0 hz2, readAt_whole _ _ hf1 hz2, readAt_whole _ _ hf2 hz3, readAt_whole _ _ hf3 hz3, readAt_whole _ _ hf4 hz2, readAt_whole _ _ hf5 hz2, readAt_whole _ _ hf6 hz2, readAt_whole _ _ hf7 hz2, readAt_whole _ _ hf8 hz2, readAt_whole _ _ hf9 hz2, readAt_whole _ _ hf10 hz2, readAt_whole _ _ hf11 hz2, readAt_whole _ _ hf12 hz2, readAt_whole _ _ hf13 hz2, readAt_whole _ _ hf14 hz2, readAt_whole _ _ hf15 hz2, readAt_whole _ _ hf16 hz2, readAt_whole _ _ hf17 hz2, readAt_whole _ _ hf18 hz2, readAt_whole _ _ hf19 hz2, readAt_whole _ _ hf20 hz2, readAt_whole _ _ hf21 hz2, readAt_whole _ _ hf22 hz2, readAt_whole _ _ hf23 hz2, readAt_whole _ _ hf24 hz2, readAt_whole _ _ hf25 hz2, readAt_whole _ _ hf26 hz2, readAt_whole _ _ hf27 hz2, readAt_whole _ _ hf28 hz2, readAt_whole _ _ hf29 hz2, readAt_whole _ _ hf30 hz2, readAt_whole _ _ hf31 hz2, readAt_whole _ _ hf32 hz2, readAt_whole _ _ hf33 hz2, readAt_whole _ _ hf34 hz2, readAt_whole _ _ hfo hz2, readAt_whole _ _ hg0 hz2, readAt_whole _ _ hg1 hz2, readAt_whole _ _ hg2 hz2, View.readCov_unit_zero (S := S128x128) _ hz2]
  iexists _; isplitr
  swap; · iexact S2
  ipureintro
  refine (read_writes_cons_whole _ _ hz2 _ _ _).trans ?_
  sl_unfold_run_names
  simp only [readAt_whole _ _ hf0 hz2, readAt_whole _ _ hf1 hz2, readAt_whole _ _ hf2 hz3, readAt_whole _ _ hf3 hz3, readAt_whole _ _ hf4 hz2, readAt_whole _ _ hf5 hz2, readAt_whole _ _ hf6 hz2, readAt_whole _ _ hf7 hz2, readAt_whole _ _ hf8 hz2, readAt_whole _ _ hf9 hz2, readAt_whole _ _ hf10 hz2, readAt_whole _ _ hf11 hz2, readAt_whole _ _ hf12 hz2, readAt_whole _ _ hf13 hz2, readAt_whole _ _ hf14 hz2, readAt_whole _ _ hf15 hz2, readAt_whole _ _ hf16 hz2, readAt_whole _ _ hf17 hz2, readAt_whole _ _ hf18 hz2, readAt_whole _ _ hf19 hz2, readAt_whole _ _ hf20 hz2, readAt_whole _ _ hf21 hz2, readAt_whole _ _ hf22 hz2, readAt_whole _ _ hf23 hz2, readAt_whole _ _ hf24 hz2, readAt_whole _ _ hf25 hz2, readAt_whole _ _ hf26 hz2, readAt_whole _ _ hf27 hz2, readAt_whole _ _ hf28 hz2, readAt_whole _ _ hf29 hz2, readAt_whole _ _ hf30 hz2, readAt_whole _ _ hf31 hz2, readAt_whole _ _ hf32 hz2, readAt_whole _ _ hf33 hz2, readAt_whole _ _ hf34 hz2, readAt_whole _ _ hfo hz2, readAt_whole _ _ hg0 hz2, readAt_whole _ _ hg1 hz2, readAt_whole _ _ hg2 hz2, View.readCov_unit_zero (S := S128x128) _ hz2]

/-- The same at the point's own staging buffers and blocks. -/
theorem run_C (c : Dev nD) (t : Fin cfg0.N) (h : t.val = 10) (xo s0 s1 s2 : Vec F S128x128 .f32) (E : Set ℕ) (K : PUnit → sProp 𝕄) :
    iprop(insAt m c t ∗ owns (c : Thread nD τ) (ms0_35 t) fullShare xo ∗ owns (c : Thread nD τ) scM0 fullShare s0 ∗ owns (c : Thread nD τ) scM1 fullShare s1 ∗ owns (c : Thread nD τ) scM2 fullShare s2
      ∗ (iprop(insAt m c t ∗ owns (c : Thread nD τ) (ms0_35 t) fullShare xo ∗ owns (c : Thread nD τ) scM0 fullShare s0 ∗ owns (c : Thread nD τ) scM1 fullShare (u1sOf m c t s0) ∗ owns (c : Thread nD τ) scM2 fullShare (agg2Step m c t (u1sOf m c t s0) s2)) -∗ K ⟨⟩))
    ⊢ wp frame (wpE (defs₀ (F := F)) Variants.none c none) E (bodyAt0 t) K := by
  have hN : t.val < 20 := lt_of_lt_of_eq t.isLt (show cfg0.N = 20 from N_0)
  exact bodyRun_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t)
    scM0 (Memref.isWhole_whole _) scM1 (Memref.isWhole_whole _) scM2 (Memref.isWhole_whole _)
    (fun h' => by have := (hcondZero t).mp h'; omega)
    (fun h' => by have := (hcondPh0 t).mp h'; omega)
    ((hcondMid t).mpr h)
    ((hcondPh1 t).mpr (by omega))
    (fun h' => by have := (hcondLast t).mp h'; omega)
    (bX1 m c t) (bX2 m c t) (bId1 m c t) (bId2 m c t) (bE10 m c t) (bE1b0 m c t) (bE11 m c t) (bE1b1 m c t) (bE12 m c t) (bE1b2 m c t) (bR10 m c t) (bR1b0 m c t) (bR11 m c t) (bR1b1 m c t) (bR12 m c t) (bR1b2 m c t) (bW0a m c t) (bW0b m c t) (bE2b0 m c t) (bE21 m c t) (bE2b1 m c t) (bE22 m c t) (bE2b2 m c t) (bR20 m c t) (bR2b0 m c t) (bR21 m c t) (bR2b1 m c t) (bR22 m c t) (bR2b2 m c t) (bM0 m c t) (bMb0 m c t) (bM1 m c t) (bMb1 m c t) (bM2p m c t) (bMb2p m c t) xo s0 s1 s2 E K

end Cert.KernelIdeal.Hand

end
-- ==== Proof.KI.RunD.lean ====
/-
  A point of the second phase between its first and its last (p = 1, 0 < i < 9). The body takes its fourth branch only:
  it runs the second node network on the point's block, each row joined with its graph's embedding row, and adds the
  block's per-graph sums into the second accumulator. Every other buffer is left as it was.

  Stated twice: over any whole memrefs, any coordinates at which the five branch conditions fall as they do at such a
  point, and any contents of the buffers; then at the point's own staging buffers and blocks. The body is opened by its
  skeleton and run symbolically; what a stored buffer then reads is its last store's payload, and each payload is read
  at what the loads before it read: a whole-buffer load reads the buffer's contents.
-/
import proofs.«107935_g3393024163881_fold_wed_m_362_29_alg».proof.Proof.KI.Grid
import proofs.«107935_g3393024163881_fold_wed_m_362_29_alg».proof.Proof.KI.Whole

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- A point of the second phase between its first and its last: the body adds the block's per-graph sums into the second
    accumulator and touches nothing else. -/
theorem bodyRun_D (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole)
    (hc1 : ¬condZero i) (hc2 : ¬condPh0 i) (hc3 : ¬condMid i) (hc4 : condPh1 i) (hc5 : ¬condLast i)
    (x0 : Vec F S10000x128 .f32) (x1 : Vec F S10000x128 .f32) (x2 : Vec F S1x1x10000 .i32) (x3 : Vec F S1x1x10000 .i32) (x4 : Vec F S128x128 .f32) (x5 : Vec F S1x128 .f32) (x6 : Vec F S128x128 .f32) (x7 : Vec F S1x128 .f32) (x8 : Vec F S128x128 .f32) (x9 : Vec F S1x128 .f32) (x10 : Vec F S128x128 .f32) (x11 : Vec F S1x128 .f32) (x12 : Vec F S128x128 .f32) (x13 : Vec F S1x128 .f32) (x14 : Vec F S128x128 .f32) (x15 : Vec F S1x128 .f32) (x16 : Vec F S128x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S128x128 .f32) (x24 : Vec F S1x128 .f32) (x25 : Vec F S128x128 .f32) (x26 : Vec F S1x128 .f32) (x27 : Vec F S128x128 .f32) (x28 : Vec F S1x128 .f32) (x29 : Vec F S128x128 .f32) (x30 : Vec F S1x128 .f32) (x31 : Vec F S128x128 .f32) (x32 : Vec F S1x128 .f32) (x33 : Vec F S128x128 .f32) (x34 : Vec F S1x128 .f32) (xo s0 s1 s2 : Vec F S128x128 .f32) (E : Set ℕ) (K : PUnit → sProp 𝕄) :
    iprop(iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare x9
        ∗ owns (c : Thread nD τ) arg12 fullShare x10
        ∗ owns (c : Thread nD τ) arg13 fullShare x11
        ∗ owns (c : Thread nD τ) arg14 fullShare x12
        ∗ owns (c : Thread nD τ) arg15 fullShare x13
        ∗ owns (c : Thread nD τ) arg16 fullShare x14
        ∗ owns (c : Thread nD τ) arg17 fullShare x15
        ∗ owns (c : Thread nD τ) arg18 fullShare x16
        ∗ owns (c : Thread nD τ) arg19 fullShare x17
        ∗ owns (c : Thread nD τ) arg20 fullShare x18
        ∗ owns (c : Thread nD τ) arg21 fullShare x19
        ∗ owns (c : Thread nD τ) arg22 fullShare x20
        ∗ owns (c : Thread nD τ) arg23 fullShare x21
        ∗ owns (c : Thread nD τ) arg24 fullShare x22
        ∗ owns (c : Thread nD τ) arg25 fullShare x23
        ∗ owns (c : Thread nD τ) arg26 fullShare x24
        ∗ owns (c : Thread nD τ) arg27 fullShare x25
        ∗ owns (c : Thread nD τ) arg28 fullShare x26
        ∗ owns (c : Thread nD τ) arg29 fullShare x27
        ∗ owns (c : Thread nD τ) arg30 fullShare x28
        ∗ owns (c : Thread nD τ) arg31 fullShare x29
        ∗ owns (c : Thread nD τ) arg32 fullShare x30
        ∗ owns (c : Thread nD τ) arg33 fullShare x31
        ∗ owns (c : Thread nD τ) arg34 fullShare x32
        ∗ owns (c : Thread nD τ) arg35 fullShare x33
        ∗ owns (c : Thread nD τ) arg36 fullShare x34)
      ∗ owns (c : Thread nD τ) arg37 fullShare xo
      ∗ owns (c : Thread nD τ) arg38 fullShare s0
      ∗ owns (c : Thread nD τ) arg39 fullShare s1
      ∗ owns (c : Thread nD τ) arg40 fullShare s2
      ∗ (iprop(iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare x9
        ∗ owns (c : Thread nD τ) arg12 fullShare x10
        ∗ owns (c : Thread nD τ) arg13 fullShare x11
        ∗ owns (c : Thread nD τ) arg14 fullShare x12
        ∗ owns (c : Thread nD τ) arg15 fullShare x13
        ∗ owns (c : Thread nD τ) arg16 fullShare x14
        ∗ owns (c : Thread nD τ) arg17 fullShare x15
        ∗ owns (c : Thread nD τ) arg18 fullShare x16
        ∗ owns (c : Thread nD τ) arg19 fullShare x17
        ∗ owns (c : Thread nD τ) arg20 fullShare x18
        ∗ owns (c : Thread nD τ) arg21 fullShare x19
        ∗ owns (c : Thread nD τ) arg22 fullShare x20
        ∗ owns (c : Thread nD τ) arg23 fullShare x21
        ∗ owns (c : Thread nD τ) arg24 fullShare x22
        ∗ owns (c : Thread nD τ) arg25 fullShare x23
        ∗ owns (c : Thread nD τ) arg26 fullShare x24
        ∗ owns (c : Thread nD τ) arg27 fullShare x25
        ∗ owns (c : Thread nD τ) arg28 fullShare x26
        ∗ owns (c : Thread nD τ) arg29 fullShare x27
        ∗ owns (c : Thread nD τ) arg30 fullShare x28
        ∗ owns (c : Thread nD τ) arg31 fullShare x29
        ∗ owns (c : Thread nD τ) arg32 fullShare x30
        ∗ owns (c : Thread nD τ) arg33 fullShare x31
        ∗ owns (c : Thread nD τ) arg34 fullShare x32
        ∗ owns (c : Thread nD τ) arg35 fullShare x33
        ∗ owns (c : Thread nD τ) arg36 fullShare x34)
      ∗ owns (c : Thread nD τ) arg37 fullShare xo
      ∗ owns (c : Thread nD τ) arg38 fullShare s0
      ∗ owns (c : Thread nD τ) arg39 fullShare s1
      ∗ owns (c : Thread nD τ) arg40 fullShare (k0_pay5 (k0_pay10 x2 s1 x1 x16 x17 x18 x19 x20 x21) x22 x3 s2)) -∗ K ⟨⟩))
    ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40) K := by
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩⟩, ⟨%fo, %hfo, Ho⟩, ⟨%g0, %hg0, S0⟩, ⟨%g1, %hg1, S1⟩, ⟨%g2, %hg2, S2⟩, Hk⟩
  sl_unfold [cc0__body]
  sl_exec (disch := first | exact hc1 | exact hc2 | exact hc3 | exact hc4 | exact hc5)
  sl_step
  iapply Hk
  isplitl [H0 H1 H2 H3 H4 H5 H6 H7 H8 H9 H10 H11 H12 H13 H14 H15 H16 H17 H18 H19 H20 H21 H22 H23 H24 H25 H26 H27 H28 H29 H30 H31 H32 H33 H34]
  · isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    isplitl [H5]
    · iexists f5; isplitr; · ipureintro; exact hf5
      iexact H5
    isplitl [H6]
    · iexists f6; isplitr; · ipureintro; exact hf6
      iexact H6
    isplitl [H7]
    · iexists f7; isplitr; · ipureintro; exact hf7
      iexact H7
    isplitl [H8]
    · iexists f8; isplitr; · ipureintro; exact hf8
      iexact H8
    isplitl [H9]
    · iexists f9; isplitr; · ipureintro; exact hf9
      iexact H9
    isplitl [H10]
    · iexists f10; isplitr; · ipureintro; exact hf10
      iexact H10
    isplitl [H11]
    · iexists f11; isplitr; · ipureintro; exact hf11
      iexact H11
    isplitl [H12]
    · iexists f12; isplitr; · ipureintro; exact hf12
      iexact H12
    isplitl [H13]
    · iexists f13; isplitr; · ipureintro; exact hf13
      iexact H13
    isplitl [H14]
    · iexists f14; isplitr; · ipureintro; exact hf14
      iexact H14
    isplitl [H15]
    · iexists f15; isplitr; · ipureintro; exact hf15
      iexact H15
    isplitl [H16]
    · iexists f16; isplitr; · ipureintro; exact hf16
      iexact H16
    isplitl [H17]
    · iexists f17; isplitr; · ipureintro; exact hf17
      iexact H17
    isplitl [H18]
    · iexists f18; isplitr; · ipureintro; exact hf18
      iexact H18
    isplitl [H19]
    · iexists f19; isplitr; · ipureintro; exact hf19
      iexact H19
    isplitl [H20]
    · iexists f20; isplitr; · ipureintro; exact hf20
      iexact H20
    isplitl [H21]
    · iexists f21; isplitr; · ipureintro; exact hf21
      iexact H21
    isplitl [H22]
    · iexists f22; isplitr; · ipureintro; exact hf22
      iexact H22
    isplitl [H23]
    · iexists f23; isplitr; · ipureintro; exact hf23
      iexact H23
    isplitl [H24]
    · iexists f24; isplitr; · ipureintro; exact hf24
      iexact H24
    isplitl [H25]
    · iexists f25; isplitr; · ipureintro; exact hf25
      iexact H25
    isplitl [H26]
    · iexists f26; isplitr; · ipureintro; exact hf26
      iexact H26
    isplitl [H27]
    · iexists f27; isplitr; · ipureintro; exact hf27
      iexact H27
    isplitl [H28]
    · iexists f28; isplitr; · ipureintro; exact hf28
      iexact H28
    isplitl [H29]
    · iexists f29; isplitr; · ipureintro; exact hf29
      iexact H29
    isplitl [H30]
    · iexists f30; isplitr; · ipureintro; exact hf30
      iexact H30
    isplitl [H31]
    · iexists f31; isplitr; · ipureintro; exact hf31
      iexact H31
    isplitl [H32]
    · iexists f32; isplitr; · ipureintro; exact hf32
      iexact H32
    isplitl [H33]
    · iexists f33; isplitr; · ipureintro; exact hf33
      iexact H33
    iexists f34; isplitr; · ipureintro; exact hf34
    iexact H34
  isplitl [Ho]
  · iexists fo; isplitr; · ipureintro; exact hfo
    iexact Ho
  isplitl [S0]
  · iexists g0; isplitr; · ipureintro; exact hg0
    iexact S0
  isplitl [S1]
  · iexists g1; isplitr; · ipureintro; exact hg1
    iexact S1
  iexists _; isplitr
  swap; · iexact S2
  ipureintro
  refine (read_writes_cons_whole _ _ hz2 _ _ _).trans ?_
  sl_unfold_run_names
  simp only [readAt_whole _ _ hf0 hz2, readAt_whole _ _ hf1 hz2, readAt_whole _ _ hf2 hz3, readAt_whole _ _ hf3 hz3, readAt_whole _ _ hf4 hz2, readAt_whole _ _ hf5 hz2, readAt_whole _ _ hf6 hz2, readAt_whole _ _ hf7 hz2, readAt_whole _ _ hf8 hz2, readAt_whole _ _ hf9 hz2, readAt_whole _ _ hf10 hz2, readAt_whole _ _ hf11 hz2, readAt_whole _ _ hf12 hz2, readAt_whole _ _ hf13 hz2, readAt_whole _ _ hf14 hz2, readAt_whole _ _ hf15 hz2, readAt_whole _ _ hf16 hz2, readAt_whole _ _ hf17 hz2, readAt_whole _ _ hf18 hz2, readAt_whole _ _ hf19 hz2, readAt_whole _ _ hf20 hz2, readAt_whole _ _ hf21 hz2, readAt_whole _ _ hf22 hz2, readAt_whole _ _ hf23 hz2, readAt_whole _ _ hf24 hz2, readAt_whole _ _ hf25 hz2, readAt_whole _ _ hf26 hz2, readAt_whole _ _ hf27 hz2, readAt_whole _ _ hf28 hz2, readAt_whole _ _ hf29 hz2, readAt_whole _ _ hf30 hz2, readAt_whole _ _ hf31 hz2, readAt_whole _ _ hf32 hz2, readAt_whole _ _ hf33 hz2, readAt_whole _ _ hf34 hz2, readAt_whole _ _ hfo hz2, readAt_whole _ _ hg0 hz2, readAt_whole _ _ hg1 hz2, readAt_whole _ _ hg2 hz2, View.readCov_unit_zero (S := S128x128) _ hz2]

/-- The same at the point's own staging buffers and blocks. -/
theorem run_D (c : Dev nD) (t : Fin cfg0.N) (h : 10 < t.val ∧ t.val < 19) (xo s0 s1 s2 : Vec F S128x128 .f32) (E : Set ℕ) (K : PUnit → sProp 𝕄) :
    iprop(insAt m c t ∗ owns (c : Thread nD τ) (ms0_35 t) fullShare xo ∗ owns (c : Thread nD τ) scM0 fullShare s0 ∗ owns (c : Thread nD τ) scM1 fullShare s1 ∗ owns (c : Thread nD τ) scM2 fullShare s2
      ∗ (iprop(insAt m c t ∗ owns (c : Thread nD τ) (ms0_35 t) fullShare xo ∗ owns (c : Thread nD τ) scM0 fullShare s0 ∗ owns (c : Thread nD τ) scM1 fullShare s1 ∗ owns (c : Thread nD τ) scM2 fullShare (agg2Step m c t s1 s2)) -∗ K ⟨⟩))
    ⊢ wp frame (wpE (defs₀ (F := F)) Variants.none c none) E (bodyAt0 t) K := by
  have hN : t.val < 20 := lt_of_lt_of_eq t.isLt (show cfg0.N = 20 from N_0)
  exact bodyRun_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t)
    scM0 (Memref.isWhole_whole _) scM1 (Memref.isWhole_whole _) scM2 (Memref.isWhole_whole _)
    (fun h' => by have := (hcondZero t).mp h'; omega)
    (fun h' => by have := (hcondPh0 t).mp h'; omega)
    (fun h' => by have := (hcondMid t).mp h'; omega)
    ((hcondPh1 t).mpr (by omega))
    (fun h' => by have := (hcondLast t).mp h'; omega)
    (bX1 m c t) (bX2 m c t) (bId1 m c t) (bId2 m c t) (bE10 m c t) (bE1b0 m c t) (bE11 m c t) (bE1b1 m c t) (bE12 m c t) (bE1b2 m c t) (bR10 m c t) (bR1b0 m c t) (bR11 m c t) (bR1b1 m c t) (bR12 m c t) (bR1b2 m c t) (bW0a m c t) (bW0b m c t) (bE2b0 m c t) (bE21 m c t) (bE2b1 m c t) (bE22 m c t) (bE2b2 m c t) (bR20 m c t) (bR2b0 m c t) (bR21 m c t) (bR2b1 m c t) (bR22 m c t) (bR2b2 m c t) (bM0 m c t) (bMb0 m c t) (bM1 m c t) (bMb1 m c t) (bM2p m c t) (bMb2p m c t) xo s0 s1 s2 E K

end Cert.KernelIdeal.Hand

end
-- ==== Proof.KI.RunE.lean ====
/-
  The last point of the grid (p = 1, i = 9). The body takes its fourth and fifth branches: it adds the block's per-graph
  sums into the second accumulator, then runs the second graph network and the output network on the finished
  accumulator and stores the output block.

  Stated twice: over any whole memrefs, any coordinates at which the five branch conditions fall as they do at such a
  point, and any contents of the buffers; then at the point's own staging buffers and blocks. The body is opened by its
  skeleton and run symbolically; what a stored buffer then reads is its last store's payload, and each payload is read
  at what the loads before it read: a whole-buffer load reads the buffer's contents.
-/
import proofs.«107935_g3393024163881_fold_wed_m_362_29_alg».proof.Proof.KI.Grid
import proofs.«107935_g3393024163881_fold_wed_m_362_29_alg».proof.Proof.KI.Whole

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- The last point: the body adds the block's per-graph sums into the second accumulator, then computes the output block
    from the finished accumulator. -/
theorem bodyRun_E (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x10000 .i32) (harg4 : arg4.IsWhole) (arg5 : Memref sig .tc .vmem S1x1x10000 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S128x128 .f32) (harg31 : arg31.IsWhole) (arg32 : Memref sig .tc .vmem S1x128 .f32) (harg32 : arg32.IsWhole) (arg33 : Memref sig .tc .vmem S128x128 .f32) (harg33 : arg33.IsWhole) (arg34 : Memref sig .tc .vmem S1x128 .f32) (harg34 : arg34.IsWhole) (arg35 : Memref sig .tc .vmem S128x128 .f32) (harg35 : arg35.IsWhole) (arg36 : Memref sig .tc .vmem S1x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S128x128 .f32) (harg40 : arg40.IsWhole)
    (hc1 : ¬condZero i) (hc2 : ¬condPh0 i) (hc3 : ¬condMid i) (hc4 : condPh1 i) (hc5 : condLast i)
    (x0 : Vec F S10000x128 .f32) (x1 : Vec F S10000x128 .f32) (x2 : Vec F S1x1x10000 .i32) (x3 : Vec F S1x1x10000 .i32) (x4 : Vec F S128x128 .f32) (x5 : Vec F S1x128 .f32) (x6 : Vec F S128x128 .f32) (x7 : Vec F S1x128 .f32) (x8 : Vec F S128x128 .f32) (x9 : Vec F S1x128 .f32) (x10 : Vec F S128x128 .f32) (x11 : Vec F S1x128 .f32) (x12 : Vec F S128x128 .f32) (x13 : Vec F S1x128 .f32) (x14 : Vec F S128x128 .f32) (x15 : Vec F S1x128 .f32) (x16 : Vec F S128x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S128x128 .f32) (x24 : Vec F S1x128 .f32) (x25 : Vec F S128x128 .f32) (x26 : Vec F S1x128 .f32) (x27 : Vec F S128x128 .f32) (x28 : Vec F S1x128 .f32) (x29 : Vec F S128x128 .f32) (x30 : Vec F S1x128 .f32) (x31 : Vec F S128x128 .f32) (x32 : Vec F S1x128 .f32) (x33 : Vec F S128x128 .f32) (x34 : Vec F S1x128 .f32) (xo s0 s1 s2 : Vec F S128x128 .f32) (E : Set ℕ) (K : PUnit → sProp 𝕄) :
    iprop(iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare x9
        ∗ owns (c : Thread nD τ) arg12 fullShare x10
        ∗ owns (c : Thread nD τ) arg13 fullShare x11
        ∗ owns (c : Thread nD τ) arg14 fullShare x12
        ∗ owns (c : Thread nD τ) arg15 fullShare x13
        ∗ owns (c : Thread nD τ) arg16 fullShare x14
        ∗ owns (c : Thread nD τ) arg17 fullShare x15
        ∗ owns (c : Thread nD τ) arg18 fullShare x16
        ∗ owns (c : Thread nD τ) arg19 fullShare x17
        ∗ owns (c : Thread nD τ) arg20 fullShare x18
        ∗ owns (c : Thread nD τ) arg21 fullShare x19
        ∗ owns (c : Thread nD τ) arg22 fullShare x20
        ∗ owns (c : Thread nD τ) arg23 fullShare x21
        ∗ owns (c : Thread nD τ) arg24 fullShare x22
        ∗ owns (c : Thread nD τ) arg25 fullShare x23
        ∗ owns (c : Thread nD τ) arg26 fullShare x24
        ∗ owns (c : Thread nD τ) arg27 fullShare x25
        ∗ owns (c : Thread nD τ) arg28 fullShare x26
        ∗ owns (c : Thread nD τ) arg29 fullShare x27
        ∗ owns (c : Thread nD τ) arg30 fullShare x28
        ∗ owns (c : Thread nD τ) arg31 fullShare x29
        ∗ owns (c : Thread nD τ) arg32 fullShare x30
        ∗ owns (c : Thread nD τ) arg33 fullShare x31
        ∗ owns (c : Thread nD τ) arg34 fullShare x32
        ∗ owns (c : Thread nD τ) arg35 fullShare x33
        ∗ owns (c : Thread nD τ) arg36 fullShare x34)
      ∗ owns (c : Thread nD τ) arg37 fullShare xo
      ∗ owns (c : Thread nD τ) arg38 fullShare s0
      ∗ owns (c : Thread nD τ) arg39 fullShare s1
      ∗ owns (c : Thread nD τ) arg40 fullShare s2
      ∗ (iprop(iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare x9
        ∗ owns (c : Thread nD τ) arg12 fullShare x10
        ∗ owns (c : Thread nD τ) arg13 fullShare x11
        ∗ owns (c : Thread nD τ) arg14 fullShare x12
        ∗ owns (c : Thread nD τ) arg15 fullShare x13
        ∗ owns (c : Thread nD τ) arg16 fullShare x14
        ∗ owns (c : Thread nD τ) arg17 fullShare x15
        ∗ owns (c : Thread nD τ) arg18 fullShare x16
        ∗ owns (c : Thread nD τ) arg19 fullShare x17
        ∗ owns (c : Thread nD τ) arg20 fullShare x18
        ∗ owns (c : Thread nD τ) arg21 fullShare x19
        ∗ owns (c : Thread nD τ) arg22 fullShare x20
        ∗ owns (c : Thread nD τ) arg23 fullShare x21
        ∗ owns (c : Thread nD τ) arg24 fullShare x22
        ∗ owns (c : Thread nD τ) arg25 fullShare x23
        ∗ owns (c : Thread nD τ) arg26 fullShare x24
        ∗ owns (c : Thread nD τ) arg27 fullShare x25
        ∗ owns (c : Thread nD τ) arg28 fullShare x26
        ∗ owns (c : Thread nD τ) arg29 fullShare x27
        ∗ owns (c : Thread nD τ) arg30 fullShare x28
        ∗ owns (c : Thread nD τ) arg31 fullShare x29
        ∗ owns (c : Thread nD τ) arg32 fullShare x30
        ∗ owns (c : Thread nD τ) arg33 fullShare x31
        ∗ owns (c : Thread nD τ) arg34 fullShare x32
        ∗ owns (c : Thread nD τ) arg35 fullShare x33
        ∗ owns (c : Thread nD τ) arg36 fullShare x34)
      ∗ owns (c : Thread nD τ) arg37 fullShare (k0_pay6 (k0_pay11 (k0_pay5 (k0_pay10 x2 s1 x1 x16 x17 x18 x19 x20 x21) x22 x3 s2) x23 x24 x25 x26 x27 x28) x29 (k0_pay12 x30) x31 (k0_pay13 x32) (k0_pay14 x33) x34)
      ∗ owns (c : Thread nD τ) arg38 fullShare s0
      ∗ owns (c : Thread nD τ) arg39 fullShare s1
      ∗ owns (c : Thread nD τ) arg40 fullShare (k0_pay5 (k0_pay10 x2 s1 x1 x16 x17 x18 x19 x20 x21) x22 x3 s2)) -∗ K ⟨⟩))
    ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40) K := by
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩⟩, ⟨%fo, %hfo, Ho⟩, ⟨%g0, %hg0, S0⟩, ⟨%g1, %hg1, S1⟩, ⟨%g2, %hg2, S2⟩, Hk⟩
  sl_unfold [cc0__body]
  sl_exec (disch := first | exact hc1 | exact hc2 | exact hc3 | exact hc4 | exact hc5)
  sl_step
  iapply Hk
  isplitl [H0 H1 H2 H3 H4 H5 H6 H7 H8 H9 H10 H11 H12 H13 H14 H15 H16 H17 H18 H19 H20 H21 H22 H23 H24 H25 H26 H27 H28 H29 H30 H31 H32 H33 H34]
  · isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    isplitl [H5]
    · iexists f5; isplitr; · ipureintro; exact hf5
      iexact H5
    isplitl [H6]
    · iexists f6; isplitr; · ipureintro; exact hf6
      iexact H6
    isplitl [H7]
    · iexists f7; isplitr; · ipureintro; exact hf7
      iexact H7
    isplitl [H8]
    · iexists f8; isplitr; · ipureintro; exact hf8
      iexact H8
    isplitl [H9]
    · iexists f9; isplitr; · ipureintro; exact hf9
      iexact H9
    isplitl [H10]
    · iexists f10; isplitr; · ipureintro; exact hf10
      iexact H10
    isplitl [H11]
    · iexists f11; isplitr; · ipureintro; exact hf11
      iexact H11
    isplitl [H12]
    · iexists f12; isplitr; · ipureintro; exact hf12
      iexact H12
    isplitl [H13]
    · iexists f13; isplitr; · ipureintro; exact hf13
      iexact H13
    isplitl [H14]
    · iexists f14; isplitr; · ipureintro; exact hf14
      iexact H14
    isplitl [H15]
    · iexists f15; isplitr; · ipureintro; exact hf15
      iexact H15
    isplitl [H16]
    · iexists f16; isplitr; · ipureintro; exact hf16
      iexact H16
    isplitl [H17]
    · iexists f17; isplitr; · ipureintro; exact hf17
      iexact H17
    isplitl [H18]
    · iexists f18; isplitr; · ipureintro; exact hf18
      iexact H18
    isplitl [H19]
    · iexists f19; isplitr; · ipureintro; exact hf19
      iexact H19
    isplitl [H20]
    · iexists f20; isplitr; · ipureintro; exact hf20
      iexact H20
    isplitl [H21]
    · iexists f21; isplitr; · ipureintro; exact hf21
      iexact H21
    isplitl [H22]
    · iexists f22; isplitr; · ipureintro; exact hf22
      iexact H22
    isplitl [H23]
    · iexists f23; isplitr; · ipureintro; exact hf23
      iexact H23
    isplitl [H24]
    · iexists f24; isplitr; · ipureintro; exact hf24
      iexact H24
    isplitl [H25]
    · iexists f25; isplitr; · ipureintro; exact hf25
      iexact H25
    isplitl [H26]
    · iexists f26; isplitr; · ipureintro; exact hf26
      iexact H26
    isplitl [H27]
    · iexists f27; isplitr; · ipureintro; exact hf27
      iexact H27
    isplitl [H28]
    · iexists f28; isplitr; · ipureintro; exact hf28
      iexact H28
    isplitl [H29]
    · iexists f29; isplitr; · ipureintro; exact hf29
      iexact H29
    isplitl [H30]
    · iexists f30; isplitr; · ipureintro; exact hf30
      iexact H30
    isplitl [H31]
    · iexists f31; isplitr; · ipureintro; exact hf31
      iexact H31
    isplitl [H32]
    · iexists f32; isplitr; · ipureintro; exact hf32
      iexact H32
    isplitl [H33]
    · iexists f33; isplitr; · ipureintro; exact hf33
      iexact H33
    iexists f34; isplitr; · ipureintro; exact hf34
    iexact H34
  isplitl [Ho]
  · iexists _; isplitr
    swap; · iexact Ho
    ipureintro
    refine (read_writes_cons_whole _ _ hz2 _ _ _).trans ?_
    sl_unfold_run_names
    simp only [readAt_whole _ _ hf0 hz2, readAt_whole _ _ hf1 hz2, readAt_whole _ _ hf2 hz3, readAt_whole _ _ hf3 hz3, readAt_whole _ _ hf4 hz2, readAt_whole _ _ hf5 hz2, readAt_whole _ _ hf6 hz2, readAt_whole _ _ hf7 hz2, readAt_whole _ _ hf8 hz2, readAt_whole _ _ hf9 hz2, readAt_whole _ _ hf10 hz2, readAt_whole _ _ hf11 hz2, readAt_whole _ _ hf12 hz2, readAt_whole _ _ hf13 hz2, readAt_whole _ _ hf14 hz2, readAt_whole _ _ hf15 hz2, readAt_whole _ _ hf16 hz2, readAt_whole _ _ hf17 hz2, readAt_whole _ _ hf18 hz2, readAt_whole _ _ hf19 hz2, readAt_whole _ _ hf20 hz2, readAt_whole _ _ hf21 hz2, readAt_whole _ _ hf22 hz2, readAt_whole _ _ hf23 hz2, readAt_whole _ _ hf24 hz2, readAt_whole _ _ hf25 hz2, readAt_whole _ _ hf26 hz2, readAt_whole _ _ hf27 hz2, readAt_whole _ _ hf28 hz2, readAt_whole _ _ hf29 hz2, readAt_whole _ _ hf30 hz2, readAt_whole _ _ hf31 hz2, readAt_whole _ _ hf32 hz2, readAt_whole _ _ hf33 hz2, readAt_whole _ _ hf34 hz2, readAt_whole _ _ hfo hz2, readAt_whole _ _ hg0 hz2, readAt_whole _ _ hg1 hz2, readAt_whole _ _ hg2 hz2, View.readCov_unit_zero (S := S128x128) _ hz2]
  isplitl [S0]
  · iexists g0; isplitr; · ipureintro; exact hg0
    iexact S0
  isplitl [S1]
  · iexists g1; isplitr; · ipureintro; exact hg1
    iexact S1
  iexists _; isplitr
  swap; · iexact S2
  ipureintro
  refine (read_writes_cons_whole _ _ hz2 _ _ _).trans ?_
  sl_unfold_run_names
  simp only [readAt_whole _ _ hf0 hz2, readAt_whole _ _ hf1 hz2, readAt_whole _ _ hf2 hz3, readAt_whole _ _ hf3 hz3, readAt_whole _ _ hf4 hz2, readAt_whole _ _ hf5 hz2, readAt_whole _ _ hf6 hz2, readAt_whole _ _ hf7 hz2, readAt_whole _ _ hf8 hz2, readAt_whole _ _ hf9 hz2, readAt_whole _ _ hf10 hz2, readAt_whole _ _ hf11 hz2, readAt_whole _ _ hf12 hz2, readAt_whole _ _ hf13 hz2, readAt_whole _ _ hf14 hz2, readAt_whole _ _ hf15 hz2, readAt_whole _ _ hf16 hz2, readAt_whole _ _ hf17 hz2, readAt_whole _ _ hf18 hz2, readAt_whole _ _ hf19 hz2, readAt_whole _ _ hf20 hz2, readAt_whole _ _ hf21 hz2, readAt_whole _ _ hf22 hz2, readAt_whole _ _ hf23 hz2, readAt_whole _ _ hf24 hz2, readAt_whole _ _ hf25 hz2, readAt_whole _ _ hf26 hz2, readAt_whole _ _ hf27 hz2, readAt_whole _ _ hf28 hz2, readAt_whole _ _ hf29 hz2, readAt_whole _ _ hf30 hz2, readAt_whole _ _ hf31 hz2, readAt_whole _ _ hf32 hz2, readAt_whole _ _ hf33 hz2, readAt_whole _ _ hf34 hz2, readAt_whole _ _ hfo hz2, readAt_whole _ _ hg0 hz2, readAt_whole _ _ hg1 hz2, readAt_whole _ _ hg2 hz2, View.readCov_unit_zero (S := S128x128) _ hz2]

/-- The same at the point's own staging buffers and blocks. -/
theorem run_E (c : Dev nD) (t : Fin cfg0.N) (h : t.val = 19) (xo s0 s1 s2 : Vec F S128x128 .f32) (E : Set ℕ) (K : PUnit → sProp 𝕄) :
    iprop(insAt m c t ∗ owns (c : Thread nD τ) (ms0_35 t) fullShare xo ∗ owns (c : Thread nD τ) scM0 fullShare s0 ∗ owns (c : Thread nD τ) scM1 fullShare s1 ∗ owns (c : Thread nD τ) scM2 fullShare s2
      ∗ (iprop(insAt m c t ∗ owns (c : Thread nD τ) (ms0_35 t) fullShare (outOf m c t (agg2Step m c t s1 s2)) ∗ owns (c : Thread nD τ) scM0 fullShare s0 ∗ owns (c : Thread nD τ) scM1 fullShare s1 ∗ owns (c : Thread nD τ) scM2 fullShare (agg2Step m c t s1 s2)) -∗ K ⟨⟩))
    ⊢ wp frame (wpE (defs₀ (F := F)) Variants.none c none) E (bodyAt0 t) K := by
  have hN : t.val < 20 := lt_of_lt_of_eq t.isLt (show cfg0.N = 20 from N_0)
  exact bodyRun_E c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t)
    scM0 (Memref.isWhole_whole _) scM1 (Memref.isWhole_whole _) scM2 (Memref.isWhole_whole _)
    (fun h' => by have := (hcondZero t).mp h'; omega)
    (fun h' => by have := (hcondPh0 t).mp h'; omega)
    (fun h' => by have := (hcondMid t).mp h'; omega)
    ((hcondPh1 t).mpr (by omega))
    ((hcondLast t).mpr h)
    (bX1 m c t) (bX2 m c t) (bId1 m c t) (bId2 m c t) (bE10 m c t) (bE1b0 m c t) (bE11 m c t) (bE1b1 m c t) (bE12 m c t) (bE1b2 m c t) (bR10 m c t) (bR1b0 m c t) (bR11 m c t) (bR1b1 m c t) (bR12 m c t) (bR1b2 m c t) (bW0a m c t) (bW0b m c t) (bE2b0 m c t) (bE21 m c t) (bE2b1 m c t) (bE22 m c t) (bE2b2 m c t) (bR20 m c t) (bR2b0 m c t) (bR21 m c t) (bR2b1 m c t) (bR22 m c t) (bR2b2 m c t) (bM0 m c t) (bMb0 m c t) (bM1 m c t) (bMb1 m c t) (bM2p m c t) (bMb2p m c t) xo s0 s1 s2 E K

end Cert.KernelIdeal.Hand

end
-- ==== Proof.KI.Frame.lean ====
/-
  The kernel's frame: the region invariant, the pipeline's proof data, the body obligation at each of the grid's five
  kinds of point, and the launch.

  The grid is 2 × 10, point t = 10·p + i, and the kernel carries three 128 × 128 scratch buffers between points: the
  first accumulator (per-graph sums of the first node network's rows), the graph embedding, and the second accumulator
  (per-graph sums of the second node network's rows). The invariant before a position names what each holds: both
  accumulators from the first point on, as the state recursion gives them, and the embedding from point 10 on — before
  that no point has stored it, so it is held at anything. The 35 input windows are never idle and the body leaves each
  at its block; the one output window is idle, and not written back, at every point but the last, where the body stores
  the output block whole. At each point the body's run (one lemma per kind of point) is applied to the 35 input buffers,
  the output buffer and the three scratch buffers, and returns the invariant at the next position. The launch theorem
  then gives the run of the whole program, and from it the frame: every argument array ends as launched.
-/
import proofs.«107935_g3393024163881_fold_wed_m_362_29_alg».proof.Proof.KI.RunA
import proofs.«107935_g3393024163881_fold_wed_m_362_29_alg».proof.Proof.KI.RunB
import proofs.«107935_g3393024163881_fold_wed_m_362_29_alg».proof.Proof.KI.RunC
import proofs.«107935_g3393024163881_fold_wed_m_362_29_alg».proof.Proof.KI.RunD
import proofs.«107935_g3393024163881_fold_wed_m_362_29_alg».proof.Proof.KI.RunE

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region invariant -/

/-- What the region is handed before its first point: each of the three scratch buffers whole at some contents, and
    the generator register at some state. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)
          ∗ (∃ d, owns (c : Thread nD τ) scM2 fullShare d)) ∗ (∃ r, prngReg c r)) := by
  unfold Pipeline.ΦA; rw [scopedRest0_eq]; simp only [scM0, scM1, scM2, owns_whole]; try rfl

/-- The invariant before position n. Before the first point every scratch buffer holds anything. After point k the
    first accumulator holds the per-graph sums of the first k + 1 blocks of phase 0 (all ten from point 9 on), the
    second accumulator holds zero through phase 0 and then the running per-graph sums of phase 1, and the embedding
    buffer holds anything while k < 10 (no point has stored it yet) and the graph embedding from point 10 on. -/
def PhiS (c : Dev nD) : (n : ℕ) → n ≤ cfg0.N → sProp 𝕄
  | 0, _ => Pipeline.ΦA spec0 c
  | k + 1, hk => iprop(owns (c : Thread nD τ) scM0 fullShare (stAt m c k hk).agg1
      ∗ (if k < 10 then iprop(∃ d, owns (c : Thread nD τ) scM1 fullShare d) else owns (c : Thread nD τ) scM1 fullShare (stAt m c k hk).u1s)
      ∗ owns (c : Thread nD τ) scM2 fullShare (stAt m c k hk).agg2 ∗ (∃ r, prngReg c r))

theorem PhiS_zero (c : Dev nD) (n : ℕ) (h : n ≤ cfg0.N) (hz : n = 0) : PhiS m c n h = Pipeline.ΦA spec0 c := by
  subst hz; rfl

/-- After point k (before position k + 1). -/
theorem PhiS_succ (c : Dev nD) (k : ℕ) (hk : k < cfg0.N) :
    PhiS m c (k + 1) hk = iprop(owns (c : Thread nD τ) scM0 fullShare (stAt m c k hk).agg1
      ∗ (if k < 10 then iprop(∃ d, owns (c : Thread nD τ) scM1 fullShare d) else owns (c : Thread nD τ) scM1 fullShare (stAt m c k hk).u1s)
      ∗ owns (c : Thread nD τ) scM2 fullShare (stAt m c k hk).agg2 ∗ (∃ r, prngReg c r)) := rfl

/-- Before a position that is not the first: what the point before left. -/
theorem PhiS_pos (c : Dev nD) (n : ℕ) (h : n ≤ cfg0.N) (hz : n ≠ 0) :
    PhiS m c n h = iprop(owns (c : Thread nD τ) scM0 fullShare (stAt m c (n - 1) (by omega)).agg1
      ∗ (if n - 1 < 10 then iprop(∃ d, owns (c : Thread nD τ) scM1 fullShare d) else owns (c : Thread nD τ) scM1 fullShare (stAt m c (n - 1) (by omega)).u1s)
      ∗ owns (c : Thread nD τ) scM2 fullShare (stAt m c (n - 1) (by omega)).agg2 ∗ (∃ r, prngReg c r)) := by
  cases n with
  | zero => exact absurd rfl hz
  | succ n => rfl

/-! ## The pipeline's proof data -/

/-- The proof data of the one pipeline on core c: the arrays as the region finds them; after the body at point t each
    input window's buffer still at its block and the output window's buffer at the state's output component; the
    invariant PhiS; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, _⟩ => iblk m c 34 t
    | ⟨35, _⟩ => (stAt m c t.val t.isLt).out
    | ⟨_ + 36, h⟩ => absurd h (Nat.not_lt.2 (Nat.le_add_left _ _))
  Φ t := PhiS m c t.val (Nat.le_of_lt_succ t.isLt)
  q _ := fullShare
  owed _ := 0

/-- The proof data's arrays are the region-entry contents (the definition projected; the valuation is never unfolded). -/
theorem A_eq (c : Dev nD) (w : Fin cfg0.W) : (dats m 0 c).A w = V m c (Pipeline.arrRef spec0 w) := by
  dsimp only [dats]

/-- The invariant at a point's start, restated at the point's number. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window: every input window its block, the output window the state's output. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]
theorem after0_30 (c : Dev nD) (t : Fin cfg0.N) : (dats m 0 c).after 30 t = iblk m c 30 t := by dsimp only [dats]
theorem after0_31 (c : Dev nD) (t : Fin cfg0.N) : (dats m 0 c).after 31 t = iblk m c 31 t := by dsimp only [dats]
theorem after0_32 (c : Dev nD) (t : Fin cfg0.N) : (dats m 0 c).after 32 t = iblk m c 32 t := by dsimp only [dats]
theorem after0_33 (c : Dev nD) (t : Fin cfg0.N) : (dats m 0 c).after 33 t = iblk m c 33 t := by dsimp only [dats]
theorem after0_34 (c : Dev nD) (t : Fin cfg0.N) : (dats m 0 c).after 34 t = iblk m c 34 t := by dsimp only [dats]
theorem after0_35 (c : Dev nD) (t : Fin cfg0.N) : (dats m 0 c).after 35 t = (stAt m c t.val t.isLt).out := by dsimp only [dats]

/-- Each input window's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d
theorem before0_28 (c : Dev nD) (t : Fin cfg0.N) (d) : (dats m 0 c).before 28 t d = iblk m c 28 t :=
  before0_28_of m (dats m 0 c) (A_eq m c 28) (after0_28 m c) t d
theorem before0_29 (c : Dev nD) (t : Fin cfg0.N) (d) : (dats m 0 c).before 29 t d = iblk m c 29 t :=
  before0_29_of m (dats m 0 c) (A_eq m c 29) (after0_29 m c) t d
theorem before0_30 (c : Dev nD) (t : Fin cfg0.N) (d) : (dats m 0 c).before 30 t d = iblk m c 30 t :=
  before0_30_of m (dats m 0 c) (A_eq m c 30) (after0_30 m c) t d
theorem before0_31 (c : Dev nD) (t : Fin cfg0.N) (d) : (dats m 0 c).before 31 t d = iblk m c 31 t :=
  before0_31_of m (dats m 0 c) (A_eq m c 31) (after0_31 m c) t d
theorem before0_32 (c : Dev nD) (t : Fin cfg0.N) (d) : (dats m 0 c).before 32 t d = iblk m c 32 t :=
  before0_32_of m (dats m 0 c) (A_eq m c 32) (after0_32 m c) t d
theorem before0_33 (c : Dev nD) (t : Fin cfg0.N) (d) : (dats m 0 c).before 33 t d = iblk m c 33 t :=
  before0_33_of m (dats m 0 c) (A_eq m c 33) (after0_33 m c) t d
theorem before0_34 (c : Dev nD) (t : Fin cfg0.N) (d) : (dats m 0 c).before 34 t d = iblk m c 34 t :=
  before0_34_of m (dats m 0 c) (A_eq m c 34) (after0_34 m c) t d

/-! ## Which windows are live at a point -/

/-- No input window is ever idle. -/
theorem liveIn0 : ∀ w : Fin cfg0.W, w.val ≠ 35 → ∀ t : Fin cfg0.N, cfg0.idle w (grid0.coords t) = false :=
  (by decide +kernel : ∀ w : Fin 36, w.val ≠ 35 → ∀ t : Fin grid0.N, cfg0.idle w (grid0.coords t) = false)
/-- The output window is idle at every point but the last: the body stores the output block under p = 1 ∧ i = 9 only. -/
theorem idleOut0 : ∀ t : Fin cfg0.N, t.val ≠ 19 → cfg0.idle 35 (grid0.coords t) = true :=
  (by decide +kernel : ∀ t : Fin grid0.N, t.val ≠ 19 → cfg0.idle 35 (grid0.coords t) = true)
/-- At the last point it is live. -/
theorem liveOut0 : ∀ t : Fin cfg0.N, t.val = 19 → cfg0.idle 35 (grid0.coords t) = false :=
  (by decide +kernel : ∀ t : Fin grid0.N, t.val = 19 → cfg0.idle 35 (grid0.coords t) = false)
/-- And it is written back at the last point only. -/
theorem noFlushOut0 : ∀ t : Fin cfg0.N, t.val ≠ 19 → (cfg0.win 35).flush t = false :=
  (by decide +kernel : ∀ t : Fin grid0.N, t.val ≠ 19 → win0_35.flush t = false)

/-- What the body owes of an input window's buffer: the buffer at what the proof data says it leaves. -/
theorem leavesIn0 (c : Dev nD) (w : Fin cfg0.W) (hw : w.val ≠ 35) (t : Fin cfg0.N) :
    (dats m 0 c).leavesExact w t = owns (c : Thread nD τ) ((cfg0.win w).stage (cfg0.slots t w)) fullShare ((dats m 0 c).after w t) := by
  unfold Dat.leavesExact; rw [liveIn0 w hw t]

/-- Before the last point the output window's buffer goes back as it came. -/
theorem leavesOut0_idle (c : Dev nD) (t : Fin cfg0.N) (h : t.val ≠ 19) :
    (dats m 0 c).leavesExact 35 t = iprop(∃ d, owns (c : Thread nD τ) (ms0_35 t) fullShare ((dats m 0 c).before 35 t d)) :=
  Dat.leavesExact_idle (dats m 0 c) 35 t (idleOut0 t h) (noFlushOut0 t h)

/-- At the last point it goes back at the output block. -/
theorem leavesOut0_last (c : Dev nD) (t : Fin cfg0.N) (h : t.val = 19) :
    (dats m 0 c).leavesExact 35 t = owns (c : Thread nD τ) (ms0_35 t) fullShare (stAt m c t.val t.isLt).out := by
  unfold Dat.leavesExact; rw [liveOut0 t h, after0_35]

/-! ## One step of the state, by the kind of point -/

theorem stepSt_first (c : Dev nD) (t : Fin cfg0.N) (s : St F) (h : t.val = 0) :
    stepSt m c t s = { s with agg1 := agg1Step m c t k0_pay1, agg2 := k0_pay2 } := by
  unfold stepSt; rw [if_pos h]

theorem stepSt_ph0 (c : Dev nD) (t : Fin cfg0.N) (s : St F) (h : 0 < t.val ∧ t.val < 10) :
    stepSt m c t s = { s with agg1 := agg1Step m c t s.agg1 } := by
  unfold stepSt; rw [if_neg (show ¬ t.val = 0 by omega), if_pos h.2]

theorem stepSt_mid (c : Dev nD) (t : Fin cfg0.N) (s : St F) (h : t.val = 10) :
    stepSt m c t s = { s with u1s := u1sOf m c t s.agg1, agg2 := agg2Step m c t (u1sOf m c t s.agg1) s.agg2 } := by
  unfold stepSt; rw [if_neg (show ¬ t.val = 0 by omega), if_neg (show ¬ t.val < 10 by omega), if_pos h]

theorem stepSt_ph1 (c : Dev nD) (t : Fin cfg0.N) (s : St F) (h : 10 < t.val ∧ t.val < 19) :
    stepSt m c t s = { s with agg2 := agg2Step m c t s.u1s s.agg2 } := by
  unfold stepSt
  rw [if_neg (show ¬ t.val = 0 by omega), if_neg (show ¬ t.val < 10 by omega), if_neg (show ¬ t.val = 10 by omega), if_pos h.2]

theorem stepSt_last (c : Dev nD) (t : Fin cfg0.N) (s : St F) (h : t.val = 19) :
    stepSt m c t s = { s with agg2 := agg2Step m c t s.u1s s.agg2, out := outOf m c t (agg2Step m c t s.u1s s.agg2) } := by
  unfold stepSt
  rw [if_neg (show ¬ t.val = 0 by omega), if_neg (show ¬ t.val < 10 by omega), if_neg (show ¬ t.val = 10 by omega),
    if_neg (show ¬ t.val < 19 by omega)]

/-- The state after the first point. -/
theorem stAt_first (c : Dev nD) (t : Fin cfg0.N) (h : t.val = 0) :
    stAt m c t.val t.isLt = { (stInit : St F) with agg1 := agg1Step m c t k0_pay1, agg2 := k0_pay2 } := by
  obtain ⟨n, hn⟩ := t
  dsimp only at h
  subst h
  rw [stAt_zero, stepSt_first m c _ _ rfl]

/-! ## The body obligation, window by window -/

/-- What the body is called with at point t: the invariant, what the core owes, and each window's current staging
    buffer at what it then holds. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d))
    ∗ (∃ d, owns (c : Thread nD τ) (ms0_33 t) fullShare ((dats m 0 c).before 33 t d))
    ∗ (∃ d, owns (c : Thread nD τ) (ms0_34 t) fullShare ((dats m 0 c).before 34 t d))
    ∗ (∃ d, owns (c : Thread nD τ) (ms0_35 t) fullShare ((dats m 0 c).before 35 t d)))

/-- And what it returns: the invariant at the next position, what the core then owes, and each window's buffer at
    what the body leaves. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t ∗ (dats m 0 c).leavesExact 8 t
    ∗ (dats m 0 c).leavesExact 9 t ∗ (dats m 0 c).leavesExact 10 t ∗ (dats m 0 c).leavesExact 11 t
    ∗ (dats m 0 c).leavesExact 12 t ∗ (dats m 0 c).leavesExact 13 t ∗ (dats m 0 c).leavesExact 14 t
    ∗ (dats m 0 c).leavesExact 15 t ∗ (dats m 0 c).leavesExact 16 t ∗ (dats m 0 c).leavesExact 17 t
    ∗ (dats m 0 c).leavesExact 18 t ∗ (dats m 0 c).leavesExact 19 t ∗ (dats m 0 c).leavesExact 20 t
    ∗ (dats m 0 c).leavesExact 21 t ∗ (dats m 0 c).leavesExact 22 t ∗ (dats m 0 c).leavesExact 23 t
    ∗ (dats m 0 c).leavesExact 24 t ∗ (dats m 0 c).leavesExact 25 t ∗ (dats m 0 c).leavesExact 26 t
    ∗ (dats m 0 c).leavesExact 27 t ∗ (dats m 0 c).leavesExact 28 t ∗ (dats m 0 c).leavesExact 29 t
    ∗ (dats m 0 c).leavesExact 30 t ∗ (dats m 0 c).leavesExact 31 t ∗ (dats m 0 c).leavesExact 32 t
    ∗ (dats m 0 c).leavesExact 33 t ∗ (dats m 0 c).leavesExact 34 t ∗ (dats m 0 c).leavesExact 35 t)

/-- The 35 input windows' buffers, as the body obligation hands them over, are the inputs the run takes: each holds
    its block. R is whatever follows them in the conjunction. -/
theorem ins_of_before (c : Dev nD) (t : Fin cfg0.N) (R : sProp 𝕄) :
    iprop((∃ d, owns (c : Thread nD τ) (ms0_0 t) fullShare ((dats m 0 c).before 0 t d))
      ∗ (∃ d, owns (c : Thread nD τ) (ms0_1 t) fullShare ((dats m 0 c).before 1 t d))
      ∗ (∃ d, owns (c : Thread nD τ) (ms0_2 t) fullShare ((dats m 0 c).before 2 t d))
      ∗ (∃ d, owns (c : Thread nD τ) (ms0_3 t) fullShare ((dats m 0 c).before 3 t d))
      ∗ (∃ d, owns (c : Thread nD τ) (ms0_4 t) fullShare ((dats m 0 c).before 4 t d))
      ∗ (∃ d, owns (c : Thread nD τ) (ms0_5 t) fullShare ((dats m 0 c).before 5 t d))
      ∗ (∃ d, owns (c : Thread nD τ) (ms0_6 t) fullShare ((dats m 0 c).before 6 t d))
      ∗ (∃ d, owns (c : Thread nD τ) (ms0_7 t) fullShare ((dats m 0 c).before 7 t d))
      ∗ (∃ d, owns (c : Thread nD τ) (ms0_8 t) fullShare ((dats m 0 c).before 8 t d))
      ∗ (∃ d, owns (c : Thread nD τ) (ms0_9 t) fullShare ((dats m 0 c).before 9 t d))
      ∗ (∃ d, owns (c : Thread nD τ) (ms0_10 t) fullShare ((dats m 0 c).before 10 t d))
      ∗ (∃ d, owns (c : Thread nD τ) (ms0_11 t) fullShare ((dats m 0 c).before 11 t d))
      ∗ (∃ d, owns (c : Thread nD τ) (ms0_12 t) fullShare ((dats m 0 c).before 12 t d))
      ∗ (∃ d, owns (c : Thread nD τ) (ms0_13 t) fullShare ((dats m 0 c).before 13 t d))
      ∗ (∃ d, owns (c : Thread nD τ) (ms0_14 t) fullShare ((dats m 0 c).before 14 t d))
      ∗ (∃ d, owns (c : Thread nD τ) (ms0_15 t) fullShare ((dats m 0 c).before 15 t d))
      ∗ (∃ d, owns (c : Thread nD τ) (ms0_16 t) fullShare ((dats m 0 c).before 16 t d))
      ∗ (∃ d, owns (c : Thread nD τ) (ms0_17 t) fullShare ((dats m 0 c).before 17 t d))
      ∗ (∃ d, owns (c : Thread nD τ) (ms0_18 t) fullShare ((dats m 0 c).before 18 t d))
      ∗ (∃ d, owns (c : Thread nD τ) (ms0_19 t) fullShare ((dats m 0 c).before 19 t d))
      ∗ (∃ d, owns (c : Thread nD τ) (ms0_20 t) fullShare ((dats m 0 c).before 20 t d))
      ∗ (∃ d, owns (c : Thread nD τ) (ms0_21 t) fullShare ((dats m 0 c).before 21 t d))
      ∗ (∃ d, owns (c : Thread nD τ) (ms0_22 t) fullShare ((dats m 0 c).before 22 t d))
      ∗ (∃ d, owns (c : Thread nD τ) (ms0_23 t) fullShare ((dats m 0 c).before 23 t d))
      ∗ (∃ d, owns (c : Thread nD τ) (ms0_24 t) fullShare ((dats m 0 c).before 24 t d))
      ∗ (∃ d, owns (c : Thread nD τ) (ms0_25 t) fullShare ((dats m 0 c).before 25 t d))
      ∗ (∃ d, owns (c : Thread nD τ) (ms0_26 t) fullShare ((dats m 0 c).before 26 t d))
      ∗ (∃ d, owns (c : Thread nD τ) (ms0_27 t) fullShare ((dats m 0 c).before 27 t d))
      ∗ (∃ d, owns (c : Thread nD τ) (ms0_28 t) fullShare ((dats m 0 c).before 28 t d))
      ∗ (∃ d, owns (c : Thread nD τ) (ms0_29 t) fullShare ((dats m 0 c).before 29 t d))
      ∗ (∃ d, owns (c : Thread nD τ) (ms0_30 t) fullShare ((dats m 0 c).before 30 t d))
      ∗ (∃ d, owns (c : Thread nD τ) (ms0_31 t) fullShare ((dats m 0 c).before 31 t d))
      ∗ (∃ d, owns (c : Thread nD τ) (ms0_32 t) fullShare ((dats m 0 c).before 32 t d))
      ∗ (∃ d, owns (c : Thread nD τ) (ms0_33 t) fullShare ((dats m 0 c).before 33 t d))
      ∗ (∃ d, owns (c : Thread nD τ) (ms0_34 t) fullShare ((dats m 0 c).before 34 t d))
      ∗ R)
    ⊢ iprop(insAt m c t ∗ R) := by
  simp only [before0_0, before0_1, before0_2, before0_3, before0_4, before0_5, before0_6, before0_7, before0_8, before0_9,
    before0_10, before0_11, before0_12, before0_13, before0_14, before0_15, before0_16, before0_17, before0_18, before0_19,
    before0_20, before0_21, before0_22, before0_23, before0_24, before0_25, before0_26, before0_27, before0_28, before0_29,
    before0_30, before0_31, before0_32, before0_33, before0_34]
  unfold insAt
  iintro ⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩,
    ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩,
    ⟨%d30, H30⟩, ⟨%d31, H31⟩, ⟨%d32, H32⟩, ⟨%d33, H33⟩, ⟨%d34, H34⟩, HR⟩
  isplitr [HR]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    iexact H34
  iexact HR

/-- The inputs the run gives back are what the body obligation wants of the 35 input windows: no input window is
    idle, and each is left at its block. R is whatever follows them in the conjunction. -/
theorem leaves_of_ins (c : Dev nD) (t : Fin cfg0.N) (R : sProp 𝕄) :
    iprop(insAt m c t ∗ R)
    ⊢ iprop((dats m 0 c).leavesExact 0 t ∗ (dats m 0 c).leavesExact 1 t ∗ (dats m 0 c).leavesExact 2 t
      ∗ (dats m 0 c).leavesExact 3 t ∗ (dats m 0 c).leavesExact 4 t ∗ (dats m 0 c).leavesExact 5 t
      ∗ (dats m 0 c).leavesExact 6 t ∗ (dats m 0 c).leavesExact 7 t ∗ (dats m 0 c).leavesExact 8 t
      ∗ (dats m 0 c).leavesExact 9 t ∗ (dats m 0 c).leavesExact 10 t ∗ (dats m 0 c).leavesExact 11 t
      ∗ (dats m 0 c).leavesExact 12 t ∗ (dats m 0 c).leavesExact 13 t ∗ (dats m 0 c).leavesExact 14 t
      ∗ (dats m 0 c).leavesExact 15 t ∗ (dats m 0 c).leavesExact 16 t ∗ (dats m 0 c).leavesExact 17 t
      ∗ (dats m 0 c).leavesExact 18 t ∗ (dats m 0 c).leavesExact 19 t ∗ (dats m 0 c).leavesExact 20 t
      ∗ (dats m 0 c).leavesExact 21 t ∗ (dats m 0 c).leavesExact 22 t ∗ (dats m 0 c).leavesExact 23 t
      ∗ (dats m 0 c).leavesExact 24 t ∗ (dats m 0 c).leavesExact 25 t ∗ (dats m 0 c).leavesExact 26 t
      ∗ (dats m 0 c).leavesExact 27 t ∗ (dats m 0 c).leavesExact 28 t ∗ (dats m 0 c).leavesExact 29 t
      ∗ (dats m 0 c).leavesExact 30 t ∗ (dats m 0 c).leavesExact 31 t ∗ (dats m 0 c).leavesExact 32 t
      ∗ (dats m 0 c).leavesExact 33 t ∗ (dats m 0 c).leavesExact 34 t ∗ R) := by
  rw [leavesIn0 m c 0 (by decide) t, after0_0, leavesIn0 m c 1 (by decide) t, after0_1, leavesIn0 m c 2 (by decide) t, after0_2,
    leavesIn0 m c 3 (by decide) t, after0_3, leavesIn0 m c 4 (by decide) t, after0_4, leavesIn0 m c 5 (by decide) t, after0_5,
    leavesIn0 m c 6 (by decide) t, after0_6, leavesIn0 m c 7 (by decide) t, after0_7, leavesIn0 m c 8 (by decide) t, after0_8,
    leavesIn0 m c 9 (by decide) t, after0_9, leavesIn0 m c 10 (by decide) t, after0_10, leavesIn0 m c 11 (by decide) t, after0_11,
    leavesIn0 m c 12 (by decide) t, after0_12, leavesIn0 m c 13 (by decide) t, after0_13, leavesIn0 m c 14 (by decide) t, after0_14,
    leavesIn0 m c 15 (by decide) t, after0_15, leavesIn0 m c 16 (by decide) t, after0_16, leavesIn0 m c 17 (by decide) t, after0_17,
    leavesIn0 m c 18 (by decide) t, after0_18, leavesIn0 m c 19 (by decide) t, after0_19, leavesIn0 m c 20 (by decide) t, after0_20,
    leavesIn0 m c 21 (by decide) t, after0_21, leavesIn0 m c 22 (by decide) t, after0_22, leavesIn0 m c 23 (by decide) t, after0_23,
    leavesIn0 m c 24 (by decide) t, after0_24, leavesIn0 m c 25 (by decide) t, after0_25, leavesIn0 m c 26 (by decide) t, after0_26,
    leavesIn0 m c 27 (by decide) t, after0_27, leavesIn0 m c 28 (by decide) t, after0_28, leavesIn0 m c 29 (by decide) t, after0_29,
    leavesIn0 m c 30 (by decide) t, after0_30, leavesIn0 m c 31 (by decide) t, after0_31, leavesIn0 m c 32 (by decide) t, after0_32,
    leavesIn0 m c 33 (by decide) t, after0_33, leavesIn0 m c 34 (by decide) t, after0_34]
  unfold insAt
  iintro ⟨⟨H0, H1, H2, H3, H4, H5, H6, H7, H8, H9, H10, H11, H12, H13, H14, H15, H16, H17, H18, H19,
    H20, H21, H22, H23, H24, H25, H26, H27, H28, H29, H30, H31, H32, H33, H34⟩, HR⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  iexact HR

/-! ## The body at each kind of point -/

/-- The first point (p = 0, i = 0). The scratch buffers come at anything; the body zeroes both accumulators and adds the
    first block's per-graph sums into the first. The embedding buffer is not touched and the output window is idle. -/
theorem sound_A (c : Dev nD) (t : Fin cfg0.N) (h : t.val = 0) :
    bodyPre m c t ⊢ wp frame (wpE (defs₀ (F := F)) Variants.none c none) Set.univ (bodyAt0 t) (fun _ => bodyPost m c t) := by
  unfold bodyPre bodyPost
  rw [show (dats m 0 c).owesAt () t.succ = (dats m 0 c).owesAt () t.castSucc from rfl]
  rw [show (dats m 0 c).Φ t.succ = PhiS m c (t.val + 1) t.isLt from rfl, PhiS_succ]
  rw [PhiS_castSucc m c t, PhiS_zero m c _ _ h, PhiA0_eq]
  rw [leavesOut0_idle m c t (show t.val ≠ 19 by omega)]
  rw [if_pos (show t.val < 10 by omega), stAt_first m c t h]
  dsimp only
  iintro ⟨⟨⟨⟨%a0, HS0⟩, ⟨%a1, HS1⟩, ⟨%a2, HS2⟩⟩, Hg⟩, Ho, Hw⟩
  ihave ⟨Hin, ⟨%d35, H35⟩⟩ := (ins_of_before m c t _) $$ Hw
  iapply (run_A m c t h ((dats m 0 c).before 35 t d35) a0 a1 a2 Set.univ _)
  isplitl [Hin]; · iexact Hin
  isplitl [H35]; · iexact H35
  isplitl [HS0]; · iexact HS0
  isplitl [HS1]; · iexact HS1
  isplitl [HS2]; · iexact HS2
  iintro ⟨Hin, H35, HS0, HS1, HS2⟩
  isplitl [HS0 HS1 HS2 Hg]
  · isplitl [HS0]; · iexact HS0
    isplitl [HS1]; · iexists _; iexact HS1
    isplitl [HS2]; · iexact HS2
    iexact Hg
  isplitl [Ho]; · iexact Ho
  iapply (leaves_of_ins m c t _)
  isplitl [Hin]; · iexact Hin
  iexists _; iexact H35

/-- A later point of phase 0 (p = 0, i > 0): the block's per-graph sums are added into the first accumulator, which
    comes at what the point before left; nothing else changes. -/
theorem sound_B (c : Dev nD) (t : Fin cfg0.N) (h : 0 < t.val ∧ t.val < 10) :
    bodyPre m c t ⊢ wp frame (wpE (defs₀ (F := F)) Variants.none c none) Set.univ (bodyAt0 t) (fun _ => bodyPost m c t) := by
  unfold bodyPre bodyPost
  rw [show (dats m 0 c).owesAt () t.succ = (dats m 0 c).owesAt () t.castSucc from rfl]
  rw [show (dats m 0 c).Φ t.succ = PhiS m c (t.val + 1) t.isLt from rfl, PhiS_succ]
  rw [PhiS_castSucc m c t, PhiS_pos m c _ _ (show t.val ≠ 0 by omega)]
  rw [leavesOut0_idle m c t (show t.val ≠ 19 by omega)]
  rw [if_pos (show t.val < 10 by omega), if_pos (show t.val - 1 < 10 by omega)]
  rw [stAt_pos m c t (show t.val ≠ 0 by omega), stepSt_ph0 m c t _ h]
  dsimp only
  iintro ⟨⟨HS0, ⟨%a1, HS1⟩, HS2, Hg⟩, Ho, Hw⟩
  ihave ⟨Hin, ⟨%d35, H35⟩⟩ := (ins_of_before m c t _) $$ Hw
  iapply (run_B m c t h ((dats m 0 c).before 35 t d35) _ a1 _ Set.univ _)
  isplitl [Hin]; · iexact Hin
  isplitl [H35]; · iexact H35
  isplitl [HS0]; · iexact HS0
  isplitl [HS1]; · iexact HS1
  isplitl [HS2]; · iexact HS2
  iintro ⟨Hin, H35, HS0, HS1, HS2⟩
  isplitl [HS0 HS1 HS2 Hg]
  · isplitl [HS0]; · iexact HS0
    isplitl [HS1]; · iexists _; iexact HS1
    isplitl [HS2]; · iexact HS2
    iexact Hg
  isplitl [Ho]; · iexact Ho
  iapply (leaves_of_ins m c t _)
  isplitl [Hin]; · iexact Hin
  iexists _; iexact H35

/-- The first point of phase 1 (p = 1, i = 0): the graph embedding is computed from the finished first accumulator and
    stored, for the first time, into the embedding buffer (which comes at anything); then the block's per-graph sums,
    each row joined with its embedding row, are added into the second accumulator. -/
theorem sound_C (c : Dev nD) (t : Fin cfg0.N) (h : t.val = 10) :
    bodyPre m c t ⊢ wp frame (wpE (defs₀ (F := F)) Variants.none c none) Set.univ (bodyAt0 t) (fun _ => bodyPost m c t) := by
  unfold bodyPre bodyPost
  rw [show (dats m 0 c).owesAt () t.succ = (dats m 0 c).owesAt () t.castSucc from rfl]
  rw [show (dats m 0 c).Φ t.succ = PhiS m c (t.val + 1) t.isLt from rfl, PhiS_succ]
  rw [PhiS_castSucc m c t, PhiS_pos m c _ _ (show t.val ≠ 0 by omega)]
  rw [leavesOut0_idle m c t (show t.val ≠ 19 by omega)]
  rw [if_neg (show ¬ t.val < 10 by omega), if_pos (show t.val - 1 < 10 by omega)]
  rw [stAt_pos m c t (show t.val ≠ 0 by omega), stepSt_mid m c t _ h]
  dsimp only
  iintro ⟨⟨HS0, ⟨%a1, HS1⟩, HS2, Hg⟩, Ho, Hw⟩
  ihave ⟨Hin, ⟨%d35, H35⟩⟩ := (ins_of_before m c t _) $$ Hw
  iapply (run_C m c t h ((dats m 0 c).before 35 t d35) _ a1 _ Set.univ _)
  isplitl [Hin]; · iexact Hin
  isplitl [H35]; · iexact H35
  isplitl [HS0]; · iexact HS0
  isplitl [HS1]; · iexact HS1
  isplitl [HS2]; · iexact HS2
  iintro ⟨Hin, H35, HS0, HS1, HS2⟩
  isplitl [HS0 HS1 HS2 Hg]
  · isplitl [HS0]; · iexact HS0
    isplitl [HS1]; · iexact HS1
    isplitl [HS2]; · iexact HS2
    iexact Hg
  isplitl [Ho]; · iexact Ho
  iapply (leaves_of_ins m c t _)
  isplitl [Hin]; · iexact Hin
  iexists _; iexact H35

/-- A later point of phase 1 before the last (p = 1, 0 < i < 9): the embedding buffer comes at the graph embedding and
    is only read; the block's per-graph sums are added into the second accumulator. -/
theorem sound_D (c : Dev nD) (t : Fin cfg0.N) (h : 10 < t.val ∧ t.val < 19) :
    bodyPre m c t ⊢ wp frame (wpE (defs₀ (F := F)) Variants.none c none) Set.univ (bodyAt0 t) (fun _ => bodyPost m c t) := by
  unfold bodyPre bodyPost
  rw [show (dats m 0 c).owesAt () t.succ = (dats m 0 c).owesAt () t.castSucc from rfl]
  rw [show (dats m 0 c).Φ t.succ = PhiS m c (t.val + 1) t.isLt from rfl, PhiS_succ]
  rw [PhiS_castSucc m c t, PhiS_pos m c _ _ (show t.val ≠ 0 by omega)]
  rw [leavesOut0_idle m c t (show t.val ≠ 19 by omega)]
  rw [if_neg (show ¬ t.val < 10 by omega), if_neg (show ¬ t.val - 1 < 10 by omega)]
  rw [stAt_pos m c t (show t.val ≠ 0 by omega), stepSt_ph1 m c t _ h]
  dsimp only
  iintro ⟨⟨HS0, HS1, HS2, Hg⟩, Ho, Hw⟩
  ihave ⟨Hin, ⟨%d35, H35⟩⟩ := (ins_of_before m c t _) $$ Hw
  iapply (run_D m c t h ((dats m 0 c).before 35 t d35) _ _ _ Set.univ _)
  isplitl [Hin]; · iexact Hin
  isplitl [H35]; · iexact H35
  isplitl [HS0]; · iexact HS0
  isplitl [HS1]; · iexact HS1
  isplitl [HS2]; · iexact HS2
  iintro ⟨Hin, H35, HS0, HS1, HS2⟩
  isplitl [HS0 HS1 HS2 Hg]
  · isplitl [HS0]; · iexact HS0
    isplitl [HS1]; · iexact HS1
    isplitl [HS2]; · iexact HS2
    iexact Hg
  isplitl [Ho]; · iexact Ho
  iapply (leaves_of_ins m c t _)
  isplitl [Hin]; · iexact Hin
  iexists _; iexact H35

/-- The last point (p = 1, i = 9): the last block goes into the second accumulator, and the second graph network and
    the output network turn the finished accumulator into the output block, stored whole into the output window's buffer,
    which is live here and written back. -/
theorem sound_E (c : Dev nD) (t : Fin cfg0.N) (h : t.val = 19) :
    bodyPre m c t ⊢ wp frame (wpE (defs₀ (F := F)) Variants.none c none) Set.univ (bodyAt0 t) (fun _ => bodyPost m c t) := by
  unfold bodyPre bodyPost
  rw [show (dats m 0 c).owesAt () t.succ = (dats m 0 c).owesAt () t.castSucc from rfl]
  rw [show (dats m 0 c).Φ t.succ = PhiS m c (t.val + 1) t.isLt from rfl, PhiS_succ]
  rw [PhiS_castSucc m c t, PhiS_pos m c _ _ (show t.val ≠ 0 by omega)]
  rw [leavesOut0_last m c t h]
  rw [if_neg (show ¬ t.val < 10 by omega), if_neg (show ¬ t.val - 1 < 10 by omega)]
  rw [stAt_pos m c t (show t.val ≠ 0 by omega), stepSt_last m c t _ h]
  dsimp only
  iintro ⟨⟨HS0, HS1, HS2, Hg⟩, Ho, Hw⟩
  ihave ⟨Hin, ⟨%d35, H35⟩⟩ := (ins_of_before m c t _) $$ Hw
  iapply (run_E m c t h ((dats m 0 c).before 35 t d35) _ _ _ Set.univ _)
  isplitl [Hin]; · iexact Hin
  isplitl [H35]; · iexact H35
  isplitl [HS0]; · iexact HS0
  isplitl [HS1]; · iexact HS1
  isplitl [HS2]; · iexact HS2
  iintro ⟨Hin, H35, HS0, HS1, HS2⟩
  isplitl [HS0 HS1 HS2 Hg]
  · isplitl [HS0]; · iexact HS0
    isplitl [HS1]; · iexact HS1
    isplitl [HS2]; · iexact HS2
    iexact Hg
  isplitl [Ho]; · iexact Ho
  iapply (leaves_of_ins m c t _)
  isplitl [Hin]; · iexact Hin
  iexact H35

/-- The body at any point: the 20 points of the 2 × 10 grid are of the five kinds above. -/
theorem sound_body (c : Dev nD) (t : Fin cfg0.N) :
    bodyPre m c t ⊢ wp frame (wpE (defs₀ (F := F)) Variants.none c none) Set.univ (bodyAt0 t) (fun _ => bodyPost m c t) := by
  have hN : t.val < 20 := lt_of_lt_of_eq t.isLt (show cfg0.N = 20 from N_0)
  by_cases h0 : t.val = 0
  · exact sound_A m c t h0
  by_cases h1 : t.val < 10
  · exact sound_B m c t ⟨Nat.pos_of_ne_zero h0, h1⟩
  by_cases h2 : t.val = 10
  · exact sound_C m c t h2
  by_cases h3 : t.val < 19
  · exact sound_D m c t ⟨by omega, h3⟩
  · exact sound_E m c t (by omega)

-- the obligation's two 36-fold conjunctions are matched window by window against the statement above
set_option maxHeartbeats 3200000 in
/-- The library's body obligation, at every point. -/
theorem body_obligation (c : Dev nD) : BodyObligation (dats (F := F) m 0 c) (defs₀ (F := F)) Variants.none () Set.univ := fun t => by
  rw [bigSep_W0, bigSep_W0]
  exact sound_body m c t

/-! ## Entering and leaving the region -/

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- The embedding buffer at anything, whichever way the invariant holds it. -/
theorem emb_forget (c : Dev nD) (k : ℕ) (x : Vec F S128x128 .f32) :
    ((if k < 10 then iprop(∃ d, owns (c : Thread nD τ) scM1 fullShare d) else owns (c : Thread nD τ) scM1 fullShare x) : sProp 𝕄)
      ⊢ iprop(∃ d, owns (c : Thread nD τ) scM1 fullShare d) := by
  split
  · exact Idealize.SL.BI.Entails.refl _
  · iintro H; iexists _; iexact H

/-- After any point the invariant gives the entry form back: the scratch buffers' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, HS1, HS2, Hg⟩
  isplitr [Hg]
  · isplitl [HS0]; · iexists _; iexact HS0
    isplitl [HS1]; · iapply (emb_forget c _ _); iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 20 := N_0; omega)

/-! ## The run and the frame -/

-- the launch theorem's implicit arguments are found by unifying its conclusion with this one, which takes unfolding plain
-- definitions in a metavariable's type
set_option backward.isDefEq.respectTransparency.types false in
/-- At the compiled mesh, for any values, from any memory with zero counters: every weakly fair execution of the program
    on the TensorCores terminates, and every final state has every array of the pipeline at what the library computes
    from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the run leaves every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)) :=
  frame_of m ρ (dats m) (A_eq m) (run_main m ρ)

end Cert.KernelIdeal.Hand

end
-- ==== Proof.Spec.lean ====
/-
  The function both programs compute, over extended reals, index by index, with plain finite index types.

  A "DeepSet" pair: a three-layer network on every row of the first node array, per-graph sums of the results, a
  three-layer network on the 128 per-graph sums (the graph embedding); then every row of the second node array, joined
  with the embedding row its first graph id selects, goes through a second three-layer network, is summed per graph by
  the second graph ids, and two more three-layer networks act on the 128 sums; the last has two outputs.
-/
import Mathlib.Data.EReal.Basic
import Mathlib.Algebra.BigOperators.Fin
import Idealize.ShloMosaic.Lib.ValueIdx

noncomputable section

open scoped BigOperators

namespace Cert.Spec

open Idealize.ShloMosaic Idealize.ShloMosaic.ValueIdx

/-- An a × b matrix of extended reals. -/
abbrev Mat (a b : ℕ) : Type := Fin a → Fin b → EReal

/-- A linear layer: x · W + b, the bias added to every row. -/
def lin {N K J : ℕ} (x : Mat N K) (W : Mat K J) (b : Fin J → EReal) : Mat N J :=
  fun n j => (∑ k, x n k * W k j) + b j

/-- The rectifier, entry by entry. -/
def relu {N J : ℕ} (x : Mat N J) : Mat N J := fun n j => max (x n j) 0

/-- The parameters of a three-layer network with hidden widths 128. -/
structure Mlp (I O : ℕ) where
  W0 : Mat I 128
  b0 : Fin 128 → EReal
  W1 : Mat 128 128
  b1 : Fin 128 → EReal
  W2 : Mat 128 O
  b2 : Fin O → EReal

/-- The three-layer network on every row of x. -/
def Mlp.app {I O N : ℕ} (p : Mlp I O) (x : Mat N I) : Mat N O :=
  lin (relu (lin (relu (lin x p.W0 p.b0)) p.W1 p.b1)) p.W2 p.b2

/-- Per-graph sums: row g of the result is the sum of the rows of h whose graph id, read as a signed word, is g.
    (A row whose id is no graph number is in no sum.) -/
def seg {n J : ℕ} (ids : Fin n → BitVec 32) (h : Mat n J) : Mat 128 J :=
  fun g j => ∑ e ∈ Finset.univ.filter (fun e : Fin n => (ids e).toInt = (g.val : ℤ)), h e j

/-- The graph a word names when it is read signed and clamped into 0 … 127. -/
def rowOf128 (w : BitVec 32) : Fin 128 := ⟨min w.toInt.toNat 127, by omega⟩

/-- Row e of the result is the row of u that e's graph id names. -/
def gath {n J : ℕ} (ids : Fin n → BitVec 32) (u : Mat 128 J) : Mat n J := fun e j => u (rowOf128 (ids e)) j

/-- The first layer of the second node network on a row of the second node array joined with a gathered embedding row:
    the 256-row weight matrix acts by its first 128 rows on the node row and by its last 128 rows on the embedding row. -/
def lin2 {N : ℕ} (x g : Mat N 128) (W : Mat 256 128) (b : Fin 128 → EReal) : Mat N 128 :=
  fun n j => ((∑ k : Fin 128, x n k * W (Fin.castAdd 128 k) j) + (∑ k : Fin 128, g n k * W (Fin.natAdd 128 k) j)) + b j

/-- The inputs: two node arrays, two graph-id arrays, five three-layer networks. -/
structure Inputs where
  x1 : Mat 100000 128
  x2 : Mat 100000 128
  id1 : Fin 100000 → BitVec 32
  id2 : Fin 100000 → BitVec 32
  e1 : Mlp 128 128
  r1 : Mlp 128 128
  e2 : Mlp 256 128
  r2 : Mlp 128 128
  mo : Mlp 128 2

variable (I : Inputs)

/-- The first node network on every row of the first node array. -/
def H1 : Mat 100000 128 := I.e1.app I.x1
/-- Its per-graph sums, by the first graph ids. -/
def A1 : Mat 128 128 := seg I.id1 (H1 I)
/-- The graph embedding. -/
def U1 : Mat 128 128 := I.r1.app (A1 I)
/-- The second node network on every row of the second node array joined with its graph's embedding row. -/
def H2 : Mat 100000 128 :=
  lin (relu (lin (relu (lin2 I.x2 (gath I.id1 (U1 I)) I.e2.W0 I.e2.b0)) I.e2.W1 I.e2.b1)) I.e2.W2 I.e2.b2
/-- Its per-graph sums, by the second graph ids. -/
def A2 : Mat 128 128 := seg I.id2 (H2 I)
/-- The second graph network. -/
def U2 : Mat 128 128 := I.r2.app (A2 I)
/-- The result: 128 × 2. -/
def Out : Mat 128 2 := I.mo.app (U2 I)

/-! ## Arrays of the library's index types as these matrices -/

/-- A rank-2 array read as a matrix. -/
def toMat {a b : ℕ} (v : (⟨2, ![a, b]⟩ : Shape).Idx → EReal) : Mat a b := fun p q => v (ix2 p q)
/-- A rank-1 array read as a vector. -/
def toVec {a : ℕ} (v : (⟨1, ![a]⟩ : Shape).Idx → EReal) : Fin a → EReal := fun p => v (ix1 p)
/-- A rank-1 array of 32-bit words read as a family of words. -/
def toIds {a : ℕ} (v : (⟨1, ![a]⟩ : Shape).Idx → BitVec 32) : Fin a → BitVec 32 := fun p => v (ix1 p)

/-- Three weight matrices and three bias vectors as one network. -/
def mkMlp {I O : ℕ} (W0 : (⟨2, ![I, 128]⟩ : Shape).Idx → EReal) (b0 : (⟨1, ![128]⟩ : Shape).Idx → EReal)
    (W1 : (⟨2, ![128, 128]⟩ : Shape).Idx → EReal) (b1 : (⟨1, ![128]⟩ : Shape).Idx → EReal)
    (W2 : (⟨2, ![128, O]⟩ : Shape).Idx → EReal) (b2 : (⟨1, ![O]⟩ : Shape).Idx → EReal) : Mlp I O :=
  ⟨toMat W0, toVec b0, toMat W1, toVec b1, toMat W2, toVec b2⟩

/-- A matrix whose entries are all real numbers. -/
def IsReal {a b : ℕ} (x : Mat a b) : Prop := ∀ p q, ∃ r : ℝ, x p q = (r : EReal)
/-- A vector whose entries are all real numbers. -/
def IsRealV {a : ℕ} (x : Fin a → EReal) : Prop := ∀ p, ∃ r : ℝ, x p = (r : EReal)
/-- A network whose parameters are all real numbers. -/
def Mlp.IsReal {I O : ℕ} (p : Mlp I O) : Prop :=
  Cert.Spec.IsReal p.W0 ∧ IsRealV p.b0 ∧ Cert.Spec.IsReal p.W1 ∧ IsRealV p.b1 ∧ Cert.Spec.IsReal p.W2 ∧ IsRealV p.b2

/-- Every float input is real, and every first graph id is a graph number. -/
structure Inputs.Ok : Prop where
  x1 : IsReal I.x1
  x2 : IsReal I.x2
  e1 : I.e1.IsReal
  r1 : I.r1.IsReal
  e2 : I.e2.IsReal
  r2 : I.r2.IsReal
  mo : I.mo.IsReal
  id1 : ∀ e, 0 ≤ (I.id1 e).toInt ∧ (I.id1 e).toInt < 128

end Cert.Spec

end
-- ==== Proof.Interface.lean ====
/-
  The two programs' argument arrays as the inputs of the common function.
-/
import proofs.«107935_g3393024163881_fold_wed_m_362_29_alg».proof.Proof.Spec
import proofs.«107935_g3393024163881_fold_wed_m_362_29_alg».proof.Proof.KI.State
import Idealize.ShloMosaic.PureOps.Ideal

noncomputable section

namespace Cert.Spec

open Idealize.ShloMosaic

/-- The 34 argument arrays, in the programs' order, as the inputs of the common function. -/
def mkInputs
    (a0 : (⟨2, ![100000, 128]⟩ : Shape).Idx → EReal)
    (a1 : (⟨2, ![100000, 128]⟩ : Shape).Idx → EReal)
    (a2 : (⟨1, ![100000]⟩ : Shape).Idx → BitVec 32)
    (a3 : (⟨1, ![100000]⟩ : Shape).Idx → BitVec 32)
    (a4 : (⟨2, ![128, 128]⟩ : Shape).Idx → EReal)
    (a5 : (⟨1, ![128]⟩ : Shape).Idx → EReal)
    (a6 : (⟨2, ![128, 128]⟩ : Shape).Idx → EReal)
    (a7 : (⟨1, ![128]⟩ : Shape).Idx → EReal)
    (a8 : (⟨2, ![128, 128]⟩ : Shape).Idx → EReal)
    (a9 : (⟨1, ![128]⟩ : Shape).Idx → EReal)
    (a10 : (⟨2, ![128, 128]⟩ : Shape).Idx → EReal)
    (a11 : (⟨1, ![128]⟩ : Shape).Idx → EReal)
    (a12 : (⟨2, ![128, 128]⟩ : Shape).Idx → EReal)
    (a13 : (⟨1, ![128]⟩ : Shape).Idx → EReal)
    (a14 : (⟨2, ![128, 128]⟩ : Shape).Idx → EReal)
    (a15 : (⟨1, ![128]⟩ : Shape).Idx → EReal)
    (a16 : (⟨2, ![256, 128]⟩ : Shape).Idx → EReal)
    (a17 : (⟨1, ![128]⟩ : Shape).Idx → EReal)
    (a18 : (⟨2, ![128, 128]⟩ : Shape).Idx → EReal)
    (a19 : (⟨1, ![128]⟩ : Shape).Idx → EReal)
    (a20 : (⟨2, ![128, 128]⟩ : Shape).Idx → EReal)
    (a21 : (⟨1, ![128]⟩ : Shape).Idx → EReal)
    (a22 : (⟨2, ![128, 128]⟩ : Shape).Idx → EReal)
    (a23 : (⟨1, ![128]⟩ : Shape).Idx → EReal)
    (a24 : (⟨2, ![128, 128]⟩ : Shape).Idx → EReal)
    (a25 : (⟨1, ![128]⟩ : Shape).Idx → EReal)
    (a26 : (⟨2, ![128, 128]⟩ : Shape).Idx → EReal)
    (a27 : (⟨1, ![128]⟩ : Shape).Idx → EReal)
    (a28 : (⟨2, ![128, 128]⟩ : Shape).Idx → EReal)
    (a29 : (⟨1, ![128]⟩ : Shape).Idx → EReal)
    (a30 : (⟨2, ![128, 128]⟩ : Shape).Idx → EReal)
    (a31 : (⟨1, ![128]⟩ : Shape).Idx → EReal)
    (a32 : (⟨2, ![128, 2]⟩ : Shape).Idx → EReal)
    (a33 : (⟨1, ![2]⟩ : Shape).Idx → EReal) : Inputs :=
  ⟨toMat a0, toMat a1, toIds a2, toIds a3, mkMlp a4 a5 a6 a7 a8 a9, mkMlp a10 a11 a12 a13 a14 a15,
    mkMlp a16 a17 a18 a19 a20 a21, mkMlp a22 a23 a24 a25 a26 a27, mkMlp a28 a29 a30 a31 a32 a33⟩

end Cert.Spec

namespace Cert.KernelIdeal.Hand

open Idealize.ShloMosaic Idealize.ShloMosaic.TcCoe Idealize.SL.Sem
open Cert.KernelIdeal Cert.KernelIdeal.Gen

/-- The kernel program's argument arrays on core `c`, as the inputs of the common function. -/
def inK (m : (ℓ : Loc nD τ sig) → Buf (Elt Ideal) ℓ) (c : Dev nD) : Cert.Spec.Inputs :=
  Cert.Spec.mkInputs
    (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33))

end Cert.KernelIdeal.Hand

end
-- ==== Proof.SpecFin.lean ====
/-
  Two families of facts about the function of Spec, both pure mathematics over extended reals.

  (1) Realness. Every layer of the function (a linear layer, the rectifier, a three-layer network, a per-graph sum,
      a selection of rows) sends matrices of real numbers to matrices of real numbers: the real numbers are closed
      under finite sums, products and maxima inside the extended reals. Hence, when all float inputs are real, every
      intermediate matrix of the function is real, and for a real entry x one has x - x = 0 (which fails at ±∞).

  (2) The per-graph sum taken block by block. The sum over the rows e < r with graph id g grows, when r passes from
      10000·b to 10000·(b+1), by the sum over the 10000 rows of block b with graph id g; it is zero at r = 0 and the
      whole per-graph sum at r = 100000. A product with a 0/1 matrix is the sum over the rows where the matrix is 1
      (in the extended reals 0·x = 0 and 1·x = x for every x, the infinite ones included).
-/
import Mathlib.Data.EReal.Basic
import Mathlib.Data.EReal.Operations
import Mathlib.Algebra.BigOperators.Fin
import Mathlib.Algebra.BigOperators.Group.Finset.Basic
import proofs.«107935_g3393024163881_fold_wed_m_362_29_alg».proof.Proof.Spec

noncomputable section

open scoped BigOperators

namespace Cert.Spec

/-! ## Real numbers inside the extended reals -/

/-- For a real number x, x - x = 0 in the extended reals. -/
theorem sub_self_of_real {x : EReal} (h : ∃ r : ℝ, x = (r : EReal)) : x - x = 0 := by
  obtain ⟨r, rfl⟩ := h
  rw [← EReal.coe_sub, sub_self, EReal.coe_zero]

/-- A finite sum of real numbers is a real number. -/
theorem real_sum {ι : Type} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by rw [Finset.sum_empty, EReal.coe_zero]⟩
  | insert a s ha ih =>
    obtain ⟨ra, hra⟩ := hf a (Finset.mem_insert_self a s)
    obtain ⟨rs, hrs⟩ := ih (fun i hi => hf i (Finset.mem_insert_of_mem hi))
    exact ⟨ra + rs, by rw [Finset.sum_insert ha, hra, hrs, EReal.coe_add]⟩

/-- A product of two real numbers is a real number. -/
theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- A sum of two real numbers is a real number. -/
theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- The larger of a real number and 0 is a real number. -/
theorem real_max_zero {x : EReal} (hx : ∃ r : ℝ, x = (r : EReal)) : ∃ r : ℝ, max x 0 = (r : EReal) := by
  obtain ⟨a, rfl⟩ := hx
  rcases le_total (a : EReal) 0 with h | h
  · exact ⟨0, by rw [max_eq_right h, EReal.coe_zero]⟩
  · exact ⟨a, max_eq_left h⟩

/-! ## Every layer keeps matrices real -/

/-- A linear layer with real weights and bias sends a real matrix to a real matrix. -/
theorem IsReal.lin {N K J : ℕ} {x : Mat N K} {W : Mat K J} {b : Fin J → EReal}
    (hx : Cert.Spec.IsReal x) (hW : Cert.Spec.IsReal W) (hb : IsRealV b) :
    Cert.Spec.IsReal (Cert.Spec.lin x W b) := by
  intro n j
  exact real_add (real_sum _ _ (fun k _ => real_mul (hx n k) (hW k j))) (hb j)

/-- The rectifier sends a real matrix to a real matrix. -/
theorem IsReal.relu {N J : ℕ} {x : Mat N J} (hx : Cert.Spec.IsReal x) :
    Cert.Spec.IsReal (Cert.Spec.relu x) := by
  intro n j
  exact real_max_zero (hx n j)

/-- A three-layer network with real parameters sends a real matrix to a real matrix. -/
theorem Mlp.IsReal.app {I O N : ℕ} {p : Mlp I O} (hp : p.IsReal) {x : Mat N I} (hx : Cert.Spec.IsReal x) :
    Cert.Spec.IsReal (p.app x) := by
  obtain ⟨hW0, hb0, hW1, hb1, hW2, hb2⟩ := hp
  exact Cert.Spec.IsReal.lin
    (Cert.Spec.IsReal.relu (Cert.Spec.IsReal.lin (Cert.Spec.IsReal.relu (Cert.Spec.IsReal.lin hx hW0 hb0)) hW1 hb1))
    hW2 hb2

/-- Per-graph sums of a real matrix are real. -/
theorem IsReal.seg {n J : ℕ} (ids : Fin n → BitVec 32) {h : Mat n J} (hh : Cert.Spec.IsReal h) :
    Cert.Spec.IsReal (Cert.Spec.seg ids h) := by
  intro g j
  exact real_sum _ _ (fun e _ => hh e j)

/-- Selecting rows of a real matrix gives a real matrix. -/
theorem IsReal.gath {n J : ℕ} (ids : Fin n → BitVec 32) {u : Mat 128 J} (hu : Cert.Spec.IsReal u) :
    Cert.Spec.IsReal (Cert.Spec.gath ids u) := by
  intro e j
  exact hu (rowOf128 (ids e)) j

/-- The split first layer with real weights and bias sends two real matrices to a real matrix. -/
theorem IsReal.lin2 {N : ℕ} {x g : Mat N 128} {W : Mat 256 128} {b : Fin 128 → EReal}
    (hx : Cert.Spec.IsReal x) (hg : Cert.Spec.IsReal g) (hW : Cert.Spec.IsReal W) (hb : IsRealV b) :
    Cert.Spec.IsReal (Cert.Spec.lin2 x g W b) := by
  intro n j
  exact real_add
    (real_add (real_sum _ _ (fun k _ => real_mul (hx n k) (hW (Fin.castAdd 128 k) j)))
      (real_sum _ _ (fun k _ => real_mul (hg n k) (hW (Fin.natAdd 128 k) j))))
    (hb j)

/-! ## The intermediate matrices of the function are real when the inputs are -/

section Inputs

variable {I : Inputs}

/-- The first node network's output is real. -/
theorem H1_real (hOk : I.Ok) : IsReal (H1 I) := Mlp.IsReal.app hOk.e1 hOk.x1

/-- Its per-graph sums are real. -/
theorem A1_real (hOk : I.Ok) : IsReal (A1 I) := IsReal.seg I.id1 (H1_real hOk)

/-- The graph embedding is real. -/
theorem U1_real (hOk : I.Ok) : IsReal (U1 I) := Mlp.IsReal.app hOk.r1 (A1_real hOk)

/-- The second node network's output is real. -/
theorem H2_real (hOk : I.Ok) : IsReal (H2 I) := by
  obtain ⟨hW0, hb0, hW1, hb1, hW2, hb2⟩ := hOk.e2
  exact IsReal.lin
    (IsReal.relu (IsReal.lin (IsReal.relu
      (IsReal.lin2 hOk.x2 (IsReal.gath I.id1 (U1_real hOk)) hW0 hb0)) hW1 hb1))
    hW2 hb2

end Inputs

/-! ## The per-graph sum, block of rows by block of rows -/

/-- The per-graph sum restricted to the rows e < r. -/
def segUpTo {J : ℕ} (r : ℕ) (ids : Fin 100000 → BitVec 32) (h : Mat 100000 J) : Mat 128 J :=
  fun g j => ∑ e ∈ Finset.univ.filter (fun e : Fin 100000 => (ids e).toInt = (g.val : ℤ) ∧ e.val < r), h e j

/-- Over no rows the sum is zero. -/
theorem segUpTo_zero {J : ℕ} (ids : Fin 100000 → BitVec 32) (h : Mat 100000 J) (g : Fin 128) (j : Fin J) :
    segUpTo 0 ids h g j = 0 := by
  unfold segUpTo
  apply Finset.sum_eq_zero
  intro e he
  exact absurd (Finset.mem_filter.mp he).2.2 (Nat.not_lt_zero _)

/-- Over all rows it is the per-graph sum. -/
theorem segUpTo_full {J : ℕ} (ids : Fin 100000 → BitVec 32) (h : Mat 100000 J) :
    segUpTo 100000 ids h = seg ids h := by
  funext g j
  unfold segUpTo seg
  refine Finset.sum_congr ?_ (fun _ _ => rfl)
  ext e
  simp only [Finset.mem_filter, Finset.mem_univ, true_and]
  exact ⟨fun hh => hh.1, fun hh => ⟨hh, e.isLt⟩⟩

/-- Passing block b (rows 10000·b … 10000·b + 9999) adds the sum over that block's rows with graph id g. -/
theorem segUpTo_block {J : ℕ} (ids : Fin 100000 → BitVec 32) (h : Mat 100000 J) (g : Fin 128) (j : Fin J)
    (b : ℕ) (hb : b < 10) :
    segUpTo (10000 * (b + 1)) ids h g j
      = segUpTo (10000 * b) ids h g j
        + ∑ r ∈ Finset.univ.filter
            (fun r : Fin 10000 => (ids ⟨10000 * b + r.val, by omega⟩).toInt = (g.val : ℤ)),
            h ⟨10000 * b + r.val, by omega⟩ j := by
  unfold segUpTo
  -- the rows below 10000·(b+1) are the rows below 10000·b together with the rows of block b
  have hsplit :
      Finset.univ.filter (fun e : Fin 100000 => (ids e).toInt = (g.val : ℤ) ∧ e.val < 10000 * (b + 1))
        = Finset.univ.filter (fun e : Fin 100000 => (ids e).toInt = (g.val : ℤ) ∧ e.val < 10000 * b)
          ∪ Finset.univ.filter (fun e : Fin 100000 =>
              (ids e).toInt = (g.val : ℤ) ∧ 10000 * b ≤ e.val ∧ e.val < 10000 * (b + 1)) := by
    ext e
    simp only [Finset.mem_union, Finset.mem_filter, Finset.mem_univ, true_and]
    constructor
    · rintro ⟨h1, h2⟩
      by_cases hlt : e.val < 10000 * b
      · exact Or.inl ⟨h1, hlt⟩
      · exact Or.inr ⟨h1, Nat.le_of_not_lt hlt, h2⟩
    · rintro (⟨h1, h2⟩ | ⟨h1, _, h3⟩)
      · exact ⟨h1, by omega⟩
      · exact ⟨h1, h3⟩
  have hdisj :
      Disjoint
        (Finset.univ.filter (fun e : Fin 100000 => (ids e).toInt = (g.val : ℤ) ∧ e.val < 10000 * b))
        (Finset.univ.filter (fun e : Fin 100000 =>
              (ids e).toInt = (g.val : ℤ) ∧ 10000 * b ≤ e.val ∧ e.val < 10000 * (b + 1))) := by
    rw [Finset.disjoint_left]
    intro e h1 h2
    have a1 := (Finset.mem_filter.mp h1).2.2
    have a2 := (Finset.mem_filter.mp h2).2.2.1
    omega
  rw [hsplit, Finset.sum_union hdisj]
  refine congrArg (fun t : EReal => _ + t) ?_
  -- the rows of block b, counted from the block's first row
  symm
  refine Finset.sum_nbij' (fun r : Fin 10000 => (⟨10000 * b + r.val, by omega⟩ : Fin 100000))
    (fun e : Fin 100000 => (⟨(e.val - 10000 * b) % 10000, Nat.mod_lt _ (by norm_num)⟩ : Fin 10000))
    ?_ ?_ ?_ ?_ ?_
  · intro r hr
    have hr' := (Finset.mem_filter.mp hr).2
    simp only [Finset.mem_filter, Finset.mem_univ, true_and]
    exact ⟨hr', by omega, by have := r.isLt; omega⟩
  · intro e he
    have he' := (Finset.mem_filter.mp he).2
    simp only [Finset.mem_filter, Finset.mem_univ, true_and]
    have hval : 10000 * b + (e.val - 10000 * b) % 10000 = e.val := by omega
    have heq : (⟨10000 * b + (e.val - 10000 * b) % 10000, by omega⟩ : Fin 100000) = e := Fin.ext hval
    rw [heq]
    exact he'.1
  · intro r _
    apply Fin.ext
    have := r.isLt
    simp only
    omega
  · intro e he
    have he' := (Finset.mem_filter.mp he).2
    apply Fin.ext
    simp only
    omega
  · intro r _
    rfl

/-- A product with a 0/1 matrix is the sum over the positions where the matrix is 1. -/
theorem sum_onehot_mul {G n : ℕ} (oh : Fin G → Fin n → EReal) (P : Fin G → Fin n → Prop)
    [∀ g, DecidablePred (P g)] (hoh : ∀ g r, oh g r = if P g r then 1 else 0) (x : Fin n → EReal) (g : Fin G) :
    ∑ r, oh g r * x r = ∑ r ∈ Finset.univ.filter (P g), x r := by
  rw [Finset.sum_filter]
  refine Finset.sum_congr rfl (fun r _ => ?_)
  rw [hoh]
  by_cases hP : P g r
  · rw [if_pos hP, if_pos hP, one_mul]
  · rw [if_neg hP, if_neg hP, zero_mul]

end Cert.Spec

end
-- ==== Proof.SpecRows.lean ====
/-
  The layers of the common function act on a matrix ROW BY ROW: a row of the result depends only on the same row of the
  argument. So a block of rows of the node array, sent through a node network, is the same block of rows of the whole
  array's image — which is how the kernel, working on 10000 rows at a time, meets the reference, working on all 100000.
-/
import proofs.«107935_g3393024163881_fold_wed_m_362_29_alg».proof.Proof.Spec

noncomputable section

open scoped BigOperators

namespace Cert.Spec

/-- A linear layer's row depends only on that row of its argument. -/
theorem lin_row {N N' K J : ℕ} (x : Mat N K) (y : Mat N' K) (W : Mat K J) (b : Fin J → EReal) (n : Fin N) (e : Fin N')
    (h : ∀ k, x n k = y e k) (j : Fin J) : lin x W b n j = lin y W b e j := by
  unfold lin
  congr 1
  exact Finset.sum_congr rfl fun k _ => by rw [h k]

/-- The rectifier's row depends only on that row of its argument. -/
theorem relu_row {N N' J : ℕ} (x : Mat N J) (y : Mat N' J) (n : Fin N) (e : Fin N') (h : ∀ k, x n k = y e k) (j : Fin J) :
    relu x n j = relu y e j := by
  unfold relu
  rw [h j]

/-- A three-layer network's row depends only on that row of its argument. -/
theorem Mlp.app_row {I O N N' : ℕ} (p : Mlp I O) (x : Mat N I) (y : Mat N' I) (n : Fin N) (e : Fin N')
    (h : ∀ k, x n k = y e k) (j : Fin O) : p.app x n j = p.app y e j := by
  unfold Mlp.app
  refine lin_row _ _ _ _ n e (fun k => ?_) j
  refine relu_row _ _ n e (fun k => ?_) k
  refine lin_row _ _ _ _ n e (fun k => ?_) k
  refine relu_row _ _ n e (fun k => ?_) k
  exact lin_row _ _ _ _ n e h k

/-- The split first layer's row depends only on that row of its two arguments. -/
theorem lin2_row {N N' : ℕ} (x g : Mat N 128) (y g' : Mat N' 128) (W : Mat 256 128) (b : Fin 128 → EReal) (n : Fin N)
    (e : Fin N') (hx : ∀ k, x n k = y e k) (hg : ∀ k, g n k = g' e k) (j : Fin 128) :
    lin2 x g W b n j = lin2 y g' W b e j := by
  unfold lin2
  congr 1
  congr 1
  · exact Finset.sum_congr rfl fun k _ => by rw [hx k]
  · exact Finset.sum_congr rfl fun k _ => by rw [hg k]

end Cert.Spec

end
-- ==== Proof.LibDot.lean ====
/-
  How a matrix product reads AT ONE ENTRY, for two records of dimension numbers over rank-2 operands:

  * ROWS TIMES COLUMNS: an N × K array times a K × J array, contracting the left operand's second axis with the right
    operand's first. Entry (n, j) of the product is the sum over k of x(n, k) · W(k, j).
  * TRANSPOSE TIMES: a G × n array and a G × J array, contracting the FIRST axis of both. Entry (e, j) of the product is
    the sum over g of oh(g, e) · u(g, j): the left operand is read transposed. With oh a one-hot matrix (column e has its
    single 1 in row g(e)) this is row g(e) of u.

  At the extended reals a product carries no rounding and no order of summation: the matrix unit's product is the
  accumulator's entry plus that sum, and the host's dot product is that sum.

  Every statement is for an arbitrary record whose fields are given as hypotheses, so that it applies to any record
  with those fields, at arbitrary extents and operand formats.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The shape of an array of N rows and C columns. -/
abbrev Sh (N C : Nat) : Shape := ⟨2, ![N, C]⟩

/-! ## One contracted axis: the contraction index is that axis's coordinate -/

section OneAxis

variable {sl sr so : Shape} (d : DotDims sl sr so)

/-- A record that contracts one left axis contracts over a shape of rank one. -/
theorem contr_rank_one {cl : Fin sl.rank} (hc : d.lhsContracting = [cl]) : d.contr.rank = 1 := by
  rw [d.rank_contr, hc]; rfl

/-- … and that shape's one extent is the extent of the contracted left axis. -/
theorem contr_size_zero {cl : Fin sl.rank} (hc : d.lhsContracting = [cl]) (h0 : 0 < d.contr.rank) :
    d.contr.size ⟨0, h0⟩ = sl.size cl := by
  have hp : 0 < d.lhsContracting.length := by rw [hc]; exact Nat.one_pos
  have h := d.size_contr 0 hp
  have hg : d.lhsContracting[0] = cl := (List.getElem_of_eq hc hp).trans rfl
  rw [hg] at h
  exact h

/-- Two readings of an index at axis positions that are the same number agree. -/
theorem idx_val_congr {s : Shape} (j : s.Idx) (p q : Nat) (hp : p < s.rank) (hq : q < s.rank) (h : p = q) :
    (j ⟨p, hp⟩).val = (j ⟨q, hq⟩).val := by
  subst h; rfl

end OneAxis

/-! ## Rows times columns: contract the left operand's columns with the right operand's rows -/

section RowsCols

variable {N K J : Nat} (d : DotDims (Sh N K) (Sh K J) (Sh N J))

/-- The left operand's row is the result's row. -/
theorem rc_lhs_row (hln : d.lhsNonContracting = [0]) (hlb : d.lhsBatch = [])
    (i : (Sh N J).Idx) (q : d.contr.Idx) : (d.lhsIdx i q (0 : Fin 2)).val = (i (0 : Fin 2)).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact idx_val_congr i _ _ _ _ (by rw [hlb, hln]; rfl)

/-- The left operand's column is the contraction coordinate. -/
theorem rc_lhs_col (hlc : d.lhsContracting = [1]) (i : (Sh N J).Idx) (q : d.contr.Idx) :
    (d.lhsIdx i q (1 : Fin 2)).val = (q ⟨0, by rw [contr_rank_one d hlc]; exact Nat.one_pos⟩).val :=
  d.lhsIdx_val_of_single hlc i q

/-- The right operand's row is the contraction coordinate. -/
theorem rc_rhs_row (hlc : d.lhsContracting = [1]) (hrc : d.rhsContracting = [0]) (i : (Sh N J).Idx) (q : d.contr.Idx) :
    (d.rhsIdx i q (0 : Fin 2)).val = (q ⟨0, by rw [contr_rank_one d hlc]; exact Nat.one_pos⟩).val :=
  d.rhsIdx_val_of_single hrc i q

/-- The right operand's column is the result's column. -/
theorem rc_rhs_col (hln : d.lhsNonContracting = [0]) (hrn : d.rhsNonContracting = [1]) (hlb : d.lhsBatch = [])
    (hrb : d.rhsBatch = []) (i : (Sh N J).Idx) (q : d.contr.Idx) :
    (d.rhsIdx i q (1 : Fin 2)).val = (i (1 : Fin 2)).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact idx_val_congr i _ _ _ _ (by rw [hlb, hln, hrn]; rfl)

/-- THE CONTRACTION RE-INDEXED: at result entry (n, j) the sum over the record's contraction index of the products of
    the operands at the record's operand indices is the sum over k below K of x(n, k) · W(k, j), in any additive
    commutative monoid with a product. -/
theorem rows_cols_sum {M : Type*} [AddCommMonoid M] [Mul M]
    (hlc : d.lhsContracting = [1]) (hrc : d.rhsContracting = [0]) (hln : d.lhsNonContracting = [0])
    (hrn : d.rhsNonContracting = [1]) (hlb : d.lhsBatch = []) (hrb : d.rhsBatch = [])
    (x : (Sh N K).Idx → M) (W : (Sh K J).Idx → M) (n : Fin N) (j : Fin J) :
    ∑ q : d.contr.Idx, x (d.lhsIdx (ix2 n j) q) * W (d.rhsIdx (ix2 n j) q) = ∑ k : Fin K, x (ix2 n k) * W (ix2 k j) := by
  have hr : d.contr.rank = 1 := contr_rank_one d hlc
  have hs : d.contr.size ⟨0, by omega⟩ = K := contr_size_zero d hlc _
  rw [← Equiv.sum_comp (contrEquiv1 d K hr hs).symm]
  refine Finset.sum_congr rfl fun k _ => ?_
  have hk := contrEquiv1_symm_val d K hr hs k
  have el : d.lhsIdx (ix2 n j) ((contrEquiv1 d K hr hs).symm k) = ix2 n k := funext fun a => Fin.ext (by
    match a with
    | ⟨0, _⟩ => exact rc_lhs_row d hln hlb _ _
    | ⟨1, _⟩ => exact (rc_lhs_col d hlc _ _).trans hk)
  have er : d.rhsIdx (ix2 n j) ((contrEquiv1 d K hr hs).symm k) = ix2 k j := funext fun a => Fin.ext (by
    match a with
    | ⟨0, _⟩ => exact (rc_rhs_row d hlc hrc _ _).trans hk
    | ⟨1, _⟩ => exact rc_rhs_col d hln hrn hlb hrb _ _)
  rw [el, er]

variable {φ₁ φ₂ : FTy}

/-- THE MATRIX UNIT'S PRODUCT AT ONE ENTRY: entry (n, j) of x · W accumulated onto acc is acc(n, j) plus the sum over k
    of x(n, k) · W(k, j). -/
theorem matmul_rows (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (x : FVec Ideal (Sh N K) φ₁) (W : FVec Ideal (Sh K J) φ₂)
    (acc : FVec Ideal (Sh N J) .f32) (n : Fin N) (j : Fin J) :
    matmul d prec x W acc (ix2 n j) = acc (ix2 n j) + ∑ k : Fin K, x (ix2 n k) * W (ix2 k j) :=
  (Ideal.matmul_apply d prec x W acc (ix2 n j)).trans
    (congrArg (acc (ix2 n j) + ·) (rows_cols_sum d hlc hrc hln hrn hlb hrb x W n j))

/-- The same into the zero accumulator a kernel body passes (the f32 word 0): entry (n, j) is the sum over k of
    x(n, k) · W(k, j) alone. -/
theorem matmul_rows_zero (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (x : FVec Ideal (Sh N K) φ₁) (W : FVec Ideal (Sh K J) φ₂) (n : Fin N) (j : Fin J) :
    matmul d prec x W (constant (Sh N J) .f32 0x00000000#32) (ix2 n j) = ∑ k : Fin K, x (ix2 n k) * W (ix2 k j) :=
  (Ideal.matmul_constant_zero_apply d prec x W (ix2 n j)).trans (rows_cols_sum d hlc hrc hln hrn hlb hrb x W n j)

/-- THE HOST'S DOT PRODUCT AT ONE ENTRY: entry (n, j) of x · W is the sum over k of x(n, k) · W(k, j), with no
    accumulator. -/
theorem dotGeneral_rows (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (x : FVec Ideal (Sh N K) φ₁) (W : FVec Ideal (Sh K J) φ₂) (n : Fin N) (j : Fin J) :
    Host.dotGeneral d prec x W (ix2 n j) = ∑ k : Fin K, x (ix2 n k) * W (ix2 k j) :=
  (Ideal.dotGeneral_apply d prec .single x W (ix2 n j)).trans (rows_cols_sum d hlc hrc hln hrn hlb hrb x W n j)

end RowsCols

/-! ## Transpose times: contract the FIRST axis of both operands -/

section TransposeTimes

variable {G n J : Nat} (d : DotDims (Sh G n) (Sh G J) (Sh n J))

/-- The left operand's row is the contraction coordinate. -/
theorem tt_lhs_row (hlc : d.lhsContracting = [0]) (i : (Sh n J).Idx) (q : d.contr.Idx) :
    (d.lhsIdx i q (0 : Fin 2)).val = (q ⟨0, by rw [contr_rank_one d hlc]; exact Nat.one_pos⟩).val :=
  d.lhsIdx_val_of_single hlc i q

/-- The left operand's column is the result's ROW: the left operand is read transposed. -/
theorem tt_lhs_col (hln : d.lhsNonContracting = [1]) (hlb : d.lhsBatch = [])
    (i : (Sh n J).Idx) (q : d.contr.Idx) : (d.lhsIdx i q (1 : Fin 2)).val = (i (0 : Fin 2)).val := by
  have hb : (1 : Fin 2) ∉ d.lhsBatch := by rw [hlb]; exact List.not_mem_nil
  have hn : (1 : Fin 2) ∈ d.lhsNonContracting := by rw [hln]; exact List.mem_singleton.mpr rfl
  unfold DotDims.lhsIdx
  rw [dif_neg hb, dif_pos hn]
  simp only [Fin.val_cast]
  exact idx_val_congr i _ _ _ _ (by rw [hlb, hln]; rfl)

/-- The right operand's row is the contraction coordinate. -/
theorem tt_rhs_row (hlc : d.lhsContracting = [0]) (hrc : d.rhsContracting = [0]) (i : (Sh n J).Idx) (q : d.contr.Idx) :
    (d.rhsIdx i q (0 : Fin 2)).val = (q ⟨0, by rw [contr_rank_one d hlc]; exact Nat.one_pos⟩).val :=
  d.rhsIdx_val_of_single hrc i q

/-- The right operand's column is the result's column. -/
theorem tt_rhs_col (hln : d.lhsNonContracting = [1]) (hrn : d.rhsNonContracting = [1]) (hlb : d.lhsBatch = [])
    (hrb : d.rhsBatch = []) (i : (Sh n J).Idx) (q : d.contr.Idx) :
    (d.rhsIdx i q (1 : Fin 2)).val = (i (1 : Fin 2)).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact idx_val_congr i _ _ _ _ (by rw [hlb, hln, hrn]; rfl)

/-- THE CONTRACTION RE-INDEXED: at result entry (e, j) the sum over the record's contraction index of the products of
    the operands at the record's operand indices is the sum over g below G of oh(g, e) · u(g, j), in any additive
    commutative monoid with a product. -/
theorem transpose_times_sum {M : Type*} [AddCommMonoid M] [Mul M]
    (hlc : d.lhsContracting = [0]) (hrc : d.rhsContracting = [0]) (hln : d.lhsNonContracting = [1])
    (hrn : d.rhsNonContracting = [1]) (hlb : d.lhsBatch = []) (hrb : d.rhsBatch = [])
    (oh : (Sh G n).Idx → M) (u : (Sh G J).Idx → M) (e : Fin n) (j : Fin J) :
    ∑ q : d.contr.Idx, oh (d.lhsIdx (ix2 e j) q) * u (d.rhsIdx (ix2 e j) q) = ∑ g : Fin G, oh (ix2 g e) * u (ix2 g j) := by
  have hr : d.contr.rank = 1 := contr_rank_one d hlc
  have hs : d.contr.size ⟨0, by omega⟩ = G := contr_size_zero d hlc _
  rw [← Equiv.sum_comp (contrEquiv1 d G hr hs).symm]
  refine Finset.sum_congr rfl fun g _ => ?_
  have hg := contrEquiv1_symm_val d G hr hs g
  have el : d.lhsIdx (ix2 e j) ((contrEquiv1 d G hr hs).symm g) = ix2 g e := funext fun a => Fin.ext (by
    match a with
    | ⟨0, _⟩ => exact (tt_lhs_row d hlc _ _).trans hg
    | ⟨1, _⟩ => exact tt_lhs_col d hln hlb _ _)
  have er : d.rhsIdx (ix2 e j) ((contrEquiv1 d G hr hs).symm g) = ix2 g j := funext fun a => Fin.ext (by
    match a with
    | ⟨0, _⟩ => exact (tt_rhs_row d hlc hrc _ _).trans hg
    | ⟨1, _⟩ => exact tt_rhs_col d hln hrn hlb hrb _ _)
  rw [el, er]

variable {φ₁ φ₂ : FTy}

/-- THE MATRIX UNIT'S TRANSPOSED PRODUCT AT ONE ENTRY: entry (e, j) of ohᵀ · u accumulated onto acc is acc(e, j) plus
    the sum over g of oh(g, e) · u(g, j). -/
theorem matmul_transpose_rows (hlc : d.lhsContracting = [0]) (hrc : d.rhsContracting = [0])
    (hln : d.lhsNonContracting = [1]) (hrn : d.rhsNonContracting = [1]) (hlb : d.lhsBatch = []) (hrb : d.rhsBatch = [])
    (prec : Option ContractPrecision) (oh : FVec Ideal (Sh G n) φ₁) (u : FVec Ideal (Sh G J) φ₂)
    (acc : FVec Ideal (Sh n J) .f32) (e : Fin n) (j : Fin J) :
    matmul d prec oh u acc (ix2 e j) = acc (ix2 e j) + ∑ g : Fin G, oh (ix2 g e) * u (ix2 g j) :=
  (Ideal.matmul_apply d prec oh u acc (ix2 e j)).trans
    (congrArg (acc (ix2 e j) + ·) (transpose_times_sum d hlc hrc hln hrn hlb hrb oh u e j))

/-- The same into the zero accumulator a kernel body passes (the f32 word 0): entry (e, j) is the sum over g of
    oh(g, e) · u(g, j) alone. -/
theorem matmul_transpose_rows_zero (hlc : d.lhsContracting = [0]) (hrc : d.rhsContracting = [0])
    (hln : d.lhsNonContracting = [1]) (hrn : d.rhsNonContracting = [1]) (hlb : d.lhsBatch = []) (hrb : d.rhsBatch = [])
    (prec : Option ContractPrecision) (oh : FVec Ideal (Sh G n) φ₁) (u : FVec Ideal (Sh G J) φ₂) (e : Fin n) (j : Fin J) :
    matmul d prec oh u (constant (Sh n J) .f32 0x00000000#32) (ix2 e j) = ∑ g : Fin G, oh (ix2 g e) * u (ix2 g j) :=
  (Ideal.matmul_constant_zero_apply d prec oh u (ix2 e j)).trans
    (transpose_times_sum d hlc hrc hln hrn hlb hrb oh u e j)

/-- THE HOST'S TRANSPOSED DOT PRODUCT AT ONE ENTRY: entry (e, j) of ohᵀ · u is the sum over g of oh(g, e) · u(g, j). -/
theorem dotGeneral_transpose_rows (hlc : d.lhsContracting = [0]) (hrc : d.rhsContracting = [0])
    (hln : d.lhsNonContracting = [1]) (hrn : d.rhsNonContracting = [1]) (hlb : d.lhsBatch = []) (hrb : d.rhsBatch = [])
    (prec : Option ContractPrecision) (oh : FVec Ideal (Sh G n) φ₁) (u : FVec Ideal (Sh G J) φ₂) (e : Fin n) (j : Fin J) :
    Host.dotGeneral d prec oh u (ix2 e j) = ∑ g : Fin G, oh (ix2 g e) * u (ix2 g j) :=
  (Ideal.dotGeneral_apply d prec .single oh u (ix2 e j)).trans
    (transpose_times_sum d hlc hrc hln hrn hlb hrb oh u e j)

end TransposeTimes

end Cert.LibDot

end
-- ==== Proof.KI.Payloads.lean ====
/-
  The values the kernel body computes between its loads and its stores, each read at one entry over the extended reals.

  The body's arithmetic is made of five kinds of step. A matrix product into a zero array: entry (n, j) is
  ∑ₖ x(n, k) · W(k, j), or, for the product that reads its left operand transposed, ∑_g oh(g, e) · u(g, j). A 1 × 128
  bias row added to every row. The rectifier, the larger of an entry and the zero of a splat. The one-hot matrix of a
  block's 10000 graph ids: the row number g < 128 as a word, compared with id r, the bit widened and converted, which
  is 1 where id r read signed is g and 0 elsewhere. And casts of an array to its own shape, which change nothing.

  A product, a bias and a rectifier make a layer of the specification (lin, relu); three layers make its three-layer
  network. So the node network on a block of 10000 rows and the graph networks on a 128 × 128 accumulator are the
  specification's network on the block read as a matrix. The per-graph sums of a block are the accumulator plus
  one-hot products: of the block's values, and of differences of a value with itself (which vanish only for finite
  values, so they are kept as they are here). Phase 1's node network starts with a layer whose weight matrix comes as
  two halves, the lower half acting on the embedding rows the first ids select, and is read up to its last product;
  the last bias is added where the per-graph sums are taken.
-/
import proofs.«107935_g3393024163881_fold_wed_m_362_29_alg».proof.Proof.Gen.KernelIdeal.Skeleton
import proofs.«107935_g3393024163881_fold_wed_m_362_29_alg».proof.Proof.Spec
import proofs.«107935_g3393024163881_fold_wed_m_362_29_alg».proof.Proof.LibDot
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Hand

open Idealize.ShloMosaic Idealize.ShloMosaic.ValueIdx
open Cert.KernelIdeal Cert.KernelIdeal.Gen
open Cert.Spec (Mat toMat lin relu Mlp)
open Cert.LibDot (Sh matmul_rows_zero matmul_transpose_rows_zero)

/-- The one row of a 1 × 128 array, as a vector. -/
def row (b : Vec Ideal S1x128 .f32) : Fin 128 → EReal := fun k => b (ix2 (0 : Fin 1) k)

/-- A cast of a 1 × 128 array to its own shape has the same row. -/
theorem row_shapeCast (b : Vec Ideal S1x128 .f32) (h : S1x128.ShapeCasts S1x128) : row (shapeCast S1x128 b h) = row b :=
  congrArg row (shapeCast_self b h)

/-! ## The two layer kinds, on an array of N rows -/

/-- The rectifier: the larger of an entry and the zero every entry of the splat holds. -/
theorem rectifier_eq {N : ℕ} (x : FVec Ideal (Sh N 128) .f32) :
    toMat (maximumf x (broadcast (Sh N 128) (Scalar.ofBits .f32 0x00000000#32))) = relu (toMat x) :=
  funext fun n => funext fun j => congrArg (max (x (ix2 n j))) Ideal.ofBits_zero_f32

section Layers

variable {N : ℕ} (d : DotDims (Sh N 128) (Sh 128 128) (Sh N 128))
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb

/-- A product with a weight matrix into the zero array, read as a matrix: entry (n, j) is ∑ₖ x(n, k) · W(k, j). -/
theorem product_eq (x : FVec Ideal (Sh N 128) .f32) (W : FVec Ideal (Sh 128 128) .f32) :
    toMat (matmul d none x W (constant (Sh N 128) .f32 0x00000000#32))
      = fun n j => ∑ k : Fin 128, toMat x n k * toMat W k j :=
  funext fun n => funext fun j => matmul_rows_zero d hlc hrc hln hrn hlb hrb none x W n j

/-- The linear layer: the product with the weight matrix into the zero array, plus the bias row on every row. -/
theorem linear_eq (x : FVec Ideal (Sh N 128) .f32) (W : FVec Ideal (Sh 128 128) .f32) (b : FVec Ideal (Sh 1 128) .f32)
    (hb : (Sh 1 128).Broadcasts (Sh N 128)) :
    toMat (addf (matmul d none x W (constant (Sh N 128) .f32 0x00000000#32)) (broadcastTo (Sh N 128) b hb))
      = lin (toMat x) (toMat W) (row b) :=
  funext fun n => funext fun j =>
    congrArg₂ (· + ·) (matmul_rows_zero d hlc hrc hln hrn hlb hrb none x W n j) (broadcastTo_1b_ab_apply b hb n j)

/-- Three linear layers with a rectifier after the first two: the three-layer network on every row. -/
theorem network_eq (x : FVec Ideal (Sh N 128) .f32) (W0 W1 W2 : FVec Ideal (Sh 128 128) .f32)
    (b0 b1 b2 : FVec Ideal (Sh 1 128) .f32) (hb : (Sh 1 128).Broadcasts (Sh N 128)) :
    toMat (addf (matmul d none
        (maximumf (addf (matmul d none
            (maximumf (addf (matmul d none x W0 (constant (Sh N 128) .f32 0x00000000#32)) (broadcastTo (Sh N 128) b0 hb))
              (broadcast (Sh N 128) (Scalar.ofBits .f32 0x00000000#32)))
            W1 (constant (Sh N 128) .f32 0x00000000#32)) (broadcastTo (Sh N 128) b1 hb))
          (broadcast (Sh N 128) (Scalar.ofBits .f32 0x00000000#32)))
        W2 (constant (Sh N 128) .f32 0x00000000#32)) (broadcastTo (Sh N 128) b2 hb))
      = Mlp.app ⟨toMat W0, row b0, toMat W1, row b1, toMat W2, row b2⟩ (toMat x) := by
  rw [linear_eq d hlc hrc hln hrn hlb hrb, rectifier_eq, linear_eq d hlc hrc hln hrn hlb hrb, rectifier_eq,
    linear_eq d hlc hrc hln hrn hlb hrb]
  rfl

end Layers

/-! ## The zero arrays -/

/-- The array the first accumulator starts from is zero at every entry. -/
theorem pay1_apply (g j : Fin 128) : k0_pay1 (F := Ideal) (ix2 g j) = 0 := by
  unfold k0_pay1
  exact (congrFun (shapeCast_self _ _) (ix2 g j)).trans Ideal.ofBits_zero_f32

/-- The array the second accumulator starts from is zero at every entry. -/
theorem pay2_apply (g j : Fin 128) : k0_pay2 (F := Ideal) (ix2 g j) = 0 := by
  unfold k0_pay2
  exact (congrFun (shapeCast_self _ _) (ix2 g j)).trans Ideal.ofBits_zero_f32

/-! ## The networks -/

/-- The first node network on a block of 10000 rows of the first node array: the three-layer network on the block. -/
theorem pay7_apply (x : Vec Ideal S10000x128 .f32) (W0 : Vec Ideal S128x128 .f32) (b0 : Vec Ideal S1x128 .f32)
    (W1 : Vec Ideal S128x128 .f32) (b1 : Vec Ideal S1x128 .f32) (W2 : Vec Ideal S128x128 .f32) (b2 : Vec Ideal S1x128 .f32)
    (r : Fin 10000) (j : Fin 128) :
    k0_pay7 x W0 b0 W1 b1 W2 b2 (ix2 r j)
      = (Mlp.app ⟨toMat W0, row b0, toMat W1, row b1, toMat W2, row b2⟩ (toMat x)) r j := by
  have key := network_eq dot_S10000x128_S128x128_S10000x128_1_0_0_1_n_n rfl rfl rfl rfl rfl rfl x W0 W1 W2
    (shapeCast S1x128 b0 shapeCasts_S1x128_S1x128) (shapeCast S1x128 b1 shapeCasts_S1x128_S1x128)
    (shapeCast S1x128 b2 shapeCasts_S1x128_S1x128) broadcasts_S1x128_S10000x128
  rw [row_shapeCast, row_shapeCast, row_shapeCast] at key
  exact congrFun (congrFun key r) j

/-- The second addend of the per-graph sums of phase 0: the first node network's value minus itself, entry by entry. -/
theorem pay9_apply (x : Vec Ideal S10000x128 .f32) (W0 : Vec Ideal S128x128 .f32) (b0 : Vec Ideal S1x128 .f32)
    (W1 : Vec Ideal S128x128 .f32) (b1 : Vec Ideal S1x128 .f32) (W2 : Vec Ideal S128x128 .f32) (b2 : Vec Ideal S1x128 .f32)
    (r : Fin 10000) (j : Fin 128) :
    k0_pay9 x W0 b0 W1 b1 W2 b2 (ix2 r j)
      = k0_pay7 x W0 b0 W1 b1 W2 b2 (ix2 r j) - k0_pay7 x W0 b0 W1 b1 W2 b2 (ix2 r j) := rfl

/-- The first graph network on the finished first accumulator: the three-layer network on the accumulator. -/
theorem pay4_apply (a : Vec Ideal S128x128 .f32) (W0 : Vec Ideal S128x128 .f32) (b0 : Vec Ideal S1x128 .f32)
    (W1 : Vec Ideal S128x128 .f32) (b1 : Vec Ideal S1x128 .f32) (W2 : Vec Ideal S128x128 .f32) (b2 : Vec Ideal S1x128 .f32)
    (g j : Fin 128) :
    k0_pay4 a W0 b0 W1 b1 W2 b2 (ix2 g j)
      = (Mlp.app ⟨toMat W0, row b0, toMat W1, row b1, toMat W2, row b2⟩ (toMat a)) g j := by
  have key := network_eq dot_S128x128_S128x128_S128x128_1_0_0_1_n_n rfl rfl rfl rfl rfl rfl a W0 W1 W2
    (shapeCast S1x128 b0 shapeCasts_S1x128_S1x128) (shapeCast S1x128 b1 shapeCasts_S1x128_S1x128)
    (shapeCast S1x128 b2 shapeCasts_S1x128_S1x128) broadcasts_S1x128_S128x128
  rw [row_shapeCast, row_shapeCast, row_shapeCast] at key
  unfold k0_pay4
  exact (congrFun (shapeCast_self _ _) (ix2 g j)).trans (congrFun (congrFun key g) j)

/-- The second graph network on the finished second accumulator: the three-layer network on the accumulator. -/
theorem pay11_apply (a : Vec Ideal S128x128 .f32) (W0 : Vec Ideal S128x128 .f32) (b0 : Vec Ideal S1x128 .f32)
    (W1 : Vec Ideal S128x128 .f32) (b1 : Vec Ideal S1x128 .f32) (W2 : Vec Ideal S128x128 .f32) (b2 : Vec Ideal S1x128 .f32)
    (g j : Fin 128) :
    k0_pay11 a W0 b0 W1 b1 W2 b2 (ix2 g j)
      = (Mlp.app ⟨toMat W0, row b0, toMat W1, row b1, toMat W2, row b2⟩ (toMat a)) g j := by
  have key := network_eq dot_S128x128_S128x128_S128x128_1_0_0_1_n_n rfl rfl rfl rfl rfl rfl a W0 W1 W2
    (shapeCast S1x128 b0 shapeCasts_S1x128_S1x128) (shapeCast S1x128 b1 shapeCasts_S1x128_S1x128)
    (shapeCast S1x128 b2 shapeCasts_S1x128_S1x128) broadcasts_S1x128_S128x128
  rw [row_shapeCast, row_shapeCast, row_shapeCast] at key
  exact congrFun (congrFun key g) j

/-- A bias row cast to its own shape is that row. -/
theorem pay12_eq (b : Vec Ideal S1x128 .f32) : k0_pay12 b = b := shapeCast_self b _

/-- A bias row cast to its own shape is that row. -/
theorem pay13_eq (b : Vec Ideal S1x128 .f32) : k0_pay13 b = b := shapeCast_self b _

/-- A weight matrix cast to its own shape is that matrix. -/
theorem pay14_eq (W : Vec Ideal S128x128 .f32) : k0_pay14 W = W := shapeCast_self W _

/-- The output network on the second graph network's result: the three-layer network, its last layer 128 columns wide. -/
theorem pay6_apply (y : FVec Ideal S128x128 .f32) (M0 : Vec Ideal S128x128 .f32) (b0 : FVec Ideal S1x128 .f32)
    (M1 : Vec Ideal S128x128 .f32) (b1 : FVec Ideal S1x128 .f32) (M2 : FVec Ideal S128x128 .f32) (b2 : Vec Ideal S1x128 .f32)
    (g j : Fin 128) :
    k0_pay6 y M0 b0 M1 b1 M2 b2 (ix2 g j)
      = (Mlp.app ⟨toMat M0, row b0, toMat M1, row b1, toMat M2, row b2⟩ (toMat y)) g j := by
  have key := network_eq dot_S128x128_S128x128_S128x128_1_0_0_1_n_n rfl rfl rfl rfl rfl rfl y M0 M1 M2
    b0 b1 (shapeCast S1x128 b2 shapeCasts_S1x128_S1x128) broadcasts_S1x128_S128x128
  rw [row_shapeCast] at key
  exact congrFun (congrFun key g) j

/-! ## The one-hot matrix of a block's graph ids -/

/-- The one-hot matrix of a block's 10000 graph ids: entry (g, r) is 1 when id r, read signed, is g, and 0 otherwise. -/
def oneHot (ids : Vec Ideal S1x1x10000 .i32) : Mat 128 10000 :=
  fun g r => if (ids (ix3 (0 : Fin 1) (0 : Fin 1) r)).toInt = (g.val : ℤ) then 1 else 0

/-- A 32-bit word is the word of a graph number g < 128 exactly when, read signed, it is g. -/
theorem word_eq_iff (g : Fin 128) (w : BitVec 32) : BitVec.ofNat 32 g.val = w ↔ w.toInt = (g.val : ℤ) := by
  have hg := g.isLt
  have hw := w.isLt
  rw [BitVec.toInt_eq_toNat_cond]
  constructor
  · rintro rfl
    rw [BitVec.toNat_ofNat, Nat.mod_eq_of_lt (by omega), if_pos (by omega)]
  · intro h
    apply BitVec.eq_of_toNat_eq
    rw [BitVec.toNat_ofNat, Nat.mod_eq_of_lt (by omega)]
    split at h <;> omega

/-- The comparison bit of the word of g with a word w, widened to 32 bits and converted as a signed integer, is the
    indicator of "w read signed is g". -/
theorem indicator_word (g : Fin 128) (w : BitVec 32) :
    (((((IntOp.cmpi .eq (BitVec.ofNat 32 g.val) w).setWidth 32).toInt : ℤ) : ℝ) : EReal)
      = if w.toInt = (g.val : ℤ) then 1 else 0 := by
  by_cases h : w.toInt = (g.val : ℤ)
  · have e : BitVec.ofNat 32 g.val = w := (word_eq_iff g w).mpr h
    have c : IntOp.cmpi .eq (BitVec.ofNat 32 g.val) w = 1#1 := by simp [IntOp.cmpi, e]
    rw [if_pos h, c]
    simp
  · have e : ¬ BitVec.ofNat 32 g.val = w := fun e => h ((word_eq_iff g w).mp e)
    have b : (BitVec.ofNat 32 g.val == w) = false := beq_eq_false_iff_ne.mpr e
    have c : IntOp.cmpi .eq (BitVec.ofNat 32 g.val) w = 0#1 := by simp [IntOp.cmpi, b]
    rw [if_neg h, c]
    simp

/-- The matrix the body builds from a block's graph ids is their one-hot matrix. -/
theorem pay8_apply (ids : Vec Ideal S1x1x10000 .i32) (g : Fin 128) (r : Fin 10000) :
    k0_pay8 (F := Ideal) ids (ix2 g r) = oneHot ids g r := by
  have e1 : iota .tc S128x10000 32 [0] iota_S128x10000_d0_w32 (ix2 g r) = BitVec.ofNat 32 g.val :=
    iota_single_apply .tc S128x10000 32 0 iota_S128x10000_d0_w32 (ix2 g r)
  have e2 : broadcastTo S128x10000
        (shapeCast S1x10000 (shapeCast S1x1x10000 ids shapeCasts_S1x1x10000_S1x1x10000) shapeCasts_S1x1x10000_S1x10000)
        broadcasts_S1x10000_S128x10000 (ix2 g r) = ids (ix3 (0 : Fin 1) (0 : Fin 1) r) :=
    (broadcastTo_1b_ab_apply _ broadcasts_S1x10000_S128x10000 g r).trans
      ((shapeCast_1ab_ab_apply _ shapeCasts_S1x1x10000_S1x10000 (0 : Fin 1) r).trans
        (congrFun (shapeCast_self ids shapeCasts_S1x1x10000_S1x1x10000) _))
  unfold k0_pay8
  show (((((IntOp.cmpi .eq (iota .tc S128x10000 32 [0] iota_S128x10000_d0_w32 (ix2 g r))
      (broadcastTo S128x10000
        (shapeCast S1x10000 (shapeCast S1x1x10000 ids shapeCasts_S1x1x10000_S1x1x10000) shapeCasts_S1x1x10000_S1x10000)
        broadcasts_S1x10000_S128x10000 (ix2 g r))).setWidth 32).toInt : ℤ) : ℝ) : EReal) = _
  rw [e1, e2]
  exact indicator_word g _

/-! ## The per-graph sums of a block -/

/-- Phase 0's accumulation: the accumulator plus three one-hot products, of the block's values h, of the second addend
    hlo, and of hlo minus itself. -/
theorem pay3_apply (h : FVec Ideal S10000x128 .f32) (oh : FVec Ideal S128x10000 .f32) (a : Vec Ideal S128x128 .f32)
    (hlo : FVec Ideal S10000x128 .f32) (g j : Fin 128) :
    k0_pay3 h oh a hlo (constant S128x128 .f32 0x00000000#32) (ix2 g j)
      = a (ix2 g j) + (((∑ r : Fin 10000, oh (ix2 g r) * h (ix2 r j)) + (∑ r : Fin 10000, oh (ix2 g r) * hlo (ix2 r j)))
          + (∑ r : Fin 10000, oh (ix2 g r) * (hlo (ix2 r j) - hlo (ix2 r j)))) := by
  unfold k0_pay3
  refine (congrFun (shapeCast_self _ _) (ix2 g j)).trans ?_
  exact congrArg (a (ix2 g j) + ·) (congrArg₂ (· + ·)
    (congrArg₂ (· + ·)
      (matmul_rows_zero dot_S128x10000_S10000x128_S128x128_1_0_0_1_n_n rfl rfl rfl rfl rfl rfl none oh h g j)
      (matmul_rows_zero dot_S128x10000_S10000x128_S128x128_1_0_0_1_n_n rfl rfl rfl rfl rfl rfl none oh hlo g j))
    (matmul_rows_zero dot_S128x10000_S10000x128_S128x128_1_0_0_1_n_n rfl rfl rfl rfl rfl rfl none oh (subf hlo hlo) g j))

/-- A block of 10000 rows plus a bias row on every row, at an entry. -/
theorem biased_apply (v : FVec Ideal S10000x128 .f32) (b : Vec Ideal S1x128 .f32) (r : Fin 10000) (j : Fin 128) :
    addf v (broadcastTo S10000x128 (shapeCast S1x128 b shapeCasts_S1x128_S1x128) broadcasts_S1x128_S10000x128) (ix2 r j)
      = v (ix2 r j) + row b j :=
  congrArg (v (ix2 r j) + ·) ((broadcastTo_1b_ab_apply _ broadcasts_S1x128_S10000x128 r j).trans
    (congrFun (shapeCast_self b shapeCasts_S1x128_S1x128) _))

/-- Phase 1's accumulation: the accumulator plus two one-hot products by the second graph ids, of the block's values
    with the last bias added, and of that sum minus itself. -/
theorem pay5_apply (v54 : FVec Ideal S10000x128 .f32) (b : Vec Ideal S1x128 .f32) (ids : Vec Ideal S1x1x10000 .i32)
    (a : Vec Ideal S128x128 .f32) (g j : Fin 128) :
    k0_pay5 v54 b ids a (ix2 g j)
      = a (ix2 g j) + ((∑ r : Fin 10000, oneHot ids g r * (v54 (ix2 r j) + row b j))
          + (∑ r : Fin 10000, oneHot ids g r * ((v54 (ix2 r j) + row b j) - (v54 (ix2 r j) + row b j)))) := by
  unfold k0_pay5
  refine (congrFun (shapeCast_self _ _) (ix2 g j)).trans ?_
  refine congrArg (a (ix2 g j) + ·) (congrArg₂ (· + ·)
    ((matmul_rows_zero dot_S128x10000_S10000x128_S128x128_1_0_0_1_n_n rfl rfl rfl rfl rfl rfl none (k0_pay8 ids)
      (addf v54 (broadcastTo S10000x128 (shapeCast S1x128 b shapeCasts_S1x128_S1x128) broadcasts_S1x128_S10000x128)) g j).trans ?_)
    ((matmul_rows_zero dot_S128x10000_S10000x128_S128x128_1_0_0_1_n_n rfl rfl rfl rfl rfl rfl none (k0_pay8 ids)
      (subf (addf v54 (broadcastTo S10000x128 (shapeCast S1x128 b shapeCasts_S1x128_S1x128) broadcasts_S1x128_S10000x128))
        (addf v54 (broadcastTo S10000x128 (shapeCast S1x128 b shapeCasts_S1x128_S1x128) broadcasts_S1x128_S10000x128))) g j).trans ?_))
  · exact Finset.sum_congr rfl fun r _ => congrArg₂ (· * ·) (pay8_apply ids g r) (biased_apply v54 b r j)
  · exact Finset.sum_congr rfl fun r _ => congrArg₂ (· * ·) (pay8_apply ids g r)
      (congrArg₂ (· - ·) (biased_apply v54 b r j) (biased_apply v54 b r j))

/-! ## Phase 1's node network on a block, up to its last product -/

/-- The embedding rows a block's graph ids select, written as the product of the one-hot matrix transposed with the
    embedding: entry (r, k) is the sum over the graphs g of oneHot(g, r) · u(g, k). -/
def gathered (ids : Vec Ideal S1x1x10000 .i32) (u : Vec Ideal S128x128 .f32) : Mat 10000 128 :=
  fun r k => ∑ g : Fin 128, oneHot ids g r * u (ix2 g k)

/-- A first layer whose 256-row weight matrix is given as its two 128-row halves: the upper half acts on x, the lower
    half on g. -/
def linSplit {N : ℕ} (x g : Mat N 128) (Wa Wb : Mat 128 128) (b : Fin 128 → EReal) : Mat N 128 :=
  fun n j => ((∑ k, x n k * Wa k j) + (∑ k, g n k * Wb k j)) + b j

/-- A cast of a 128 × 128 array to its own shape is the same matrix. -/
theorem toMat_shapeCast (W : Vec Ideal S128x128 .f32) (h : S128x128.ShapeCasts S128x128) :
    toMat (shapeCast S128x128 W h) = toMat W :=
  congrArg toMat (shapeCast_self W h)

/-- The one-hot matrix transposed times the embedding, into the zero array: the gathered embedding rows. -/
theorem gathered_eq (ids : Vec Ideal S1x1x10000 .i32) (u : FVec Ideal S128x128 .f32) :
    toMat (matmul dot_S128x10000_S128x128_S10000x128_0_0_1_1_n_n none (k0_pay8 ids) u
      (constant S10000x128 .f32 0x00000000#32)) = gathered ids u :=
  funext fun r => funext fun k =>
    (matmul_transpose_rows_zero dot_S128x10000_S128x128_S10000x128_0_0_1_1_n_n rfl rfl rfl rfl rfl rfl none
      (k0_pay8 ids) u r k).trans
      (Finset.sum_congr rfl fun g _ => congrArg (· * u (ix2 g k)) (pay8_apply ids g r))

/-- The split first layer: two products into zero arrays, added, plus the bias row on every row. -/
theorem split_eq (x y : FVec Ideal S10000x128 .f32) (Wa Wb : FVec Ideal S128x128 .f32) (b : FVec Ideal S1x128 .f32) :
    toMat (addf (addf
        (matmul dot_S10000x128_S128x128_S10000x128_1_0_0_1_n_n none x Wa (constant S10000x128 .f32 0x00000000#32))
        (matmul dot_S10000x128_S128x128_S10000x128_1_0_0_1_n_n none y Wb (constant S10000x128 .f32 0x00000000#32)))
      (broadcastTo S10000x128 b broadcasts_S1x128_S10000x128))
      = linSplit (toMat x) (toMat y) (toMat Wa) (toMat Wb) (row b) :=
  funext fun n => funext fun j => congrArg₂ (· + ·)
    (congrArg₂ (· + ·)
      (matmul_rows_zero dot_S10000x128_S128x128_S10000x128_1_0_0_1_n_n rfl rfl rfl rfl rfl rfl none x Wa n j)
      (matmul_rows_zero dot_S10000x128_S128x128_S10000x128_1_0_0_1_n_n rfl rfl rfl rfl rfl rfl none y Wb n j))
    (broadcastTo_1b_ab_apply b broadcasts_S1x128_S10000x128 n j)

/-- The first two layers of phase 1's node network on a block, each followed by the rectifier. -/
theorem hidden2_eq (ids : Vec Ideal S1x1x10000 .i32) (u : FVec Ideal S128x128 .f32) (x : FVec Ideal S10000x128 .f32)
    (W0a W0b : FVec Ideal S128x128 .f32) (b0 : FVec Ideal S1x128 .f32) (W1 : FVec Ideal S128x128 .f32)
    (b1 : FVec Ideal S1x128 .f32) :
    toMat (maximumf (addf (matmul dot_S10000x128_S128x128_S10000x128_1_0_0_1_n_n none
        (maximumf (addf (addf
            (matmul dot_S10000x128_S128x128_S10000x128_1_0_0_1_n_n none x W0a (constant S10000x128 .f32 0x00000000#32))
            (matmul dot_S10000x128_S128x128_S10000x128_1_0_0_1_n_n none
              (matmul dot_S128x10000_S128x128_S10000x128_0_0_1_1_n_n none (k0_pay8 ids) u
                (constant S10000x128 .f32 0x00000000#32))
              W0b (constant S10000x128 .f32 0x00000000#32)))
          (broadcastTo S10000x128 b0 broadcasts_S1x128_S10000x128))
          (broadcast S10000x128 (Scalar.ofBits .f32 0x00000000#32)))
        W1 (constant S10000x128 .f32 0x00000000#32)) (broadcastTo S10000x128 b1 broadcasts_S1x128_S10000x128))
      (broadcast S10000x128 (Scalar.ofBits .f32 0x00000000#32)))
      = relu (lin (relu (linSplit (toMat x) (gathered ids u) (toMat W0a) (toMat W0b) (row b0))) (toMat W1) (row b1)) := by
  rw [rectifier_eq, linear_eq dot_S10000x128_S128x128_S10000x128_1_0_0_1_n_n rfl rfl rfl rfl rfl rfl, rectifier_eq,
    split_eq, gathered_eq]

/-- Phase 1's node network on a block of the second node array, up to its last product: the split first layer on the
    block and the gathered embedding rows, the rectifier, the second layer, the rectifier, and the product with the
    third weight matrix (its bias is added where the per-graph sums are taken). -/
theorem pay10_apply (ids : Vec Ideal S1x1x10000 .i32) (u : Vec Ideal S128x128 .f32) (x : Vec Ideal S10000x128 .f32)
    (W0a W0b : Vec Ideal S128x128 .f32) (b0 : Vec Ideal S1x128 .f32) (W1 : Vec Ideal S128x128 .f32)
    (b1 : Vec Ideal S1x128 .f32) (W2 : Vec Ideal S128x128 .f32) (r : Fin 10000) (j : Fin 128) :
    k0_pay10 ids u x W0a W0b b0 W1 b1 W2 (ix2 r j)
      = ∑ k : Fin 128,
          (relu (lin (relu (linSplit (toMat x) (gathered ids u) (toMat W0a) (toMat W0b) (row b0))) (toMat W1) (row b1))) r k
            * W2 (ix2 k j) := by
  have key := hidden2_eq ids u x (shapeCast S128x128 W0a shapeCasts_S128x128_S128x128)
    (shapeCast S128x128 W0b shapeCasts_S128x128_S128x128) (shapeCast S1x128 b0 shapeCasts_S1x128_S1x128) W1
    (shapeCast S1x128 b1 shapeCasts_S1x128_S1x128)
  rw [row_shapeCast, row_shapeCast, toMat_shapeCast, toMat_shapeCast] at key
  unfold k0_pay10
  refine (matmul_rows_zero dot_S10000x128_S128x128_S10000x128_1_0_0_1_n_n rfl rfl rfl rfl rfl rfl none _ W2 r j).trans ?_
  exact Finset.sum_congr rfl fun k _ => congrArg (· * W2 (ix2 k j)) (congrFun (congrFun key r) k)

/-! ## The same, as matrices -/

/-- The first node network on a block, as a matrix. -/
theorem pay7_eq (x : Vec Ideal S10000x128 .f32) (W0 : Vec Ideal S128x128 .f32) (b0 : Vec Ideal S1x128 .f32)
    (W1 : Vec Ideal S128x128 .f32) (b1 : Vec Ideal S1x128 .f32) (W2 : Vec Ideal S128x128 .f32) (b2 : Vec Ideal S1x128 .f32) :
    toMat (k0_pay7 x W0 b0 W1 b1 W2 b2) = Mlp.app ⟨toMat W0, row b0, toMat W1, row b1, toMat W2, row b2⟩ (toMat x) :=
  funext fun r => funext fun j => pay7_apply x W0 b0 W1 b1 W2 b2 r j

/-- The one-hot matrix of a block's graph ids, as a matrix. -/
theorem pay8_eq (ids : Vec Ideal S1x1x10000 .i32) : toMat (k0_pay8 (F := Ideal) ids) = oneHot ids :=
  funext fun g => funext fun r => pay8_apply ids g r

/-- The first graph network on the first accumulator, as a matrix. -/
theorem pay4_eq (a : Vec Ideal S128x128 .f32) (W0 : Vec Ideal S128x128 .f32) (b0 : Vec Ideal S1x128 .f32)
    (W1 : Vec Ideal S128x128 .f32) (b1 : Vec Ideal S1x128 .f32) (W2 : Vec Ideal S128x128 .f32) (b2 : Vec Ideal S1x128 .f32) :
    toMat (k0_pay4 a W0 b0 W1 b1 W2 b2) = Mlp.app ⟨toMat W0, row b0, toMat W1, row b1, toMat W2, row b2⟩ (toMat a) :=
  funext fun g => funext fun j => pay4_apply a W0 b0 W1 b1 W2 b2 g j

/-- The second graph network on the second accumulator, as a matrix. -/
theorem pay11_eq (a : Vec Ideal S128x128 .f32) (W0 : Vec Ideal S128x128 .f32) (b0 : Vec Ideal S1x128 .f32)
    (W1 : Vec Ideal S128x128 .f32) (b1 : Vec Ideal S1x128 .f32) (W2 : Vec Ideal S128x128 .f32) (b2 : Vec Ideal S1x128 .f32) :
    toMat (k0_pay11 a W0 b0 W1 b1 W2 b2) = Mlp.app ⟨toMat W0, row b0, toMat W1, row b1, toMat W2, row b2⟩ (toMat a) :=
  funext fun g => funext fun j => pay11_apply a W0 b0 W1 b1 W2 b2 g j

/-- The output network, as a matrix. -/
theorem pay6_eq (y : FVec Ideal S128x128 .f32) (M0 : Vec Ideal S128x128 .f32) (b0 : FVec Ideal S1x128 .f32)
    (M1 : Vec Ideal S128x128 .f32) (b1 : FVec Ideal S1x128 .f32) (M2 : FVec Ideal S128x128 .f32) (b2 : Vec Ideal S1x128 .f32) :
    toMat (k0_pay6 y M0 b0 M1 b1 M2 b2) = Mlp.app ⟨toMat M0, row b0, toMat M1, row b1, toMat M2, row b2⟩ (toMat y) :=
  funext fun g => funext fun j => pay6_apply y M0 b0 M1 b1 M2 b2 g j

end Cert.KernelIdeal.Hand

end
-- ==== Proof.LibGatherScatter.lean ====
/-
  How a gather and a float scatter-add read AT ONE INDEX, for four dimension-number records:
  a gather of table rows and a gather of vector entries by a column of start words, and the scatter-adds that send
  update rows, or update entries, back to the rows those words name.

  A gather reads its start word SIGNED and CLAMPS it into the table: a negative word reads row 0, a word past the end
  reads the last row. A scatter-add reads the word signed and does NOT clamp: an update whose word is outside the table
  is dropped, so operand entry i receives exactly the updates whose word, as an integer, equals i.

  Every statement is for an arbitrary record whose fields are given as hypotheses, so that it applies to any record
  with those fields, at arbitrary extents.
-/
import Idealize.ShloMosaic.PureOps.Ideal
import Idealize.ShloMosaic.Lib.ValueIdx
import Idealize.ShloMosaic.Lib.StableHlo.Predicate

noncomputable section

open scoped BigOperators

namespace Cert.LibGS

open Idealize.ShloMosaic Idealize.ShloMosaic.ValueIdx

/-- The shape of an array of N rows and C columns. -/
abbrev Sh (N C : Nat) : Shape := ⟨2, ![N, C]⟩

/-- An N × C array of extended reals. -/
abbrev RArr (N C : Nat) : Type := (Sh N C).Idx → EReal

/-- The table row a start word names: the word read signed, clamped into the N rows. -/
def rowOf (N : Nat) (hN : 0 < N) (w : BitVec 32) : Fin N := ⟨min w.toInt.toNat (N - 1), by omega⟩

/-! ## The row gather: one table row per start word -/

section GatherRows

variable {N n C : Nat} (d : GatherDims (Sh N C) (Sh n 1) (Sh n C))

/-- An index of the result read on an axis known to be the first gives the row coordinate. -/
theorem ix2_val_zero {a b : Nat} (e : Fin a) (c : Fin b) (X : Fin 2) (h : X = 0) : (ix2 e c X).val = e.val := by
  subst h; rfl

/-- An index of the result read on an axis known to be the second gives the column coordinate. -/
theorem ix2_val_one {a b : Nat} (e : Fin a) (c : Fin b) (X : Fin 2) (h : X = 1) : (ix2 e c X).val = c.val := by
  subst h; rfl

/-- When the second axis is the one offset axis, the result's batch axes are the first alone. -/
theorem rows_batch_mem (hoff : d.offsetDims = [1]) (X : Fin (Sh n C).rank) (hX : X ∈ d.batchDims) : X = (0 : Fin 2) := by
  have h1 : X ∉ d.offsetDims := by
    have := (List.mem_filter.1 hX).2
    simpa using this
  rw [hoff] at h1
  match X with
  | ⟨0, _⟩ => rfl
  | ⟨1, _⟩ => exact absurd (List.mem_singleton.mpr rfl) h1

/-- The start word a result entry (e, c) reads is the one in row e of the index column. -/
theorem rows_siIdx (hoff : d.offsetDims = [1]) (hsim : d.startIndexMap = [0]) (hivd : d.indexVectorDim = 1)
    (e : Fin n) (c : Fin C) (k : Fin d.startIndexMap.length) : d.siIdx (ix2 e c) k = ix2 e 0 := by
  funext b
  match b with
  | ⟨0, _⟩ =>
    unfold GatherDims.siIdx
    rw [dif_neg (by rw [hivd]; exact Nat.zero_ne_one)]
    unfold GatherDims.siCoord
    apply Fin.ext
    simp only [Fin.val_cast]
    exact ix2_val_zero e c _ (rows_batch_mem d hoff _ (List.getElem_mem _))
  | ⟨1, _⟩ =>
    unfold GatherDims.siIdx
    rw [dif_pos (by rw [hivd])]
    apply Fin.ext
    have hlen : d.startIndexMap.length = 1 := by rw [hsim]; rfl
    have hk : k.val < d.startIndexMap.length := k.isLt
    show k.val = 0
    omega

end GatherRows

section GatherRows2
variable {N n C : Nat} (d : GatherDims (Sh N C) (Sh n 1) (Sh n C))

/-- On the table's row axis the operand index is the start word, read signed and clamped into the table. -/
theorem rows_operand_zero (hN : 0 < N) (hoff : d.offsetDims = [1]) (hcoll : d.collapsedSliceDims = [0])
    (hob : d.operandBatchingDims = []) (hsim : d.startIndexMap = [0]) (hivd : d.indexVectorDim = 1)
    (hss : d.sliceSizes = ![1, C]) (idx : IVec (Sh n 1) 32) (e : Fin n) (c : Fin C) :
    (d.operandIdx (ix2 e c) idx (0 : Fin 2)).val = (rowOf N hN (idx (ix2 e 0))).val := by
  have hb : (0 : Fin 2) ∉ d.operandBatchingDims := by rw [hob]; exact List.not_mem_nil
  have hk : (0 : Fin 2) ∉ d.sKept := by rw [GatherDims.mem_sKept, hcoll]; simp
  have hm : (0 : Fin 2) ∈ d.startIndexMap := by rw [hsim]; exact List.mem_singleton.mpr rfl
  have hsl : d.sliceSizes (0 : Fin 2) = 1 := by rw [hss]; rfl
  simp only [GatherDims.operandIdx, GatherDims.batchCoord_eq_zero _ _ _ hb, GatherDims.offCoord_eq_zero _ _ _ hk,
    Nat.add_zero, GatherDims.start, dif_pos hm, hsl, rows_siIdx d hoff hsim hivd]
  rfl

/-- On the table's column axis the operand index is the result's column. -/
theorem rows_operand_one (hoff : d.offsetDims = [1]) (hcoll : d.collapsedSliceDims = [0])
    (hob : d.operandBatchingDims = []) (hsim : d.startIndexMap = [0])
    (idx : IVec (Sh n 1) 32) (e : Fin n) (c : Fin C) :
    (d.operandIdx (ix2 e c) idx (1 : Fin 2)).val = c.val := by
  have hb : (1 : Fin 2) ∉ d.operandBatchingDims := by rw [hob]; exact List.not_mem_nil
  have hm : (1 : Fin 2) ∉ d.startIndexMap := by rw [hsim]; show (1 : Fin 2) ∉ [(0 : Fin 2)]; decide
  have hk : (1 : Fin 2) ∈ d.sKept := by rw [GatherDims.mem_sKept, hcoll, hob]; show (1 : Fin 2) ∉ [(0 : Fin 2)] ∧ (1 : Fin 2) ∉ []; decide
  have hall : ∀ X ∈ d.offsetDims, X = (1 : Fin 2) := by rw [hoff]; simp
  simp only [GatherDims.operandIdx, GatherDims.batchCoord_eq_zero _ _ _ hb, GatherDims.start, dif_neg hm,
    GatherDims.offCoord, dif_pos hk, Nat.zero_add, Nat.add_zero]
  exact ix2_val_one e c _ (hall _ (List.getElem_mem _))

/-- THE ROW GATHER AT ONE ENTRY: entry (e, c) of the result is column c of the table row that start word e names. -/
theorem gather_rows_gen {α : Type} (hN : 0 < N) (hoff : d.offsetDims = [1]) (hcoll : d.collapsedSliceDims = [0])
    (hob : d.operandBatchingDims = []) (hsim : d.startIndexMap = [0]) (hivd : d.indexVectorDim = 1)
    (hss : d.sliceSizes = ![1, C]) (t : (Sh N C).Idx → α) (idx : IVec (Sh n 1) 32) (e : Fin n) (c : Fin C) :
    Host.gather d t idx (ix2 e c) = t (ix2 (rowOf N hN (idx (ix2 e 0))) c) := by
  unfold Host.gather
  congr 1
  funext a
  refine Fin.ext ?_
  match a with
  | ⟨0, _⟩ => exact rows_operand_zero d hN hoff hcoll hob hsim hivd hss idx e c
  | ⟨1, _⟩ => exact rows_operand_one d hoff hcoll hob hsim idx e c

end GatherRows2

/-! ## The vector gather: one entry per start word -/

/-- The rank-1 index at a coordinate, written in two ways. -/
theorem ix1_eq_ofFin {n : Nat} (e : Fin n) : ix1 e = Shape.Idx.ofFin e := by
  funext a
  match a with
  | ⟨0, _⟩ => exact Fin.ext rfl

/-- Row e of an index column, written in two ways. -/
theorem ixP_eq_ix2 {n : Nat} (e : Fin n) : StableHlo.Predicate.ixP e = ix2 e (0 : Fin 1) := by
  funext a
  match a with
  | ⟨0, _⟩ => rfl
  | ⟨1, _⟩ => rfl

/-- THE VECTOR GATHER AT ONE ENTRY: entry e of the result is the vector's entry that start word e names. -/
theorem gather_vec_gen {α : Type} {N n : Nat} (hN : 0 < N) (d : GatherDims ⟨1, ![N]⟩ (Sh n 1) ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec (Sh n 1) 32) (e : Fin n) :
    Host.gather d x idx (ix1 e) = x (ix1 (rowOf N hN (idx (ix2 e 0)))) := by
  rw [ix1_eq_ofFin, ix1_eq_ofFin, StableHlo.Predicate.gather_take d hcoll hob hsim hivd x idx e hN]
  refine congrArg x (congrArg Shape.Idx.ofFin (Fin.ext ?_))
  show min (idx (StableHlo.Predicate.ixP e)).toInt.toNat (N - 1) = min (idx (ix2 e 0)).toInt.toNat (N - 1)
  rw [ixP_eq_ix2]

/-! ## The row scatter-add -/

/-- An index read on two names of one axis gives one coordinate. -/
theorem idx2_val_congr {a b : Nat} (j : (Sh a b).Idx) (X Y : Fin 2) (h : X = Y) : (j X).val = (j Y).val := by
  subst h; rfl

section ScatterRows
variable {N n C : Nat} (d : ScatterDims (Sh N C) (Sh n 1) (Sh n C))

/-- When the second axis is the one window axis, the updates' scatter axes are the first alone. -/
theorem srows_scatter_mem (huw : d.updateWindowDims = [1]) (X : Fin (Sh n C).rank) (hX : X ∈ d.uScatter) : X = (0 : Fin 2) := by
  have h1 : X ∉ d.updateWindowDims := by
    have := (List.mem_filter.1 hX).2
    simpa using this
  rw [huw] at h1
  match X with
  | ⟨0, _⟩ => rfl
  | ⟨1, _⟩ => exact absurd (List.mem_singleton.mpr rfl) h1

/-- The start word an update entry j reads is the one in j's row of the index column. -/
theorem srows_siIdx (huw : d.updateWindowDims = [1]) (hsd : d.scatterDimsToOperandDims = [0]) (hivd : d.indexVectorDim = 1)
    (j : (Sh n C).Idx) (k : Fin d.scatterDimsToOperandDims.length) : d.siIdx j k = ix2 (j 0) 0 := by
  funext b
  match b with
  | ⟨0, _⟩ =>
    unfold ScatterDims.siIdx
    rw [dif_neg (by rw [hivd]; exact Nat.zero_ne_one)]
    unfold ScatterDims.siCoord
    apply Fin.ext
    simp only [Fin.val_cast]
    exact idx2_val_congr j _ 0 (srows_scatter_mem d huw _ (List.getElem_mem _))
  | ⟨1, _⟩ =>
    unfold ScatterDims.siIdx
    rw [dif_pos (by rw [hivd])]
    apply Fin.ext
    have hlen : d.scatterDimsToOperandDims.length = 1 := by rw [hsd]; rfl
    have hk : k.val < d.scatterDimsToOperandDims.length := k.isLt
    show k.val = 0
    omega

/-- The window's start on the row axis is the start word read signed. -/
theorem srows_start_zero (huw : d.updateWindowDims = [1]) (hsd : d.scatterDimsToOperandDims = [0]) (hivd : d.indexVectorDim = 1)
    (idx : IVec (Sh n 1) 32) (j : (Sh n C).Idx) : d.start j idx (0 : Fin 2) = (idx (ix2 (j 0) 0)).toInt := by
  have hm : (0 : Fin 2) ∈ d.scatterDimsToOperandDims := by rw [hsd]; exact List.mem_singleton.mpr rfl
  unfold ScatterDims.start
  rw [dif_pos hm, srows_siIdx d huw hsd hivd]
  rfl

/-- The window's start on the column axis is zero. -/
theorem srows_start_one (hsd : d.scatterDimsToOperandDims = [0])
    (idx : IVec (Sh n 1) 32) (j : (Sh n C).Idx) : d.start j idx (1 : Fin 2) = 0 := by
  have hm : (1 : Fin 2) ∉ d.scatterDimsToOperandDims := by rw [hsd]; show (1 : Fin 2) ∉ [(0 : Fin 2)]; decide
  unfold ScatterDims.start
  rw [dif_neg hm]

/-- The window coordinate on the row axis, an inserted one, is zero. -/
theorem srows_window_zero (hiw : d.insertedWindowDims = [0]) (j : (Sh n C).Idx) : d.window j (0 : Fin 2) = 0 := by
  have hk : (0 : Fin 2) ∉ d.sKept := by
    intro h
    have := (List.mem_filter.1 h).2
    rw [hiw] at this
    simp at this
  unfold ScatterDims.window
  rw [dif_neg hk]

/-- The window coordinate on the column axis is the update's column. -/
theorem srows_window_one (huw : d.updateWindowDims = [1]) (hiw : d.insertedWindowDims = [0]) (j : (Sh n C).Idx) :
    d.window j (1 : Fin 2) = (j 1).val := by
  have hk : (1 : Fin 2) ∈ d.sKept := by
    refine List.mem_filter.2 ⟨List.mem_finRange _, ?_⟩
    rw [hiw]
    show decide ((1 : Fin 2) ∉ [(0 : Fin 2)]) = true
    decide
  have hall : ∀ X ∈ d.updateWindowDims, X = (1 : Fin 2) := by rw [huw]; simp
  unfold ScatterDims.window
  rw [dif_pos hk]
  exact idx2_val_congr j _ 1 (hall _ (List.getElem_mem _))

end ScatterRows

section ScatterRows2
variable {N n C : Nat} (d : ScatterDims (Sh N C) (Sh n 1) (Sh n C))

/-- WHERE AN UPDATE LANDS. Update entry j lands on operand entry t exactly when j's start word, read signed, is t's row
    and j's column is t's column. -/
theorem srows_resultIdx_iff (huw : d.updateWindowDims = [1]) (hiw : d.insertedWindowDims = [0])
    (hsd : d.scatterDimsToOperandDims = [0]) (hivd : d.indexVectorDim = 1)
    (idx : IVec (Sh n 1) 32) (j : (Sh n C).Idx) (t : (Sh N C).Idx) :
    d.resultIdx? j idx = some t ↔ (idx (ix2 (j 0) 0)).toInt = ((t 0).val : ℤ) ∧ (j 1).val = (t 1).val := by
  have hs0 := srows_start_zero d huw hsd hivd idx j
  have hs1 := srows_start_one d hsd idx j
  have hw0 := srows_window_zero d hiw j
  have hw1 := srows_window_one d huw hiw j
  have ht0 : (t 0).val < N := idx2_lt0 t
  have ht1 : (t 1).val < C := idx2_lt1 t
  constructor
  · intro h
    unfold ScatterDims.resultIdx? at h
    split at h
    · rename_i hh
      have hf := Option.some.inj h
      have h0 : (d.start j idx (0 : Fin 2) + d.window j (0 : Fin 2)).toNat = (t 0).val :=
        congrArg (fun f : (Sh N C).Idx => (f 0).val) hf
      have h1 : (d.start j idx (1 : Fin 2) + d.window j (1 : Fin 2)).toNat = (t 1).val :=
        congrArg (fun f : (Sh N C).Idx => (f 1).val) hf
      have hh0 := (hh (0 : Fin 2)).1
      rw [hs0, hw0] at h0 hh0
      rw [hs1, hw1] at h1
      constructor <;> omega
    · exact absurd h (by simp)
  · rintro ⟨h0, h1⟩
    have hh : ∀ a, 0 ≤ d.start j idx a + d.window j a ∧ d.start j idx a + d.window j a < (Sh N C).size a := by
      intro a
      match a with
      | ⟨0, _⟩ =>
        show 0 ≤ d.start j idx (0 : Fin 2) + d.window j (0 : Fin 2) ∧ d.start j idx (0 : Fin 2) + d.window j (0 : Fin 2) < (N : ℤ)
        rw [hs0, hw0, h0]
        omega
      | ⟨1, _⟩ =>
        show 0 ≤ d.start j idx (1 : Fin 2) + d.window j (1 : Fin 2) ∧ d.start j idx (1 : Fin 2) + d.window j (1 : Fin 2) < (C : ℤ)
        rw [hs1, hw1, h1]
        omega
    unfold ScatterDims.resultIdx?
    rw [dif_pos hh]
    congr 1
    funext a
    apply Fin.ext
    match a with
    | ⟨0, _⟩ =>
      show (d.start j idx (0 : Fin 2) + d.window j (0 : Fin 2)).toNat = (t 0).val
      rw [hs0, hw0, h0]
      omega
    | ⟨1, _⟩ =>
      show (d.start j idx (1 : Fin 2) + d.window j (1 : Fin 2)).toNat = (t 1).val
      rw [hs1, hw1, h1]
      omega

end ScatterRows2

section ScatterRows3
variable {N n C : Nat} (d : ScatterDims (Sh N C) (Sh n 1) (Sh n C))

/-- THE ROW SCATTER-ADD AT ONE ENTRY: entry (i, c) of the result is the operand's entry plus column c of every update
    row whose start word, read signed, is i. (A word outside the table matches no i: its row is dropped.) -/
theorem scatterAdd_rows_gen (huw : d.updateWindowDims = [1]) (hiw : d.insertedWindowDims = [0])
    (hsd : d.scatterDimsToOperandDims = [0]) (hivd : d.indexVectorDim = 1)
    (x : RArr N C) (idx : IVec (Sh n 1) 32) (u : RArr n C) (i : Fin N) (c : Fin C) :
    Ideal.hostScatterAdd d x idx u (ix2 i c)
      = x (ix2 i c) + ∑ e ∈ Finset.univ.filter (fun e : Fin n => (idx (ix2 e 0)).toInt = (i.val : ℤ)), u (ix2 e c) := by
  have key := fun j => srows_resultIdx_iff d huw hiw hsd hivd idx j (ix2 i c)
  have back : ∀ j : (Sh n C).Idx, (j 1).val = c.val → ix2 (j 0) c = j := by
    intro j hj
    funext a
    match a with
    | ⟨0, _⟩ => rfl
    | ⟨1, _⟩ => exact Fin.ext hj.symm
  unfold Ideal.hostScatterAdd
  congr 1
  refine Finset.sum_bij' (fun j _ => j 0) (fun e _ => ix2 e c) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key (ix2 e c)).2 ⟨(Finset.mem_filter.1 he).2, rfl⟩⟩
  · intro j hj
    exact back j ((key j).1 (Finset.mem_filter.1 hj).2).2
  · intro e he
    rfl
  · intro j hj
    exact congrArg u (back j ((key j).1 (Finset.mem_filter.1 hj).2).2).symm

end ScatterRows3

/-! ## The vector scatter-add -/

section ScatterVec
variable {N n : Nat} (d : ScatterDims ⟨1, ![N]⟩ (Sh n 1) ⟨1, ![n]⟩)

/-- The start word update entry j reads is the one in row j of the index column (the updates have one axis). -/
theorem svec_siIdx (hsd : d.scatterDimsToOperandDims = [0]) (hivd : d.indexVectorDim = 1)
    (j : (⟨1, ![n]⟩ : Shape).Idx) (k : Fin d.scatterDimsToOperandDims.length) : d.siIdx j k = ix2 (j 0) 0 := by
  funext b
  match b with
  | ⟨0, _⟩ =>
    unfold ScatterDims.siIdx
    rw [dif_neg (by rw [hivd]; exact Nat.zero_ne_one)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    unfold ScatterDims.siIdx
    rw [dif_pos (by rw [hivd])]
    apply Fin.ext
    have hlen : d.scatterDimsToOperandDims.length = 1 := by rw [hsd]; rfl
    have hk : k.val < d.scatterDimsToOperandDims.length := k.isLt
    show k.val = 0
    omega

/-- The window's start on the vector's one axis is the start word read signed. -/
theorem svec_start (hsd : d.scatterDimsToOperandDims = [0]) (hivd : d.indexVectorDim = 1)
    (idx : IVec (Sh n 1) 32) (j : (⟨1, ![n]⟩ : Shape).Idx) : d.start j idx (0 : Fin 1) = (idx (ix2 (j 0) 0)).toInt := by
  have hm : (0 : Fin 1) ∈ d.scatterDimsToOperandDims := by rw [hsd]; exact List.mem_singleton.mpr rfl
  unfold ScatterDims.start
  rw [dif_pos hm, svec_siIdx d hsd hivd]
  rfl

/-- The window coordinate on the vector's one axis, an inserted one, is zero. -/
theorem svec_window (hiw : d.insertedWindowDims = [0]) (j : (⟨1, ![n]⟩ : Shape).Idx) : d.window j (0 : Fin 1) = 0 := by
  have hk : (0 : Fin 1) ∉ d.sKept := by
    intro h
    have := (List.mem_filter.1 h).2
    rw [hiw] at this
    simp at this
  unfold ScatterDims.window
  rw [dif_neg hk]

/-- WHERE AN UPDATE LANDS. Update entry j lands on operand entry t exactly when j's start word, read signed, is t. -/
theorem svec_resultIdx_iff (hiw : d.insertedWindowDims = [0]) (hsd : d.scatterDimsToOperandDims = [0])
    (hivd : d.indexVectorDim = 1) (idx : IVec (Sh n 1) 32) (j : (⟨1, ![n]⟩ : Shape).Idx) (t : (⟨1, ![N]⟩ : Shape).Idx) :
    d.resultIdx? j idx = some t ↔ (idx (ix2 (j 0) 0)).toInt = ((t 0).val : ℤ) := by
  have hs0 := svec_start d hsd hivd idx j
  have hw0 := svec_window d hiw j
  have ht0 : (t 0).val < N := (t 0).isLt
  constructor
  · intro h
    unfold ScatterDims.resultIdx? at h
    split at h
    · rename_i hh
      have hf := Option.some.inj h
      have h0 : (d.start j idx (0 : Fin 1) + d.window j (0 : Fin 1)).toNat = (t 0).val :=
        congrArg (fun f : (⟨1, ![N]⟩ : Shape).Idx => (f 0).val) hf
      have hh0 := (hh (0 : Fin 1)).1
      rw [hs0, hw0] at h0 hh0
      omega
    · exact absurd h (by simp)
  · intro h0
    have hh : ∀ a, 0 ≤ d.start j idx a + d.window j a ∧ d.start j idx a + d.window j a < (⟨1, ![N]⟩ : Shape).size a := by
      intro a
      match a with
      | ⟨0, _⟩ =>
        show 0 ≤ d.start j idx (0 : Fin 1) + d.window j (0 : Fin 1) ∧ d.start j idx (0 : Fin 1) + d.window j (0 : Fin 1) < (N : ℤ)
        rw [hs0, hw0, h0]
        omega
    unfold ScatterDims.resultIdx?
    rw [dif_pos hh]
    congr 1
    funext a
    apply Fin.ext
    match a with
    | ⟨0, _⟩ =>
      show (d.start j idx (0 : Fin 1) + d.window j (0 : Fin 1)).toNat = (t 0).val
      rw [hs0, hw0, h0]
      omega

/-- THE VECTOR SCATTER-ADD AT ONE ENTRY: entry i of the result is the operand's entry plus every update entry whose
    start word, read signed, is i. -/
theorem scatterAdd_vec_gen (hiw : d.insertedWindowDims = [0]) (hsd : d.scatterDimsToOperandDims = [0])
    (hivd : d.indexVectorDim = 1) (x : (⟨1, ![N]⟩ : Shape).Idx → EReal) (idx : IVec (Sh n 1) 32)
    (u : (⟨1, ![n]⟩ : Shape).Idx → EReal) (i : Fin N) :
    Ideal.hostScatterAdd d x idx u (ix1 i)
      = x (ix1 i) + ∑ e ∈ Finset.univ.filter (fun e : Fin n => (idx (ix2 e 0)).toInt = (i.val : ℤ)), u (ix1 e) := by
  have key := fun j => svec_resultIdx_iff d hiw hsd hivd idx j (ix1 i)
  unfold Ideal.hostScatterAdd
  congr 1
  refine Finset.sum_bij' (fun j _ => j 0) (fun e _ => ix1 e) ?_ ?_ ?_ ?_ ?_
  · intro j hj
    exact Finset.mem_filter.2 ⟨Finset.mem_univ _, (key j).1 (Finset.mem_filter.1 hj).2⟩
  · intro e he
    exact Finset.mem_filter.2 ⟨Finset.mem_univ _, (key (ix1 e)).2 (Finset.mem_filter.1 he).2⟩
  · intro j hj
    exact (eq_ix1 j).symm
  · intro e he
    rfl
  · intro j hj
    exact congrArg u (eq_ix1 j)

end ScatterVec

end Cert.LibGS

end
-- ==== Proof.KI.Blocks.lean ====
/-
  Each input block of the kernel, read at an index, is an entry of one of the program's argument arrays.

  A window's block at grid point t is its array read through a rectangle: on every axis the coordinate in the array is
  the window's block index at t times the block's size, plus the coordinate inside the block. The block indices are
  the printed index maps, decided once over the 20 points of the 2 × 10 grid (point t = 10·p + i):

  * the two node arrays are streamed in blocks of 10000 rows, the first in phase p = 0 (block i), the second in phase
    p = 1 (block i), each parked at block 0 in the other phase;
  * the two id arrays, recast from 100000 ids to 10 × 1 × 10000, are read at block i in BOTH phases (phase 1 gathers by
    the first ids and sums by the second);
  * every weight matrix and bias row is its whole array at every point.

  Some of those arrays are made by host operations before the region from the argument arrays: the id arrays and the
  bias rows by a recast (same row-major position), the two halves of the 256 × 128 matrix by slicing rows 0 … 127 and
  128 … 255, and the last layer of the output network by setting its 128 × 2 matrix (its 2-vector bias) into the first
  two columns of a 128 × 128 (1 × 128) array of zeros. For the last two only columns 0 and 1 are read here: the result
  keeps no other column.
-/
import proofs.«107935_g3393024163881_fold_wed_m_362_29_alg».proof.Proof.KI.State
import Idealize.ShloMosaic.Lib.Pipeline.Value
import Idealize.ShloMosaic.Lib.ValueIdx
import Idealize.ShloMosaic.Lib.ValueLayout
import Idealize.ShloMosaic.Lib.StableHlo.Run
import proofs.«107935_g3393024163881_fold_wed_m_362_29_alg».proof.Proof.LibGatherScatter

noncomputable section

namespace Cert.KernelIdeal.Hand

open Idealize.ShloMosaic Idealize.ShloMosaic.TcCoe Idealize.SL.Sem
open Idealize.ShloMosaic.ValueIdx
open Cert.KernelIdeal Cert.KernelIdeal.Gen

variable {F : FTy → Type} [FloatOps F]
variable (m : (ℓ : Loc nD τ sig) → Buf (Elt F) ℓ)

/-- The grid has 20 points. -/
theorem pt_lt (t : Fin cfg0.N) : t.val < 20 := t.isLt

/-! ## A block read through a rectangle of the whole array -/

/-- Reading a buffer through a rectangle cut out of the whole buffer: the entry under the rectangle's coordinate `y` is the
    buffer's entry whose coordinate on every axis is the rectangle's offset plus its stride times `y`'s. -/
theorem read_rect {Val : EltTy → Type} (b : Ref sig .tc) (r : Rect b.ty.shape) (f : b.ty.Contents Val) (y : r.shape.Idx)
    (i : b.ty.shape.Idx) (h : ∀ a, (i a).val = r.off a + r.stride a * (y a).val) :
    ((View.whole b).slice r).read Val f y = f i := by
  show f (r.emb y) = f i
  refine congrArg f (funext fun a => Fin.ext ?_)
  rw [Rect.emb_apply]
  exact (h a).symm

/-- The same for a unit-stride rectangle at offset zero on every axis (a block that is the whole array): the entry with
    the same coordinates. -/
theorem read_rect_origin {Val : EltTy → Type} (b : Ref sig .tc) (r : Rect b.ty.shape) (hoff : ∀ a, r.off a = 0)
    (hstr : ∀ a, r.stride a = 1) (f : b.ty.Contents Val) (y : r.shape.Idx) (i : b.ty.shape.Idx)
    (h : ∀ a, (i a).val = (y a).val) : ((View.whole b).slice r).read Val f y = f i :=
  read_rect b r f y i fun a => by rw [hoff a, hstr a, h a]; omega

/-! ## The printed index maps, decided over the 20 grid points -/

/-- The four streamed windows: the first node array's block row is the point's number in phase 0 and 0 in phase 1, the
    second's is 0 in phase 0 and the point's number less 10 in phase 1; both id arrays' block is the point's number
    modulo 10 in either phase. -/
theorem idx_stream : ∀ t : Fin cfg0.N,
    win0_0.index t (0 : Fin 2) = (if t.val < 10 then t.val else 0) ∧ win0_0.index t (1 : Fin 2) = 0
    ∧ win0_1.index t (0 : Fin 2) = (if t.val < 10 then 0 else t.val - 10) ∧ win0_1.index t (1 : Fin 2) = 0
    ∧ win0_2.index t (0 : Fin 3) = t.val % 10 ∧ win0_2.index t (1 : Fin 3) = 0 ∧ win0_2.index t (2 : Fin 3) = 0
    ∧ win0_3.index t (0 : Fin 3) = t.val % 10 ∧ win0_3.index t (1 : Fin 3) = 0 ∧ win0_3.index t (2 : Fin 3) = 0 :=
  (by decide +kernel : ∀ t : Fin grid0.N, _)

/-- Every window from the fifth on sits at block index zero on every axis, at every grid point: its block is its whole
    array. -/
theorem idx_whole : ∀ (t : Fin cfg0.N) (w : Fin 36), 4 ≤ w.val → ∀ a, (win0 w).index t a = 0 :=
  (by decide +kernel : ∀ (t : Fin grid0.N) (w : Fin 36), 4 ≤ w.val → ∀ a, (win0 w).index t a = 0)

/-- So its rectangle starts at zero on every axis. -/
theorem off_whole (t : Fin cfg0.N) (w : Fin 36) (hw : 4 ≤ w.val) (a : Fin (win0 w).shape.rank) : ((win0 w).rect t).off a = 0 := by
  show (win0 w).index t a * (win0 w).size a = 0
  rw [idx_whole t w hw a, Nat.zero_mul]

/-! ## The streamed blocks -/

/-- Phase 0: row `r` of the point's block of the first node array is row 10000·t + r of the array. -/
theorem bX1_apply (c : Dev nD) (t : Fin cfg0.N) (ht : t.val < 10) (r : Fin 10000) (k : Fin 128) :
    bX1 m c t (ix2 r k) = m ((c.tc : Thread nD τ).loc main_arg0) (ix2 ⟨10000 * t.val + r.val, by omega⟩ k) := by
  obtain ⟨e0, e1, -⟩ := idx_stream t
  refine (read_rect main_arg0 (win0_0.rect t) (V m c main_arg0) (ix2 r k) _ fun a => ?_).trans (congrFun (V_main_arg0 m c) _)
  match a with
  | ⟨0, _⟩ => show 10000 * t.val + r.val = win0_0.index t (0 : Fin 2) * 10000 + 1 * r.val; rw [e0, if_pos ht]; omega
  | ⟨1, _⟩ => show k.val = win0_0.index t (1 : Fin 2) * 128 + 1 * k.val; rw [e1]; omega

/-- Phase 1: row `r` of the point's block of the second node array is row 10000·(t − 10) + r of the array. -/
theorem bX2_apply (c : Dev nD) (t : Fin cfg0.N) (ht : 10 ≤ t.val) (r : Fin 10000) (k : Fin 128) :
    bX2 m c t (ix2 r k) = m ((c.tc : Thread nD τ).loc main_arg1) (ix2 ⟨10000 * (t.val - 10) + r.val, by have := pt_lt t; omega⟩ k) := by
  obtain ⟨-, -, e0, e1, -⟩ := idx_stream t
  refine (read_rect main_arg1 (win0_1.rect t) (V m c main_arg1) (ix2 r k) _ fun a => ?_).trans (congrFun (V_main_arg1 m c) _)
  match a with
  | ⟨0, _⟩ =>
    show 10000 * (t.val - 10) + r.val = win0_1.index t (0 : Fin 2) * 10000 + 1 * r.val
    rw [e0, if_neg (by omega)]; omega
  | ⟨1, _⟩ => show k.val = win0_1.index t (1 : Fin 2) * 128 + 1 * k.val; rw [e1]; omega

/-- The first id array as the region finds it: the flat array of 100000 ids cut into 10 rows of 10000. -/
theorem V_ids1 (c : Dev nD) :
    V m c main_v0 = shapeCast S10x1x10000 (m ((c.tc : Thread nD τ).loc main_arg2)) shapeCasts_S100000_S10x1x10000 := by
  show StableHlo.after hostOps0 (fun b => m (c, b)) (Proc.devRef .tc main_v0) = _
  after_results
  rfl

/-- The second id array likewise. -/
theorem V_ids2 (c : Dev nD) :
    V m c main_v1 = shapeCast S10x1x10000 (m ((c.tc : Thread nD τ).loc main_arg3)) shapeCasts_S100000_S10x1x10000 := by
  show StableHlo.after hostOps0 (fun b => m (c, b)) (Proc.devRef .tc main_v1) = _
  after_results
  rfl

/-- Entry (q, 0, r) of the flat id array cut into 10 rows of 10000 is its entry 10000·q + r. -/
theorem ids_cut_apply {α : Type} (x : S100000.Idx → α) (h : S100000.ShapeCasts S10x1x10000) (q : Fin 10) (r : Fin 10000) :
    shapeCast S10x1x10000 x h (ix3 q 0 r) = x (ix1 ⟨10000 * q.val + r.val, by omega⟩) :=
  shapeCast_apply x h _ _ (by
    rw [Shape.rowMajor_val_three, Shape.rowMajor_val_one]
    show 10000 * q.val + r.val = (q.val * 1 + 0) * 10000 + r.val
    omega)

/-- At every point, in either phase, id `r` of the block of the first id array is id 10000·(t mod 10) + r of the array. -/
theorem bId1_apply (c : Dev nD) (t : Fin cfg0.N) (r : Fin 10000) :
    bId1 m c t (ix3 0 0 r) = m ((c.tc : Thread nD τ).loc main_arg2) (ix1 ⟨10000 * (t.val % 10) + r.val, by omega⟩) := by
  obtain ⟨-, -, -, -, e0, e1, e2, -⟩ := idx_stream t
  refine (read_rect main_v0 (win0_2.rect t) (V m c main_v0) (ix3 0 0 r) (ix3 ⟨t.val % 10, by omega⟩ 0 r) fun a => ?_).trans ?_
  · match a with
    | ⟨0, _⟩ => show t.val % 10 = win0_2.index t (0 : Fin 3) * 1 + 1 * 0; rw [e0]; omega
    | ⟨1, _⟩ => show 0 = win0_2.index t (1 : Fin 3) * 1 + 1 * 0; rw [e1]
    | ⟨2, _⟩ => show r.val = win0_2.index t (2 : Fin 3) * 10000 + 1 * r.val; rw [e2]; omega
  · rw [V_ids1]
    exact ids_cut_apply _ _ ⟨t.val % 10, by omega⟩ r

/-- The same for the second id array. -/
theorem bId2_apply (c : Dev nD) (t : Fin cfg0.N) (r : Fin 10000) :
    bId2 m c t (ix3 0 0 r) = m ((c.tc : Thread nD τ).loc main_arg3) (ix1 ⟨10000 * (t.val % 10) + r.val, by omega⟩) := by
  obtain ⟨-, -, -, -, -, -, -, e0, e1, e2⟩ := idx_stream t
  refine (read_rect main_v1 (win0_3.rect t) (V m c main_v1) (ix3 0 0 r) (ix3 ⟨t.val % 10, by omega⟩ 0 r) fun a => ?_).trans ?_
  · match a with
    | ⟨0, _⟩ => show t.val % 10 = win0_3.index t (0 : Fin 3) * 1 + 1 * 0; rw [e0]; omega
    | ⟨1, _⟩ => show 0 = win0_3.index t (1 : Fin 3) * 1 + 1 * 0; rw [e1]
    | ⟨2, _⟩ => show r.val = win0_3.index t (2 : Fin 3) * 10000 + 1 * r.val; rw [e2]; omega
  · rw [V_ids2]
    exact ids_cut_apply _ _ ⟨t.val % 10, by omega⟩ r

/-! ## The weight matrices: each window's block is its whole array, an argument array no host operation writes -/

/-- Window 4 reads the 128 × 128 argument matrix 4 entry for entry. -/
theorem bE10_apply (c : Dev nD) (t : Fin cfg0.N) (k j : Fin 128) :
    bE10 m c t (ix2 k j) = m ((c.tc : Thread nD τ).loc main_arg4) (ix2 k j) :=
  (read_rect_origin main_arg4 (win0_4.rect t) (off_whole t 4 (by decide)) (fun _ => rfl) (V m c main_arg4) (ix2 k j) (ix2 k j)
    fun _ => rfl).trans (congrFun (V_main_arg4 m c) _)

/-- Window 6 reads the 128 × 128 argument matrix 6 entry for entry. -/
theorem bE11_apply (c : Dev nD) (t : Fin cfg0.N) (k j : Fin 128) :
    bE11 m c t (ix2 k j) = m ((c.tc : Thread nD τ).loc main_arg6) (ix2 k j) :=
  (read_rect_origin main_arg6 (win0_6.rect t) (off_whole t 6 (by decide)) (fun _ => rfl) (V m c main_arg6) (ix2 k j) (ix2 k j)
    fun _ => rfl).trans (congrFun (V_main_arg6 m c) _)

/-- Window 8 reads the 128 × 128 argument matrix 8 entry for entry. -/
theorem bE12_apply (c : Dev nD) (t : Fin cfg0.N) (k j : Fin 128) :
    bE12 m c t (ix2 k j) = m ((c.tc : Thread nD τ).loc main_arg8) (ix2 k j) :=
  (read_rect_origin main_arg8 (win0_8.rect t) (off_whole t 8 (by decide)) (fun _ => rfl) (V m c main_arg8) (ix2 k j) (ix2 k j)
    fun _ => rfl).trans (congrFun (V_main_arg8 m c) _)

/-- Window 10 reads the 128 × 128 argument matrix 10 entry for entry. -/
theorem bR10_apply (c : Dev nD) (t : Fin cfg0.N) (k j : Fin 128) :
    bR10 m c t (ix2 k j) = m ((c.tc : Thread nD τ).loc main_arg10) (ix2 k j) :=
  (read_rect_origin main_arg10 (win0_10.rect t) (off_whole t 10 (by decide)) (fun _ => rfl) (V m c main_arg10) (ix2 k j) (ix2 k j)
    fun _ => rfl).trans (congrFun (V_main_arg10 m c) _)

/-- Window 12 reads the 128 × 128 argument matrix 12 entry for entry. -/
theorem bR11_apply (c : Dev nD) (t : Fin cfg0.N) (k j : Fin 128) :
    bR11 m c t (ix2 k j) = m ((c.tc : Thread nD τ).loc main_arg12) (ix2 k j) :=
  (read_rect_origin main_arg12 (win0_12.rect t) (off_whole t 12 (by decide)) (fun _ => rfl) (V m c main_arg12) (ix2 k j) (ix2 k j)
    fun _ => rfl).trans (congrFun (V_main_arg12 m c) _)

/-- Window 14 reads the 128 × 128 argument matrix 14 entry for entry. -/
theorem bR12_apply (c : Dev nD) (t : Fin cfg0.N) (k j : Fin 128) :
    bR12 m c t (ix2 k j) = m ((c.tc : Thread nD τ).loc main_arg14) (ix2 k j) :=
  (read_rect_origin main_arg14 (win0_14.rect t) (off_whole t 14 (by decide)) (fun _ => rfl) (V m c main_arg14) (ix2 k j) (ix2 k j)
    fun _ => rfl).trans (congrFun (V_main_arg14 m c) _)

/-- Window 19 reads the 128 × 128 argument matrix 18 entry for entry. -/
theorem bE21_apply (c : Dev nD) (t : Fin cfg0.N) (k j : Fin 128) :
    bE21 m c t (ix2 k j) = m ((c.tc : Thread nD τ).loc main_arg18) (ix2 k j) :=
  (read_rect_origin main_arg18 (win0_19.rect t) (off_whole t 19 (by decide)) (fun _ => rfl) (V m c main_arg18) (ix2 k j) (ix2 k j)
    fun _ => rfl).trans (congrFun (V_main_arg18 m c) _)

/-- Window 21 reads the 128 × 128 argument matrix 20 entry for entry. -/
theorem bE22_apply (c : Dev nD) (t : Fin cfg0.N) (k j : Fin 128) :
    bE22 m c t (ix2 k j) = m ((c.tc : Thread nD τ).loc main_arg20) (ix2 k j) :=
  (read_rect_origin main_arg20 (win0_21.rect t) (off_whole t 21 (by decide)) (fun _ => rfl) (V m c main_arg20) (ix2 k j) (ix2 k j)
    fun _ => rfl).trans (congrFun (V_main_arg20 m c) _)

/-- Window 23 reads the 128 × 128 argument matrix 22 entry for entry. -/
theorem bR20_apply (c : Dev nD) (t : Fin cfg0.N) (k j : Fin 128) :
    bR20 m c t (ix2 k j) = m ((c.tc : Thread nD τ).loc main_arg22) (ix2 k j) :=
  (read_rect_origin main_arg22 (win0_23.rect t) (off_whole t 23 (by decide)) (fun _ => rfl) (V m c main_arg22) (ix2 k j) (ix2 k j)
    fun _ => rfl).trans (congrFun (V_main_arg22 m c) _)

/-- Window 25 reads the 128 × 128 argument matrix 24 entry for entry. -/
theorem bR21_apply (c : Dev nD) (t : Fin cfg0.N) (k j : Fin 128) :
    bR21 m c t (ix2 k j) = m ((c.tc : Thread nD τ).loc main_arg24) (ix2 k j) :=
  (read_rect_origin main_arg24 (win0_25.rect t) (off_whole t 25 (by decide)) (fun _ => rfl) (V m c main_arg24) (ix2 k j) (ix2 k j)
    fun _ => rfl).trans (congrFun (V_main_arg24 m c) _)

/-- Window 27 reads the 128 × 128 argument matrix 26 entry for entry. -/
theorem bR22_apply (c : Dev nD) (t : Fin cfg0.N) (k j : Fin 128) :
    bR22 m c t (ix2 k j) = m ((c.tc : Thread nD τ).loc main_arg26) (ix2 k j) :=
  (read_rect_origin main_arg26 (win0_27.rect t) (off_whole t 27 (by decide)) (fun _ => rfl) (V m c main_arg26) (ix2 k j) (ix2 k j)
    fun _ => rfl).trans (congrFun (V_main_arg26 m c) _)

/-- Window 29 reads the 128 × 128 argument matrix 28 entry for entry. -/
theorem bM0_apply (c : Dev nD) (t : Fin cfg0.N) (k j : Fin 128) :
    bM0 m c t (ix2 k j) = m ((c.tc : Thread nD τ).loc main_arg28) (ix2 k j) :=
  (read_rect_origin main_arg28 (win0_29.rect t) (off_whole t 29 (by decide)) (fun _ => rfl) (V m c main_arg28) (ix2 k j) (ix2 k j)
    fun _ => rfl).trans (congrFun (V_main_arg28 m c) _)

/-- Window 31 reads the 128 × 128 argument matrix 30 entry for entry. -/
theorem bM1_apply (c : Dev nD) (t : Fin cfg0.N) (k j : Fin 128) :
    bM1 m c t (ix2 k j) = m ((c.tc : Thread nD τ).loc main_arg30) (ix2 k j) :=
  (read_rect_origin main_arg30 (win0_31.rect t) (off_whole t 31 (by decide)) (fun _ => rfl) (V m c main_arg30) (ix2 k j) (ix2 k j)
    fun _ => rfl).trans (congrFun (V_main_arg30 m c) _)

/-! ## The two halves of the 256 × 128 first-layer matrix of the second node network -/

/-- The upper half as the region finds it: rows 0 … 127 of the argument array. -/
theorem V_upper (c : Dev nD) : V m c main_v2
    = extractStridedSlice S128x128 ![0, 0] (m ((c.tc : Thread nD τ).loc main_arg16)) slices_S256x128_S128x128_0_0 := by
  show StableHlo.after hostOps0 (fun b => m (c, b)) (Proc.devRef .tc main_v2) = _
  after_results

/-- The lower half: rows 128 … 255. -/
theorem V_lower (c : Dev nD) : V m c main_v3
    = extractStridedSlice S128x128 ![128, 0] (m ((c.tc : Thread nD τ).loc main_arg16)) slices_S256x128_S128x128_128_0 := by
  show StableHlo.after hostOps0 (fun b => m (c, b)) (Proc.devRef .tc main_v3) = _
  after_results

/-- Window 16 reads rows 0 … 127 of the 256 × 128 argument matrix. -/
theorem bW0a_apply (c : Dev nD) (t : Fin cfg0.N) (k j : Fin 128) :
    bW0a m c t (ix2 k j) = m ((c.tc : Thread nD τ).loc main_arg16) (ix2 ⟨k.val, by omega⟩ j) := by
  refine (read_rect_origin main_v2 (win0_16.rect t) (off_whole t 16 (by decide)) (fun _ => rfl) (V m c main_v2) (ix2 k j) (ix2 k j)
    fun _ => rfl).trans ?_
  rw [V_upper]
  refine extractStridedSlice_apply _ _ _ _ _ fun a => ?_
  match a with
  | ⟨0, _⟩ => show k.val = 0 + k.val; omega
  | ⟨1, _⟩ => show j.val = 0 + j.val; omega

/-- Window 17 reads rows 128 … 255 of the 256 × 128 argument matrix. -/
theorem bW0b_apply (c : Dev nD) (t : Fin cfg0.N) (k j : Fin 128) :
    bW0b m c t (ix2 k j) = m ((c.tc : Thread nD τ).loc main_arg16) (ix2 ⟨128 + k.val, by omega⟩ j) := by
  refine (read_rect_origin main_v3 (win0_17.rect t) (off_whole t 17 (by decide)) (fun _ => rfl) (V m c main_v3) (ix2 k j) (ix2 k j)
    fun _ => rfl).trans ?_
  rw [V_lower]
  refine extractStridedSlice_apply _ _ _ _ _ fun a => ?_
  match a with
  | ⟨0, _⟩ => rfl
  | ⟨1, _⟩ => show j.val = 0 + j.val; omega

/-! ## The bias rows: each 128-vector recast as a 1 × 128 row before the region -/

/-- Window 5 reads the argument vector 5, recast as a row: entry (0, j) is the vector's entry j. -/
theorem bE1b0_apply (c : Dev nD) (t : Fin cfg0.N) (j : Fin 128) :
    bE1b0 m c t (ix2 0 j) = m ((c.tc : Thread nD τ).loc main_arg5) (ix1 j) := by
  refine (read_rect_origin main_v11 (win0_5.rect t) (off_whole t 5 (by decide)) (fun _ => rfl) (V m c main_v11) (ix2 0 j) (ix2 0 j)
    fun _ => rfl).trans ?_
  have e : V m c main_v11 = shapeCast S1x128 (m ((c.tc : Thread nD τ).loc main_arg5)) shapeCasts_S128_S1x128 := by
    show StableHlo.after hostOps0 (fun b => m (c, b)) (Proc.devRef .tc main_v11) = _
    after_results
    rfl
  rw [e]
  exact shapeCast_a_1a_apply _ _ 0 j

/-- Window 7 reads the argument vector 7, recast as a row: entry (0, j) is the vector's entry j. -/
theorem bE1b1_apply (c : Dev nD) (t : Fin cfg0.N) (j : Fin 128) :
    bE1b1 m c t (ix2 0 j) = m ((c.tc : Thread nD τ).loc main_arg7) (ix1 j) := by
  refine (read_rect_origin main_v12 (win0_7.rect t) (off_whole t 7 (by decide)) (fun _ => rfl) (V m c main_v12) (ix2 0 j) (ix2 0 j)
    fun _ => rfl).trans ?_
  have e : V m c main_v12 = shapeCast S1x128 (m ((c.tc : Thread nD τ).loc main_arg7)) shapeCasts_S128_S1x128 := by
    show StableHlo.after hostOps0 (fun b => m (c, b)) (Proc.devRef .tc main_v12) = _
    after_results
    rfl
  rw [e]
  exact shapeCast_a_1a_apply _ _ 0 j

/-- Window 9 reads the argument vector 9, recast as a row: entry (0, j) is the vector's entry j. -/
theorem bE1b2_apply (c : Dev nD) (t : Fin cfg0.N) (j : Fin 128) :
    bE1b2 m c t (ix2 0 j) = m ((c.tc : Thread nD τ).loc main_arg9) (ix1 j) := by
  refine (read_rect_origin main_v13 (win0_9.rect t) (off_whole t 9 (by decide)) (fun _ => rfl) (V m c main_v13) (ix2 0 j) (ix2 0 j)
    fun _ => rfl).trans ?_
  have e : V m c main_v13 = shapeCast S1x128 (m ((c.tc : Thread nD τ).loc main_arg9)) shapeCasts_S128_S1x128 := by
    show StableHlo.after hostOps0 (fun b => m (c, b)) (Proc.devRef .tc main_v13) = _
    after_results
    rfl
  rw [e]
  exact shapeCast_a_1a_apply _ _ 0 j

/-- Window 11 reads the argument vector 11, recast as a row: entry (0, j) is the vector's entry j. -/
theorem bR1b0_apply (c : Dev nD) (t : Fin cfg0.N) (j : Fin 128) :
    bR1b0 m c t (ix2 0 j) = m ((c.tc : Thread nD τ).loc main_arg11) (ix1 j) := by
  refine (read_rect_origin main_v14 (win0_11.rect t) (off_whole t 11 (by decide)) (fun _ => rfl) (V m c main_v14) (ix2 0 j) (ix2 0 j)
    fun _ => rfl).trans ?_
  have e : V m c main_v14 = shapeCast S1x128 (m ((c.tc : Thread nD τ).loc main_arg11)) shapeCasts_S128_S1x128 := by
    show StableHlo.after hostOps0 (fun b => m (c, b)) (Proc.devRef .tc main_v14) = _
    after_results
    rfl
  rw [e]
  exact shapeCast_a_1a_apply _ _ 0 j

/-- Window 13 reads the argument vector 13, recast as a row: entry (0, j) is the vector's entry j. -/
theorem bR1b1_apply (c : Dev nD) (t : Fin cfg0.N) (j : Fin 128) :
    bR1b1 m c t (ix2 0 j) = m ((c.tc : Thread nD τ).loc main_arg13) (ix1 j) := by
  refine (read_rect_origin main_v15 (win0_13.rect t) (off_whole t 13 (by decide)) (fun _ => rfl) (V m c main_v15) (ix2 0 j) (ix2 0 j)
    fun _ => rfl).trans ?_
  have e : V m c main_v15 = shapeCast S1x128 (m ((c.tc : Thread nD τ).loc main_arg13)) shapeCasts_S128_S1x128 := by
    show StableHlo.after hostOps0 (fun b => m (c, b)) (Proc.devRef .tc main_v15) = _
    after_results
    rfl
  rw [e]
  exact shapeCast_a_1a_apply _ _ 0 j

/-- Window 15 reads the argument vector 15, recast as a row: entry (0, j) is the vector's entry j. -/
theorem bR1b2_apply (c : Dev nD) (t : Fin cfg0.N) (j : Fin 128) :
    bR1b2 m c t (ix2 0 j) = m ((c.tc : Thread nD τ).loc main_arg15) (ix1 j) := by
  refine (read_rect_origin main_v16 (win0_15.rect t) (off_whole t 15 (by decide)) (fun _ => rfl) (V m c main_v16) (ix2 0 j) (ix2 0 j)
    fun _ => rfl).trans ?_
  have e : V m c main_v16 = shapeCast S1x128 (m ((c.tc : Thread nD τ).loc main_arg15)) shapeCasts_S128_S1x128 := by
    show StableHlo.after hostOps0 (fun b => m (c, b)) (Proc.devRef .tc main_v16) = _
    after_results
    rfl
  rw [e]
  exact shapeCast_a_1a_apply _ _ 0 j

/-- Window 18 reads the argument vector 17, recast as a row: entry (0, j) is the vector's entry j. -/
theorem bE2b0_apply (c : Dev nD) (t : Fin cfg0.N) (j : Fin 128) :
    bE2b0 m c t (ix2 0 j) = m ((c.tc : Thread nD τ).loc main_arg17) (ix1 j) := by
  refine (read_rect_origin main_v17 (win0_18.rect t) (off_whole t 18 (by decide)) (fun _ => rfl) (V m c main_v17) (ix2 0 j) (ix2 0 j)
    fun _ => rfl).trans ?_
  have e : V m c main_v17 = shapeCast S1x128 (m ((c.tc : Thread nD τ).loc main_arg17)) shapeCasts_S128_S1x128 := by
    show StableHlo.after hostOps0 (fun b => m (c, b)) (Proc.devRef .tc main_v17) = _
    after_results
    rfl
  rw [e]
  exact shapeCast_a_1a_apply _ _ 0 j

/-- Window 20 reads the argument vector 19, recast as a row: entry (0, j) is the vector's entry j. -/
theorem bE2b1_apply (c : Dev nD) (t : Fin cfg0.N) (j : Fin 128) :
    bE2b1 m c t (ix2 0 j) = m ((c.tc : Thread nD τ).loc main_arg19) (ix1 j) := by
  refine (read_rect_origin main_v18 (win0_20.rect t) (off_whole t 20 (by decide)) (fun _ => rfl) (V m c main_v18) (ix2 0 j) (ix2 0 j)
    fun _ => rfl).trans ?_
  have e : V m c main_v18 = shapeCast S1x128 (m ((c.tc : Thread nD τ).loc main_arg19)) shapeCasts_S128_S1x128 := by
    show StableHlo.after hostOps0 (fun b => m (c, b)) (Proc.devRef .tc main_v18) = _
    after_results
    rfl
  rw [e]
  exact shapeCast_a_1a_apply _ _ 0 j

/-- Window 22 reads the argument vector 21, recast as a row: entry (0, j) is the vector's entry j. -/
theorem bE2b2_apply (c : Dev nD) (t : Fin cfg0.N) (j : Fin 128) :
    bE2b2 m c t (ix2 0 j) = m ((c.tc : Thread nD τ).loc main_arg21) (ix1 j) := by
  refine (read_rect_origin main_v19 (win0_22.rect t) (off_whole t 22 (by decide)) (fun _ => rfl) (V m c main_v19) (ix2 0 j) (ix2 0 j)
    fun _ => rfl).trans ?_
  have e : V m c main_v19 = shapeCast S1x128 (m ((c.tc : Thread nD τ).loc main_arg21)) shapeCasts_S128_S1x128 := by
    show StableHlo.after hostOps0 (fun b => m (c, b)) (Proc.devRef .tc main_v19) = _
    after_results
    rfl
  rw [e]
  exact shapeCast_a_1a_apply _ _ 0 j

/-- Window 24 reads the argument vector 23, recast as a row: entry (0, j) is the vector's entry j. -/
theorem bR2b0_apply (c : Dev nD) (t : Fin cfg0.N) (j : Fin 128) :
    bR2b0 m c t (ix2 0 j) = m ((c.tc : Thread nD τ).loc main_arg23) (ix1 j) := by
  refine (read_rect_origin main_v20 (win0_24.rect t) (off_whole t 24 (by decide)) (fun _ => rfl) (V m c main_v20) (ix2 0 j) (ix2 0 j)
    fun _ => rfl).trans ?_
  have e : V m c main_v20 = shapeCast S1x128 (m ((c.tc : Thread nD τ).loc main_arg23)) shapeCasts_S128_S1x128 := by
    show StableHlo.after hostOps0 (fun b => m (c, b)) (Proc.devRef .tc main_v20) = _
    after_results
    rfl
  rw [e]
  exact shapeCast_a_1a_apply _ _ 0 j

/-- Window 26 reads the argument vector 25, recast as a row: entry (0, j) is the vector's entry j. -/
theorem bR2b1_apply (c : Dev nD) (t : Fin cfg0.N) (j : Fin 128) :
    bR2b1 m c t (ix2 0 j) = m ((c.tc : Thread nD τ).loc main_arg25) (ix1 j) := by
  refine (read_rect_origin main_v21 (win0_26.rect t) (off_whole t 26 (by decide)) (fun _ => rfl) (V m c main_v21) (ix2 0 j) (ix2 0 j)
    fun _ => rfl).trans ?_
  have e : V m c main_v21 = shapeCast S1x128 (m ((c.tc : Thread nD τ).loc main_arg25)) shapeCasts_S128_S1x128 := by
    show StableHlo.after hostOps0 (fun b => m (c, b)) (Proc.devRef .tc main_v21) = _
    after_results
    rfl
  rw [e]
  exact shapeCast_a_1a_apply _ _ 0 j

/-- Window 28 reads the argument vector 27, recast as a row: entry (0, j) is the vector's entry j. -/
theorem bR2b2_apply (c : Dev nD) (t : Fin cfg0.N) (j : Fin 128) :
    bR2b2 m c t (ix2 0 j) = m ((c.tc : Thread nD τ).loc main_arg27) (ix1 j) := by
  refine (read_rect_origin main_v22 (win0_28.rect t) (off_whole t 28 (by decide)) (fun _ => rfl) (V m c main_v22) (ix2 0 j) (ix2 0 j)
    fun _ => rfl).trans ?_
  have e : V m c main_v22 = shapeCast S1x128 (m ((c.tc : Thread nD τ).loc main_arg27)) shapeCasts_S128_S1x128 := by
    show StableHlo.after hostOps0 (fun b => m (c, b)) (Proc.devRef .tc main_v22) = _
    after_results
    rfl
  rw [e]
  exact shapeCast_a_1a_apply _ _ 0 j

/-- Window 30 reads the argument vector 29, recast as a row: entry (0, j) is the vector's entry j. -/
theorem bMb0_apply (c : Dev nD) (t : Fin cfg0.N) (j : Fin 128) :
    bMb0 m c t (ix2 0 j) = m ((c.tc : Thread nD τ).loc main_arg29) (ix1 j) := by
  refine (read_rect_origin main_v23 (win0_30.rect t) (off_whole t 30 (by decide)) (fun _ => rfl) (V m c main_v23) (ix2 0 j) (ix2 0 j)
    fun _ => rfl).trans ?_
  have e : V m c main_v23 = shapeCast S1x128 (m ((c.tc : Thread nD τ).loc main_arg29)) shapeCasts_S128_S1x128 := by
    show StableHlo.after hostOps0 (fun b => m (c, b)) (Proc.devRef .tc main_v23) = _
    after_results
    rfl
  rw [e]
  exact shapeCast_a_1a_apply _ _ 0 j

/-- Window 32 reads the argument vector 31, recast as a row: entry (0, j) is the vector's entry j. -/
theorem bMb1_apply (c : Dev nD) (t : Fin cfg0.N) (j : Fin 128) :
    bMb1 m c t (ix2 0 j) = m ((c.tc : Thread nD τ).loc main_arg31) (ix1 j) := by
  refine (read_rect_origin main_v24 (win0_32.rect t) (off_whole t 32 (by decide)) (fun _ => rfl) (V m c main_v24) (ix2 0 j) (ix2 0 j)
    fun _ => rfl).trans ?_
  have e : V m c main_v24 = shapeCast S1x128 (m ((c.tc : Thread nD τ).loc main_arg31)) shapeCasts_S128_S1x128 := by
    show StableHlo.after hostOps0 (fun b => m (c, b)) (Proc.devRef .tc main_v24) = _
    after_results
    rfl
  rw [e]
  exact shapeCast_a_1a_apply _ _ 0 j

/-! ## A scatter that SETS, read at one entry

The host scatter folds over the update entries in row-major order; a step whose update lands on operand entry `i`
replaces what entry `i` held by the update's value, every other step leaves entry `i` alone. So when exactly one update
entry lands on `i`, the result's entry `i` is that update's value, whatever the operand held. -/

section FoldSet
variable {κ ι β : Type} (step : (ι → β) → κ → ι → β) (i : ι) (hit : κ → Prop) (val : κ → β)

/-- Steps that all miss entry `i` leave it as it was. -/
theorem foldl_all_miss (hmiss : ∀ r n, ¬hit n → step r n i = r i) :
    ∀ (L : List κ) (x : ι → β), (∀ n ∈ L, ¬hit n) → L.foldl step x i = x i
  | [], _, _ => rfl
  | a :: l, x, h => by
    rw [List.foldl_cons, foldl_all_miss hmiss l _ fun n hn => h n (List.mem_cons_of_mem _ hn)]
    exact hmiss x a (h a List.mem_cons_self)

/-- When one step of a duplicate-free list hits entry `i` and no other does, the fold leaves that step's value there. -/
theorem foldl_one_hit (hhit : ∀ r n, hit n → step r n i = val n) (hmiss : ∀ r n, ¬hit n → step r n i = r i) :
    ∀ (L : List κ) (x : ι → β) (n : κ), L.Nodup → n ∈ L → hit n → (∀ n' ∈ L, hit n' → n' = n) → L.foldl step x i = val n
  | [], _, _, _, hn, _, _ => absurd hn List.not_mem_nil
  | a :: l, x, n, hL, hn, hh, hu => by
    rw [List.foldl_cons]
    by_cases han : a = n
    · subst han
      have hnot : ∀ n' ∈ l, ¬hit n' := fun n' hn' h' =>
        (List.nodup_cons.1 hL).1 (hu n' (List.mem_cons_of_mem _ hn') h' ▸ hn')
      rw [foldl_all_miss step i hit hmiss l _ hnot]
      exact hhit x a hh
    · have hnl : n ∈ l := (List.mem_cons.1 hn).resolve_left fun e => han e.symm
      exact foldl_one_hit hhit hmiss l _ n (List.nodup_cons.1 hL).2 hnl hh fun n' hn' => hu n' (List.mem_cons_of_mem _ hn')

end FoldSet

/-- THE SETTING SCATTER AT ONE ENTRY: if update entry `j` lands on operand entry `i` and no other update entry does, the
    result's entry `i` is update entry `j`. -/
theorem scatter_set_apply {α : Type} {s si u : Shape} {w : Nat} (d : ScatterDims s si u) (x : s.Idx → α) (idx : IVec si w)
    (upd : u.Idx → α) (i : s.Idx) (j : u.Idx) (hj : d.resultIdx? j idx = some i)
    (huniq : ∀ j', d.resultIdx? j' idx = some i → j' = j) :
    Host.scatter d (fun _ b => b) x idx upd i = upd j := by
  unfold Host.scatter
  refine (foldl_one_hit _ i (fun n => d.resultIdx? (u.rowMajor.symm n) idx = some i) (fun n => upd (u.rowMajor.symm n))
    ?_ ?_ (List.finRange u.numel) x (u.rowMajor j) (List.nodup_finRange _) (List.mem_finRange _) ?_ ?_).trans ?_
  · intro r n h
    simp only [h]
    exact if_pos trivial
  · intro r n h
    cases hr : d.resultIdx? (u.rowMajor.symm n) idx with
    | none => rfl
    | some i₀ => exact if_neg fun e => h (hr.trans (congrArg some e.symm))
  · rw [Equiv.symm_apply_apply]; exact hj
  · intro n' _ h'
    rw [← huniq _ h', Equiv.apply_symm_apply]
  · rw [Equiv.symm_apply_apply]

/-! ## A window of updates set down at the origin of a two-axis operand

The dimension numbers of `operand.at[:, :c].set(updates)`: both update axes are window axes, no operand axis is
inserted, and the one start word is zero. Update entry (r, o) then lands on operand entry (r, o). -/

section SetAtOrigin
variable {N C n c : Nat} (d : ScatterDims (Cert.LibGS.Sh N C) ⟨1, ![1]⟩ (Cert.LibGS.Sh n c))

/-- With every start word zero, the window starts at zero on every axis. -/
theorem origin_start (idx : IVec ⟨1, ![1]⟩ 32) (hidx : ∀ q, idx q = 0#32) (j : (Cert.LibGS.Sh n c).Idx) (a : Fin 2) :
    d.start j idx a = 0 := by
  unfold ScatterDims.start
  split
  · rw [hidx]; rfl
  · rfl

/-- Entry `k` of the axis list [0, 1] is axis `k`. -/
theorem getElem_axes01 (l : List (Fin 2)) (hl : l = [0, 1]) (k : Nat) (hk : k < l.length) : (l[k]'hk).val = k := by
  subst hl
  match k, hk with
  | 0, _ => rfl
  | 1, _ => rfl
  | k + 2, h => exact absurd h (by simp)

/-- With no inserted axis and both update axes window axes, the window coordinate on an operand axis is the update's
    coordinate on the same axis. -/
theorem origin_window (huw : d.updateWindowDims = [0, 1]) (hiw : d.insertedWindowDims = [])
    (j : (Cert.LibGS.Sh n c).Idx) (a : Fin 2) : d.window j a = (j a).val := by
  have hsk : d.sKept = [0, 1] := by
    show (Cert.LibGS.Sh N C).kept d.insertedWindowDims = _
    rw [hiw]; rfl
  have hk : a ∈ d.sKept := by
    rw [hsk]
    match a with
    | ⟨0, _⟩ => exact List.mem_cons_self
    | ⟨1, _⟩ => exact List.mem_cons_of_mem _ List.mem_cons_self
  have hpos : d.sKept.idxOf a = a.val := by
    rw [hsk]
    match a with
    | ⟨0, _⟩ => rfl
    | ⟨1, _⟩ => rfl
  unfold ScatterDims.window
  rw [dif_pos hk]
  exact Cert.LibGS.idx2_val_congr j _ a (Fin.ext ((getElem_axes01 _ huw _ _).trans hpos))

/-- WHERE AN UPDATE LANDS: on the operand entry with its own two coordinates. -/
theorem origin_resultIdx_iff (huw : d.updateWindowDims = [0, 1]) (hiw : d.insertedWindowDims = []) (hn : n ≤ N) (hc : c ≤ C)
    (idx : IVec ⟨1, ![1]⟩ 32) (hidx : ∀ q, idx q = 0#32) (j : (Cert.LibGS.Sh n c).Idx) (t : (Cert.LibGS.Sh N C).Idx) :
    d.resultIdx? j idx = some t ↔ (j 0).val = (t 0).val ∧ (j 1).val = (t 1).val := by
  have hs := origin_start d idx hidx j
  have hw := origin_window d huw hiw j
  have hj0 : (j 0).val < n := idx2_lt0 j
  have hj1 : (j 1).val < c := idx2_lt1 j
  have hh : ∀ a, 0 ≤ d.start j idx a + d.window j a ∧ d.start j idx a + d.window j a < (Cert.LibGS.Sh N C).size a := by
    intro a
    rw [hs a, hw a]
    match a with
    | ⟨0, _⟩ => show (0 : ℤ) ≤ 0 + ((j 0).val : ℤ) ∧ 0 + ((j 0).val : ℤ) < (N : ℤ); omega
    | ⟨1, _⟩ => show (0 : ℤ) ≤ 0 + ((j 1).val : ℤ) ∧ 0 + ((j 1).val : ℤ) < (C : ℤ); omega
  unfold ScatterDims.resultIdx?
  rw [dif_pos hh]
  constructor
  · intro h
    have hf := Option.some.inj h
    have h0 : (d.start j idx (0 : Fin 2) + d.window j (0 : Fin 2)).toNat = (t 0).val :=
      congrArg (fun f : (Cert.LibGS.Sh N C).Idx => (f 0).val) hf
    have h1 : (d.start j idx (1 : Fin 2) + d.window j (1 : Fin 2)).toNat = (t 1).val :=
      congrArg (fun f : (Cert.LibGS.Sh N C).Idx => (f 1).val) hf
    rw [hs, hw] at h0 h1
    constructor <;> omega
  · rintro ⟨h0, h1⟩
    congr 1
    funext a
    apply Fin.ext
    match a with
    | ⟨0, _⟩ =>
      show (d.start j idx (0 : Fin 2) + d.window j (0 : Fin 2)).toNat = (t 0).val
      rw [hs, hw]; omega
    | ⟨1, _⟩ =>
      show (d.start j idx (1 : Fin 2) + d.window j (1 : Fin 2)).toNat = (t 1).val
      rw [hs, hw]; omega

/-- THE WINDOW SET AT THE ORIGIN, AT ONE ENTRY INSIDE IT: entry (r, o) of the result is update entry (r, o). -/
theorem scatter_set_origin {α : Type} (huw : d.updateWindowDims = [0, 1]) (hiw : d.insertedWindowDims = []) (hn : n ≤ N) (hc : c ≤ C)
    (x : (Cert.LibGS.Sh N C).Idx → α) (idx : IVec ⟨1, ![1]⟩ 32) (hidx : ∀ q, idx q = 0#32) (upd : (Cert.LibGS.Sh n c).Idx → α)
    (r : Fin n) (o : Fin c) :
    Host.scatter d (fun _ b => b) x idx upd (ix2 ⟨r.val, by omega⟩ ⟨o.val, by omega⟩) = upd (ix2 r o) := by
  refine scatter_set_apply d x idx upd _ (ix2 r o) ((origin_resultIdx_iff d huw hiw hn hc idx hidx _ _).2 ⟨rfl, rfl⟩) fun j' h' => ?_
  obtain ⟨h0, h1⟩ := (origin_resultIdx_iff d huw hiw hn hc idx hidx _ _).1 h'
  funext a
  match a with
  | ⟨0, _⟩ => exact Fin.ext h0
  | ⟨1, _⟩ => exact Fin.ext h1

end SetAtOrigin

/-! ## The output network's last layer, padded from 2 to 128 columns

The 128 × 2 matrix is set into the first two columns of a 128 × 128 array of zeros, the 2-vector bias (as a 1 × 2 row)
into the first two entries of a 1 × 128 row of zeros. Only the first two columns are read here. -/

/-- The padded matrix as the region finds it. -/
theorem V_padM (c : Dev nD) : V m c main_v6
    = Host.scatter scatter_S128x128_S1_S128x2_01_n_1_0 (fun _ b => b)
        (broadcastInDim S128x128 ![] bcast_S_S128x128 (constant (F := F) S_ .f32 0x00000000#32))
        (broadcastInDim S1 ![] bcast_S_S1 (constantI S_ 32 0#32)) (m ((c.tc : Thread nD τ).loc main_arg32)) := by
  show StableHlo.after hostOps0 (fun b => m (c, b)) (Proc.devRef .tc main_v6) = _
  after_results

/-- The padded bias row as the region finds it. -/
theorem V_padB (c : Dev nD) : V m c main_v10
    = Host.scatter scatter_S1x128_S1_S1x2_01_n_1_0 (fun _ b => b)
        (broadcastInDim S1x128 ![] bcast_S_S1x128 (constant (F := F) S_ .f32 0x00000000#32))
        (broadcastInDim S1 ![] bcast_S_S1 (constantI S_ 32 0#32))
        (broadcastInDim S1x2 ![1] bcast_S2_S1x2_1 (m ((c.tc : Thread nD τ).loc main_arg33))) := by
  show StableHlo.after hostOps0 (fun b => m (c, b)) (Proc.devRef .tc main_v10) = _
  after_results

/-- Window 33, in its first two columns, reads the 128 × 2 argument matrix. -/
theorem bM2p_apply (c : Dev nD) (t : Fin cfg0.N) (k : Fin 128) (o : Fin 2) :
    bM2p m c t (ix2 k ⟨o.val, by omega⟩) = m ((c.tc : Thread nD τ).loc main_arg32) (ix2 k o) := by
  refine (read_rect_origin main_v6 (win0_33.rect t) (off_whole t 33 (by decide)) (fun _ => rfl) (V m c main_v6)
    (ix2 k ⟨o.val, by omega⟩) (ix2 k ⟨o.val, by omega⟩) fun _ => rfl).trans ?_
  rw [V_padM]
  exact scatter_set_origin scatter_S128x128_S1_S128x2_01_n_1_0 rfl rfl (by decide) (by decide) _ _ (fun _ => rfl) _ k o

/-- Window 34, in its first two entries, reads the argument 2-vector. -/
theorem bMb2p_apply (c : Dev nD) (t : Fin cfg0.N) (o : Fin 2) :
    bMb2p m c t (ix2 0 ⟨o.val, by omega⟩) = m ((c.tc : Thread nD τ).loc main_arg33) (ix1 o) := by
  refine (read_rect_origin main_v10 (win0_34.rect t) (off_whole t 34 (by decide)) (fun _ => rfl) (V m c main_v10)
    (ix2 0 ⟨o.val, by omega⟩) (ix2 0 ⟨o.val, by omega⟩) fun _ => rfl).trans ?_
  rw [V_padB]
  refine (scatter_set_origin scatter_S1x128_S1_S1x2_01_n_1_0 rfl rfl (by decide) (by decide) _ _ (fun _ => rfl) _ 0 o).trans ?_
  refine broadcastInDim_apply _ _ _ _ (ix1 o) fun a => ?_
  match a with
  | ⟨0, _⟩ => rfl

end Cert.KernelIdeal.Hand

end
-- ==== Proof.KI.Phase0Point.lean ====
/-
  Phase 0 at one grid point, at the ideal instance: what the point's block contributes, in the common function's terms.

  The point's block of the first node array, sent through the first node network, is the same block of rows of the
  whole array's image H1 (a network acts row by row); the difference of that value with itself, which the kernel feeds
  to its second and third one-hot products, is zero because every entry of H1 is a real number; and the one-hot matrix
  has a 1 at (g, r) exactly when the graph id of row 10000·t + r, read as a signed word, is g.
-/
import proofs.«107935_g3393024163881_fold_wed_m_362_29_alg».proof.Proof.Interface
import proofs.«107935_g3393024163881_fold_wed_m_362_29_alg».proof.Proof.SpecFin
import proofs.«107935_g3393024163881_fold_wed_m_362_29_alg».proof.Proof.SpecRows
import proofs.«107935_g3393024163881_fold_wed_m_362_29_alg».proof.Proof.KI.Payloads
import proofs.«107935_g3393024163881_fold_wed_m_362_29_alg».proof.Proof.KI.Blocks

noncomputable section

open scoped BigOperators

namespace Cert.KernelIdeal.Hand

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (c : Dev nD)

/-- The grid has 20 points. -/
theorem N20 : cfg0.N = 20 := N_0

/-- The first node network's parameters, read off the point's weight and bias blocks, are the inputs' first network. -/
theorem e1_blocks (t : Fin cfg0.N) :
    (⟨toMat (bE10 m c t), row (bE1b0 m c t), toMat (bE11 m c t), row (bE1b1 m c t), toMat (bE12 m c t), row (bE1b2 m c t)⟩ : Mlp 128 128)
      = (inK m c).e1 := by
  have hW0 : toMat (bE10 m c t) = (inK m c).e1.W0 := funext fun k => funext fun j => bE10_apply m c t k j
  have hb0 : row (bE1b0 m c t) = (inK m c).e1.b0 := funext fun j => bE1b0_apply m c t j
  have hW1 : toMat (bE11 m c t) = (inK m c).e1.W1 := funext fun k => funext fun j => bE11_apply m c t k j
  have hb1 : row (bE1b1 m c t) = (inK m c).e1.b1 := funext fun j => bE1b1_apply m c t j
  have hW2 : toMat (bE12 m c t) = (inK m c).e1.W2 := funext fun k => funext fun j => bE12_apply m c t k j
  have hb2 : row (bE1b2 m c t) = (inK m c).e1.b2 := funext fun j => bE1b2_apply m c t j
  rw [hW0, hb0, hW1, hb1, hW2, hb2]

/-- Row r of the point's block through the first node network is row 10000·t + r of H1. -/
theorem h1Blk_apply (t : Fin cfg0.N) (ht : t.val < 10) (r : Fin 10000) (j : Fin 128) :
    h1Blk (F := Ideal) m c t (ix2 r j) = H1 (inK m c) ⟨10000 * t.val + r.val, by omega⟩ j := by
  unfold h1Blk
  rw [pay7_apply, e1_blocks]
  exact Mlp.app_row (inK m c).e1 (toMat (bX1 m c t)) (inK m c).x1 r ⟨10000 * t.val + r.val, by omega⟩
    (fun k => bX1_apply m c t ht r k) j

/-- The value the kernel subtracts from itself is real, so the difference is zero. -/
theorem h1lo_apply (hOk : (inK m c).Ok) (t : Fin cfg0.N) (ht : t.val < 10) (r : Fin 10000) (j : Fin 128) :
    k0_pay9 (F := Ideal) (bX1 m c t) (bE10 m c t) (bE1b0 m c t) (bE11 m c t) (bE1b1 m c t) (bE12 m c t) (bE1b2 m c t) (ix2 r j) = 0 := by
  rw [pay9_apply]
  have h := h1Blk_apply m c t ht r j
  unfold h1Blk at h
  rw [h]
  exact sub_self_of_real (H1_real hOk _ _)

/-- The one-hot entry (g, r) of the point's first graph ids. -/
theorem oh1_apply (t : Fin cfg0.N) (ht : t.val < 10) (g : Fin 128) (r : Fin 10000) :
    k0_pay8 (F := Ideal) (bId1 m c t) (ix2 g r)
      = if ((inK m c).id1 ⟨10000 * t.val + r.val, by omega⟩).toInt = (g.val : ℤ) then 1 else 0 := by
  rw [pay8_apply]
  unfold oneHot
  rw [bId1_apply m c t r]
  have hmod : t.val % 10 = t.val := Nat.mod_eq_of_lt ht
  have hrow : (⟨10000 * (t.val % 10) + r.val, by omega⟩ : Fin 100000) = ⟨10000 * t.val + r.val, by omega⟩ :=
    Fin.ext (by simp only [hmod])
  rw [hrow]
  rfl

end Cert.KernelIdeal.Hand

end
-- ==== Proof.KI.Phase0.lean ====
/-
  Phase 0 over the grid points, at the ideal instance: after block n the first accumulator holds, for every graph g,
  the sum of the rows of H1 before row 10000·(n+1) whose graph id is g.

  One point adds to the accumulator three one-hot products. The first is the sum of the block's rows of H1 whose graph
  id is g (a product with a 0/1 matrix is a sum over the 1s); the other two are products with a matrix of zeros
  (Phase0Point: the block's values are real, so their difference with themselves vanishes) and contribute nothing.
  The first point starts from the zero store.
-/
import proofs.«107935_g3393024163881_fold_wed_m_362_29_alg».proof.Proof.KI.Phase0Point

noncomputable section

open scoped BigOperators

namespace Cert.KernelIdeal.Hand

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (c : Dev nD)

/-- One point of phase 0: the accumulator plus the sum of the block's rows of H1 whose graph id is g. -/
theorem agg1Step_apply (hOk : (inK m c).Ok) (t : Fin cfg0.N) (ht : t.val < 10) (a : Vec Ideal S128x128 .f32) (g j : Fin 128) :
    agg1Step (F := Ideal) m c t a (ix2 g j)
      = a (ix2 g j)
        + ∑ r ∈ Finset.univ.filter
            (fun r : Fin 10000 => ((inK m c).id1 ⟨10000 * t.val + r.val, by omega⟩).toInt = (g.val : ℤ)),
            H1 (inK m c) ⟨10000 * t.val + r.val, by omega⟩ j := by
  unfold agg1Step
  rw [pay3_apply]
  -- the two products with the vanishing difference
  have hz1 : (∑ r : Fin 10000, k0_pay8 (F := Ideal) (bId1 m c t) (ix2 g r)
      * k0_pay9 (F := Ideal) (bX1 m c t) (bE10 m c t) (bE1b0 m c t) (bE11 m c t) (bE1b1 m c t) (bE12 m c t) (bE1b2 m c t) (ix2 r j)) = 0 :=
    Finset.sum_eq_zero fun r _ => by rw [h1lo_apply m c hOk t ht r j, mul_zero]
  have hz2 : (∑ r : Fin 10000, k0_pay8 (F := Ideal) (bId1 m c t) (ix2 g r)
      * (k0_pay9 (F := Ideal) (bX1 m c t) (bE10 m c t) (bE1b0 m c t) (bE11 m c t) (bE1b1 m c t) (bE12 m c t) (bE1b2 m c t) (ix2 r j)
        - k0_pay9 (F := Ideal) (bX1 m c t) (bE10 m c t) (bE1b0 m c t) (bE11 m c t) (bE1b1 m c t) (bE12 m c t) (bE1b2 m c t) (ix2 r j))) = 0 :=
    Finset.sum_eq_zero fun r _ => by rw [h1lo_apply m c hOk t ht r j, sub_zero, mul_zero]
  -- the product with the block's values: a sum over the rows whose graph id is g
  have hs : (∑ r : Fin 10000, k0_pay8 (F := Ideal) (bId1 m c t) (ix2 g r) * h1Blk (F := Ideal) m c t (ix2 r j))
      = ∑ r ∈ Finset.univ.filter
          (fun r : Fin 10000 => ((inK m c).id1 ⟨10000 * t.val + r.val, by omega⟩).toInt = (g.val : ℤ)),
          H1 (inK m c) ⟨10000 * t.val + r.val, by omega⟩ j := by
    have := sum_onehot_mul (G := 128) (n := 10000)
      (fun g r => k0_pay8 (F := Ideal) (bId1 m c t) (ix2 g r))
      (fun g r => ((inK m c).id1 ⟨10000 * t.val + r.val, by omega⟩).toInt = (g.val : ℤ))
      (fun g r => oh1_apply m c t ht g r)
      (fun r => H1 (inK m c) ⟨10000 * t.val + r.val, by omega⟩ j) g
    rw [← this]
    exact Finset.sum_congr rfl fun r _ => by rw [h1Blk_apply m c t ht r j]
  rw [hz1, hz2, hs, add_zero, add_zero]

/-- After block n of phase 0 the first accumulator holds the per-graph sums of the rows before 10000·(n+1). -/
theorem agg1_at (hOk : (inK m c).Ok) (n : ℕ) (hn : n < 10) (g j : Fin 128) :
    (stAt (F := Ideal) m c n (by rw [N20]; omega)).agg1 (ix2 g j)
      = segUpTo (10000 * (n + 1)) (inK m c).id1 (H1 (inK m c)) g j := by
  induction n with
  | zero =>
    rw [stAt_zero]
    have hstep : (stepSt (F := Ideal) m c ⟨0, by rw [N20]; omega⟩ stInit).agg1
        = agg1Step (F := Ideal) m c ⟨0, by rw [N20]; omega⟩ (k0_pay1 (F := Ideal)) := by
      unfold stepSt
      rw [if_pos rfl]
    rw [hstep, agg1Step_apply m c hOk ⟨0, by rw [N20]; omega⟩ (by show (0 : ℕ) < 10; omega) (k0_pay1 (F := Ideal)) g j, pay1_apply,
      segUpTo_block (inK m c).id1 (H1 (inK m c)) g j 0 (by omega), segUpTo_zero]
  | succ n ih =>
    have hn' : n < 10 := by omega
    rw [stAt_succ]
    have hstep : (stepSt (F := Ideal) m c ⟨n + 1, by rw [N20]; omega⟩ (stAt m c n (by rw [N20]; omega))).agg1
        = agg1Step (F := Ideal) m c ⟨n + 1, by rw [N20]; omega⟩ (stAt m c n (by rw [N20]; omega)).agg1 := by
      unfold stepSt
      rw [if_neg (by show ¬ (n + 1 = 0); omega), if_pos (by show n + 1 < 10; omega)]
    rw [hstep, agg1Step_apply m c hOk ⟨n + 1, by rw [N20]; omega⟩ (by show n + 1 < 10; omega) _ g j, ih hn',
      segUpTo_block (inK m c).id1 (H1 (inK m c)) g j (n + 1) (by omega)]

end Cert.KernelIdeal.Hand

end
-- ==== Proof.KI.Turn.lean ====
/-
  The turn between the phases (grid point 10), at the ideal instance: the first graph network on the finished first
  accumulator is the graph embedding U1.

  After the last block of phase 0 the accumulator holds the per-graph sums over all 100000 rows, which is A1; phase 1's
  points do not touch it; and the first graph network's parameters, read off the point's weight and bias blocks, are
  the inputs' second network. From point 10 on the embedding buffer is not stored again.
-/
import proofs.«107935_g3393024163881_fold_wed_m_362_29_alg».proof.Proof.KI.Phase0

noncomputable section

open scoped BigOperators

namespace Cert.KernelIdeal.Hand

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (c : Dev nD)

/-- The first graph network's parameters, read off the point's blocks, are the inputs' second network. -/
theorem r1_blocks (t : Fin cfg0.N) :
    (⟨toMat (bR10 m c t), row (bR1b0 m c t), toMat (bR11 m c t), row (bR1b1 m c t), toMat (bR12 m c t), row (bR1b2 m c t)⟩ : Mlp 128 128)
      = (inK m c).r1 := by
  have hW0 : toMat (bR10 m c t) = (inK m c).r1.W0 := funext fun k => funext fun j => bR10_apply m c t k j
  have hb0 : row (bR1b0 m c t) = (inK m c).r1.b0 := funext fun j => bR1b0_apply m c t j
  have hW1 : toMat (bR11 m c t) = (inK m c).r1.W1 := funext fun k => funext fun j => bR11_apply m c t k j
  have hb1 : row (bR1b1 m c t) = (inK m c).r1.b1 := funext fun j => bR1b1_apply m c t j
  have hW2 : toMat (bR12 m c t) = (inK m c).r1.W2 := funext fun k => funext fun j => bR12_apply m c t k j
  have hb2 : row (bR1b2 m c t) = (inK m c).r1.b2 := funext fun j => bR1b2_apply m c t j
  rw [hW0, hb0, hW1, hb1, hW2, hb2]

/-- The finished first accumulator is A1. -/
theorem agg1_done (hOk : (inK m c).Ok) :
    toMat ((stAt (F := Ideal) m c 9 (by rw [N20]; omega)).agg1) = A1 (inK m c) := by
  funext g j
  show (stAt (F := Ideal) m c 9 _).agg1 (ix2 g j) = A1 (inK m c) g j
  rw [agg1_at m c hOk 9 (by omega) g j]
  show segUpTo 100000 (inK m c).id1 (H1 (inK m c)) g j = A1 (inK m c) g j
  rw [segUpTo_full]
  rfl

/-- The first graph network on an accumulator that is A1 gives the graph embedding. -/
theorem u1sOf_apply (t : Fin cfg0.N) (a : Vec Ideal S128x128 .f32) (ha : toMat a = A1 (inK m c)) (g j : Fin 128) :
    u1sOf (F := Ideal) m c t a (ix2 g j) = U1 (inK m c) g j := by
  unfold u1sOf
  rw [pay4_apply, r1_blocks, ha]
  rfl

end Cert.KernelIdeal.Hand

end
-- ==== Proof.KI.Phase1Point.lean ====
/-
  Phase 1 at one grid point, at the ideal instance: the point's block of the second node array, each row joined with the
  embedding row its first graph id selects, through the second node network, is the same block of rows of H2.

  The kernel selects embedding rows by a product with the one-hot matrix transposed. Every first graph id is a graph
  number (the stated domain), so a row's one-hot column has exactly one 1, at that number, and the product picks that
  row of the embedding: the same row the reference's gather reads. The 256-row first weight matrix reaches the kernel
  as its two 128-row halves, the upper acting on the node row, the lower on the embedding row. Every later layer acts
  row by row.
-/
import proofs.«107935_g3393024163881_fold_wed_m_362_29_alg».proof.Proof.KI.Turn

noncomputable section

open scoped BigOperators

namespace Cert.KernelIdeal.Hand

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (c : Dev nD)

/-- A point of phase 1 is one of the grid's 20: its block number t − 10 is below 10. -/
theorem ph1_row_lt (t : Fin cfg0.N) (r : Fin 10000) : 10000 * (t.val - 10) + r.val < 100000 := by
  have := pt_lt t
  omega

/-- In phase 1 the id windows' block number t mod 10 is t − 10. -/
theorem ph1_mod (t : Fin cfg0.N) (ht : 10 ≤ t.val) : t.val % 10 = t.val - 10 := by
  have := pt_lt t
  omega

/-- A word that is a graph number names that graph when read signed and clamped. -/
theorem rowOf128_of_range (w : BitVec 32) (h0 : 0 ≤ w.toInt) (h1 : w.toInt < 128) (g : Fin 128) :
    w.toInt = (g.val : ℤ) ↔ g = rowOf128 w := by
  unfold rowOf128
  constructor
  · intro h
    apply Fin.ext
    show g.val = min w.toInt.toNat 127
    omega
  · intro h
    have hv : g.val = min w.toInt.toNat 127 := congrArg Fin.val h
    omega

/-- The one-hot product picks the embedding row the row's first graph id names. -/
theorem gathered_apply (hOk : (inK m c).Ok) (t : Fin cfg0.N) (ht : 10 ≤ t.val) (u : Vec Ideal S128x128 .f32)
    (r : Fin 10000) (k : Fin 128) :
    gathered (bId1 m c t) u r k
      = gath (inK m c).id1 (toMat u) ⟨10000 * (t.val - 10) + r.val, ph1_row_lt t r⟩ k := by
  unfold gathered gath oneHot
  have hid : bId1 m c t (ix3 0 0 r) = (inK m c).id1 ⟨10000 * (t.val - 10) + r.val, ph1_row_lt t r⟩ := by
    rw [bId1_apply m c t r]
    have hrow : (⟨10000 * (t.val % 10) + r.val, by omega⟩ : Fin 100000) = ⟨10000 * (t.val - 10) + r.val, ph1_row_lt t r⟩ :=
      Fin.ext (by simp only [ph1_mod t ht])
    rw [hrow]
    rfl
  rw [hid]
  obtain ⟨h0, h1⟩ := hOk.id1 ⟨10000 * (t.val - 10) + r.val, ph1_row_lt t r⟩
  rw [Finset.sum_eq_single (rowOf128 ((inK m c).id1 ⟨10000 * (t.val - 10) + r.val, ph1_row_lt t r⟩))]
  · rw [if_pos ((rowOf128_of_range _ h0 h1 _).mpr rfl), one_mul]
    rfl
  · intro g _ hg
    rw [if_neg (fun h => hg ((rowOf128_of_range _ h0 h1 g).mp h)), zero_mul]
  · intro h
    exact absurd (Finset.mem_univ _) h

/-- The upper half of the first weight matrix, as the kernel finds it, is rows 0 … 127 of the 256-row matrix. -/
theorem w0a_apply (t : Fin cfg0.N) (k j : Fin 128) :
    toMat (bW0a m c t) k j = (inK m c).e2.W0 (Fin.castAdd 128 k) j := by
  show bW0a m c t (ix2 k j) = _
  rw [bW0a_apply m c t k j]
  rfl

/-- The lower half is rows 128 … 255. -/
theorem w0b_apply (t : Fin cfg0.N) (k j : Fin 128) :
    toMat (bW0b m c t) k j = (inK m c).e2.W0 (Fin.natAdd 128 k) j := by
  show bW0b m c t (ix2 k j) = _
  rw [bW0b_apply m c t k j]
  rfl

/-- The split first layer on the point's block is the same rows of the common function's first layer. -/
theorem split_apply (hOk : (inK m c).Ok) (t : Fin cfg0.N) (ht : 10 ≤ t.val) (u : Vec Ideal S128x128 .f32)
    (hu : toMat u = U1 (inK m c)) (r : Fin 10000) (j : Fin 128) :
    linSplit (toMat (bX2 m c t)) (gathered (bId1 m c t) u) (toMat (bW0a m c t)) (toMat (bW0b m c t)) (row (bE2b0 m c t)) r j
      = lin2 (inK m c).x2 (gath (inK m c).id1 (U1 (inK m c))) (inK m c).e2.W0 (inK m c).e2.b0
          ⟨10000 * (t.val - 10) + r.val, ph1_row_lt t r⟩ j := by
  have hb : row (bE2b0 m c t) j = (inK m c).e2.b0 j := bE2b0_apply m c t j
  have hx : (∑ k : Fin 128, toMat (bX2 m c t) r k * toMat (bW0a m c t) k j)
      = ∑ k : Fin 128, (inK m c).x2 ⟨10000 * (t.val - 10) + r.val, ph1_row_lt t r⟩ k * (inK m c).e2.W0 (Fin.castAdd 128 k) j :=
    Finset.sum_congr rfl fun k _ => by
      rw [w0a_apply m c t k j]
      exact congrArg (· * (inK m c).e2.W0 (Fin.castAdd 128 k) j) (bX2_apply m c t ht r k)
  have hg : (∑ k : Fin 128, gathered (bId1 m c t) u r k * toMat (bW0b m c t) k j)
      = ∑ k : Fin 128, gath (inK m c).id1 (U1 (inK m c)) ⟨10000 * (t.val - 10) + r.val, ph1_row_lt t r⟩ k
          * (inK m c).e2.W0 (Fin.natAdd 128 k) j :=
    Finset.sum_congr rfl fun k _ => by
      rw [w0b_apply m c t k j, gathered_apply m c hOk t ht u r k, hu]
  exact congrArg₂ (· + ·) (congrArg₂ (· + ·) hx hg) hb

end Cert.KernelIdeal.Hand

end
-- ==== Proof.KI.Phase1Step.lean ====
/-
  Phase 1 at one grid point, continued: the block's rows through the whole second node network are rows of H2, the value
  the kernel subtracts from itself vanishes, and one point adds to the second accumulator the sum of the block's rows of
  H2 whose SECOND graph id is g.

  After the split first layer (Phase1Point) every layer acts row by row; the kernel adds the last layer's bias where it
  takes the per-graph sums, which is the same value. Every entry of H2 is a real number, so the second one-hot product,
  of the value's difference with itself, contributes nothing.
-/
import proofs.«107935_g3393024163881_fold_wed_m_362_29_alg».proof.Proof.KI.Phase1Point

noncomputable section

open scoped BigOperators

namespace Cert.KernelIdeal.Hand

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (c : Dev nD)

/-- Row r of the point's block through the second node network, with the last bias, is row 10000·(t − 10) + r of H2. -/
theorem h2Blk_apply (hOk : (inK m c).Ok) (t : Fin cfg0.N) (ht : 10 ≤ t.val) (u : Vec Ideal S128x128 .f32)
    (hu : toMat u = U1 (inK m c)) (r : Fin 10000) (j : Fin 128) :
    h2Blk (F := Ideal) m c t u (ix2 r j) + row (bE2b2 m c t) j
      = H2 (inK m c) ⟨10000 * (t.val - 10) + r.val, ph1_row_lt t r⟩ j := by
  unfold h2Blk
  rw [pay10_apply]
  have hW1 : toMat (bE21 m c t) = (inK m c).e2.W1 := funext fun k => funext fun j => bE21_apply m c t k j
  have hb1 : row (bE2b1 m c t) = (inK m c).e2.b1 := funext fun j => bE2b1_apply m c t j
  have hb2 : row (bE2b2 m c t) j = (inK m c).e2.b2 j := bE2b2_apply m c t j
  -- the hidden layers, row by row over the split first layer
  have hhid : ∀ k : Fin 128,
      (relu (lin (relu (linSplit (toMat (bX2 m c t)) (gathered (bId1 m c t) u) (toMat (bW0a m c t)) (toMat (bW0b m c t))
          (row (bE2b0 m c t)))) (toMat (bE21 m c t)) (row (bE2b1 m c t)))) r k
        = (relu (lin (relu (lin2 (inK m c).x2 (gath (inK m c).id1 (U1 (inK m c))) (inK m c).e2.W0 (inK m c).e2.b0))
            (inK m c).e2.W1 (inK m c).e2.b1)) ⟨10000 * (t.val - 10) + r.val, ph1_row_lt t r⟩ k := by
    intro k
    rw [hW1, hb1]
    refine relu_row _ _ r ⟨10000 * (t.val - 10) + r.val, ph1_row_lt t r⟩ (fun k => ?_) k
    refine lin_row _ _ _ _ r ⟨10000 * (t.val - 10) + r.val, ph1_row_lt t r⟩ (fun k => ?_) k
    refine relu_row _ _ r ⟨10000 * (t.val - 10) + r.val, ph1_row_lt t r⟩ (fun k => ?_) k
    exact split_apply m c hOk t ht u hu r k
  have hsum : (∑ k : Fin 128,
      (relu (lin (relu (linSplit (toMat (bX2 m c t)) (gathered (bId1 m c t) u) (toMat (bW0a m c t)) (toMat (bW0b m c t))
          (row (bE2b0 m c t)))) (toMat (bE21 m c t)) (row (bE2b1 m c t)))) r k * bE22 m c t (ix2 k j))
      = ∑ k : Fin 128,
          (relu (lin (relu (lin2 (inK m c).x2 (gath (inK m c).id1 (U1 (inK m c))) (inK m c).e2.W0 (inK m c).e2.b0))
            (inK m c).e2.W1 (inK m c).e2.b1)) ⟨10000 * (t.val - 10) + r.val, ph1_row_lt t r⟩ k * (inK m c).e2.W2 k j :=
    Finset.sum_congr rfl fun k _ => by
      rw [hhid k]
      exact congrArg (_ * ·) (bE22_apply m c t k j)
  rw [hsum, hb2]
  rfl

/-- The value phase 1 subtracts from itself is real, so the difference is zero. -/
theorem h2lo_zero (hOk : (inK m c).Ok) (t : Fin cfg0.N) (ht : 10 ≤ t.val) (u : Vec Ideal S128x128 .f32)
    (hu : toMat u = U1 (inK m c)) (r : Fin 10000) (j : Fin 128) :
    (h2Blk (F := Ideal) m c t u (ix2 r j) + row (bE2b2 m c t) j)
      - (h2Blk (F := Ideal) m c t u (ix2 r j) + row (bE2b2 m c t) j) = 0 := by
  rw [h2Blk_apply m c hOk t ht u hu r j]
  exact sub_self_of_real (H2_real hOk _ _)

/-- The one-hot entry (g, r) of the point's second graph ids. -/
theorem oh2_apply (t : Fin cfg0.N) (ht : 10 ≤ t.val) (g : Fin 128) (r : Fin 10000) :
    oneHot (bId2 m c t) g r
      = if ((inK m c).id2 ⟨10000 * (t.val - 10) + r.val, ph1_row_lt t r⟩).toInt = (g.val : ℤ) then 1 else 0 := by
  unfold oneHot
  rw [bId2_apply m c t r]
  have hrow : (⟨10000 * (t.val % 10) + r.val, by omega⟩ : Fin 100000) = ⟨10000 * (t.val - 10) + r.val, ph1_row_lt t r⟩ :=
    Fin.ext (by simp only [ph1_mod t ht])
  rw [hrow]
  rfl

/-- One point of phase 1: the accumulator plus the sum of the block's rows of H2 whose second graph id is g. -/
theorem agg2Step_apply (hOk : (inK m c).Ok) (t : Fin cfg0.N) (ht : 10 ≤ t.val) (u a : Vec Ideal S128x128 .f32)
    (hu : toMat u = U1 (inK m c)) (g j : Fin 128) :
    agg2Step (F := Ideal) m c t u a (ix2 g j)
      = a (ix2 g j)
        + ∑ r ∈ Finset.univ.filter
            (fun r : Fin 10000 => ((inK m c).id2 ⟨10000 * (t.val - 10) + r.val, ph1_row_lt t r⟩).toInt = (g.val : ℤ)),
            H2 (inK m c) ⟨10000 * (t.val - 10) + r.val, ph1_row_lt t r⟩ j := by
  unfold agg2Step
  rw [pay5_apply]
  have hz : (∑ r : Fin 10000, oneHot (bId2 m c t) g r
      * ((h2Blk (F := Ideal) m c t u (ix2 r j) + row (bE2b2 m c t) j)
        - (h2Blk (F := Ideal) m c t u (ix2 r j) + row (bE2b2 m c t) j))) = 0 :=
    Finset.sum_eq_zero fun r _ => by rw [h2lo_zero m c hOk t ht u hu r j, mul_zero]
  have hs : (∑ r : Fin 10000, oneHot (bId2 m c t) g r * (h2Blk (F := Ideal) m c t u (ix2 r j) + row (bE2b2 m c t) j))
      = ∑ r ∈ Finset.univ.filter
          (fun r : Fin 10000 => ((inK m c).id2 ⟨10000 * (t.val - 10) + r.val, ph1_row_lt t r⟩).toInt = (g.val : ℤ)),
          H2 (inK m c) ⟨10000 * (t.val - 10) + r.val, ph1_row_lt t r⟩ j := by
    have := sum_onehot_mul (G := 128) (n := 10000)
      (fun g r => oneHot (bId2 m c t) g r)
      (fun g r => ((inK m c).id2 ⟨10000 * (t.val - 10) + r.val, ph1_row_lt t r⟩).toInt = (g.val : ℤ))
      (fun g r => oh2_apply m c t ht g r)
      (fun r => H2 (inK m c) ⟨10000 * (t.val - 10) + r.val, ph1_row_lt t r⟩ j) g
    rw [← this]
    exact Finset.sum_congr rfl fun r _ => by rw [h2Blk_apply m c hOk t ht u hu r j]
  show a (ix2 g j) + ((∑ r : Fin 10000, oneHot (bId2 m c t) g r * (h2Blk (F := Ideal) m c t u (ix2 r j) + row (bE2b2 m c t) j))
      + (∑ r : Fin 10000, oneHot (bId2 m c t) g r
        * ((h2Blk (F := Ideal) m c t u (ix2 r j) + row (bE2b2 m c t) j)
          - (h2Blk (F := Ideal) m c t u (ix2 r j) + row (bE2b2 m c t) j)))) = _
  rw [hz, hs, add_zero]

end Cert.KernelIdeal.Hand

end
-- ==== Proof.KI.Phase1.lean ====
/-
  Phase 1 over the grid points, at the ideal instance.

  Which buffer a point writes is read off the recursion: points 1 … 9 leave the second accumulator at its zero store;
  point 10 stores the embedding, and no later point stores it or the first accumulator again. So from point 10 on the
  embedding buffer holds U1, and after block n of phase 1 (point 10 + n) the second accumulator holds, for every graph
  g, the sum of the rows of H2 before row 10000·(n+1) whose second graph id is g.
-/
import proofs.«107935_g3393024163881_fold_wed_m_362_29_alg».proof.Proof.KI.Phase1Step

noncomputable section

open scoped BigOperators

namespace Cert.KernelIdeal.Hand

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (c : Dev nD)

/-- A point of the grid, from its number. -/
abbrev pt (n : ℕ) (hn : n < 20) : Fin cfg0.N := ⟨n, by rw [N20]; exact hn⟩

/-- The buffers after point n, with the bound stated against 20. -/
abbrev stN (n : ℕ) (hn : n < 20) : St Ideal := stAt (F := Ideal) m c n (by rw [N20]; exact hn)

/-- Points 1 … 9 (phase 0 after the first point): only the first accumulator changes. -/
theorem stN_phase0 (n : ℕ) (h0 : 0 < n) (h9 : n < 10) :
    stN m c n (by omega) = { stN m c (n - 1) (by omega) with agg1 := agg1Step m c (pt n (by omega)) (stN m c (n - 1) (by omega)).agg1 } := by
  obtain ⟨k, rfl⟩ : ∃ k, n = k + 1 := ⟨n - 1, by omega⟩
  show stAt (F := Ideal) m c (k + 1) _ = _
  rw [stAt_succ]
  unfold stepSt
  rw [if_neg (by show ¬ (k + 1 = 0); omega), if_pos (by show k + 1 < 10; omega)]
  rfl

/-- Point 10: the embedding is stored, and the second accumulator takes its first block. -/
theorem stN_turn :
    stN m c 10 (by omega) = { stN m c 9 (by omega) with
      u1s := u1sOf m c (pt 10 (by omega)) (stN m c 9 (by omega)).agg1,
      agg2 := agg2Step m c (pt 10 (by omega)) (u1sOf m c (pt 10 (by omega)) (stN m c 9 (by omega)).agg1) (stN m c 9 (by omega)).agg2 } := by
  show stAt (F := Ideal) m c (9 + 1) _ = _
  rw [stAt_succ]
  unfold stepSt
  rw [if_neg (by show ¬ (9 + 1 = 0); omega), if_neg (by show ¬ (9 + 1 < 10); omega), if_pos (by show 9 + 1 = 10; rfl)]

/-- Points 11 … 19: the second accumulator takes a block (and the last point also stores the output). -/
theorem stN_phase1_agg2 (n : ℕ) (h10 : 10 < n) (h20 : n < 20) :
    (stN m c n h20).agg2 = agg2Step m c (pt n h20) (stN m c (n - 1) (by omega)).u1s (stN m c (n - 1) (by omega)).agg2
      ∧ (stN m c n h20).u1s = (stN m c (n - 1) (by omega)).u1s := by
  obtain ⟨k, rfl⟩ : ∃ k, n = k + 1 := ⟨n - 1, by omega⟩
  show (stAt (F := Ideal) m c (k + 1) _).agg2 = _ ∧ (stAt (F := Ideal) m c (k + 1) _).u1s = _
  rw [stAt_succ]
  unfold stepSt
  rw [if_neg (by show ¬ (k + 1 = 0); omega), if_neg (by show ¬ (k + 1 < 10); omega), if_neg (by show ¬ (k + 1 = 10); omega)]
  by_cases h19 : k + 1 < 19
  · rw [if_pos (by show k + 1 < 19; exact h19)]
    exact ⟨rfl, rfl⟩
  · rw [if_neg (by show ¬ (k + 1 < 19); exact h19)]
    exact ⟨rfl, rfl⟩

/-- Through phase 0 the second accumulator stays at its zero store. -/
theorem agg2_phase0 (n : ℕ) (h9 : n < 10) : (stN m c n (by omega)).agg2 = k0_pay2 (F := Ideal) := by
  induction n with
  | zero =>
    show (stAt (F := Ideal) m c 0 _).agg2 = _
    rw [stAt_zero]
    unfold stepSt
    rw [if_pos rfl]
  | succ k ih =>
    rw [stN_phase0 m c (k + 1) (by omega) h9]
    exact ih (by omega)

/-- From point 10 on the embedding buffer holds the graph embedding. -/
theorem u1s_at (hOk : (inK m c).Ok) (n : ℕ) (h10 : 10 ≤ n) (h20 : n < 20) :
    toMat (stN m c n h20).u1s = U1 (inK m c) := by
  induction n with
  | zero => omega
  | succ k ih =>
    by_cases hk : k + 1 = 10
    · have h9 : k = 9 := by omega
      subst h9
      rw [stN_turn]
      funext g j
      exact u1sOf_apply m c (pt 10 (by omega)) _ (agg1_done m c hOk) g j
    · rw [(stN_phase1_agg2 m c (k + 1) (by omega) h20).2]
      exact ih (by omega) (by omega)

/-- After block n of phase 1 the second accumulator holds the per-graph sums of the rows before 10000·(n+1). -/
theorem agg2_at (hOk : (inK m c).Ok) (n : ℕ) (hn : n < 10) (g j : Fin 128) :
    (stN m c (10 + n) (by omega)).agg2 (ix2 g j)
      = segUpTo (10000 * (n + 1)) (inK m c).id2 (H2 (inK m c)) g j := by
  induction n with
  | zero =>
    show (stN m c 10 (by omega)).agg2 (ix2 g j) = _
    rw [stN_turn]
    show agg2Step (F := Ideal) m c (pt 10 (by omega)) (u1sOf m c (pt 10 (by omega)) (stN m c 9 (by omega)).agg1)
        (stN m c 9 (by omega)).agg2 (ix2 g j) = _
    have hu : toMat (u1sOf (F := Ideal) m c (pt 10 (by omega)) (stN m c 9 (by omega)).agg1) = U1 (inK m c) :=
      funext fun g => funext fun j => u1sOf_apply m c (pt 10 (by omega)) _ (agg1_done m c hOk) g j
    rw [agg2Step_apply m c hOk (pt 10 (by omega)) (by show 10 ≤ 10; omega) _ _ hu g j, agg2_phase0 m c 9 (by omega), pay2_apply,
      segUpTo_block (inK m c).id2 (H2 (inK m c)) g j 0 (by omega), segUpTo_zero]
    rfl
  | succ k ih =>
    have hk : k < 10 := by omega
    have hstep := (stN_phase1_agg2 m c (10 + (k + 1)) (by omega) (by omega)).1
    have hprev : 10 + (k + 1) - 1 = 10 + k := by omega
    rw [hstep]
    have hu : toMat (stN m c (10 + (k + 1) - 1) (by omega)).u1s = U1 (inK m c) := u1s_at m c hOk _ (by omega) (by omega)
    rw [agg2Step_apply m c hOk (pt (10 + (k + 1)) (by omega)) (by show 10 ≤ 10 + (k + 1); omega) _ _ hu g j,
      segUpTo_block (inK m c).id2 (H2 (inK m c)) g j (k + 1) (by omega)]
    have hacc : (stN m c (10 + (k + 1) - 1) (by omega)).agg2 (ix2 g j)
        = segUpTo (10000 * (k + 1)) (inK m c).id2 (H2 (inK m c)) g j := by
      have := ih hk
      simpa only [hprev] using this
    rw [hacc]
    have hb : (10 + (k + 1)) - 10 = k + 1 := by omega
    simp only [hb]

end Cert.KernelIdeal.Hand

end
-- ==== Proof.KI.Output.lean ====
/-
  The last grid point, at the ideal instance: the output buffer's first two columns hold the result.

  The last point stores the output from the same value it stores into the second accumulator, which by then holds the
  per-graph sums over all 100000 rows, A2. The second graph network on A2 is U2. The output network's last layer reaches
  the kernel padded from 2 to 128 columns; a layer's column depends only on that column of its weight matrix and bias,
  and the padded matrix's columns 0 and 1 are the given ones, so columns 0 and 1 of the output are the result.
-/
import proofs.«107935_g3393024163881_fold_wed_m_362_29_alg».proof.Proof.KI.Phase1

noncomputable section

open scoped BigOperators

namespace Cert.KernelIdeal.Hand

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (c : Dev nD)

/-- A linear layer's column depends only on that column of its weight matrix and bias. -/
theorem lin_col {N K J J' : ℕ} (x : Mat N K) (W : Mat K J) (b : Fin J → EReal) (W' : Mat K J') (b' : Fin J' → EReal)
    (j : Fin J) (j' : Fin J') (hW : ∀ k, W k j = W' k j') (hb : b j = b' j') (n : Fin N) :
    lin x W b n j = lin x W' b' n j' := by
  unfold lin
  exact congrArg₂ (· + ·) (Finset.sum_congr rfl fun k _ => by rw [hW k]) hb

/-- The second graph network's parameters, read off the point's blocks, are the inputs' fourth network. -/
theorem r2_blocks (t : Fin cfg0.N) :
    (⟨toMat (bR20 m c t), row (bR2b0 m c t), toMat (bR21 m c t), row (bR2b1 m c t), toMat (bR22 m c t), row (bR2b2 m c t)⟩ : Mlp 128 128)
      = (inK m c).r2 := by
  have hW0 : toMat (bR20 m c t) = (inK m c).r2.W0 := funext fun k => funext fun j => bR20_apply m c t k j
  have hb0 : row (bR2b0 m c t) = (inK m c).r2.b0 := funext fun j => bR2b0_apply m c t j
  have hW1 : toMat (bR21 m c t) = (inK m c).r2.W1 := funext fun k => funext fun j => bR21_apply m c t k j
  have hb1 : row (bR2b1 m c t) = (inK m c).r2.b1 := funext fun j => bR2b1_apply m c t j
  have hW2 : toMat (bR22 m c t) = (inK m c).r2.W2 := funext fun k => funext fun j => bR22_apply m c t k j
  have hb2 : row (bR2b2 m c t) = (inK m c).r2.b2 := funext fun j => bR2b2_apply m c t j
  rw [hW0, hb0, hW1, hb1, hW2, hb2]

/-- The last point stores the output from the value it stores into the second accumulator. -/
theorem stN_last : (stN m c 19 (by omega)).out = outOf m c (pt 19 (by omega)) (stN m c 19 (by omega)).agg2 := by
  show (stAt (F := Ideal) m c (18 + 1) _).out = outOf m c _ (stAt (F := Ideal) m c (18 + 1) _).agg2
  rw [stAt_succ]
  unfold stepSt
  rw [if_neg (by show ¬ (18 + 1 = 0); omega), if_neg (by show ¬ (18 + 1 < 10); omega), if_neg (by show ¬ (18 + 1 = 10); omega),
    if_neg (by show ¬ (18 + 1 < 19); omega)]

/-- The finished second accumulator is A2. -/
theorem agg2_done (hOk : (inK m c).Ok) : toMat (stN m c 19 (by omega)).agg2 = A2 (inK m c) := by
  funext g j
  show (stN m c (10 + 9) (by omega)).agg2 (ix2 g j) = A2 (inK m c) g j
  rw [agg2_at m c hOk 9 (by omega) g j]
  show segUpTo 100000 (inK m c).id2 (H2 (inK m c)) g j = A2 (inK m c) g j
  rw [segUpTo_full]
  rfl

/-- The two closing networks on an accumulator that is A2, at the output's first two columns. -/
theorem outOf_apply (t : Fin cfg0.N) (a : Vec Ideal S128x128 .f32) (ha : toMat a = A2 (inK m c)) (g : Fin 128) (o : Fin 2) :
    outOf (F := Ideal) m c t a (ix2 g ⟨o.val, by omega⟩) = Out (inK m c) g o := by
  unfold outOf
  rw [pay6_apply, pay12_eq, pay13_eq, pay14_eq, pay11_eq, r2_blocks, ha]
  have hW0 : toMat (bM0 m c t) = (inK m c).mo.W0 := funext fun k => funext fun j => bM0_apply m c t k j
  have hb0 : row (bMb0 m c t) = (inK m c).mo.b0 := funext fun j => bMb0_apply m c t j
  have hW1 : toMat (bM1 m c t) = (inK m c).mo.W1 := funext fun k => funext fun j => bM1_apply m c t k j
  have hb1 : row (bMb1 m c t) = (inK m c).mo.b1 := funext fun j => bMb1_apply m c t j
  rw [hW0, hb0, hW1, hb1]
  show lin (relu (lin (relu (lin ((inK m c).r2.app (A2 (inK m c))) (inK m c).mo.W0 (inK m c).mo.b0)) (inK m c).mo.W1 (inK m c).mo.b1))
      (toMat (bM2p m c t)) (row (bMb2p m c t)) g ⟨o.val, by omega⟩ = _
  exact lin_col _ (toMat (bM2p m c t)) (row (bMb2p m c t)) (inK m c).mo.W2 (inK m c).mo.b2 ⟨o.val, by omega⟩ o
    (fun k => bM2p_apply m c t k o) (bMb2p_apply m c t o) g

/-- After the last point the output buffer's first two columns hold the result. -/
theorem out_at (hOk : (inK m c).Ok) (g : Fin 128) (o : Fin 2) :
    (stN m c 19 (by omega)).out (ix2 g ⟨o.val, by omega⟩) = Out (inK m c) g o := by
  rw [stN_last]
  exact outOf_apply m c (pt 19 (by omega)) _ (agg2_done m c hOk) g o

end Cert.KernelIdeal.Hand

end
-- ==== Proof.KI.Result.lean ====
/-
  The kernel program's result, read off its run.

  The run of the whole program leaves every array of the pipeline at what the write-backs make of it, and every other
  buffer as the one operation after the region leaves it. The output window is written back at the last grid point
  only (point 19 of the 2 × 10 grid), and its block there is the whole 128 × 128 output array: so after the region that
  array holds the output buffer the last point left. The operation after the region keeps its columns 0 and 1, and
  those columns of the last point's output buffer are the common function's output on the argument arrays. With the
  frame (every argument array ends as launched) this is the kernel side of the claim: the program's result is the
  common function of its arguments.
-/
import proofs.«107935_g3393024163881_fold_wed_m_362_29_alg».proof.Proof.KI.Frame
import proofs.«107935_g3393024163881_fold_wed_m_362_29_alg».proof.Proof.KI.Output
import Idealize.ShloMosaic.Lib.Pipeline.Value
import Idealize.ShloMosaic.Lib.Pipeline.FrameSuffix
import Idealize.ShloMosaic.Lib.StableHlo.Run

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-! ## The output array after the region -/

/-- The output window is written back at one point only, the last. -/
theorem flush_last (t : Fin cfg0.N) (hf : (cfg0.win 35).flush t = true) : t.val = 19 := by
  have h := (flush0_35 t).mp hf
  have := pt_lt t
  omega

/-- The output buffer after a point whose number is 19 is the output buffer after the last point. -/
theorem out_last (c : Dev nD) (t : Fin cfg0.N) (ht : t.val = 19) :
    (stAt (F := Ideal) m c t.val t.isLt).out = (stN m c 19 (by omega)).out := by
  obtain ⟨n, hn⟩ := t
  dsimp only at ht
  subst ht
  rfl

/-- What a point writes back of the output window is the output buffer the body left there, read through the point's
    block: the window's block index is zero on both axes at every point and the block has the array's size, so entry
    (g, j) of the block is entry (g, j) of the buffer. -/
theorem out_flushed (c : Dev nD) (t : Fin cfg0.N) :
    (dats (F := Ideal) m 0 c).flushed 35 t
      = ((cfg0.win 35).blk t).view.read (Elt Ideal) (stAt (F := Ideal) m c t.val t.isLt).out := by
  show (cfg0.win 35).cut (grid0.coords t) ((dats (F := Ideal) m 0 c).after 35 t) = _
  rw [after0_35]
  funext y
  refine (read_rect_origin main_v25 (win0_35.rect t) (off_whole t 35 (by decide)) (fun _ => rfl)
    (stAt (F := Ideal) m c t.val t.isLt).out y _ fun a => ?_).symm
  rfl

/-- Every entry of the 128 × 128 output array lies in the output window's block, at any point: the block starts at
    row 0 and column 0 and is 128 × 128. -/
theorem mem_out_blk (t : Fin cfg0.N) (i : S128x128.Idx) : i ∈ ((cfg0.win 35).blk t).view.set := by
  show i ∈ ((View.whole main_v25).slice (win0_35.rect t)).set
  rw [View.set_slice_whole, Rect.mem_set_unit]
  intro a
  match a with
  | ⟨0, _⟩ =>
    show win0_35.index t (0 : Fin 2) * 128 ≤ (i 0).val ∧ (i 0).val < win0_35.index t (0 : Fin 2) * 128 + 128
    have e : win0_35.index t (0 : Fin 2) = 0 := idx_whole t 35 (by decide) 0
    have hi : (i 0).val < 128 := (i 0).isLt
    omega
  | ⟨1, _⟩ =>
    show win0_35.index t (1 : Fin 2) * 128 ≤ (i 1).val ∧ (i 1).val < win0_35.index t (1 : Fin 2) * 128 + 128
    have e : win0_35.index t (1 : Fin 2) = 0 := idx_whole t 35 (by decide) 1
    have hi : (i 1).val < 128 := (i 1).isLt
    omega

/-- The output array after the region holds the output buffer the last point left: that point alone writes the window
    back, and its block is the whole array. -/
theorem final35 (c : Dev nD) : (dats (F := Ideal) m 0 c).arrAt 35 cfg0.N = (stN m c 19 (by omega)).out :=
  (dats (F := Ideal) m 0 c).arrAt_eq_of_cover 35 (stN m c 19 (by omega)).out
    (fun t hf => by rw [out_flushed, out_last m c t (flush_last t hf)])
    (fun i => ⟨pt 19 (by omega), (flush0_35 _).mpr rfl, mem_out_blk _ i⟩)

/-! ## The program's result -/

/-- Among the buffers as the region leaves them, the output array is the output buffer after the last point. -/
theorem region_out (c : Dev nD) :
    Pipeline.withArrays spec0 c (V0 m c) (fun w => (dats (F := Ideal) m 0 c).arrAt w cfg0.N) (Proc.devRef .tc main_v25)
      = (stN m c 19 (by omega)).out :=
  (Pipeline.withArrays_arr spec0 launch0.win.arr_inj c _ _ 35).trans (final35 m c)

/-- The one operation after the region keeps columns 0 and 1 of the 128 × 128 output array; entry (g, o) of the
    128 × 2 result is entry (g, o) of that array, which is the common function's output at graph g, column o. -/
theorem result_apply (c : Dev nD) (hOk : (inK m c).Ok) (g : Fin 128) (o : Fin 2) :
    Pipeline.afterTail₀ cfgs (dats (F := Ideal) m) 0 (V0 m) [hostOps1] c main_v26 (ix2 g o) = Cert.Spec.Out (inK m c) g o := by
  unfold Pipeline.afterTail₀
  show StableHlo.after hostOps1 (Pipeline.withArrays spec0 c (V0 m c) fun w => (dats (F := Ideal) m 0 c).arrAt w cfg0.N)
    (Proc.devRef .tc main_v26) (ix2 g o) = _
  after_results
  refine (extractStridedSlice_apply _ _ _ (ix2 g o) (ix2 g ⟨o.val, by omega⟩) fun a => ?_).trans ?_
  · match a with
    | ⟨0, _⟩ => show g.val = 0 + g.val; omega
    | ⟨1, _⟩ => show o.val = 0 + o.val; omega
  · rw [region_out]
    exact out_at m c hOk g o

/-! ## The run -/

/-- Two posts of one run hold together: both are claims about the same executions. -/
theorem run_both {Q₁ Q₂ : PUnit × MemSt nD τ sig (Elt Ideal) → Prop}
    (h₁ : θ_run defs (onTc (τ := τ) (main (F := Ideal))) ⟨m, fun _ => 0, ρ⟩ Q₁)
    (h₂ : θ_run defs (onTc (τ := τ) (main (F := Ideal))) ⟨m, fun _ => 0, ρ⟩ Q₂) :
    θ_run defs (onTc (τ := τ) (main (F := Ideal))) ⟨m, fun _ => 0, ρ⟩ (fun r => Q₁ r ∧ Q₂ r) :=
  ⟨fun s hs hf => ⟨h₁.post s hs hf, h₂.post s hs hf⟩, h₁.progress, h₁.fair⟩

/-- The run, at the program's result: every entry of the 128 × 2 result is the common function's output. The result
    buffer is no array of the pipeline, so it ends as the operation after the region leaves it. -/
theorem run_value (hOk : ∀ c, (inK m c).Ok) :
    θ_run defs (onTc (τ := τ) (main (F := Ideal))) ⟨m, fun _ => 0, ρ⟩ (fun r => ∀ c : Dev nD, ∀ g o,
      r.2.mem ((c.tc : Thread nD τ).loc main_v26) (ix2 g o) = Cert.Spec.Out (inK m c) g o) :=
  (θ_run defs _ _).mono (fun r h c g o =>
      (congrFun ((h c).2 main_v26 (Pipeline.mem_restRefs_of main_v26 (by decide) (by decide))) (ix2 g o)).trans
        (result_apply m c (hOk c) g o))
    (run_main (F := Ideal) m ρ)

/-- The kernel program's run: the result is the common function's output on the argument arrays, and every argument
    array ends as launched. -/
theorem run_result (hOk : ∀ c, (inK m c).Ok) :
    θ_run defs (onTc (τ := τ) (main (F := Ideal))) ⟨m, fun _ => 0, ρ⟩ (fun r => ∀ c : Dev nD,
      (∀ g o, r.2.mem ((c.tc : Thread nD τ).loc main_v26) (ix2 g o) = Cert.Spec.Out (inK m c) g o)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)) :=
  (θ_run defs _ _).mono (fun r h c => ⟨h.1 c, h.2 c⟩) (run_both m ρ (run_value m ρ hOk) (frame (F := Ideal) m ρ))

end Cert.KernelIdeal.Hand

end
-- ==== Proof.Preserves.lean ====
/-
  The idealized kernel is the kernel's sanctioned idealization: one statement per rewrite the ideal pass applied when it
  printed the idealized program. All four are the same rule: a value narrowed to bf16 and widened back to f32 is, at the
  ideal instance, the value itself (a change of float format is the identity there), and at the word-level instance the
  rounding through bf16. Three are at the 10000 × 128 block of node values whose bf16 part the per-graph sums split
  off, one at the 128 × 128 graph embedding.
-/
import proofs.«107935_g3393024163881_fold_wed_m_362_29_alg».proof.Defs

noncomputable section

namespace Cert.Proof.Parts

open Idealize.ShloMosaic

theorem preserves : Cert.preserves_Kernel_KernelIdeal :=
  ⟨IdealRules.truncf_extf.statement Cert.KernelIdeal.S10000x128 .f32 .bf16,
    IdealRules.truncf_extf.statement Cert.KernelIdeal.S10000x128 .f32 .bf16,
    IdealRules.truncf_extf.statement Cert.KernelIdeal.S128x128 .f32 .bf16,
    IdealRules.truncf_extf.statement Cert.KernelIdeal.S10000x128 .f32 .bf16⟩

end Cert.Proof.Parts

end
-- ==== Proof.RefValue.lean ====
/-
  The reference program's result, entry by entry, is the common function of its arguments.

  The program is a chain of one-operation stages. A linear layer is four of them (a contraction over the shared axis,
  the bias laid out as a row and then down the rows, a sum); read at an entry (n, j) they give the sum over k of
  x n k · W k j plus b j. The rectifier is a maximum with a zero splat. The per-graph sums are a scatter-add of rows into
  a zero table, which at entry (g, j) collects column j of the rows whose graph id is g. The embedding rows handed back
  to the nodes are a row gather: the gather reads its start word signed and clamped, and the program first adds 128 to a
  negative word; for a graph number 0 … 127 neither changes anything. The second node network's first layer contracts
  over the 256 columns of the node row joined with the embedding row: the first 128 terms of that sum are the node
  row's, the last 128 the embedding row's. The layers are then composed in the program's order.
-/
import proofs.«107935_g3393024163881_fold_wed_m_362_29_alg».proof.Proof.Gen.ReferenceIdeal.Read
import proofs.«107935_g3393024163881_fold_wed_m_362_29_alg».proof.Proof.Interface
import proofs.«107935_g3393024163881_fold_wed_m_362_29_alg».proof.Proof.LibGatherScatter
import Idealize.ShloMosaic.Lib.Pipeline.Value
import Idealize.ShloMosaic.Lib.ValueIdx
import Idealize.ShloMosaic.PureOps.Ideal.Laws
import Mathlib.Algebra.BigOperators.Fin

noncomputable section

open scoped BigOperators

namespace Cert.ReferenceIdeal.RefValue

open Cert.ReferenceIdeal Cert.ReferenceIdeal.Read Cert.Spec Idealize.ShloMosaic Idealize.ShloMosaic.ValueIdx

/-! ## The shapes of the steps, for arbitrary arrays -/

/-- A linear layer at entry (n, j), from the three places it reads: the contraction's left index runs along row n, its
    right index down column j, and the bias is read at j. -/
theorem lin_entry {N K J : ℕ} (x : (⟨2, ![N, K]⟩ : Shape).Idx → EReal) (W : (⟨2, ![K, J]⟩ : Shape).Idx → EReal)
    (b : (⟨1, ![J]⟩ : Shape).Idx → EReal) (n : Fin N) (j : Fin J)
    (li : Fin K → (⟨2, ![N, K]⟩ : Shape).Idx) (ri : Fin K → (⟨2, ![K, J]⟩ : Shape).Idx) (bi : (⟨1, ![J]⟩ : Shape).Idx)
    (hl : ∀ k, (li k 0).val = n.val ∧ (li k 1).val = k.val) (hr : ∀ k, (ri k 0).val = k.val ∧ (ri k 1).val = j.val)
    (hb : (bi 0).val = j.val) :
    (∑ k, x (li k) * W (ri k)) + b bi = lin (toMat x) (toMat W) (toVec b) n j := by
  have el : ∀ k, li k = ix2 n k := fun k => funext fun a => Fin.ext (by
    match a with
    | ⟨0, _⟩ => exact (hl k).1
    | ⟨1, _⟩ => exact (hl k).2)
  have er : ∀ k, ri k = ix2 k j := fun k => funext fun a => Fin.ext (by
    match a with
    | ⟨0, _⟩ => exact (hr k).1
    | ⟨1, _⟩ => exact (hr k).2)
  have eb : bi = ix1 j := funext fun a => Fin.ext (by
    match a with
    | ⟨0, _⟩ => exact hb)
  subst eb
  simp only [el, er]
  rfl

/-- The maximum with the f32 zero word is the maximum with zero. -/
theorem max_zero_word (v : EReal) : max v (Ideal.ofBits .f32 0x00000000#32) = max v 0 := by
  rw [Ideal.ofBits_zero_f32]

/-- A scatter-add of the rows of u into a zero table with 128 rows, by a column of graph ids, is the per-graph sum. -/
theorem seg_of_scatter {n J : ℕ} (d : ScatterDims (Cert.LibGS.Sh 128 J) (Cert.LibGS.Sh n 1) (Cert.LibGS.Sh n J))
    (huw : d.updateWindowDims = [1]) (hiw : d.insertedWindowDims = [0]) (hsd : d.scatterDimsToOperandDims = [0])
    (hivd : d.indexVectorDim = 1) (z : Cert.LibGS.RArr 128 J) (hz : ∀ i, z i = 0)
    (ids : (⟨1, ![n]⟩ : Shape).Idx → BitVec 32) (idx : IVec (Cert.LibGS.Sh n 1) 32)
    (hidx : ∀ e : Fin n, idx (ix2 e 0) = ids (ix1 e)) (u : Cert.LibGS.RArr n J) :
    toMat (Ideal.hostScatterAdd d z idx u) = seg (toIds ids) (toMat u) := by
  funext g c
  show Ideal.hostScatterAdd d z idx u (ix2 g c) = _
  rw [Cert.LibGS.scatterAdd_rows_gen d huw hiw hsd hivd, hz, zero_add]
  unfold seg toIds toMat
  simp only [hidx]

/-- A row gather from a table with 128 rows, by a column of graph ids, hands each position the row its id names. -/
theorem gath_of_gather {n J : ℕ} (d : GatherDims (Cert.LibGS.Sh 128 J) (Cert.LibGS.Sh n 1) (Cert.LibGS.Sh n J))
    (hoff : d.offsetDims = [1]) (hcoll : d.collapsedSliceDims = [0]) (hob : d.operandBatchingDims = [])
    (hsim : d.startIndexMap = [0]) (hivd : d.indexVectorDim = 1) (hss : d.sliceSizes = ![1, J])
    (t : (Cert.LibGS.Sh 128 J).Idx → EReal) (ids : (⟨1, ![n]⟩ : Shape).Idx → BitVec 32) (idx : IVec (Cert.LibGS.Sh n 1) 32)
    (hidx : ∀ e : Fin n, idx (ix2 e 0) = ids (ix1 e)) :
    toMat (Host.gather d t idx) = gath (toIds ids) (toMat t) := by
  funext e c
  show Host.gather d t idx (ix2 e c) = _
  rw [Cert.LibGS.gather_rows_gen d (by decide) hoff hcoll hob hsim hivd hss, hidx]
  rfl

/-- A select on "the word is negative" keeps a word that is not. -/
theorem select_nonneg (w alt : BitVec 32) (h : 0 ≤ w.toInt) :
    Scalar.select (IntOp.cmpi .slt w 0#32) alt w = w := by
  have hc : IntOp.cmpi .slt w 0#32 = 0#1 := by
    have hs : w.slt 0#32 = false := by
      simp only [BitVec.slt, BitVec.toInt_zero, decide_eq_false_iff_not, not_lt]
      exact h
    show BitVec.ofBool (w.slt 0#32) = 0#1
    rw [hs]; rfl
  rw [hc]; exact select_zero _ _

/-- A sum over 256 terms is the sum of its first 128 and of its last 128. -/
theorem sum_halves (f : Fin 256 → EReal) :
    ∑ k, f k = (∑ k : Fin 128, f (Fin.castAdd 128 k)) + ∑ k : Fin 128, f (Fin.natAdd 128 k) :=
  Fin.sum_univ_add (a := 128) (b := 128) f

/-- Two 128-column arrays joined along the columns: column k of the result is the first array's column k … -/
theorem join_left {N : ℕ} (h : Shape.Concatenates [(⟨2, ![N, 128]⟩ : Shape), ⟨2, ![N, 128]⟩] ⟨2, ![N, 256]⟩ 1)
    (x y : (⟨2, ![N, 128]⟩ : Shape).Idx → EReal) (n : Fin N) (k : Fin 128) :
    concatenate (⟨2, ![N, 256]⟩ : Shape) 1 [⟨⟨2, ![N, 128]⟩, x⟩, ⟨⟨2, ![N, 128]⟩, y⟩] h (ix2 n (Fin.castAdd 128 k : Fin 256))
      = x (ix2 n k) :=
  concatenate_pair_apply_left 1 x y h _ rfl (ix2 n k) (fun b => match b with | ⟨0, _⟩ => rfl | ⟨1, _⟩ => rfl)

/-- … and column 128 + k is the second array's column k. -/
theorem join_right {N : ℕ} (h : Shape.Concatenates [(⟨2, ![N, 128]⟩ : Shape), ⟨2, ![N, 128]⟩] ⟨2, ![N, 256]⟩ 1)
    (x y : (⟨2, ![N, 128]⟩ : Shape).Idx → EReal) (n : Fin N) (k : Fin 128) :
    concatenate (⟨2, ![N, 256]⟩ : Shape) 1 [⟨⟨2, ![N, 128]⟩, x⟩, ⟨⟨2, ![N, 128]⟩, y⟩] h (ix2 n (Fin.natAdd 128 k : Fin 256))
      = y (ix2 n k) :=
  concatenate_pair_apply_right 1 x y h _ rfl rfl (ix2 n k)
    (fun b hb => match b, hb with | ⟨0, _⟩, _ => rfl | ⟨1, _⟩, hb => absurd rfl hb)
    (show k.val + 128 = 128 + k.val from Nat.add_comm _ _)

/-! ## The program's stages -/

variable (a0 : (⟨S100000x128, .f32⟩ : BufTy).Contents (Elt Ideal)) (a1 : (⟨S100000x128, .f32⟩ : BufTy).Contents (Elt Ideal))
  (a2 : (⟨S100000, .i32⟩ : BufTy).Contents (Elt Ideal)) (a3 : (⟨S100000, .i32⟩ : BufTy).Contents (Elt Ideal))
  (a4 : (⟨S128x128, .f32⟩ : BufTy).Contents (Elt Ideal)) (a5 : (⟨S128, .f32⟩ : BufTy).Contents (Elt Ideal))
  (a6 : (⟨S128x128, .f32⟩ : BufTy).Contents (Elt Ideal)) (a7 : (⟨S128, .f32⟩ : BufTy).Contents (Elt Ideal))
  (a8 : (⟨S128x128, .f32⟩ : BufTy).Contents (Elt Ideal)) (a9 : (⟨S128, .f32⟩ : BufTy).Contents (Elt Ideal))
  (a10 : (⟨S128x128, .f32⟩ : BufTy).Contents (Elt Ideal)) (a11 : (⟨S128, .f32⟩ : BufTy).Contents (Elt Ideal))
  (a12 : (⟨S128x128, .f32⟩ : BufTy).Contents (Elt Ideal)) (a13 : (⟨S128, .f32⟩ : BufTy).Contents (Elt Ideal))
  (a14 : (⟨S128x128, .f32⟩ : BufTy).Contents (Elt Ideal)) (a15 : (⟨S128, .f32⟩ : BufTy).Contents (Elt Ideal))
  (a16 : (⟨S256x128, .f32⟩ : BufTy).Contents (Elt Ideal)) (a17 : (⟨S128, .f32⟩ : BufTy).Contents (Elt Ideal))
  (a18 : (⟨S128x128, .f32⟩ : BufTy).Contents (Elt Ideal)) (a19 : (⟨S128, .f32⟩ : BufTy).Contents (Elt Ideal))
  (a20 : (⟨S128x128, .f32⟩ : BufTy).Contents (Elt Ideal)) (a21 : (⟨S128, .f32⟩ : BufTy).Contents (Elt Ideal))
  (a22 : (⟨S128x128, .f32⟩ : BufTy).Contents (Elt Ideal)) (a23 : (⟨S128, .f32⟩ : BufTy).Contents (Elt Ideal))
  (a24 : (⟨S128x128, .f32⟩ : BufTy).Contents (Elt Ideal)) (a25 : (⟨S128, .f32⟩ : BufTy).Contents (Elt Ideal))
  (a26 : (⟨S128x128, .f32⟩ : BufTy).Contents (Elt Ideal)) (a27 : (⟨S128, .f32⟩ : BufTy).Contents (Elt Ideal))
  (a28 : (⟨S128x128, .f32⟩ : BufTy).Contents (Elt Ideal)) (a29 : (⟨S128, .f32⟩ : BufTy).Contents (Elt Ideal))
  (a30 : (⟨S128x128, .f32⟩ : BufTy).Contents (Elt Ideal)) (a31 : (⟨S128, .f32⟩ : BufTy).Contents (Elt Ideal))
  (a32 : (⟨S128x2, .f32⟩ : BufTy).Contents (Elt Ideal)) (a33 : (⟨S2, .f32⟩ : BufTy).Contents (Elt Ideal))

/-- The inputs of the common function. -/
local notation "I" => Cert.Spec.mkInputs a0 a1 a2 a3 a4 a5 a6 a7 a8 a9 a10 a11 a12 a13 a14 a15 a16 a17 a18 a19 a20 a21 a22 a23 a24 a25 a26 a27 a28 a29 a30 a31 a32 a33

/-! The stages that carry a layer's result, each as a function of the arguments it depends on. -/

local notation "s3" => val_main_v3 (F := Ideal) a0 a4 a5
local notation "s4" => val_main_v4 (F := Ideal) a0 a4 a5
local notation "s8" => val_main_v8 (F := Ideal) a0 a4 a5 a6 a7
local notation "s9" => val_main_v9 (F := Ideal) a0 a4 a5 a6 a7
local notation "s13" => val_main_v13 (F := Ideal) a0 a4 a5 a6 a7 a8 a9
local notation "s16" => val_main_v16 (F := Ideal) a0 a2 a4 a5 a6 a7 a8 a9
local notation "s20" => val_main_v20 (F := Ideal) a0 a2 a4 a5 a6 a7 a8 a9 a10 a11
local notation "s21" => val_main_v21 (F := Ideal) a0 a2 a4 a5 a6 a7 a8 a9 a10 a11
local notation "s25" => val_main_v25 (F := Ideal) a0 a2 a4 a5 a6 a7 a8 a9 a10 a11 a12 a13
local notation "s26" => val_main_v26 (F := Ideal) a0 a2 a4 a5 a6 a7 a8 a9 a10 a11 a12 a13
local notation "s30" => val_main_v30 (F := Ideal) a0 a2 a4 a5 a6 a7 a8 a9 a10 a11 a12 a13 a14 a15
local notation "s37" => val_main_v37 (F := Ideal) a0 a2 a4 a5 a6 a7 a8 a9 a10 a11 a12 a13 a14 a15
local notation "s42" => val_main_v42 (F := Ideal) a0 a1 a2 a4 a5 a6 a7 a8 a9 a10 a11 a12 a13 a14 a15 a16 a17
local notation "s43" => val_main_v43 (F := Ideal) a0 a1 a2 a4 a5 a6 a7 a8 a9 a10 a11 a12 a13 a14 a15 a16 a17
local notation "s47" => val_main_v47 (F := Ideal) a0 a1 a2 a4 a5 a6 a7 a8 a9 a10 a11 a12 a13 a14 a15 a16 a17 a18 a19
local notation "s48" => val_main_v48 (F := Ideal) a0 a1 a2 a4 a5 a6 a7 a8 a9 a10 a11 a12 a13 a14 a15 a16 a17 a18 a19
local notation "s52" => val_main_v52 (F := Ideal) a0 a1 a2 a4 a5 a6 a7 a8 a9 a10 a11 a12 a13 a14 a15 a16 a17 a18 a19 a20 a21
local notation "s55" => val_main_v55 (F := Ideal) a0 a1 a2 a3 a4 a5 a6 a7 a8 a9 a10 a11 a12 a13 a14 a15 a16 a17 a18 a19 a20 a21
local notation "s59" => val_main_v59 (F := Ideal) a0 a1 a2 a3 a4 a5 a6 a7 a8 a9 a10 a11 a12 a13 a14 a15 a16 a17 a18 a19 a20 a21 a22 a23
local notation "s60" => val_main_v60 (F := Ideal) a0 a1 a2 a3 a4 a5 a6 a7 a8 a9 a10 a11 a12 a13 a14 a15 a16 a17 a18 a19 a20 a21 a22 a23
local notation "s64" => val_main_v64 (F := Ideal) a0 a1 a2 a3 a4 a5 a6 a7 a8 a9 a10 a11 a12 a13 a14 a15 a16 a17 a18 a19 a20 a21 a22 a23 a24 a25
local notation "s65" => val_main_v65 (F := Ideal) a0 a1 a2 a3 a4 a5 a6 a7 a8 a9 a10 a11 a12 a13 a14 a15 a16 a17 a18 a19 a20 a21 a22 a23 a24 a25
local notation "s69" => val_main_v69 (F := Ideal) a0 a1 a2 a3 a4 a5 a6 a7 a8 a9 a10 a11 a12 a13 a14 a15 a16 a17 a18 a19 a20 a21 a22 a23 a24 a25 a26 a27
local notation "s73" => val_main_v73 (F := Ideal) a0 a1 a2 a3 a4 a5 a6 a7 a8 a9 a10 a11 a12 a13 a14 a15 a16 a17 a18 a19 a20 a21 a22 a23 a24 a25 a26 a27 a28 a29
local notation "s74" => val_main_v74 (F := Ideal) a0 a1 a2 a3 a4 a5 a6 a7 a8 a9 a10 a11 a12 a13 a14 a15 a16 a17 a18 a19 a20 a21 a22 a23 a24 a25 a26 a27 a28 a29
local notation "s78" => val_main_v78 (F := Ideal) a0 a1 a2 a3 a4 a5 a6 a7 a8 a9 a10 a11 a12 a13 a14 a15 a16 a17 a18 a19 a20 a21 a22 a23 a24 a25 a26 a27 a28 a29 a30 a31
local notation "s79" => val_main_v79 (F := Ideal) a0 a1 a2 a3 a4 a5 a6 a7 a8 a9 a10 a11 a12 a13 a14 a15 a16 a17 a18 a19 a20 a21 a22 a23 a24 a25 a26 a27 a28 a29 a30 a31
local notation "s83" => val_main_v83 (F := Ideal) a0 a1 a2 a3 a4 a5 a6 a7 a8 a9 a10 a11 a12 a13 a14 a15 a16 a17 a18 a19 a20 a21 a22 a23 a24 a25 a26 a27 a28 a29 a30 a31 a32 a33

/-! ### The first node network -/

theorem lin_v3 : toMat s3 = lin (toMat a0) (toMat a4) (toVec a5) := by
  funext n j
  show s3 (ix2 n j) = _
  rw [val_main_v3_apply, val_main_v0_apply, val_main_v2_apply, val_main_v1_apply]
  exact lin_entry a0 a4 a5 n j _ _ _ (fun _ => ⟨rfl, rfl⟩) (fun _ => ⟨rfl, rfl⟩) rfl

theorem relu_v4 : toMat s4 = relu (toMat s3) := by
  funext n j
  show s4 (ix2 n j) = max (s3 (ix2 n j)) 0
  rw [val_main_v4_apply, val_main_call0_v0_apply, val_main_call0_cst_apply]
  exact max_zero_word _

theorem lin_v8 : toMat s8 = lin (toMat s4) (toMat a6) (toVec a7) := by
  funext n j
  show s8 (ix2 n j) = _
  rw [val_main_v8_apply, val_main_v5_apply, val_main_v7_apply, val_main_v6_apply]
  exact lin_entry s4 a6 a7 n j _ _ _ (fun _ => ⟨rfl, rfl⟩) (fun _ => ⟨rfl, rfl⟩) rfl

theorem relu_v9 : toMat s9 = relu (toMat s8) := by
  funext n j
  show s9 (ix2 n j) = max (s8 (ix2 n j)) 0
  rw [val_main_v9_apply, val_main_call1_v0_apply, val_main_call1_cst_apply]
  exact max_zero_word _

theorem lin_v13 : toMat s13 = lin (toMat s9) (toMat a8) (toVec a9) := by
  funext n j
  show s13 (ix2 n j) = _
  rw [val_main_v13_apply, val_main_v10_apply, val_main_v12_apply, val_main_v11_apply]
  exact lin_entry s9 a8 a9 n j _ _ _ (fun _ => ⟨rfl, rfl⟩) (fun _ => ⟨rfl, rfl⟩) rfl

/-! ### Its per-graph sums -/

theorem seg_v16 : toMat s16 = seg (toIds a2) (toMat s13) := by
  unfold val_main_v16
  exact seg_of_scatter scatter_S128x128_S100000x1_S100000x128_1_0_0_1 rfl rfl rfl rfl _
    (fun i => by rw [val_main_v14_apply, val_main_cst_apply]; exact Ideal.ofBits_zero_f32) a2 _
    (fun e => by
      rw [val_main_v15_apply]
      exact congrArg a2 (funext fun a => match a with | ⟨0, _⟩ => rfl)) _

/-! ### The first graph network -/

theorem lin_v20 : toMat s20 = lin (toMat s16) (toMat a10) (toVec a11) := by
  funext n j
  show s20 (ix2 n j) = _
  rw [val_main_v20_apply, val_main_v17_apply, val_main_v19_apply, val_main_v18_apply]
  exact lin_entry s16 a10 a11 n j _ _ _ (fun _ => ⟨rfl, rfl⟩) (fun _ => ⟨rfl, rfl⟩) rfl

theorem relu_v21 : toMat s21 = relu (toMat s20) := by
  funext n j
  show s21 (ix2 n j) = max (s20 (ix2 n j)) 0
  rw [val_main_v21_apply, val_main_call2_v0_apply, val_main_call2_cst_apply]
  exact max_zero_word _

theorem lin_v25 : toMat s25 = lin (toMat s21) (toMat a12) (toVec a13) := by
  funext n j
  show s25 (ix2 n j) = _
  rw [val_main_v25_apply, val_main_v22_apply, val_main_v24_apply, val_main_v23_apply]
  exact lin_entry s21 a12 a13 n j _ _ _ (fun _ => ⟨rfl, rfl⟩) (fun _ => ⟨rfl, rfl⟩) rfl

theorem relu_v26 : toMat s26 = relu (toMat s25) := by
  funext n j
  show s26 (ix2 n j) = max (s25 (ix2 n j)) 0
  rw [val_main_v26_apply, val_main_call3_v0_apply, val_main_call3_cst_apply]
  exact max_zero_word _

theorem lin_v30 : toMat s30 = lin (toMat s26) (toMat a14) (toVec a15) := by
  funext n j
  show s30 (ix2 n j) = _
  rw [val_main_v30_apply, val_main_v27_apply, val_main_v29_apply, val_main_v28_apply]
  exact lin_entry s26 a14 a15 n j _ _ _ (fun _ => ⟨rfl, rfl⟩) (fun _ => ⟨rfl, rfl⟩) rfl

/-! ### The embedding rows handed back to the nodes -/

/-- The gather's start word at a node whose first graph id is not negative is that id. -/
theorem ids_v36 (e : Fin 100000) (h : 0 ≤ (a2 (ix1 e)).toInt) : val_main_v36 (F := Ideal) a2 (ix2 e 0) = a2 (ix1 e) := by
  have hi : idx_main_v36 (ix2 e (0 : Fin 1)) = ix1 e := funext fun a => match a with | ⟨0, _⟩ => rfl
  rw [val_main_v36_apply, hi, val_main_v35_apply, val_main_v32_apply, val_main_v31_apply, val_main_c_apply]
  exact select_nonneg _ _ h

theorem gath_v37 (h : ∀ e : Fin 100000, 0 ≤ (a2 (ix1 e)).toInt) : toMat s37 = gath (toIds a2) (toMat s30) := by
  unfold val_main_v37
  exact gath_of_gather gather_S128x128_S100000x1_S100000x128_1_0_n_n_0_1_1128 rfl rfl rfl rfl rfl rfl _ a2 _
    (fun e => ids_v36 a2 e (h e))

/-! ### The second node network -/

theorem lin2_v42 : toMat s42 = lin2 (toMat a1) (toMat s37) (toMat a16) (toVec a17) := by
  funext n j
  show s42 (ix2 n j) = _
  rw [val_main_v42_apply, val_main_v39_apply, val_main_v41_apply, val_main_v40_apply]
  have hl : ∀ k, lidx_main_v39 (ix2 n j) k = ix2 n k :=
    fun k => funext fun a => match a with | ⟨0, _⟩ => rfl | ⟨1, _⟩ => rfl
  have hr : ∀ k, ridx_main_v39 (ix2 n j) k = ix2 k j :=
    fun k => funext fun a => match a with | ⟨0, _⟩ => rfl | ⟨1, _⟩ => rfl
  have hb : idx_main_v40 (idx_main_v41 (ix2 n j)) = ix1 j := funext fun a => match a with | ⟨0, _⟩ => rfl
  simp only [hl, hr, hb]
  rw [sum_halves]
  unfold val_main_v38
  simp only [join_left, join_right]
  rfl

theorem relu_v43 : toMat s43 = relu (toMat s42) := by
  funext n j
  show s43 (ix2 n j) = max (s42 (ix2 n j)) 0
  rw [val_main_v43_apply, val_main_call4_v0_apply, val_main_call4_cst_apply]
  exact max_zero_word _

theorem lin_v47 : toMat s47 = lin (toMat s43) (toMat a18) (toVec a19) := by
  funext n j
  show s47 (ix2 n j) = _
  rw [val_main_v47_apply, val_main_v44_apply, val_main_v46_apply, val_main_v45_apply]
  exact lin_entry s43 a18 a19 n j _ _ _ (fun _ => ⟨rfl, rfl⟩) (fun _ => ⟨rfl, rfl⟩) rfl

theorem relu_v48 : toMat s48 = relu (toMat s47) := by
  funext n j
  show s48 (ix2 n j) = max (s47 (ix2 n j)) 0
  rw [val_main_v48_apply, val_main_call5_v0_apply, val_main_call5_cst_apply]
  exact max_zero_word _

theorem lin_v52 : toMat s52 = lin (toMat s48) (toMat a20) (toVec a21) := by
  funext n j
  show s52 (ix2 n j) = _
  rw [val_main_v52_apply, val_main_v49_apply, val_main_v51_apply, val_main_v50_apply]
  exact lin_entry s48 a20 a21 n j _ _ _ (fun _ => ⟨rfl, rfl⟩) (fun _ => ⟨rfl, rfl⟩) rfl

/-! ### Its per-graph sums -/

theorem seg_v55 : toMat s55 = seg (toIds a3) (toMat s52) := by
  unfold val_main_v55
  exact seg_of_scatter scatter_S128x128_S100000x1_S100000x128_1_0_0_1 rfl rfl rfl rfl _
    (fun i => by rw [val_main_v53_apply, val_main_cst_1_apply]; exact Ideal.ofBits_zero_f32) a3 _
    (fun e => by
      rw [val_main_v54_apply]
      exact congrArg a3 (funext fun a => match a with | ⟨0, _⟩ => rfl)) _

/-! ### The second graph network -/

theorem lin_v59 : toMat s59 = lin (toMat s55) (toMat a22) (toVec a23) := by
  funext n j
  show s59 (ix2 n j) = _
  rw [val_main_v59_apply, val_main_v56_apply, val_main_v58_apply, val_main_v57_apply]
  exact lin_entry s55 a22 a23 n j _ _ _ (fun _ => ⟨rfl, rfl⟩) (fun _ => ⟨rfl, rfl⟩) rfl

theorem relu_v60 : toMat s60 = relu (toMat s59) := by
  funext n j
  show s60 (ix2 n j) = max (s59 (ix2 n j)) 0
  rw [val_main_v60_apply, val_main_call6_v0_apply, val_main_call6_cst_apply]
  exact max_zero_word _

theorem lin_v64 : toMat s64 = lin (toMat s60) (toMat a24) (toVec a25) := by
  funext n j
  show s64 (ix2 n j) = _
  rw [val_main_v64_apply, val_main_v61_apply, val_main_v63_apply, val_main_v62_apply]
  exact lin_entry s60 a24 a25 n j _ _ _ (fun _ => ⟨rfl, rfl⟩) (fun _ => ⟨rfl, rfl⟩) rfl

theorem relu_v65 : toMat s65 = relu (toMat s64) := by
  funext n j
  show s65 (ix2 n j) = max (s64 (ix2 n j)) 0
  rw [val_main_v65_apply, val_main_call7_v0_apply, val_main_call7_cst_apply]
  exact max_zero_word _

theorem lin_v69 : toMat s69 = lin (toMat s65) (toMat a26) (toVec a27) := by
  funext n j
  show s69 (ix2 n j) = _
  rw [val_main_v69_apply, val_main_v66_apply, val_main_v68_apply, val_main_v67_apply]
  exact lin_entry s65 a26 a27 n j _ _ _ (fun _ => ⟨rfl, rfl⟩) (fun _ => ⟨rfl, rfl⟩) rfl

/-! ### The last network -/

theorem lin_v73 : toMat s73 = lin (toMat s69) (toMat a28) (toVec a29) := by
  funext n j
  show s73 (ix2 n j) = _
  rw [val_main_v73_apply, val_main_v70_apply, val_main_v72_apply, val_main_v71_apply]
  exact lin_entry s69 a28 a29 n j _ _ _ (fun _ => ⟨rfl, rfl⟩) (fun _ => ⟨rfl, rfl⟩) rfl

theorem relu_v74 : toMat s74 = relu (toMat s73) := by
  funext n j
  show s74 (ix2 n j) = max (s73 (ix2 n j)) 0
  rw [val_main_v74_apply, val_main_call8_v0_apply, val_main_call8_cst_apply]
  exact max_zero_word _

theorem lin_v78 : toMat s78 = lin (toMat s74) (toMat a30) (toVec a31) := by
  funext n j
  show s78 (ix2 n j) = _
  rw [val_main_v78_apply, val_main_v75_apply, val_main_v77_apply, val_main_v76_apply]
  exact lin_entry s74 a30 a31 n j _ _ _ (fun _ => ⟨rfl, rfl⟩) (fun _ => ⟨rfl, rfl⟩) rfl

theorem relu_v79 : toMat s79 = relu (toMat s78) := by
  funext n j
  show s79 (ix2 n j) = max (s78 (ix2 n j)) 0
  rw [val_main_v79_apply, val_main_call9_v0_apply, val_main_call9_cst_apply]
  exact max_zero_word _

theorem lin_v83 : toMat s83 = lin (toMat s79) (toMat a32) (toVec a33) := by
  funext n j
  show s83 (ix2 n j) = _
  rw [val_main_v83_apply, val_main_v80_apply, val_main_v82_apply, val_main_v81_apply]
  exact lin_entry s79 a32 a33 n j _ _ _ (fun _ => ⟨rfl, rfl⟩) (fun _ => ⟨rfl, rfl⟩) rfl

/-! ## The layers composed, in the program's order -/

theorem H1_eq : toMat s13 = H1 I := by
  rw [lin_v13, relu_v9, lin_v8, relu_v4, lin_v3]
  rfl

theorem A1_eq : toMat s16 = A1 I := by
  rw [seg_v16, H1_eq a0 a1 a2 a3 a4 a5 a6 a7 a8 a9 a10 a11 a12 a13 a14 a15 a16 a17 a18 a19 a20 a21 a22 a23 a24 a25 a26 a27 a28 a29 a30 a31 a32 a33]
  rfl

theorem U1_eq : toMat s30 = U1 I := by
  rw [lin_v30, relu_v26, lin_v25, relu_v21, lin_v20,
    A1_eq a0 a1 a2 a3 a4 a5 a6 a7 a8 a9 a10 a11 a12 a13 a14 a15 a16 a17 a18 a19 a20 a21 a22 a23 a24 a25 a26 a27 a28 a29 a30 a31 a32 a33]
  rfl

theorem H2_eq (hOk : (I).Ok) : toMat s52 = H2 I := by
  rw [lin_v52, relu_v48, lin_v47, relu_v43, lin2_v42, gath_v37 _ _ _ _ _ _ _ _ _ _ _ _ _ _ (fun e => (hOk.id1 e).1),
    U1_eq a0 a1 a2 a3 a4 a5 a6 a7 a8 a9 a10 a11 a12 a13 a14 a15 a16 a17 a18 a19 a20 a21 a22 a23 a24 a25 a26 a27 a28 a29 a30 a31 a32 a33]
  rfl

theorem A2_eq (hOk : (I).Ok) : toMat s55 = A2 I := by
  rw [seg_v55, H2_eq a0 a1 a2 a3 a4 a5 a6 a7 a8 a9 a10 a11 a12 a13 a14 a15 a16 a17 a18 a19 a20 a21 a22 a23 a24 a25 a26 a27 a28 a29 a30 a31 a32 a33 hOk]
  rfl

theorem U2_eq (hOk : (I).Ok) : toMat s69 = U2 I := by
  rw [lin_v69, relu_v65, lin_v64, relu_v60, lin_v59,
    A2_eq a0 a1 a2 a3 a4 a5 a6 a7 a8 a9 a10 a11 a12 a13 a14 a15 a16 a17 a18 a19 a20 a21 a22 a23 a24 a25 a26 a27 a28 a29 a30 a31 a32 a33 hOk]
  rfl

theorem Out_eq (hOk : (I).Ok) : toMat s83 = Out I := by
  rw [lin_v83, relu_v79, lin_v78, relu_v74, lin_v73,
    U2_eq a0 a1 a2 a3 a4 a5 a6 a7 a8 a9 a10 a11 a12 a13 a14 a15 a16 a17 a18 a19 a20 a21 a22 a23 a24 a25 a26 a27 a28 a29 a30 a31 a32 a33 hOk]
  rfl

end Cert.ReferenceIdeal.RefValue

namespace Cert.ReferenceIdeal.RefValue

open Cert.ReferenceIdeal Idealize.ShloMosaic Idealize.ShloMosaic.ValueIdx

/-- THE REFERENCE'S RESULT: under the inputs' conditions, entry (g, o) of the program's last stage is entry (g, o) of the
    common function. -/
theorem ref_eq (a0 : (⟨S100000x128, .f32⟩ : BufTy).Contents (Elt Ideal)) (a1 : (⟨S100000x128, .f32⟩ : BufTy).Contents (Elt Ideal)) (a2 : (⟨S100000, .i32⟩ : BufTy).Contents (Elt Ideal)) (a3 : (⟨S100000, .i32⟩ : BufTy).Contents (Elt Ideal)) (a4 : (⟨S128x128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128x128, .f32⟩ : BufTy).Contents (Elt Ideal)) (a9 : (⟨S128, .f32⟩ : BufTy).Contents (Elt Ideal)) (a10 : (⟨S128x128, .f32⟩ : BufTy).Contents (Elt Ideal)) (a11 : (⟨S128, .f32⟩ : BufTy).Contents (Elt Ideal)) (a12 : (⟨S128x128, .f32⟩ : BufTy).Contents (Elt Ideal)) (a13 : (⟨S128, .f32⟩ : BufTy).Contents (Elt Ideal)) (a14 : (⟨S128x128, .f32⟩ : BufTy).Contents (Elt Ideal)) (a15 : (⟨S128, .f32⟩ : BufTy).Contents (Elt Ideal)) (a16 : (⟨S256x128, .f32⟩ : BufTy).Contents (Elt Ideal)) (a17 : (⟨S128, .f32⟩ : BufTy).Contents (Elt Ideal)) (a18 : (⟨S128x128, .f32⟩ : BufTy).Contents (Elt Ideal)) (a19 : (⟨S128, .f32⟩ : BufTy).Contents (Elt Ideal)) (a20 : (⟨S128x128, .f32⟩ : BufTy).Contents (Elt Ideal)) (a21 : (⟨S128, .f32⟩ : BufTy).Contents (Elt Ideal)) (a22 : (⟨S128x128, .f32⟩ : BufTy).Contents (Elt Ideal)) (a23 : (⟨S128, .f32⟩ : BufTy).Contents (Elt Ideal)) (a24 : (⟨S128x128, .f32⟩ : BufTy).Contents (Elt Ideal)) (a25 : (⟨S128, .f32⟩ : BufTy).Contents (Elt Ideal)) (a26 : (⟨S128x128, .f32⟩ : BufTy).Contents (Elt Ideal)) (a27 : (⟨S128, .f32⟩ : BufTy).Contents (Elt Ideal)) (a28 : (⟨S128x128, .f32⟩ : BufTy).Contents (Elt Ideal)) (a29 : (⟨S128, .f32⟩ : BufTy).Contents (Elt Ideal)) (a30 : (⟨S128x128, .f32⟩ : BufTy).Contents (Elt Ideal)) (a31 : (⟨S128, .f32⟩ : BufTy).Contents (Elt Ideal)) (a32 : (⟨S128x2, .f32⟩ : BufTy).Contents (Elt Ideal)) (a33 : (⟨S2, .f32⟩ : BufTy).Contents (Elt Ideal))
    (hOk : (Cert.Spec.mkInputs a0 a1 a2 a3 a4 a5 a6 a7 a8 a9 a10 a11 a12 a13 a14 a15 a16 a17 a18 a19 a20 a21 a22 a23 a24 a25 a26 a27 a28 a29 a30 a31 a32 a33).Ok) (g : Fin 128) (o : Fin 2) :
    Cert.ReferenceIdeal.Read.val_main_v83 (F := Ideal) a0 a1 a2 a3 a4 a5 a6 a7 a8 a9 a10 a11 a12 a13 a14 a15 a16 a17 a18 a19 a20 a21 a22 a23 a24 a25 a26 a27 a28 a29 a30 a31 a32 a33 (ix2 g o)
      = Cert.Spec.Out (Cert.Spec.mkInputs a0 a1 a2 a3 a4 a5 a6 a7 a8 a9 a10 a11 a12 a13 a14 a15 a16 a17 a18 a19 a20 a21 a22 a23 a24 a25 a26 a27 a28 a29 a30 a31 a32 a33) g o :=
  congrFun (congrFun (Out_eq a0 a1 a2 a3 a4 a5 a6 a7 a8 a9 a10 a11 a12 a13 a14 a15 a16 a17 a18 a19 a20 a21 a22 a23 a24 a25 a26 a27 a28 a29 a30 a31 a32 a33 hOk) g) o

end Cert.ReferenceIdeal.RefValue

end
-- ==== Proof.Pre.lean ====
/-
  The precondition read back: every float input of the kernel is a real number, and every first graph id is a graph number.

  The precondition is one bit: the conjunction, over the 32 float arrays, of "every entry x has |x| < +∞", and then of
  "every first graph id is ≥ 0" and "every first graph id is < 128". Over the extended reals |x| = max x (−x) is below
  +∞ exactly when x is neither −∞ nor +∞, that is, when x is a real number; a signed word comparison is the comparison
  of the integers the words denote. A conjunction of bits is 1 only when each is; a conjunction over all entries of
  an array is 1 only when each entry's bit is.
-/
import proofs.«107935_g3393024163881_fold_wed_m_362_29_alg».proof.Defs
import proofs.«107935_g3393024163881_fold_wed_m_362_29_alg».proof.Proof.Gen.Pre_finite_inputs
import proofs.«107935_g3393024163881_fold_wed_m_362_29_alg».proof.Proof.Interface
import Idealize.ShloMosaic.Lib.ReduceAll
import Idealize.ShloMosaic.Lib.StableHlo.Predicate
import Idealize.ShloMosaic.Lib.ValueIdx
import Idealize.ShloMosaic.PureOps.Ideal

noncomputable section

namespace Cert.Proof.PreDecode

open Idealize.ShloMosaic Idealize.ShloMosaic.ValueIdx Idealize.SL.Sem
open Cert.Pre_finite_inputs

/-- The scalar shape has one index. -/
instance scalarIdxSubsingleton : Subsingleton S_.Idx := ⟨fun a b => funext fun d => d.elim0⟩

/-- Every entry of an array of extended reals is a real number. -/
def AllReal {s : Shape} (x : s.Idx → EReal) : Prop := ∀ i, ∃ r : ℝ, x i = (r : EReal)

/-- The f32 pattern with all exponent bits set and no fraction bit denotes +∞. -/
theorem inf_word : Ideal.ofBits .f32 0x7F800000#32 = (⊤ : EReal) := by simp [Ideal.ofBits, Ideal.ieee]

/-- |x| < +∞ only for a real x. -/
theorem real_of_abs_lt_top (x : EReal) (h : max x (-x) < ⊤) : ∃ r : ℝ, x = (r : EReal) := by
  induction x using EReal.rec with
  | bot => simp at h
  | coe r => exact ⟨r, rfl⟩
  | top => simp at h

/-- One entry's bit "|x| < the +∞ pattern" is 1 only for a real x. -/
theorem real_of_bit (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [inf_word] at h'
  unfold Ideal.cmp at h'
  rw [StableHlo.Predicate.ofBool_eq_one_iff, decide_eq_true_eq] at h'
  exact real_of_abs_lt_top x h'

/-- "All entries of x have |x| < +∞", as the precondition spells it for an array of any shape, gives that every
    entry of x is real. -/
theorem allReal_of_all {s : Shape} {axes : List (Fin s.rank)} (hb : S_.BroadcastsInDim s (![] : Fin 0 → Fin s.rank))
    (hr : s.ReducesTo axes S_) (h0 : 0 < S_.numel) (x : FVec Ideal s .f32) (init : IVec S_ 1)
    (h : Host.reduce IntOp.andi
          (cmpf .olt (Host.absf x) (broadcastInDim s ![] hb (constant (F := Ideal) S_ .f32 0x7F800000#32))) init hr h0
        = fun _ => 1#1) : AllReal x := by
  intro i
  exact real_of_bit (x i) (Host.reduce_andi_all _ init hr h0 ix0 (congrFun h ix0) i)

/-- "All words of a are ≥ 0 signed" read back. -/
theorem nonneg_of_all {s : Shape} {axes : List (Fin s.rank)} (hb : S_.BroadcastsInDim s (![] : Fin 0 → Fin s.rank))
    (hr : s.ReducesTo axes S_) (h0 : 0 < S_.numel) (a : IVec s 32) (init : IVec S_ 1)
    (h : Host.reduce IntOp.andi (cmpi .sge a (broadcastInDim s ![] hb (constantI S_ 32 0#32))) init hr h0
        = fun _ => 1#1) : ∀ i, 0 ≤ (a i).toInt := by
  intro i
  have e : IntOp.cmpi .sge (a i) 0#32 = 1#1 := Host.reduce_andi_all _ init hr h0 ix0 (congrFun h ix0) i
  rw [IntOp.cmpi_sge] at e
  simpa using e

/-- "All words of a are < 128 signed" read back. -/
theorem lt128_of_all {s : Shape} {axes : List (Fin s.rank)} (hb : S_.BroadcastsInDim s (![] : Fin 0 → Fin s.rank))
    (hr : s.ReducesTo axes S_) (h0 : 0 < S_.numel) (a : IVec s 32) (init : IVec S_ 1)
    (h : Host.reduce IntOp.andi (cmpi .slt a (broadcastInDim s ![] hb (constantI S_ 32 128#32))) init hr h0
        = fun _ => 1#1) : ∀ i, (a i).toInt < 128 := by
  intro i
  have e : IntOp.cmpi .slt (a i) 128#32 = 1#1 := Host.reduce_andi_all _ init hr h0 ix0 (congrFun h ix0) i
  rw [IntOp.cmpi_slt] at e
  simpa using e

/-- A conjunction of two scalar bits is 1 only when both are. -/
theorem both_of_andi (a b : IVec S_ 1) (h : andi a b = fun _ => 1#1) : a = (fun _ => 1#1) ∧ b = (fun _ => 1#1) :=
  ⟨funext fun j => (IntOp.andi_eq_one.1 (congrFun h j)).1, funext fun j => (IntOp.andi_eq_one.1 (congrFun h j)).2⟩

/-- A rank-2 array of reals, read as a matrix, is a matrix of reals. -/
theorem isReal_toMat {a b : ℕ} (x : (⟨2, ![a, b]⟩ : Shape).Idx → EReal) (h : AllReal x) :
    Cert.Spec.IsReal (Cert.Spec.toMat x) := fun p q => h (ix2 p q)

/-- A rank-1 array of reals, read as a vector, is a vector of reals. -/
theorem isRealV_toVec {a : ℕ} (x : (⟨1, ![a]⟩ : Shape).Idx → EReal) (h : AllReal x) :
    Cert.Spec.IsRealV (Cert.Spec.toVec x) := fun p => h (ix1 p)

/-- Six arrays of reals make a network with real parameters. -/
theorem mlp_isReal {I O : ℕ} {W0 : (⟨2, ![I, 128]⟩ : Shape).Idx → EReal} {b0 : (⟨1, ![128]⟩ : Shape).Idx → EReal}
    {W1 : (⟨2, ![128, 128]⟩ : Shape).Idx → EReal} {b1 : (⟨1, ![128]⟩ : Shape).Idx → EReal}
    {W2 : (⟨2, ![128, O]⟩ : Shape).Idx → EReal} {b2 : (⟨1, ![O]⟩ : Shape).Idx → EReal}
    (hW0 : AllReal W0) (hb0 : AllReal b0) (hW1 : AllReal W1) (hb1 : AllReal b1) (hW2 : AllReal W2) (hb2 : AllReal b2) :
    (Cert.Spec.mkMlp W0 b0 W1 b1 W2 b2).IsReal :=
  ⟨isReal_toMat _ hW0, isRealV_toVec _ hb0, isReal_toMat _ hW1, isRealV_toVec _ hb1, isReal_toMat _ hW2, isRealV_toVec _ hb2⟩

/-- The precondition's bit, over any 34 argument arrays: when it is 1, the arrays are admissible inputs of the common
    function. The bit is a left-nested conjunction of 34 bits, the two about the first graph ids last; they are taken
    off from the right, one at a time, and each is read back by the lemma of its kind. -/
theorem ok_of_fn [Facts] (a0 : FVec Ideal S100000x128 .f32) (a1 : FVec Ideal S100000x128 .f32) (a2 : IVec S100000 32) (a3 : IVec S100000 32) (a4 : FVec Ideal S128x128 .f32) (a5 : FVec Ideal S128 .f32) (a6 : FVec Ideal S128x128 .f32) (a7 : FVec Ideal S128 .f32) (a8 : FVec Ideal S128x128 .f32) (a9 : FVec Ideal S128 .f32) (a10 : FVec Ideal S128x128 .f32) (a11 : FVec Ideal S128 .f32) (a12 : FVec Ideal S128x128 .f32) (a13 : FVec Ideal S128 .f32) (a14 : FVec Ideal S128x128 .f32) (a15 : FVec Ideal S128 .f32) (a16 : FVec Ideal S256x128 .f32) (a17 : FVec Ideal S128 .f32) (a18 : FVec Ideal S128x128 .f32) (a19 : FVec Ideal S128 .f32) (a20 : FVec Ideal S128x128 .f32) (a21 : FVec Ideal S128 .f32) (a22 : FVec Ideal S128x128 .f32) (a23 : FVec Ideal S128 .f32) (a24 : FVec Ideal S128x128 .f32) (a25 : FVec Ideal S128 .f32) (a26 : FVec Ideal S128x128 .f32) (a27 : FVec Ideal S128 .f32) (a28 : FVec Ideal S128x128 .f32) (a29 : FVec Ideal S128 .f32) (a30 : FVec Ideal S128x128 .f32) (a31 : FVec Ideal S128 .f32) (a32 : FVec Ideal S128x2 .f32) (a33 : FVec Ideal S2 .f32)
    (h : fn (F := Ideal) a0 a1 a2 a3 a4 a5 a6 a7 a8 a9 a10 a11 a12 a13 a14 a15 a16 a17 a18 a19 a20 a21 a22 a23 a24 a25 a26 a27 a28 a29 a30 a31 a32 a33 = fun _ => 1#1) :
    (Cert.Spec.mkInputs a0 a1 a2 a3 a4 a5 a6 a7 a8 a9 a10 a11 a12 a13 a14 a15 a16 a17 a18 a19 a20 a21 a22 a23 a24 a25 a26 a27 a28 a29 a30 a31 a32 a33).Ok := by
  unfold fn fn_part1 fn_part2 fn_part3 fn_part4 fn_part5 fn_part6 fn_part7 fn_part8 fn_part9 at h
  dsimp only at h
  obtain ⟨h, hlt⟩ := both_of_andi _ _ h
  obtain ⟨h, hge⟩ := both_of_andi _ _ h
  obtain ⟨h, f33⟩ := both_of_andi _ _ h
  obtain ⟨h, f32⟩ := both_of_andi _ _ h
  obtain ⟨h, f31⟩ := both_of_andi _ _ h
  obtain ⟨h, f30⟩ := both_of_andi _ _ h
  obtain ⟨h, f29⟩ := both_of_andi _ _ h
  obtain ⟨h, f28⟩ := both_of_andi _ _ h
  obtain ⟨h, f27⟩ := both_of_andi _ _ h
  obtain ⟨h, f26⟩ := both_of_andi _ _ h
  obtain ⟨h, f25⟩ := both_of_andi _ _ h
  obtain ⟨h, f24⟩ := both_of_andi _ _ h
  obtain ⟨h, f23⟩ := both_of_andi _ _ h
  obtain ⟨h, f22⟩ := both_of_andi _ _ h
  obtain ⟨h, f21⟩ := both_of_andi _ _ h
  obtain ⟨h, f20⟩ := both_of_andi _ _ h
  obtain ⟨h, f19⟩ := both_of_andi _ _ h
  obtain ⟨h, f18⟩ := both_of_andi _ _ h
  obtain ⟨h, f17⟩ := both_of_andi _ _ h
  obtain ⟨h, f16⟩ := both_of_andi _ _ h
  obtain ⟨h, f15⟩ := both_of_andi _ _ h
  obtain ⟨h, f14⟩ := both_of_andi _ _ h
  obtain ⟨h, f13⟩ := both_of_andi _ _ h
  obtain ⟨h, f12⟩ := both_of_andi _ _ h
  obtain ⟨h, f11⟩ := both_of_andi _ _ h
  obtain ⟨h, f10⟩ := both_of_andi _ _ h
  obtain ⟨h, f9⟩ := both_of_andi _ _ h
  obtain ⟨h, f8⟩ := both_of_andi _ _ h
  obtain ⟨h, f7⟩ := both_of_andi _ _ h
  obtain ⟨h, f6⟩ := both_of_andi _ _ h
  obtain ⟨h, f5⟩ := both_of_andi _ _ h
  obtain ⟨h, f4⟩ := both_of_andi _ _ h
  obtain ⟨f0, f1⟩ := both_of_andi _ _ h
  have r0 : AllReal a0 := allReal_of_all _ _ _ a0 _ f0
  have r1 : AllReal a1 := allReal_of_all _ _ _ a1 _ f1
  have r4 : AllReal a4 := allReal_of_all _ _ _ a4 _ f4
  have r5 : AllReal a5 := allReal_of_all _ _ _ a5 _ f5
  have r6 : AllReal a6 := allReal_of_all _ _ _ a6 _ f6
  have r7 : AllReal a7 := allReal_of_all _ _ _ a7 _ f7
  have r8 : AllReal a8 := allReal_of_all _ _ _ a8 _ f8
  have r9 : AllReal a9 := allReal_of_all _ _ _ a9 _ f9
  have r10 : AllReal a10 := allReal_of_all _ _ _ a10 _ f10
  have r11 : AllReal a11 := allReal_of_all _ _ _ a11 _ f11
  have r12 : AllReal a12 := allReal_of_all _ _ _ a12 _ f12
  have r13 : AllReal a13 := allReal_of_all _ _ _ a13 _ f13
  have r14 : AllReal a14 := allReal_of_all _ _ _ a14 _ f14
  have r15 : AllReal a15 := allReal_of_all _ _ _ a15 _ f15
  have r16 : AllReal a16 := allReal_of_all _ _ _ a16 _ f16
  have r17 : AllReal a17 := allReal_of_all _ _ _ a17 _ f17
  have r18 : AllReal a18 := allReal_of_all _ _ _ a18 _ f18
  have r19 : AllReal a19 := allReal_of_all _ _ _ a19 _ f19
  have r20 : AllReal a20 := allReal_of_all _ _ _ a20 _ f20
  have r21 : AllReal a21 := allReal_of_all _ _ _ a21 _ f21
  have r22 : AllReal a22 := allReal_of_all _ _ _ a22 _ f22
  have r23 : AllReal a23 := allReal_of_all _ _ _ a23 _ f23
  have r24 : AllReal a24 := allReal_of_all _ _ _ a24 _ f24
  have r25 : AllReal a25 := allReal_of_all _ _ _ a25 _ f25
  have r26 : AllReal a26 := allReal_of_all _ _ _ a26 _ f26
  have r27 : AllReal a27 := allReal_of_all _ _ _ a27 _ f27
  have r28 : AllReal a28 := allReal_of_all _ _ _ a28 _ f28
  have r29 : AllReal a29 := allReal_of_all _ _ _ a29 _ f29
  have r30 : AllReal a30 := allReal_of_all _ _ _ a30 _ f30
  have r31 : AllReal a31 := allReal_of_all _ _ _ a31 _ f31
  have r32 : AllReal a32 := allReal_of_all _ _ _ a32 _ f32
  have r33 : AllReal a33 := allReal_of_all _ _ _ a33 _ f33
  have n2 : ∀ i, 0 ≤ (a2 i).toInt := nonneg_of_all _ _ _ a2 _ hge
  have l2 : ∀ i, (a2 i).toInt < 128 := lt128_of_all _ _ _ a2 _ hlt
  exact
    { x1 := isReal_toMat _ r0
      x2 := isReal_toMat _ r1
      e1 := mlp_isReal r4 r5 r6 r7 r8 r9
      r1 := mlp_isReal r10 r11 r12 r13 r14 r15
      e2 := mlp_isReal r16 r17 r18 r19 r20 r21
      r2 := mlp_isReal r22 r23 r24 r25 r26 r27
      mo := mlp_isReal r28 r29 r30 r31 r32 r33
      id1 := fun e => ⟨n2 (ix1 e), l2 (ix1 e)⟩ }

/-- Under the precondition, the kernel program's argument arrays on every core are admissible inputs of the common
    function. -/
theorem ok_of_pre [Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) : (Cert.KernelIdeal.Hand.inK m c).Ok :=
  ok_of_fn _ _ _ _ _ _ _ _ _ _ _ _ _ _ _ _ _ _ _ _ _ _ _ _ _ _ _ _ _ _ _ _ _ _ (h c)

end Cert.Proof.PreDecode

end
-- ==== Proof.RefClaims.lean ====
/-
  The reference program's two parts of the claim.

  Its frame is its generated run with the result dropped. For the equivalence: its run ends with its result at the
  operations' composed term of its arguments, which entry by entry is the common function of those arguments; and its
  arguments are the kernel program's (the claim's agreement hypothesis), on which the stated domain holds.
-/
import proofs.«107935_g3393024163881_fold_wed_m_362_29_alg».proof.Defs
import proofs.«107935_g3393024163881_fold_wed_m_362_29_alg».proof.Proof.Gen.ReferenceIdeal.Run
import proofs.«107935_g3393024163881_fold_wed_m_362_29_alg».proof.Proof.Gen.ReferenceIdeal.Read
import proofs.«107935_g3393024163881_fold_wed_m_362_29_alg».proof.Proof.RefValue
import proofs.«107935_g3393024163881_fold_wed_m_362_29_alg».proof.Proof.Pre
import proofs.«107935_g3393024163881_fold_wed_m_362_29_alg».proof.Proof.Interface

noncomputable section

namespace Cert.Proof.Parts

open Idealize.ShloMosaic Idealize.ShloMosaic.TcCoe Idealize.ShloMosaic.ValueIdx Idealize.SL.Sem

/-- The reference program runs to the end and leaves its arguments unchanged. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- The reference program's arguments as the inputs of the common function. -/
def inR (m' : (ℓ : Loc Cert.ReferenceIdeal.nD Cert.ReferenceIdeal.τ Cert.ReferenceIdeal.sig) → Buf (Elt Ideal) ℓ)
    (c : Dev Cert.ReferenceIdeal.nD) : Cert.Spec.Inputs :=
  Cert.Spec.mkInputs
    (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) (m' ((c.tc : Thread Cert.ReferenceIdeal.nD Cert.ReferenceIdeal.τ).loc Cert.ReferenceIdeal.main_arg26)) (m' ((c.tc : Thread Cert.ReferenceIdeal.nD Cert.ReferenceIdeal.τ).loc Cert.ReferenceIdeal.main_arg27)) (m' ((c.tc : Thread Cert.ReferenceIdeal.nD Cert.ReferenceIdeal.τ).loc Cert.ReferenceIdeal.main_arg28)) (m' ((c.tc : Thread Cert.ReferenceIdeal.nD Cert.ReferenceIdeal.τ).loc Cert.ReferenceIdeal.main_arg29)) (m' ((c.tc : Thread Cert.ReferenceIdeal.nD Cert.ReferenceIdeal.τ).loc Cert.ReferenceIdeal.main_arg30)) (m' ((c.tc : Thread Cert.ReferenceIdeal.nD Cert.ReferenceIdeal.τ).loc Cert.ReferenceIdeal.main_arg31)) (m' ((c.tc : Thread Cert.ReferenceIdeal.nD Cert.ReferenceIdeal.τ).loc Cert.ReferenceIdeal.main_arg32)) (m' ((c.tc : Thread Cert.ReferenceIdeal.nD Cert.ReferenceIdeal.τ).loc Cert.ReferenceIdeal.main_arg33))

/-- Equal argument arrays are the same inputs. -/
theorem mkInputs_congr
    {a0 b0 : (⟨2, ![100000, 128]⟩ : Shape).Idx → EReal}
    {a1 b1 : (⟨2, ![100000, 128]⟩ : Shape).Idx → EReal}
    {a2 b2 : (⟨1, ![100000]⟩ : Shape).Idx → BitVec 32}
    {a3 b3 : (⟨1, ![100000]⟩ : Shape).Idx → BitVec 32}
    {a4 b4 : (⟨2, ![128, 128]⟩ : Shape).Idx → EReal}
    {a5 b5 : (⟨1, ![128]⟩ : Shape).Idx → EReal}
    {a6 b6 : (⟨2, ![128, 128]⟩ : Shape).Idx → EReal}
    {a7 b7 : (⟨1, ![128]⟩ : Shape).Idx → EReal}
    {a8 b8 : (⟨2, ![128, 128]⟩ : Shape).Idx → EReal}
    {a9 b9 : (⟨1, ![128]⟩ : Shape).Idx → EReal}
    {a10 b10 : (⟨2, ![128, 128]⟩ : Shape).Idx → EReal}
    {a11 b11 : (⟨1, ![128]⟩ : Shape).Idx → EReal}
    {a12 b12 : (⟨2, ![128, 128]⟩ : Shape).Idx → EReal}
    {a13 b13 : (⟨1, ![128]⟩ : Shape).Idx → EReal}
    {a14 b14 : (⟨2, ![128, 128]⟩ : Shape).Idx → EReal}
    {a15 b15 : (⟨1, ![128]⟩ : Shape).Idx → EReal}
    {a16 b16 : (⟨2, ![256, 128]⟩ : Shape).Idx → EReal}
    {a17 b17 : (⟨1, ![128]⟩ : Shape).Idx → EReal}
    {a18 b18 : (⟨2, ![128, 128]⟩ : Shape).Idx → EReal}
    {a19 b19 : (⟨1, ![128]⟩ : Shape).Idx → EReal}
    {a20 b20 : (⟨2, ![128, 128]⟩ : Shape).Idx → EReal}
    {a21 b21 : (⟨1, ![128]⟩ : Shape).Idx → EReal}
    {a22 b22 : (⟨2, ![128, 128]⟩ : Shape).Idx → EReal}
    {a23 b23 : (⟨1, ![128]⟩ : Shape).Idx → EReal}
    {a24 b24 : (⟨2, ![128, 128]⟩ : Shape).Idx → EReal}
    {a25 b25 : (⟨1, ![128]⟩ : Shape).Idx → EReal}
    {a26 b26 : (⟨2, ![128, 128]⟩ : Shape).Idx → EReal}
    {a27 b27 : (⟨1, ![128]⟩ : Shape).Idx → EReal}
    {a28 b28 : (⟨2, ![128, 128]⟩ : Shape).Idx → EReal}
    {a29 b29 : (⟨1, ![128]⟩ : Shape).Idx → EReal}
    {a30 b30 : (⟨2, ![128, 128]⟩ : Shape).Idx → EReal}
    {a31 b31 : (⟨1, ![128]⟩ : Shape).Idx → EReal}
    {a32 b32 : (⟨2, ![128, 2]⟩ : Shape).Idx → EReal}
    {a33 b33 : (⟨1, ![2]⟩ : Shape).Idx → EReal}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) (h17 : a17 = b17) (h18 : a18 = b18) (h19 : a19 = b19) (h20 : a20 = b20) (h21 : a21 = b21) (h22 : a22 = b22) (h23 : a23 = b23) (h24 : a24 = b24) (h25 : a25 = b25) (h26 : a26 = b26) (h27 : a27 = b27) (h28 : a28 = b28) (h29 : a29 = b29) (h30 : a30 = b30) (h31 : a31 = b31) (h32 : a32 = b32) (h33 : a33 = b33) :
    Cert.Spec.mkInputs a0 a1 a2 a3 a4 a5 a6 a7 a8 a9 a10 a11 a12 a13 a14 a15 a16 a17 a18 a19 a20 a21 a22 a23 a24 a25 a26 a27 a28 a29 a30 a31 a32 a33 = Cert.Spec.mkInputs b0 b1 b2 b3 b4 b5 b6 b7 b8 b9 b10 b11 b12 b13 b14 b15 b16 b17 b18 b19 b20 b21 b22 b23 b24 b25 b26 b27 b28 b29 b30 b31 b32 b33 := by
  subst_vars
  rfl

/-- When the two programs' arguments agree, they are the same inputs. -/
theorem inR_eq_inK (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (h21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (h22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (h23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
    (h24 : m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24))
    (h25 : m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25))
    (h26 : m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26))
    (h27 : m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27))
    (h28 : m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28))
    (h29 : m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29))
    (h30 : m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30))
    (h31 : m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31))
    (h32 : m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32))
    (h33 : m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)) :
    inR m' c = Cert.KernelIdeal.Hand.inK m c := by
  unfold inR Cert.KernelIdeal.Hand.inK
  exact mkInputs_congr h0 h1 h2 h3 h4 h5 h6 h7 h8 h9 h10 h11 h12 h13 h14 h15 h16 h17 h18 h19 h20 h21 h22 h23 h24 h25 h26 h27 h28 h29 h30 h31 h32 h33

/-- The reference program's result, entry by entry, is the common function of its arguments, wherever the stated
    domain holds of them. -/
theorem ref_result (m' : (ℓ : Loc Cert.ReferenceIdeal.nD Cert.ReferenceIdeal.τ Cert.ReferenceIdeal.sig) → Buf (Elt Ideal) ℓ)
    (c : Dev Cert.ReferenceIdeal.nD) (hOk : (inR m' c).Ok) (g : Fin 128) (o : Fin 2) :
    Cert.ReferenceIdeal.Value.res_main_v83 (F := Ideal) m' c (ix2 g o) = Cert.Spec.Out (inR m' c) g o := by
  rw [Cert.ReferenceIdeal.Read.val_main_v83_eq]
  exact Cert.ReferenceIdeal.RefValue.ref_eq _ _ _ _ _ _ _ _ _ _ _ _ _ _ _ _ _ _ _ _ _ _ _ _ _ _ _ _ _ _ _ _ _ _ hOk g o

end Cert.Proof.Parts

end
-- ==== Proof.lean ====
/-
  The certificate: the kernel program and its idealization run to the end and leave their arguments unchanged; so does
  the reference; the idealization is the sanctioned one; and, at the ideal instance, from memories agreeing on the
  arguments, the idealized kernel and the reference end with the same 128 × 2 result.

  The common value is the function Out of the arguments (Proof/Spec.lean): two "DeepSet" stages and an output network.
  The kernel reaches it block by block over a 2 × 10 grid, its per-graph sums and its embedding gather written as
  one-hot products (Proof/KI/*); the reference reaches it by a scatter-add and a gather (Proof/RefValue.lean). The
  precondition is used twice: finiteness, so that a value minus itself is zero in the kernel's three-pass sums; and the
  first graph ids being graph numbers, so that the one-hot product reads the row the gather reads.
-/
import proofs.«107935_g3393024163881_fold_wed_m_362_29_alg».proof.Defs
import proofs.«107935_g3393024163881_fold_wed_m_362_29_alg».proof.Proof.Gen.Kernel
import proofs.«107935_g3393024163881_fold_wed_m_362_29_alg».proof.Proof.Gen.KernelIdeal
import proofs.«107935_g3393024163881_fold_wed_m_362_29_alg».proof.Proof.Gen.ReferenceIdeal
import proofs.«107935_g3393024163881_fold_wed_m_362_29_alg».proof.Proof.Gen.Pre_finite_inputs
import proofs.«107935_g3393024163881_fold_wed_m_362_29_alg».proof.Proof.K.Frame
import proofs.«107935_g3393024163881_fold_wed_m_362_29_alg».proof.Proof.KI.Frame
import proofs.«107935_g3393024163881_fold_wed_m_362_29_alg».proof.Proof.KI.Result
import proofs.«107935_g3393024163881_fold_wed_m_362_29_alg».proof.Proof.Preserves
import proofs.«107935_g3393024163881_fold_wed_m_362_29_alg».proof.Proof.RefClaims
import proofs.«107935_g3393024163881_fold_wed_m_362_29_alg».proof.Proof.Pre
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel program runs to the end and leaves its arguments unchanged. -/
theorem frame_p [Cert.Kernel.Facts] [Cert.Pre_finite_inputs.Facts] : Cert.frame_Kernel :=
  fun m ρ _ => Cert.Kernel.Hand.frame (F := Bits) m ρ

/-- So does its idealization, at the ideal instance. -/
theorem frame_pi [Cert.KernelIdeal.Facts] [Cert.Pre_finite_inputs.Facts] : Cert.frame_KernelIdeal :=
  fun m ρ _ => Cert.KernelIdeal.Hand.frame (F := Ideal) m ρ

/-- At the ideal instance, from memories agreeing on the arguments, both programs end with the common function of the
    arguments as their result. -/
theorem algebraic [Cert.KernelIdeal.Facts] [Cert.ReferenceIdeal.Facts] [Cert.Pre_finite_inputs.Facts] :
    Cert.algebraic_KernelIdeal_ReferenceIdeal := by
  intro m ρ m' ρ' hpre hagree
  have hOk : ∀ c, (Cert.KernelIdeal.Hand.inK m c).Ok := fun c => Cert.Proof.PreDecode.ok_of_pre m hpre c
  have hin : ∀ c, Cert.Proof.Parts.inR m' c = Cert.KernelIdeal.Hand.inK m c := fun c =>
    Cert.Proof.Parts.inR_eq_inK m m' c
      (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2.1 (hagree c).2.2.2.2.2.2.2.2.2.2.2.2.2.2.1 (hagree c).2.2.2.2.2.2.2.2.2.2.2.2.2.2.2.1 (hagree c).2.2.2.2.2.2.2.2.2.2.2.2.2.2.2.2.1 (hagree c).2.2.2.2.2.2.2.2.2.2.2.2.2.2.2.2.2.1 (hagree c).2.2.2.2.2.2.2.2.2.2.2.2.2.2.2.2.2.2.1 (hagree c).2.2.2.2.2.2.2.2.2.2.2.2.2.2.2.2.2.2.2.1 (hagree c).2.2.2.2.2.2.2.2.2.2.2.2.2.2.2.2.2.2.2.2.1 (hagree c).2.2.2.2.2.2.2.2.2.2.2.2.2.2.2.2.2.2.2.2.2.1 (hagree c).2.2.2.2.2.2.2.2.2.2.2.2.2.2.2.2.2.2.2.2.2.2.1 (hagree c).2.2.2.2.2.2.2.2.2.2.2.2.2.2.2.2.2.2.2.2.2.2.2.1 (hagree c).2.2.2.2.2.2.2.2.2.2.2.2.2.2.2.2.2.2.2.2.2.2.2.2.1 (hagree c).2.2.2.2.2.2.2.2.2.2.2.2.2.2.2.2.2.2.2.2.2.2.2.2.2.1 (hagree c).2.2.2.2.2.2.2.2.2.2.2.2.2.2.2.2.2.2.2.2.2.2.2.2.2.2.1 (hagree c).2.2.2.2.2.2.2.2.2.2.2.2.2.2.2.2.2.2.2.2.2.2.2.2.2.2.2.1 (hagree c).2.2.2.2.2.2.2.2.2.2.2.2.2.2.2.2.2.2.2.2.2.2.2.2.2.2.2.2.1 (hagree c).2.2.2.2.2.2.2.2.2.2.2.2.2.2.2.2.2.2.2.2.2.2.2.2.2.2.2.2.2.1 (hagree c).2.2.2.2.2.2.2.2.2.2.2.2.2.2.2.2.2.2.2.2.2.2.2.2.2.2.2.2.2.2.1 (hagree c).2.2.2.2.2.2.2.2.2.2.2.2.2.2.2.2.2.2.2.2.2.2.2.2.2.2.2.2.2.2.2.1 (hagree c).2.2.2.2.2.2.2.2.2.2.2.2.2.2.2.2.2.2.2.2.2.2.2.2.2.2.2.2.2.2.2.2.1 (hagree c).2.2.2.2.2.2.2.2.2.2.2.2.2.2.2.2.2.2.2.2.2.2.2.2.2.2.2.2.2.2.2.2.2
  refine ⟨fun c => fun i => Cert.Spec.Out (Cert.KernelIdeal.Hand.inK m c) (i 0) (i 1), ?_, ?_⟩
  · -- the kernel: its frame run, its result read through the host tail
    refine (θ_run Cert.KernelIdeal.defs _ _).mono (fun r h c => ⟨?_, (h c).2⟩) (Cert.KernelIdeal.Hand.run_result m ρ hOk)
    funext i
    obtain ⟨g, o, rfl⟩ : ∃ (g : Fin 128) (o : Fin 2), i = ix2 g o := ⟨i 0, i 1, eq_ix2 i⟩
    exact (h c).1 g o
  · -- the reference: its generated run, its result the same function of the same arguments
    refine (θ_run Cert.ReferenceIdeal.defs _ _).mono (fun r h c => ⟨?_, (h c).2⟩) (Cert.ReferenceIdeal.Value.run (F := Ideal) m' ρ')
    rw [(h c).1]
    funext i
    obtain ⟨g, o, rfl⟩ : ∃ (g : Fin 128) (o : Fin 2), i = ix2 g o := ⟨i 0, i 1, eq_ix2 i⟩
    rw [Cert.Proof.Parts.ref_result m' c (by rw [hin c]; exact hOk c) g o, hin c]
    rfl

theorem claim : Cert.Claim :=
  ⟨Cert.Kernel.Gen.facts, Cert.KernelIdeal.Gen.facts, Cert.ReferenceIdeal.Gen.facts, Cert.Pre_finite_inputs.Gen.facts,
    frame_p, frame_pi, Cert.Proof.Parts.frame_ri, Cert.Proof.Parts.preserves, algebraic⟩

end Cert.Proof

end
